-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S160000 : Shape := ⟨1, ![160000]⟩
abbrev S256x512 : Shape := ⟨2, ![256, 512]⟩
abbrev S512 : Shape := ⟨1, ![512]⟩
abbrev S6x512x512 : Shape := ⟨3, ![6, 512, 512]⟩
abbrev S6x512 : Shape := ⟨2, ![6, 512]⟩
abbrev S512x1440 : Shape := ⟨2, ![512, 1440]⟩
abbrev S1440 : Shape := ⟨1, ![1440]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S6x512x512 : S_.BroadcastsInDim S6x512x512 (![] : Fin 0 → Fin S6x512x512.rank)
  reducesTo_S6x512x512_S_d0_1_2 : S6x512x512.ReducesTo [0, 1, 2] S_
  bcast_S_S6x512 : S_.BroadcastsInDim S6x512 (![] : Fin 0 → Fin S6x512.rank)
  reducesTo_S6x512_S_d0_1 : S6x512.ReducesTo [0, 1] S_
  bcast_S_S512x1440 : S_.BroadcastsInDim S512x1440 (![] : Fin 0 → Fin S512x1440.rank)
  reducesTo_S512x1440_S_d0_1 : S512x1440.ReducesTo [0, 1] S_
  bcast_S_S1440 : S_.BroadcastsInDim S1440 (![] : Fin 0 → Fin S1440.rank)
  reducesTo_S1440_S_d0 : S1440.ReducesTo [0] S_
  bcast_S_S160000 : S_.BroadcastsInDim S160000 (![] : Fin 0 → Fin S160000.rank)
  reducesTo_S160000_S_d0 : S160000.ReducesTo [0] S_

variable [Facts]

def fn_part3 {F : FTy → Type} [FloatOps F] (main_arg2 : IVec S160000 32) (main_v50 : IVec S_ 1) : IVec S_ 1 :=
  let main_c_19 : IVec S_ 32 := constantI S_ 32 0#32
  let main_v51 : IVec S160000 32 := broadcastInDim S160000 ![] bcast_S_S160000 main_c_19
  let main_v52 : IVec S160000 1 := cmpi .sge main_arg2 main_v51
  let main_c_20 : IVec S_ 32 := constantI S_ 32 10000#32
  let main_v53 : IVec S160000 32 := broadcastInDim S160000 ![] bcast_S_S160000 main_c_20
  let main_v54 : IVec S160000 1 := cmpi .slt main_arg2 main_v53
  let main_v55 : IVec S160000 1 := andi main_v52 main_v54
  let main_c_21 : IVec S_ 1 := constantI S_ 1 1#1
  let main_v56 : IVec S_ 1 := (fun x v => Host.reduce IntOp.andi x v reducesTo_S160000_S_d0 h_S_) main_v55 main_c_21
  let main_v57 : IVec S_ 1 := andi main_v50 main_v56
  main_v57

def fn_part2 {F : FTy → Type} [FloatOps F] (main_arg1 : IVec S160000 32) (main_arg2 : IVec S160000 32) (main_arg9 : FVec F S512x1440 .f32) (main_arg10 : FVec F S1440 .f32) (main_v33 : IVec S_ 1) : IVec S_ 1 :=
  let main_v34 : FVec F S512x1440 .f32 := Host.absf main_arg9
  let main_cst_12 : FVec F S_ .f32 := constant S_ .f32 0x7F800000#32
  let main_v35 : FVec F S512x1440 .f32 := broadcastInDim S512x1440 ![] bcast_S_S512x1440 main_cst_12
  let main_v36 : IVec S512x1440 1 := cmpf .olt main_v34 main_v35
  let main_c_13 : IVec S_ 1 := constantI S_ 1 1#1
  let main_v37 : IVec S_ 1 := (fun x v => Host.reduce IntOp.andi x v reducesTo_S512x1440_S_d0_1 h_S_) main_v36 main_c_13
  let main_v38 : IVec S_ 1 := andi main_v33 main_v37
  let main_v39 : FVec F S1440 .f32 := Host.absf main_arg10
  let main_cst_14 : FVec F S_ .f32 := constant S_ .f32 0x7F800000#32
  let main_v40 : FVec F S1440 .f32 := broadcastInDim S1440 ![] bcast_S_S1440 main_cst_14
  let main_v41 : IVec S1440 1 := cmpf .olt main_v39 main_v40
  let main_c_15 : IVec S_ 1 := constantI S_ 1 1#1
  let main_v42 : IVec S_ 1 := (fun x v => Host.reduce IntOp.andi x v reducesTo_S1440_S_d0 h_S_) main_v41 main_c_15
  let main_v43 : IVec S_ 1 := andi main_v38 main_v42
  let main_c_16 : IVec S_ 32 := constantI S_ 32 0#32
  let main_v44 : IVec S160000 32 := broadcastInDim S160000 ![] bcast_S_S160000 main_c_16
  let main_v45 : IVec S160000 1 := cmpi .sge main_arg1 main_v44
  let main_c_17 : IVec S_ 32 := constantI S_ 32 10000#32
  let main_v46 : IVec S160000 32 := broadcastInDim S160000 ![] bcast_S_S160000 main_c_17
  let main_v47 : IVec S160000 1 := cmpi .slt main_arg1 main_v46
  let main_v48 : IVec S160000 1 := andi main_v45 main_v47
  let main_c_18 : IVec S_ 1 := constantI S_ 1 1#1
  let main_v49 : IVec S_ 1 := (fun x v => Host.reduce IntOp.andi x v reducesTo_S160000_S_d0 h_S_) main_v48 main_c_18
  let main_v50 : IVec S_ 1 := andi main_v43 main_v49
  fn_part3 (F := F) main_arg2 main_v50

def fn_part1 {F : FTy → Type} [FloatOps F] (main_arg1 : IVec S160000 32) (main_arg2 : IVec S160000 32) (main_arg6 : FVec F S6x512x512 .f32) (main_arg7 : FVec F S6x512x512 .f32) (main_arg8 : FVec F S6x512 .f32) (main_arg9 : FVec F S512x1440 .f32) (main_arg10 : FVec F S1440 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S6x512x512 .f32 := Host.absf main_arg6
  let main_cst_6 : FVec F S_ .f32 := constant S_ .f32 0x7F800000#32
  let main_v20 : FVec F S6x512x512 .f32 := broadcastInDim S6x512x512 ![] bcast_S_S6x512x512 main_cst_6
  let main_v21 : IVec S6x512x512 1 := cmpf .olt main_v19 main_v20
  let main_c_7 : IVec S_ 1 := constantI S_ 1 1#1
  let main_v22 : IVec S_ 1 := (fun x v => Host.reduce IntOp.andi x v reducesTo_S6x512x512_S_d0_1_2 h_S_) main_v21 main_c_7
  let main_v23 : IVec S_ 1 := andi main_v18 main_v22
  let main_v24 : FVec F S6x512x512 .f32 := Host.absf main_arg7
  let main_cst_8 : FVec F S_ .f32 := constant S_ .f32 0x7F800000#32
  let main_v25 : FVec F S6x512x512 .f32 := broadcastInDim S6x512x512 ![] bcast_S_S6x512x512 main_cst_8
  let main_v26 : IVec S6x512x512 1 := cmpf .olt main_v24 main_v25
  let main_c_9 : IVec S_ 1 := constantI S_ 1 1#1
  let main_v27 : IVec S_ 1 := (fun x v => Host.reduce IntOp.andi x v reducesTo_S6x512x512_S_d0_1_2 h_S_) main_v26 main_c_9
  let main_v28 : IVec S_ 1 := andi main_v23 main_v27
  let main_v29 : FVec F S6x512 .f32 := Host.absf main_arg8
  let main_cst_10 : FVec F S_ .f32 := constant S_ .f32 0x7F800000#32
  let main_v30 : FVec F S6x512 .f32 := broadcastInDim S6x512 ![] bcast_S_S6x512 main_cst_10
  let main_v31 : IVec S6x512 1 := cmpf .olt main_v29 main_v30
  let main_c_11 : IVec S_ 1 := constantI S_ 1 1#1
  let main_v32 : IVec S_ 1 := (fun x v => Host.reduce IntOp.andi x v reducesTo_S6x512_S_d0_1 h_S_) main_v31 main_c_11
  let main_v33 : IVec S_ 1 := andi main_v28 main_v32
  fn_part2 (F := F) main_arg1 main_arg2 main_arg9 main_arg10 main_v33

def fn {F : FTy → Type} [FloatOps F] (main_arg0 : FVec F S10000x256 .f32) (main_arg1 : IVec S160000 32) (main_arg2 : IVec S160000 32) (main_arg3 : FVec F S256x512 .f32) (main_arg4 : FVec F S256x512 .f32) (main_arg5 : FVec F S512 .f32) (main_arg6 : FVec F S6x512x512 .f32) (main_arg7 : FVec F S6x512x512 .f32) (main_arg8 : FVec F S6x512 .f32) (main_arg9 : FVec F S512x1440 .f32) (main_arg10 : FVec F S1440 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x512 .f32 := Host.absf main_arg3
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg2 main_arg6 main_arg7 main_arg8 main_arg9 main_arg10 main_v13 main_v16
-- ==== Kernel.lean ====
abbrev S10000x256 : Shape := ⟨2, ![10000, 256]⟩
abbrev S160000 : Shape := ⟨1, ![160000]⟩
abbrev S256x512 : Shape := ⟨2, ![256, 512]⟩
abbrev S512 : Shape := ⟨1, ![512]⟩
abbrev S6x512x512 : Shape := ⟨3, ![6, 512, 512]⟩
abbrev S6x512 : Shape := ⟨2, ![6, 512]⟩
abbrev S512x1440 : Shape := ⟨2, ![512, 1440]⟩
abbrev S1440 : Shape := ⟨1, ![1440]⟩
abbrev S_ : Shape := ⟨0, ![]⟩
abbrev S10000 : Shape := ⟨1, ![10000]⟩
abbrev S160000x1 : Shape := ⟨2, ![160000, 1]⟩
abbrev S10240x10240 : Shape := ⟨2, ![10240, 10240]⟩
abbrev S160000x2 : Shape := ⟨2, ![160000, 2]⟩
abbrev S10240x256 : Shape := ⟨2, ![10240, 256]⟩
abbrev S1x512 : Shape := ⟨2, ![1, 512]⟩
abbrev S10240x512 : Shape := ⟨2, ![10240, 512]⟩
abbrev S1x512x512 : Shape := ⟨3, ![1, 512, 512]⟩
abbrev S512x512 : Shape := ⟨2, ![512, 512]⟩
abbrev S512x1536 : Shape := ⟨2, ![512, 1536]⟩
abbrev S1536 : Shape := ⟨1, ![1536]⟩
abbrev S1x1536 : Shape := ⟨2, ![1, 1536]⟩
abbrev S10240x1536 : Shape := ⟨2, ![10240, 1536]⟩
abbrev S10000x1440 : Shape := ⟨2, ![10000, 1440]⟩
abbrev S1024x256 : Shape := ⟨2, ![1024, 256]⟩
abbrev S1024x512 : Shape := ⟨2, ![1024, 512]⟩
abbrev S512x10240 : Shape := ⟨2, ![512, 10240]⟩
abbrev S512x256 : Shape := ⟨2, ![512, 256]⟩

abbrev nBuf : Space → Nat
  | .hbm => 153
  | .vmem => 104
  | .smem => 0
  | _ => 0

abbrev hbmTy0_0 (i : Nat) : BufTy := match i % 128 with
  | 0 => ⟨S10000x256, .f32⟩
  | 1 => ⟨S160000, .i32⟩
  | 2 => ⟨S160000, .i32⟩
  | 3 => ⟨S256x512, .f32⟩
  | 4 => ⟨S256x512, .f32⟩
  | 5 => ⟨S512, .f32⟩
  | 6 => ⟨S6x512x512, .f32⟩
  | 7 => ⟨S6x512x512, .f32⟩
  | 8 => ⟨S6x512, .f32⟩
  | 9 => ⟨S512x1440, .f32⟩
  | 10 => ⟨S1440, .f32⟩
  | 11 => ⟨S_, .f32⟩
  | 12 => ⟨S160000, .f32⟩
  | 13 => ⟨S_, .f32⟩
  | 14 => ⟨S10000, .f32⟩
  | 15 => ⟨S160000x1, .i32⟩
  | 16 => ⟨S10000, .f32⟩
  | 17 => ⟨S_, .f32⟩
  | 18 => ⟨S10000, .f32⟩
  | 19 => ⟨S10000, .f32⟩
  | 20 => ⟨S_, .f32⟩
  | 21 => ⟨S10000, .f32⟩
  | 22 => ⟨S160000x1, .i32⟩
  | 23 => ⟨S10000, .f32⟩
  | 24 => ⟨S_, .f32⟩
  | 25 => ⟨S10000, .f32⟩
  | 26 => ⟨S10000, .f32⟩
  | 27 => ⟨S_, .i32⟩
  | 28 => ⟨S160000, .i32⟩
  | 29 => ⟨S160000, .i1⟩
  | 30 => ⟨S_, .i32⟩
  | 31 => ⟨S160000, .i32⟩
  | 32 => ⟨S160000, .i32⟩
  | 33 => ⟨S160000, .i32⟩
  | 34 => ⟨S160000x1, .i32⟩
  | 35 => ⟨S160000, .f32⟩
  | 36 => ⟨S_, .i32⟩
  | 37 => ⟨S160000, .i32⟩
  | 38 => ⟨S160000, .i1⟩
  | 39 => ⟨S_, .i32⟩
  | 40 => ⟨S160000, .i32⟩
  | 41 => ⟨S160000, .i32⟩
  | 42 => ⟨S160000, .i32⟩
  | 43 => ⟨S160000x1, .i32⟩
  | 44 => ⟨S160000, .f32⟩
  | 45 => ⟨S160000, .f32⟩
  | 46 => ⟨S160000, .f32⟩
  | 47 => ⟨S_, .f32⟩
  | 48 => ⟨S10240x10240, .f32⟩
  | 49 => ⟨S_, .i32⟩
  | 50 => ⟨S160000, .i32⟩
  | 51 => ⟨S160000, .i1⟩
  | 52 => ⟨S_, .i32⟩
  | 53 => ⟨S160000, .i32⟩
  | 54 => ⟨S160000, .i32⟩
  | 55 => ⟨S160000, .i32⟩
  | 56 => ⟨S_, .i32⟩
  | 57 => ⟨S160000, .i32⟩
  | 58 => ⟨S160000, .i1⟩
  | 59 => ⟨S_, .i32⟩
  | 60 => ⟨S160000, .i32⟩
  | 61 => ⟨S160000, .i32⟩
  | 62 => ⟨S160000, .i32⟩
  | 63 => ⟨S160000x1, .i32⟩
  | 64 => ⟨S160000x1, .i32⟩
  | 65 => ⟨S160000x2, .i32⟩
  | 66 => ⟨S10240x10240, .f32⟩
  | 67 => ⟨S10240x10240, .bf16⟩
  | 68 => ⟨S_, .i32⟩
  | 69 => ⟨S_, .f32⟩
  | 70 => ⟨S10240x256, .f32⟩
  | 71 => ⟨S10240x256, .bf16⟩
  | 72 => ⟨S256x512, .bf16⟩
  | 73 => ⟨S256x512, .bf16⟩
  | 74 => ⟨S1x512, .f32⟩
  | 75 => ⟨S10240x512, .bf16⟩
  | 76 => ⟨S10240x512, .bf16⟩
  | 77 => ⟨S1x512x512, .f32⟩
  | 78 => ⟨S512x512, .f32⟩
  | 79 => ⟨S1x512x512, .f32⟩
  | 80 => ⟨S512x512, .f32⟩
  | 81 => ⟨S1x512, .f32⟩
  | 82 => ⟨S512, .f32⟩
  | 83 => ⟨S512x512, .bf16⟩
  | 84 => ⟨S512x512, .bf16⟩
  | 85 => ⟨S1x512, .f32⟩
  | 86 => ⟨S10240x512, .bf16⟩
  | 87 => ⟨S10240x512, .bf16⟩
  | 88 => ⟨S1x512x512, .f32⟩
  | 89 => ⟨S512x512, .f32⟩
  | 90 => ⟨S1x512x512, .f32⟩
  | 91 => ⟨S512x512, .f32⟩
  | 92 => ⟨S1x512, .f32⟩
  | 93 => ⟨S512, .f32⟩
  | 94 => ⟨S512x512, .bf16⟩
  | 95 => ⟨S512x512, .bf16⟩
  | 96 => ⟨S1x512, .f32⟩
  | 97 => ⟨S10240x512, .bf16⟩
  | 98 => ⟨S10240x512, .bf16⟩
  | 99 => ⟨S1x512x512, .f32⟩
  | 100 => ⟨S512x512, .f32⟩
  | 101 => ⟨S1x512x512, .f32⟩
  | 102 => ⟨S512x512, .f32⟩
  | 103 => ⟨S1x512, .f32⟩
  | 104 => ⟨S512, .f32⟩
  | 105 => ⟨S512x512, .bf16⟩
  | 106 => ⟨S512x512, .bf16⟩
  | 107 => ⟨S1x512, .f32⟩
  | 108 => ⟨S10240x512, .bf16⟩
  | 109 => ⟨S10240x512, .bf16⟩
  | 110 => ⟨S1x512x512, .f32⟩
  | 111 => ⟨S512x512, .f32⟩
  | 112 => ⟨S1x512x512, .f32⟩
  | 113 => ⟨S512x512, .f32⟩
  | 114 => ⟨S1x512, .f32⟩
  | 115 => ⟨S512, .f32⟩
  | 116 => ⟨S512x512, .bf16⟩
  | 117 => ⟨S512x512, .bf16⟩
  | 118 => ⟨S1x512, .f32⟩
  | 119 => ⟨S10240x512, .bf16⟩
  | 120 => ⟨S10240x512, .bf16⟩
  | 121 => ⟨S1x512x512, .f32⟩
  | 122 => ⟨S512x512, .f32⟩
  | 123 => ⟨S1x512x512, .f32⟩
  | 124 => ⟨S512x512, .f32⟩
  | 125 => ⟨S1x512, .f32⟩
  | 126 => ⟨S512, .f32⟩
  | 127 => ⟨S512x512, .bf16⟩
  | _ => ⟨S10000x256, .f32⟩

abbrev hbmTy0_1 (i : Nat) : BufTy := match i % 128 with
  | 0 => ⟨S512x512, .bf16⟩
  | 1 => ⟨S1x512, .f32⟩
  | 2 => ⟨S10240x512, .bf16⟩
  | 3 => ⟨S10240x512, .bf16⟩
  | 4 => ⟨S1x512x512, .f32⟩
  | 5 => ⟨S512x512, .f32⟩
  | 6 => ⟨S1x512x512, .f32⟩
  | 7 => ⟨S512x512, .f32⟩
  | 8 => ⟨S1x512, .f32⟩
  | 9 => ⟨S512, .f32⟩
  | 10 => ⟨S512x512, .bf16⟩
  | 11 => ⟨S512x512, .bf16⟩
  | 12 => ⟨S1x512, .f32⟩
  | 13 => ⟨S10240x512, .bf16⟩
  | 14 => ⟨S10240x512, .bf16⟩
  | 15 => ⟨S_, .i32⟩
  | 16 => ⟨S_, .f32⟩
  | 17 => ⟨S512x1536, .f32⟩
  | 18 => ⟨S512x1536, .bf16⟩
  | 19 => ⟨S_, .i32⟩
  | 20 => ⟨S_, .f32⟩
  | 21 => ⟨S1536, .f32⟩
  | 22 => ⟨S1x1536, .f32⟩
  | 23 => ⟨S10240x1536, .f32⟩
  | 24 => ⟨S10000x1440, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S1024x512, .bf16⟩
  | .local _ .vmem, ⟨4, _⟩ => ⟨S1024x512, .bf16⟩
  | .local _ .vmem, ⟨5, _⟩ => ⟨S512x10240, .bf16⟩
  | .local _ .vmem, ⟨6, _⟩ => ⟨S512x10240, .bf16⟩
  | .local _ .vmem, ⟨7, _⟩ => ⟨S10240x512, .bf16⟩
  | .local _ .vmem, ⟨8, _⟩ => ⟨S512x256, .bf16⟩
  | .local _ .vmem, ⟨9, _⟩ => ⟨S512x256, .bf16⟩
  | .local _ .vmem, ⟨10, _⟩ => ⟨S256x512, .bf16⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S1024x512, .bf16⟩
  | .local _ .vmem, ⟨15, _⟩ => ⟨S1024x512, .bf16⟩
  | .local _ .vmem, ⟨16, _⟩ => ⟨S512x512, .bf16⟩
  | .local _ .vmem, ⟨17, _⟩ => ⟨S1024x512, .bf16⟩
  | .local _ .vmem, ⟨18, _⟩ => ⟨S1024x512, .bf16⟩
  | .local _ .vmem, ⟨19, _⟩ => ⟨S512x10240, .bf16⟩
  | .local _ .vmem, ⟨20, _⟩ => ⟨S512x10240, .bf16⟩
  | .local _ .vmem, ⟨21, _⟩ => ⟨S10240x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S1x512, .f32⟩
  | .local _ .vmem, ⟨26, _⟩ => ⟨S512x512, .bf16⟩
  | .local _ .vmem, ⟨27, _⟩ => ⟨S512x512, .bf16⟩
  | .local _ .vmem, ⟨28, _⟩ => ⟨S1024x512, .bf16⟩
  | .local _ .vmem, ⟨29, _⟩ => ⟨S1024x512, .bf16⟩
  | .local _ .vmem, ⟨30, _⟩ => ⟨S512x512, .bf16⟩
  | .local _ .vmem, ⟨31, _⟩ => ⟨S1024x512, .bf16⟩
  | .local _ .vmem, ⟨32, _⟩ => ⟨S1024x512, .bf16⟩
  | .local _ .vmem, ⟨33, _⟩ => ⟨S512x10240, .bf16⟩
  | .local _ .vmem, ⟨34, _⟩ => ⟨S512x10240, .bf16⟩
  | .local _ .vmem, ⟨35, _⟩ => ⟨S10240x512, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | .local _ .vmem, ⟨39, _⟩ => ⟨S1x512, .f32⟩
  | .local _ .vmem, ⟨40, _⟩ => ⟨S512x512, .bf16⟩
  | .local _ .vmem, ⟨41, _⟩ => ⟨S512x512, .bf16⟩
  | .local _ .vmem, ⟨42, _⟩ => ⟨S1024x512, .bf16⟩
  | .local _ .vmem, ⟨43, _⟩ => ⟨S1024x512, .bf16⟩
  | .local _ .vmem, ⟨44, _⟩ => ⟨S512x512, .bf16⟩
  | .local _ .vmem, ⟨45, _⟩ => ⟨S1024x512, .bf16⟩
  | .local _ .vmem, ⟨46, _⟩ => ⟨S1024x512, .bf16⟩
  | .local _ .vmem, ⟨47, _⟩ => ⟨S512x10240, .bf16⟩
  | .local _ .vmem, ⟨48, _⟩ => ⟨S512x10240, .bf16⟩
  | .local _ .vmem, ⟨49, _⟩ => ⟨S10240x512, .bf16⟩
  | .local _ .vmem, ⟨50, _⟩ => ⟨S512x512, .bf16⟩
  | .local _ .vmem, ⟨51, _⟩ => ⟨S512x512, .bf16⟩
  | .local _ .vmem, ⟨52, _⟩ => ⟨S512x512, .bf16⟩
  | .local _ .vmem, ⟨53, _⟩ => ⟨S1x512, .f32⟩
  | .local _ .vmem, ⟨54, _⟩ => ⟨S512x512, .bf16⟩
  | .local _ .vmem, ⟨55, _⟩ => ⟨S512x512, .bf16⟩
  | .local _ .vmem, ⟨56, _⟩ => ⟨S1024x512, .bf16⟩
  | .local _ .vmem, ⟨57, _⟩ => ⟨S1024x512, .bf16⟩
  | .local _ .vmem, ⟨58, _⟩ => ⟨S512x512, .bf16⟩
  | .local _ .vmem, ⟨59, _⟩ => ⟨S1024x512, .bf16⟩
  | .local _ .vmem, ⟨60, _⟩ => ⟨S1024x512, .bf16⟩
  | .local _ .vmem, ⟨61, _⟩ => ⟨S512x10240, .bf16⟩
  | .local _ .vmem, ⟨62, _⟩ => ⟨S512x10240, .bf16⟩
  | .local _ .vmem, ⟨63, _⟩ => ⟨S10240x512, .bf16⟩
  | .local _ .vmem, ⟨64, _⟩ => ⟨S512x512, .bf16⟩
  | .local _ .vmem, ⟨65, _⟩ => ⟨S512x512, .bf16⟩
  | .local _ .vmem, ⟨66, _⟩ => ⟨S512x512, .bf16⟩
  | .local _ .vmem, ⟨67, _⟩ => ⟨S1x512, .f32⟩
  | .local _ .vmem, ⟨68, _⟩ => ⟨S512x512, .bf16⟩
  | .local _ .vmem, ⟨69, _⟩ => ⟨S512x512, .bf16⟩
  | .local _ .vmem, ⟨70, _⟩ => ⟨S1024x512, .bf16⟩
  | .local _ .vmem, ⟨71, _⟩ => ⟨S1024x512, .bf16⟩
  | .local _ .vmem, ⟨72, _⟩ => ⟨S512x512, .bf16⟩
  | .local _ .vmem, ⟨73, _⟩ => ⟨S1024x512, .bf16⟩
  | .local _ .vmem, ⟨74, _⟩ => ⟨S1024x512, .bf16⟩
  | .local _ .vmem, ⟨75, _⟩ => ⟨S512x10240, .bf16⟩
  | .local _ .vmem, ⟨76, _⟩ => ⟨S512x10240, .bf16⟩
  | .local _ .vmem, ⟨77, _⟩ => ⟨S10240x512, .bf16⟩
  | .local _ .vmem, ⟨78, _⟩ => ⟨S512x512, .bf16⟩
  | .local _ .vmem, ⟨79, _⟩ => ⟨S512x512, .bf16⟩
  | .local _ .vmem, ⟨80, _⟩ => ⟨S512x512, .bf16⟩
  | .local _ .vmem, ⟨81, _⟩ => ⟨S1x512, .f32⟩
  | .local _ .vmem, ⟨82, _⟩ => ⟨S512x512, .bf16⟩
  | .local _ .vmem, ⟨83, _⟩ => ⟨S512x512, .bf16⟩
  | .local _ .vmem, ⟨84, _⟩ => ⟨S1024x512, .bf16⟩
  | .local _ .vmem, ⟨85, _⟩ => ⟨S1024x512, .bf16⟩
  | .local _ .vmem, ⟨86, _⟩ => ⟨S512x512, .bf16⟩
  | .local _ .vmem, ⟨87, _⟩ => ⟨S1024x512, .bf16⟩
  | .local _ .vmem, ⟨88, _⟩ => ⟨S1024x512, .bf16⟩
  | .local _ .vmem, ⟨89, _⟩ => ⟨S512x10240, .bf16⟩
  | .local _ .vmem, ⟨90, _⟩ => ⟨S512x10240, .bf16⟩
  | .local _ .vmem, ⟨91, _⟩ => ⟨S10240x512, .bf16⟩
  | .local _ .vmem, ⟨92, _⟩ => ⟨S512x512, .bf16⟩
  | .local _ .vmem, ⟨93, _⟩ => ⟨S512x512, .bf16⟩
  | .local _ .vmem, ⟨94, _⟩ => ⟨S512x512, .bf16⟩
  | .local _ .vmem, ⟨95, _⟩ => ⟨S1x512, .f32⟩
  | .local _ .vmem, ⟨96, _⟩ => ⟨S512x512, .bf16⟩
  | .local _ .vmem, ⟨97, _⟩ => ⟨S512x512, .bf16⟩
  | .local _ .vmem, ⟨98, _⟩ => ⟨S512x512, .bf16⟩
  | .local _ .vmem, ⟨99, _⟩ => ⟨S512x512, .bf16⟩
  | .local _ .vmem, ⟨100, _⟩ => ⟨S512x1536, .bf16⟩
  | .local _ .vmem, ⟨101, _⟩ => ⟨S1x1536, .f32⟩
  | .local _ .vmem, ⟨102, _⟩ => ⟨S512x1536, .f32⟩
  | .local _ .vmem, ⟨103, _⟩ => ⟨S512x1536, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | _, _ => false

abbrev semScoped : Fin 0 → Bool
  | ⟨_, h⟩ => absurd h (Nat.not_lt_zero _)

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTc nBuf bufTy 0 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_cst_1 : Ref sig .tc := ⟨.hbm, 17, rfl⟩
abbrev main_call0_v4 : Ref sig .tc := ⟨.hbm, 18, rfl⟩
abbrev main_call0_v5 : Ref sig .tc := ⟨.hbm, 19, rfl⟩
abbrev main_call0_cst_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_cst_3 : Ref sig .tc := ⟨.hbm, 24, rfl⟩
abbrev main_call0_v9 : Ref sig .tc := ⟨.hbm, 25, rfl⟩
abbrev main_call0_v10 : Ref sig .tc := ⟨.hbm, 26, rfl⟩
abbrev main_call0_c : Ref sig .tc := ⟨.hbm, 27, rfl⟩
abbrev main_call0_v11 : Ref sig .tc := ⟨.hbm, 28, rfl⟩
abbrev main_call0_v12 : Ref sig .tc := ⟨.hbm, 29, rfl⟩
abbrev main_call0_c_4 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_c_5 : Ref sig .tc := ⟨.hbm, 36, rfl⟩
abbrev main_call0_v18 : Ref sig .tc := ⟨.hbm, 37, rfl⟩
abbrev main_call0_v19 : Ref sig .tc := ⟨.hbm, 38, rfl⟩
abbrev main_call0_c_6 : Ref sig .tc := ⟨.hbm, 39, rfl⟩
abbrev main_call0_v20 : Ref sig .tc := ⟨.hbm, 40, rfl⟩
abbrev main_call0_v21 : Ref sig .tc := ⟨.hbm, 41, rfl⟩
abbrev main_call0_v22 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_cst_7 : Ref sig .tc := ⟨.hbm, 47, rfl⟩
abbrev main_call0_v27 : Ref sig .tc := ⟨.hbm, 48, rfl⟩
abbrev main_call0_c_8 : Ref sig .tc := ⟨.hbm, 49, rfl⟩
abbrev main_call0_v28 : Ref sig .tc := ⟨.hbm, 50, rfl⟩
abbrev main_call0_v29 : Ref sig .tc := ⟨.hbm, 51, rfl⟩
abbrev main_call0_c_9 : Ref sig .tc := ⟨.hbm, 52, rfl⟩
abbrev main_call0_v30 : Ref sig .tc := ⟨.hbm, 53, rfl⟩
abbrev main_call0_v31 : Ref sig .tc := ⟨.hbm, 54, rfl⟩
abbrev main_call0_v32 : Ref sig .tc := ⟨.hbm, 55, rfl⟩
abbrev main_call0_c_10 : Ref sig .tc := ⟨.hbm, 56, rfl⟩
abbrev main_call0_v33 : Ref sig .tc := ⟨.hbm, 57, rfl⟩
abbrev main_call0_v34 : Ref sig .tc := ⟨.hbm, 58, rfl⟩
abbrev main_call0_c_11 : Ref sig .tc := ⟨.hbm, 59, rfl⟩
abbrev main_call0_v35 : Ref sig .tc := ⟨.hbm, 60, rfl⟩
abbrev main_call0_v36 : Ref sig .tc := ⟨.hbm, 61, rfl⟩
abbrev main_call0_v37 : Ref sig .tc := ⟨.hbm, 62, rfl⟩
abbrev main_call0_v38 : Ref sig .tc := ⟨.hbm, 63, rfl⟩
abbrev main_call0_v39 : Ref sig .tc := ⟨.hbm, 64, rfl⟩
abbrev main_call0_v40 : Ref sig .tc := ⟨.hbm, 65, rfl⟩
abbrev main_call0_v41 : Ref sig .tc := ⟨.hbm, 66, rfl⟩
abbrev main_v0 : Ref sig .tc := ⟨.hbm, 67, rfl⟩
abbrev main_call1_c : Ref sig .tc := ⟨.hbm, 68, rfl⟩
abbrev main_call1_call0_v0 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_v15 : Ref sig .tc := ⟨.hbm, 85, rfl⟩
abbrev main_call1_v16 : Ref sig .tc := ⟨.hbm, 86, rfl⟩
abbrev main_call1_v17 : Ref sig .tc := ⟨.hbm, 87, rfl⟩
abbrev main_call1_v18 : Ref sig .tc := ⟨.hbm, 88, rfl⟩
abbrev main_call1_v19 : Ref sig .tc := ⟨.hbm, 89, rfl⟩
abbrev main_call1_v20 : Ref sig .tc := ⟨.hbm, 90, rfl⟩
abbrev main_call1_v21 : Ref sig .tc := ⟨.hbm, 91, rfl⟩
abbrev main_call1_v22 : Ref sig .tc := ⟨.hbm, 92, rfl⟩
abbrev main_call1_v23 : Ref sig .tc := ⟨.hbm, 93, rfl⟩
abbrev main_call1_v24 : Ref sig .tc := ⟨.hbm, 94, rfl⟩
abbrev main_call1_v25 : Ref sig .tc := ⟨.hbm, 95, rfl⟩
abbrev main_call1_v26 : Ref sig .tc := ⟨.hbm, 96, rfl⟩
abbrev main_call1_v27 : Ref sig .tc := ⟨.hbm, 97, rfl⟩
abbrev main_call1_v28 : Ref sig .tc := ⟨.hbm, 98, rfl⟩
abbrev main_call1_v29 : Ref sig .tc := ⟨.hbm, 99, rfl⟩
abbrev main_call1_v30 : Ref sig .tc := ⟨.hbm, 100, rfl⟩
abbrev main_call1_v31 : Ref sig .tc := ⟨.hbm, 101, rfl⟩
abbrev main_call1_v32 : Ref sig .tc := ⟨.hbm, 102, rfl⟩
abbrev main_call1_v33 : Ref sig .tc := ⟨.hbm, 103, rfl⟩
abbrev main_call1_v34 : Ref sig .tc := ⟨.hbm, 104, rfl⟩
abbrev main_call1_v35 : Ref sig .tc := ⟨.hbm, 105, rfl⟩
abbrev main_call1_v36 : Ref sig .tc := ⟨.hbm, 106, rfl⟩
abbrev main_call1_v37 : Ref sig .tc := ⟨.hbm, 107, rfl⟩
abbrev main_call1_v38 : Ref sig .tc := ⟨.hbm, 108, rfl⟩
abbrev main_call1_v39 : Ref sig .tc := ⟨.hbm, 109, rfl⟩
abbrev main_call1_v40 : Ref sig .tc := ⟨.hbm, 110, rfl⟩
abbrev main_call1_v41 : Ref sig .tc := ⟨.hbm, 111, rfl⟩
abbrev main_call1_v42 : Ref sig .tc := ⟨.hbm, 112, rfl⟩
abbrev main_call1_v43 : Ref sig .tc := ⟨.hbm, 113, rfl⟩
abbrev main_call1_v44 : Ref sig .tc := ⟨.hbm, 114, rfl⟩
abbrev main_call1_v45 : Ref sig .tc := ⟨.hbm, 115, rfl⟩
abbrev main_call1_v46 : Ref sig .tc := ⟨.hbm, 116, rfl⟩
abbrev main_call1_v47 : Ref sig .tc := ⟨.hbm, 117, rfl⟩
abbrev main_call1_v48 : Ref sig .tc := ⟨.hbm, 118, rfl⟩
abbrev main_call1_v49 : Ref sig .tc := ⟨.hbm, 119, rfl⟩
abbrev main_call1_v50 : Ref sig .tc := ⟨.hbm, 120, rfl⟩
abbrev main_call1_v51 : Ref sig .tc := ⟨.hbm, 121, rfl⟩
abbrev main_call1_v52 : Ref sig .tc := ⟨.hbm, 122, rfl⟩
abbrev main_call1_v53 : Ref sig .tc := ⟨.hbm, 123, rfl⟩
abbrev main_call1_v54 : Ref sig .tc := ⟨.hbm, 124, rfl⟩
abbrev main_call1_v55 : Ref sig .tc := ⟨.hbm, 125, rfl⟩
abbrev main_call1_v56 : Ref sig .tc := ⟨.hbm, 126, rfl⟩
abbrev main_call1_v57 : Ref sig .tc := ⟨.hbm, 127, rfl⟩
abbrev main_call1_v58 : Ref sig .tc := ⟨.hbm, 128, rfl⟩
abbrev main_call1_v59 : Ref sig .tc := ⟨.hbm, 129, rfl⟩
abbrev main_call1_v60 : Ref sig .tc := ⟨.hbm, 130, rfl⟩
abbrev main_call1_v61 : Ref sig .tc := ⟨.hbm, 131, rfl⟩
abbrev main_call1_v62 : Ref sig .tc := ⟨.hbm, 132, rfl⟩
abbrev main_call1_v63 : Ref sig .tc := ⟨.hbm, 133, rfl⟩
abbrev main_call1_v64 : Ref sig .tc := ⟨.hbm, 134, rfl⟩
abbrev main_call1_v65 : Ref sig .tc := ⟨.hbm, 135, rfl⟩
abbrev main_call1_v66 : Ref sig .tc := ⟨.hbm, 136, rfl⟩
abbrev main_call1_v67 : Ref sig .tc := ⟨.hbm, 137, rfl⟩
abbrev main_call1_v68 : Ref sig .tc := ⟨.hbm, 138, rfl⟩
abbrev main_call1_v69 : Ref sig .tc := ⟨.hbm, 139, rfl⟩
abbrev main_call1_v70 : Ref sig .tc := ⟨.hbm, 140, rfl⟩
abbrev main_call1_v71 : Ref sig .tc := ⟨.hbm, 141, rfl⟩
abbrev main_call1_v72 : Ref sig .tc := ⟨.hbm, 142, rfl⟩
abbrev main_call1_c_0 : Ref sig .tc := ⟨.hbm, 143, rfl⟩
abbrev main_call1_call1_v0 : Ref sig .tc := ⟨.hbm, 144, rfl⟩
abbrev main_call1_v73 : Ref sig .tc := ⟨.hbm, 145, rfl⟩
abbrev main_call1_v74 : Ref sig .tc := ⟨.hbm, 146, rfl⟩
abbrev main_call1_c_1 : Ref sig .tc := ⟨.hbm, 147, rfl⟩
abbrev main_call1_call2_v0 : Ref sig .tc := ⟨.hbm, 148, rfl⟩
abbrev main_call1_v75 : Ref sig .tc := ⟨.hbm, 149, rfl⟩
abbrev main_call1_v76 : Ref sig .tc := ⟨.hbm, 150, rfl⟩
abbrev main_call1_v77 : Ref sig .tc := ⟨.hbm, 151, rfl⟩
abbrev main_v1 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg2_1 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg5_0 : Ref sig .tc := ⟨.vmem, 54, rfl⟩
abbrev cc7_stg5_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg2_0 : Ref sig .tc := ⟨.vmem, 64, rfl⟩
abbrev cc9_stg2_1 : Ref sig .tc := ⟨.vmem, 65, rfl⟩
abbrev cc9_stg3_0 : Ref sig .tc := ⟨.vmem, 66, rfl⟩
abbrev cc9_stg4_0 : Ref sig .tc := ⟨.vmem, 67, rfl⟩
abbrev cc9_stg5_0 : Ref sig .tc := ⟨.vmem, 68, rfl⟩
abbrev cc9_stg5_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg2_0 : Ref sig .tc := ⟨.vmem, 73, rfl⟩
abbrev cc10_stg2_1 : Ref sig .tc := ⟨.vmem, 74, rfl⟩
abbrev cc11_stg0_0 : Ref sig .tc := ⟨.vmem, 75, rfl⟩
abbrev cc11_stg0_1 : Ref sig .tc := ⟨.vmem, 76, rfl⟩
abbrev cc11_stg1_0 : Ref sig .tc := ⟨.vmem, 77, rfl⟩
abbrev cc11_stg2_0 : Ref sig .tc := ⟨.vmem, 78, rfl⟩
abbrev cc11_stg2_1 : Ref sig .tc := ⟨.vmem, 79, rfl⟩
abbrev cc11_stg3_0 : Ref sig .tc := ⟨.vmem, 80, rfl⟩
abbrev cc11_stg4_0 : Ref sig .tc := ⟨.vmem, 81, rfl⟩
abbrev cc11_stg5_0 : Ref sig .tc := ⟨.vmem, 82, rfl⟩
abbrev cc11_stg5_1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg2_0 : Ref sig .tc := ⟨.vmem, 87, rfl⟩
abbrev cc12_stg2_1 : Ref sig .tc := ⟨.vmem, 88, rfl⟩
abbrev cc13_stg0_0 : Ref sig .tc := ⟨.vmem, 89, rfl⟩
abbrev cc13_stg0_1 : Ref sig .tc := ⟨.vmem, 90, rfl⟩
abbrev cc13_stg1_0 : Ref sig .tc := ⟨.vmem, 91, rfl⟩
abbrev cc13_stg2_0 : Ref sig .tc := ⟨.vmem, 92, rfl⟩
abbrev cc13_stg2_1 : Ref sig .tc := ⟨.vmem, 93, rfl⟩
abbrev cc13_stg3_0 : Ref sig .tc := ⟨.vmem, 94, rfl⟩
abbrev cc13_stg4_0 : Ref sig .tc := ⟨.vmem, 95, rfl⟩
abbrev cc13_stg5_0 : Ref sig .tc := ⟨.vmem, 96, rfl⟩
abbrev cc13_stg5_1 : Ref sig .tc := ⟨.vmem, 97, rfl⟩
abbrev cc14_stg0_0 : Ref sig .tc := ⟨.vmem, 98, rfl⟩
abbrev cc14_stg0_1 : Ref sig .tc := ⟨.vmem, 99, rfl⟩
abbrev cc14_stg1_0 : Ref sig .tc := ⟨.vmem, 100, rfl⟩
abbrev cc14_stg2_0 : Ref sig .tc := ⟨.vmem, 101, rfl⟩
abbrev cc14_stg3_0 : Ref sig .tc := ⟨.vmem, 102, rfl⟩
abbrev cc14_stg3_1 : Ref sig .tc := ⟨.vmem, 103, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem2_1 : DmaSem sig := 51
abbrev cc7_sem3_0 : DmaSem sig := 52
abbrev cc7_sem4_0 : DmaSem sig := 53
abbrev cc7_sem5_0 : DmaSem sig := 54
abbrev cc7_sem5_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc9_sem0_0 : DmaSem sig := 61
abbrev cc9_sem0_1 : DmaSem sig := 62
abbrev cc9_sem1_0 : DmaSem sig := 63
abbrev cc9_sem2_0 : DmaSem sig := 64
abbrev cc9_sem2_1 : DmaSem sig := 65
abbrev cc9_sem3_0 : DmaSem sig := 66
abbrev cc9_sem4_0 : DmaSem sig := 67
abbrev cc9_sem5_0 : DmaSem sig := 68
abbrev cc9_sem5_1 : DmaSem sig := 69
abbrev cc10_sem0_0 : DmaSem sig := 70
abbrev cc10_sem0_1 : DmaSem sig := 71
abbrev cc10_sem1_0 : DmaSem sig := 72
abbrev cc10_sem2_0 : DmaSem sig := 73
abbrev cc10_sem2_1 : DmaSem sig := 74
abbrev cc11_sem0_0 : DmaSem sig := 75
abbrev cc11_sem0_1 : DmaSem sig := 76
abbrev cc11_sem1_0 : DmaSem sig := 77
abbrev cc11_sem2_0 : DmaSem sig := 78
abbrev cc11_sem2_1 : DmaSem sig := 79
abbrev cc11_sem3_0 : DmaSem sig := 80
abbrev cc11_sem4_0 : DmaSem sig := 81
abbrev cc11_sem5_0 : DmaSem sig := 82
abbrev cc11_sem5_1 : DmaSem sig := 83
abbrev cc12_sem0_0 : DmaSem sig := 84
abbrev cc12_sem0_1 : DmaSem sig := 85
abbrev cc12_sem1_0 : DmaSem sig := 86
abbrev cc12_sem2_0 : DmaSem sig := 87
abbrev cc12_sem2_1 : DmaSem sig := 88
abbrev cc13_sem0_0 : DmaSem sig := 89
abbrev cc13_sem0_1 : DmaSem sig := 90
abbrev cc13_sem1_0 : DmaSem sig := 91
abbrev cc13_sem2_0 : DmaSem sig := 92
abbrev cc13_sem2_1 : DmaSem sig := 93
abbrev cc13_sem3_0 : DmaSem sig := 94
abbrev cc13_sem4_0 : DmaSem sig := 95
abbrev cc13_sem5_0 : DmaSem sig := 96
abbrev cc13_sem5_1 : DmaSem sig := 97
abbrev cc14_sem0_0 : DmaSem sig := 98
abbrev cc14_sem0_1 : DmaSem sig := 99
abbrev cc14_sem1_0 : DmaSem sig := 100
abbrev cc14_sem2_0 : DmaSem sig := 101
abbrev cc14_sem3_0 : DmaSem sig := 102
abbrev cc14_sem3_1 : DmaSem sig := 103

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x10240 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10240x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S512x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x10240 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10240x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S512x512 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S512x512 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x10240 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10240x512 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S512x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S512x512 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S512x512 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x512 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1024x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S512x10240 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S10240x512 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S512x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S512x512 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x512 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S512x512 .bf16 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1024x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S512x512 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S1024x512 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S512x10240 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S10240x512 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S512x512 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S512x512 .bf16 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x512 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S512x512 .bf16 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1024x512 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S512x512 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S1024x512 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S512x10240 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S10240x512 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S512x512 .bf16 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S512x512 .bf16 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x512 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S512x512 .bf16 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S512x512 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S512x1536 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x1536 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S512x1536 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

class Facts₀ : Prop where
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S_S10240x10240 : S_.BroadcastsInDim S10240x10240 (![] : Fin 0 → Fin S10240x10240.rank)
  concatenates_S160000x1_S160000x1_S160000x2_d1 : Shape.Concatenates [S160000x1, S160000x1] S160000x2 1
  bitsLt_bf16_f32 : FTy.bits .bf16 < FTy.bits .f32
  pads_S10000x256_S10240x256_02400_000 : S10000x256.Pads (![0, 0] : Fin 2 → Nat) ![240, 0] ![0, 0] S10240x256
  h_S_ : 0 < S_.numel
  shapeCasts_S512_S1x512 : S512.ShapeCasts S1x512
  slices_S6x512x512_S1x512x512_0_0_0 : S6x512x512.Slices ![0, 0, 0] S1x512x512
  shapeCasts_S1x512x512_S512x512 : S1x512x512.ShapeCasts S512x512
  slices_S6x512_S1x512_0_0 : S6x512.Slices ![0, 0] S1x512
  shapeCasts_S1x512_S512 : S1x512.ShapeCasts S512
  slices_S6x512x512_S1x512x512_1_0_0 : S6x512x512.Slices ![1, 0, 0] S1x512x512
  slices_S6x512_S1x512_1_0 : S6x512.Slices ![1, 0] S1x512
  slices_S6x512x512_S1x512x512_2_0_0 : S6x512x512.Slices ![2, 0, 0] S1x512x512
  slices_S6x512_S1x512_2_0 : S6x512.Slices ![2, 0] S1x512
  slices_S6x512x512_S1x512x512_3_0_0 : S6x512x512.Slices ![3, 0, 0] S1x512x512
  slices_S6x512_S1x512_3_0 : S6x512.Slices ![3, 0] S1x512
  slices_S6x512x512_S1x512x512_4_0_0 : S6x512x512.Slices ![4, 0, 0] S1x512x512
  slices_S6x512_S1x512_4_0 : S6x512.Slices ![4, 0] S1x512
  slices_S6x512x512_S1x512x512_5_0_0 : S6x512x512.Slices ![5, 0, 0] S1x512x512
  slices_S6x512_S1x512_5_0 : S6x512.Slices ![5, 0] S1x512
  pads_S512x1440_S512x1536_000_0960 : S512x1440.Pads (![0, 0] : Fin 2 → Nat) ![0, 96] ![0, 0] S512x1536
  pads_S1440_S1536_0960 : S1440.Pads (![0] : Fin 1 → Nat) ![96] ![0] S1536
  shapeCasts_S1536_S1x1536 : S1536.ShapeCasts S1x1536
  slices_S10240x1536_S10000x1440_0_0 : S10240x1536.Slices ![0, 0] S10000x1440
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S512x10240_S512x10240_0_0 : ∀ a, (![0, 0] : Fin 2 → Nat) a + S512x10240.size a ≤ S512x10240.size a
  h_S512x10240 : 0 < S512x10240.numel
  shapeCasts_S512x10240_S512x10240 : S512x10240.ShapeCasts S512x10240
  inb_S10240x512_S10240x512_0_0 : ∀ a, (![0, 0] : Fin 2 → Nat) a + S10240x512.size a ≤ S10240x512.size a
  h_S10240x512 : 0 < S10240x512.numel
  shapeCasts_S10240x512_S10240x512 : S10240x512.ShapeCasts S10240x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  shapeCasts_S1024x512_S1024x512 : S1024x512.ShapeCasts S1024x512
  shapeCasts_S512x512_S512x512 : S512x512.ShapeCasts S512x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  scatter_S10240x10240_S160000x2_S160000_n_01_01_1_wf : ScatterDims.WF S10240x10240 S160000x2 S160000 [] [0, 1] [0, 1] 1
  dot_S1024x256_S256x512_S1024x512_1_0_0_1_n_n_wf : DotDims.WF S1024x256 S256x512 S1024x512 [1] [0] [0] [1] [] []
  dot_S512x10240_S10240x512_S512x512_1_0_0_1_n_n_wf : DotDims.WF S512x10240 S10240x512 S512x512 [1] [0] [0] [1] [] []
  dot_S512x256_S256x512_S512x512_1_0_0_1_n_n_wf : DotDims.WF S512x256 S256x512 S512x512 [1] [0] [0] [1] [] []
  dot_S1024x512_S512x512_S1024x512_1_0_0_1_n_n_wf : DotDims.WF S1024x512 S512x512 S1024x512 [1] [0] [0] [1] [] []
  dot_S512x512_S512x512_S512x512_1_0_0_1_n_n_wf : DotDims.WF S512x512 S512x512 S512x512 [1] [0] [0] [1] [] []
  dot_S512x512_S512x1536_S512x1536_1_0_0_1_n_n_wf : DotDims.WF S512x512 S512x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S10240x256.size a
  hwx0_0 : ∀ i : grid0.Coords, EltTy.bits .bf16 = 32 ∨ (Rect.block (s := S10240x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S10240x512.size a
  hwx0_2 : ∀ i : grid0.Coords, EltTy.bits .bf16 = 32 ∨ (Rect.block (s := S10240x512) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x10240.size a ≤ S10240x10240.size a
  hwx1_0 : ∀ i : grid1.Coords, EltTy.bits .bf16 = 32 ∨ (Rect.block (s := S10240x10240) S512x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x512.size a ≤ S10240x512.size a
  hwx1_1 : ∀ i : grid1.Coords, EltTy.bits .bf16 = 32 ∨ (Rect.block (s := S10240x512) S10240x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S10240x256.size a
  hwx1_2 : ∀ i : grid1.Coords, EltTy.bits .bf16 = 32 ∨ (Rect.block (s := S10240x256) S512x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .bf16 = 32 ∨ (Rect.block (s := S256x512) S256x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S10240x512.size a
  hwx1_5 : ∀ i : grid1.Coords, EltTy.bits .bf16 = 32 ∨ (Rect.block (s := S10240x512) S512x512.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S10240x512.size a
  hwx2_0 : ∀ i : grid2.Coords, EltTy.bits .bf16 = 32 ∨ (Rect.block (s := S10240x512) S1024x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S10240x512.size a
  hwx2_2 : ∀ i : grid2.Coords, EltTy.bits .bf16 = 32 ∨ (Rect.block (s := S10240x512) S1024x512.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x10240.size a ≤ S10240x10240.size a
  hwx3_0 : ∀ i : grid3.Coords, EltTy.bits .bf16 = 32 ∨ (Rect.block (s := S10240x10240) S512x10240.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10240x512.size a ≤ S10240x512.size a
  hwx3_1 : ∀ i : grid3.Coords, EltTy.bits .bf16 = 32 ∨ (Rect.block (s := S10240x512) S10240x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S10240x512.size a
  hwx3_2 : ∀ i : grid3.Coords, EltTy.bits .bf16 = 32 ∨ (Rect.block (s := S10240x512) S512x512.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .bf16 = 32 ∨ (Rect.block (s := S512x512) S512x512.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x512.size a ≤ S10240x512.size a
  hwx3_5 : ∀ i : grid3.Coords, EltTy.bits .bf16 = 32 ∨ (Rect.block (s := S10240x512) S512x512.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S10240x512.size a
  hwx4_0 : ∀ i : grid4.Coords, EltTy.bits .bf16 = 32 ∨ (Rect.block (s := S10240x512) S1024x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .bf16 = 32 ∨ (Rect.block (s := S512x512) S512x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x512.size a ≤ S10240x512.size a
  hwx4_2 : ∀ i : grid4.Coords, EltTy.bits .bf16 = 32 ∨ (Rect.block (s := S10240x512) S1024x512.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x10240.size a ≤ S10240x10240.size a
  hwx5_0 : ∀ i : grid5.Coords, EltTy.bits .bf16 = 32 ∨ (Rect.block (s := S10240x10240) S512x10240.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10240x512.size a ≤ S10240x512.size a
  hwx5_1 : ∀ i : grid5.Coords, EltTy.bits .bf16 = 32 ∨ (Rect.block (s := S10240x512) S10240x512.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x512.size a ≤ S10240x512.size a
  hwx5_2 : ∀ i : grid5.Coords, EltTy.bits .bf16 = 32 ∨ (Rect.block (s := S10240x512) S512x512.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512x512.size a ≤ S512x512.size a
  hwx5_3 : ∀ i : grid5.Coords, EltTy.bits .bf16 = 32 ∨ (Rect.block (s := S512x512) S512x512.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S512x512.size a ≤ S10240x512.size a
  hwx5_5 : ∀ i : grid5.Coords, EltTy.bits .bf16 = 32 ∨ (Rect.block (s := S10240x512) S512x512.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x512.size a ≤ S10240x512.size a
  hwx6_0 : ∀ i : grid6.Coords, EltTy.bits .bf16 = 32 ∨ (Rect.block (s := S10240x512) S1024x512.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x512.size a ≤ S512x512.size a
  hwx6_1 : ∀ i : grid6.Coords, EltTy.bits .bf16 = 32 ∨ (Rect.block (s := S512x512) S512x512.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x512.size a ≤ S10240x512.size a
  hwx6_2 : ∀ i : grid6.Coords, EltTy.bits .bf16 = 32 ∨ (Rect.block (s := S10240x512) S1024x512.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x10240.size a ≤ S10240x10240.size a
  hwx7_0 : ∀ i : grid7.Coords, EltTy.bits .bf16 = 32 ∨ (Rect.block (s := S10240x10240) S512x10240.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10240x512.size a ≤ S10240x512.size a
  hwx7_1 : ∀ i : grid7.Coords, EltTy.bits .bf16 = 32 ∨ (Rect.block (s := S10240x512) S10240x512.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x512.size a ≤ S10240x512.size a
  hwx7_2 : ∀ i : grid7.Coords, EltTy.bits .bf16 = 32 ∨ (Rect.block (s := S10240x512) S512x512.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S512x512.size a ≤ S512x512.size a
  hwx7_3 : ∀ i : grid7.Coords, EltTy.bits .bf16 = 32 ∨ (Rect.block (s := S512x512) S512x512.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x512.size a ≤ S1x512.size a
  hwx7_4 : ∀ i : grid7.Coords, EltTy.bits .f32 = 32 ∨ (Rect.block (s := S1x512) S1x512.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S512x512.size a ≤ S10240x512.size a
  hwx7_5 : ∀ i : grid7.Coords, EltTy.bits .bf16 = 32 ∨ (Rect.block (s := S10240x512) S512x512.size (cc7_transform_5 i) (hinb7_5 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x512.size a ≤ S10240x512.size a
  hwx8_0 : ∀ i : grid8.Coords, EltTy.bits .bf16 = 32 ∨ (Rect.block (s := S10240x512) S1024x512.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x512.size a ≤ S512x512.size a
  hwx8_1 : ∀ i : grid8.Coords, EltTy.bits .bf16 = 32 ∨ (Rect.block (s := S512x512) S512x512.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x512.size a ≤ S10240x512.size a
  hwx8_2 : ∀ i : grid8.Coords, EltTy.bits .bf16 = 32 ∨ (Rect.block (s := S10240x512) S1024x512.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S512x10240.size a ≤ S10240x10240.size a
  hwx9_0 : ∀ i : grid9.Coords, EltTy.bits .bf16 = 32 ∨ (Rect.block (s := S10240x10240) S512x10240.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S10240x512.size a ≤ S10240x512.size a
  hwx9_1 : ∀ i : grid9.Coords, EltTy.bits .bf16 = 32 ∨ (Rect.block (s := S10240x512) S10240x512.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S512x512.size a ≤ S10240x512.size a
  hwx9_2 : ∀ i : grid9.Coords, EltTy.bits .bf16 = 32 ∨ (Rect.block (s := S10240x512) S512x512.size (cc9_transform_2 i) (hinb9_2 i)).WholeWords (EltTy.packing .bf16)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S512x512.size a ≤ S512x512.size a
  hwx9_3 : ∀ i : grid9.Coords, EltTy.bits .bf16 = 32 ∨ (Rect.block (s := S512x512) S512x512.size (cc9_transform_3 i) (hinb9_3 i)).WholeWords (EltTy.packing .bf16)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x512.size a ≤ S1x512.size a
  hwx9_4 : ∀ i : grid9.Coords, EltTy.bits .f32 = 32 ∨ (Rect.block (s := S1x512) S1x512.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S512x512.size a ≤ S10240x512.size a
  hwx9_5 : ∀ i : grid9.Coords, EltTy.bits .bf16 = 32 ∨ (Rect.block (s := S10240x512) S512x512.size (cc9_transform_5 i) (hinb9_5 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x512.size a ≤ S10240x512.size a
  hwx10_0 : ∀ i : grid10.Coords, EltTy.bits .bf16 = 32 ∨ (Rect.block (s := S10240x512) S1024x512.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S512x512.size a ≤ S512x512.size a
  hwx10_1 : ∀ i : grid10.Coords, EltTy.bits .bf16 = 32 ∨ (Rect.block (s := S512x512) S512x512.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x512.size a ≤ S10240x512.size a
  hwx10_2 : ∀ i : grid10.Coords, EltTy.bits .bf16 = 32 ∨ (Rect.block (s := S10240x512) S1024x512.size (cc10_transform_2 i) (hinb10_2 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S512x10240.size a ≤ S10240x10240.size a
  hwx11_0 : ∀ i : grid11.Coords, EltTy.bits .bf16 = 32 ∨ (Rect.block (s := S10240x10240) S512x10240.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S10240x512.size a ≤ S10240x512.size a
  hwx11_1 : ∀ i : grid11.Coords, EltTy.bits .bf16 = 32 ∨ (Rect.block (s := S10240x512) S10240x512.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S512x512.size a ≤ S10240x512.size a
  hwx11_2 : ∀ i : grid11.Coords, EltTy.bits .bf16 = 32 ∨ (Rect.block (s := S10240x512) S512x512.size (cc11_transform_2 i) (hinb11_2 i)).WholeWords (EltTy.packing .bf16)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S512x512.size a ≤ S512x512.size a
  hwx11_3 : ∀ i : grid11.Coords, EltTy.bits .bf16 = 32 ∨ (Rect.block (s := S512x512) S512x512.size (cc11_transform_3 i) (hinb11_3 i)).WholeWords (EltTy.packing .bf16)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x512.size a ≤ S1x512.size a
  hwx11_4 : ∀ i : grid11.Coords, EltTy.bits .f32 = 32 ∨ (Rect.block (s := S1x512) S1x512.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S512x512.size a ≤ S10240x512.size a
  hwx11_5 : ∀ i : grid11.Coords, EltTy.bits .bf16 = 32 ∨ (Rect.block (s := S10240x512) S512x512.size (cc11_transform_5 i) (hinb11_5 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1024x512.size a ≤ S10240x512.size a
  hwx12_0 : ∀ i : grid12.Coords, EltTy.bits .bf16 = 32 ∨ (Rect.block (s := S10240x512) S1024x512.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S512x512.size a ≤ S512x512.size a
  hwx12_1 : ∀ i : grid12.Coords, EltTy.bits .bf16 = 32 ∨ (Rect.block (s := S512x512) S512x512.size (cc12_transform_1 i) (hinb12_1 i)).WholeWords (EltTy.packing .bf16)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1024x512.size a ≤ S10240x512.size a
  hwx12_2 : ∀ i : grid12.Coords, EltTy.bits .bf16 = 32 ∨ (Rect.block (s := S10240x512) S1024x512.size (cc12_transform_2 i) (hinb12_2 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S512x10240.size a ≤ S10240x10240.size a
  hwx13_0 : ∀ i : grid13.Coords, EltTy.bits .bf16 = 32 ∨ (Rect.block (s := S10240x10240) S512x10240.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S10240x512.size a ≤ S10240x512.size a
  hwx13_1 : ∀ i : grid13.Coords, EltTy.bits .bf16 = 32 ∨ (Rect.block (s := S10240x512) S10240x512.size (cc13_transform_1 i) (hinb13_1 i)).WholeWords (EltTy.packing .bf16)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S512x512.size a ≤ S10240x512.size a
  hwx13_2 : ∀ i : grid13.Coords, EltTy.bits .bf16 = 32 ∨ (Rect.block (s := S10240x512) S512x512.size (cc13_transform_2 i) (hinb13_2 i)).WholeWords (EltTy.packing .bf16)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S512x512.size a ≤ S512x512.size a
  hwx13_3 : ∀ i : grid13.Coords, EltTy.bits .bf16 = 32 ∨ (Rect.block (s := S512x512) S512x512.size (cc13_transform_3 i) (hinb13_3 i)).WholeWords (EltTy.packing .bf16)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x512.size a ≤ S1x512.size a
  hwx13_4 : ∀ i : grid13.Coords, EltTy.bits .f32 = 32 ∨ (Rect.block (s := S1x512) S1x512.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S512x512.size a ≤ S10240x512.size a
  hwx13_5 : ∀ i : grid13.Coords, EltTy.bits .bf16 = 32 ∨ (Rect.block (s := S10240x512) S512x512.size (cc13_transform_5 i) (hinb13_5 i)).WholeWords (EltTy.packing .bf16)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S512x512.size a ≤ S10240x512.size a
  hwx14_0 : ∀ i : grid14.Coords, EltTy.bits .bf16 = 32 ∨ (Rect.block (s := S10240x512) S512x512.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S512x1536.size a ≤ S512x1536.size a
  hwx14_1 : ∀ i : grid14.Coords, EltTy.bits .bf16 = 32 ∨ (Rect.block (s := S512x1536) S512x1536.size (cc14_transform_1 i) (hinb14_1 i)).WholeWords (EltTy.packing .bf16)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x1536.size a ≤ S1x1536.size a
  hwx14_2 : ∀ i : grid14.Coords, EltTy.bits .f32 = 32 ∨ (Rect.block (s := S1x1536) S1x1536.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S512x1536.size a ≤ S10240x1536.size a
  hwx14_3 : ∀ i : grid14.Coords, EltTy.bits .f32 = 32 ∨ (Rect.block (s := S10240x1536) S512x1536.size (cc14_transform_3 i) (hinb14_3 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S512x10240_S10240x512_S512x512_1_0_0_1_n_n : DotDims S512x10240 S10240x512 S512x512 where
  lhsContracting := [1]
  rhsContracting := [0]
  lhsNonContracting := [0]
  rhsNonContracting := [1]
  lhsBatch := []
  rhsBatch := []
  wf := dot_S512x10240_S10240x512_S512x512_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf

abbrev win0_0 : Pipeline.Window sig grid0 :=
  Pipeline.Window.ofSpec (Memref.whole main_call1_v1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call1_v2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call1_v5) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call1_v5) S10240x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call1_v1) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call1_v3) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call1_v4) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call1_v6) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call1_v6) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call1_v13) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call1_v16) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S512x10240.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call1_v16) S10240x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call1_v6) S512x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call1_v14) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call1_v15) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call1_v17) S512x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_call1_v17) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call1_v24) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_call1_v27) S1024x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v0) S512x10240.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call1_v27) S10240x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_call1_v17) S512x512.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_call1_v25) S512x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_call1_v26) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_call1_v28) S512x512.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_call1_v28) S1024x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call1_v35) S512x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_call1_v38) S1024x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v0) S512x10240.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_call1_v38) S10240x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_call1_v28) S512x512.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_call1_v36) S512x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_call1_v37) S1x512.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_call1_v39) S512x512.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_call1_v39) S1024x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_call1_v46) S512x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_call1_v49) S1024x512.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v0) S512x10240.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_call1_v49) S10240x512.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_call1_v39) S512x512.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_call1_v47) S512x512.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_call1_v48) S1x512.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_call1_v50) S512x512.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_call1_v50) S1024x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_call1_v57) S512x512.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_call1_v60) S1024x512.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v0) S512x10240.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_call1_v60) S10240x512.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_call1_v50) S512x512.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_call1_v58) S512x512.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_call1_v59) S1x512.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_call1_v61) S512x512.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_call1_v61) S1024x512.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_call1_v68) S512x512.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_call1_v71) S1024x512.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v0) S512x10240.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_call1_v71) S10240x512.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_call1_v61) S512x512.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_call1_v69) S512x512.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_call1_v70) S1x512.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_call1_v72) S512x512.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_call1_v72) S512x512.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_call1_v74) S512x1536.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_call1_v76) S1x1536.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_call1_v77) S512x1536.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

class Facts : Prop extends Facts₀ where

variable [Facts]
-- ==== ReferenceIdeal.lean ====
abbrev S10000x256 : Shape := ⟨2, ![10000, 256]⟩
abbrev S160000 : Shape := ⟨1, ![160000]⟩
abbrev S256x512 : Shape := ⟨2, ![256, 512]⟩
abbrev S512 : Shape := ⟨1, ![512]⟩
abbrev S6x512x512 : Shape := ⟨3, ![6, 512, 512]⟩
abbrev S6x512 : Shape := ⟨2, ![6, 512]⟩
abbrev S512x1440 : Shape := ⟨2, ![512, 1440]⟩
abbrev S1440 : Shape := ⟨1, ![1440]⟩
abbrev S_ : Shape := ⟨0, ![]⟩
abbrev S10000 : Shape := ⟨1, ![10000]⟩
abbrev S160000x1 : Shape := ⟨2, ![160000, 1]⟩
abbrev S10000x512 : Shape := ⟨2, ![10000, 512]⟩
abbrev S160000x512 : Shape := ⟨2, ![160000, 512]⟩
abbrev S1x512 : Shape := ⟨2, ![1, 512]⟩
abbrev S1x512x512 : Shape := ⟨3, ![1, 512, 512]⟩
abbrev S512x512 : Shape := ⟨2, ![512, 512]⟩
abbrev S10000x1440 : Shape := ⟨2, ![10000, 1440]⟩
abbrev S1x1440 : Shape := ⟨2, ![1, 1440]⟩

abbrev nBuf : Space → Nat
  | .hbm => 262
  | .vmem => 0
  | .smem => 0
  | _ => 0

abbrev hbmTy0_0 (i : Nat) : BufTy := match i % 128 with
  | 0 => ⟨S10000x256, .f32⟩
  | 1 => ⟨S160000, .i32⟩
  | 2 => ⟨S160000, .i32⟩
  | 3 => ⟨S256x512, .f32⟩
  | 4 => ⟨S256x512, .f32⟩
  | 5 => ⟨S512, .f32⟩
  | 6 => ⟨S6x512x512, .f32⟩
  | 7 => ⟨S6x512x512, .f32⟩
  | 8 => ⟨S6x512, .f32⟩
  | 9 => ⟨S512x1440, .f32⟩
  | 10 => ⟨S1440, .f32⟩
  | 11 => ⟨S_, .f32⟩
  | 12 => ⟨S160000, .f32⟩
  | 13 => ⟨S_, .f32⟩
  | 14 => ⟨S10000, .f32⟩
  | 15 => ⟨S160000x1, .i32⟩
  | 16 => ⟨S10000, .f32⟩
  | 17 => ⟨S_, .f32⟩
  | 18 => ⟨S10000, .f32⟩
  | 19 => ⟨S10000, .f32⟩
  | 20 => ⟨S_, .f32⟩
  | 21 => ⟨S10000, .f32⟩
  | 22 => ⟨S160000x1, .i32⟩
  | 23 => ⟨S10000, .f32⟩
  | 24 => ⟨S_, .f32⟩
  | 25 => ⟨S10000, .f32⟩
  | 26 => ⟨S10000, .f32⟩
  | 27 => ⟨S_, .i32⟩
  | 28 => ⟨S160000, .i32⟩
  | 29 => ⟨S160000, .i1⟩
  | 30 => ⟨S_, .i32⟩
  | 31 => ⟨S160000, .i32⟩
  | 32 => ⟨S160000, .i32⟩
  | 33 => ⟨S160000, .i32⟩
  | 34 => ⟨S160000x1, .i32⟩
  | 35 => ⟨S160000, .f32⟩
  | 36 => ⟨S_, .i32⟩
  | 37 => ⟨S160000, .i32⟩
  | 38 => ⟨S160000, .i1⟩
  | 39 => ⟨S_, .i32⟩
  | 40 => ⟨S160000, .i32⟩
  | 41 => ⟨S160000, .i32⟩
  | 42 => ⟨S160000, .i32⟩
  | 43 => ⟨S160000x1, .i32⟩
  | 44 => ⟨S160000, .f32⟩
  | 45 => ⟨S160000, .f32⟩
  | 46 => ⟨S160000, .f32⟩
  | 47 => ⟨S10000x512, .f32⟩
  | 48 => ⟨S160000x1, .f32⟩
  | 49 => ⟨S_, .i32⟩
  | 50 => ⟨S160000, .i32⟩
  | 51 => ⟨S160000, .i1⟩
  | 52 => ⟨S_, .i32⟩
  | 53 => ⟨S160000, .i32⟩
  | 54 => ⟨S160000, .i32⟩
  | 55 => ⟨S160000, .i32⟩
  | 56 => ⟨S160000x1, .i32⟩
  | 57 => ⟨S160000x512, .f32⟩
  | 58 => ⟨S160000x512, .f32⟩
  | 59 => ⟨S160000x512, .f32⟩
  | 60 => ⟨S_, .f32⟩
  | 61 => ⟨S10000x512, .f32⟩
  | 62 => ⟨S160000x1, .i32⟩
  | 63 => ⟨S10000x512, .f32⟩
  | 64 => ⟨S10000x512, .f32⟩
  | 65 => ⟨S10000x512, .f32⟩
  | 66 => ⟨S1x512, .f32⟩
  | 67 => ⟨S10000x512, .f32⟩
  | 68 => ⟨S10000x512, .f32⟩
  | 69 => ⟨S_, .f32⟩
  | 70 => ⟨S10000x512, .f32⟩
  | 71 => ⟨S10000x512, .f32⟩
  | 72 => ⟨S1x512x512, .f32⟩
  | 73 => ⟨S512x512, .f32⟩
  | 74 => ⟨S1x512x512, .f32⟩
  | 75 => ⟨S512x512, .f32⟩
  | 76 => ⟨S1x512, .f32⟩
  | 77 => ⟨S512, .f32⟩
  | 78 => ⟨S10000x512, .f32⟩
  | 79 => ⟨S160000x1, .f32⟩
  | 80 => ⟨S_, .i32⟩
  | 81 => ⟨S160000, .i32⟩
  | 82 => ⟨S160000, .i1⟩
  | 83 => ⟨S_, .i32⟩
  | 84 => ⟨S160000, .i32⟩
  | 85 => ⟨S160000, .i32⟩
  | 86 => ⟨S160000, .i32⟩
  | 87 => ⟨S160000x1, .i32⟩
  | 88 => ⟨S160000x512, .f32⟩
  | 89 => ⟨S160000x512, .f32⟩
  | 90 => ⟨S160000x512, .f32⟩
  | 91 => ⟨S_, .f32⟩
  | 92 => ⟨S10000x512, .f32⟩
  | 93 => ⟨S160000x1, .i32⟩
  | 94 => ⟨S10000x512, .f32⟩
  | 95 => ⟨S10000x512, .f32⟩
  | 96 => ⟨S10000x512, .f32⟩
  | 97 => ⟨S1x512, .f32⟩
  | 98 => ⟨S10000x512, .f32⟩
  | 99 => ⟨S10000x512, .f32⟩
  | 100 => ⟨S_, .f32⟩
  | 101 => ⟨S10000x512, .f32⟩
  | 102 => ⟨S10000x512, .f32⟩
  | 103 => ⟨S1x512x512, .f32⟩
  | 104 => ⟨S512x512, .f32⟩
  | 105 => ⟨S1x512x512, .f32⟩
  | 106 => ⟨S512x512, .f32⟩
  | 107 => ⟨S1x512, .f32⟩
  | 108 => ⟨S512, .f32⟩
  | 109 => ⟨S10000x512, .f32⟩
  | 110 => ⟨S160000x1, .f32⟩
  | 111 => ⟨S_, .i32⟩
  | 112 => ⟨S160000, .i32⟩
  | 113 => ⟨S160000, .i1⟩
  | 114 => ⟨S_, .i32⟩
  | 115 => ⟨S160000, .i32⟩
  | 116 => ⟨S160000, .i32⟩
  | 117 => ⟨S160000, .i32⟩
  | 118 => ⟨S160000x1, .i32⟩
  | 119 => ⟨S160000x512, .f32⟩
  | 120 => ⟨S160000x512, .f32⟩
  | 121 => ⟨S160000x512, .f32⟩
  | 122 => ⟨S_, .f32⟩
  | 123 => ⟨S10000x512, .f32⟩
  | 124 => ⟨S160000x1, .i32⟩
  | 125 => ⟨S10000x512, .f32⟩
  | 126 => ⟨S10000x512, .f32⟩
  | 127 => ⟨S10000x512, .f32⟩
  | _ => ⟨S10000x256, .f32⟩

abbrev hbmTy0_1 (i : Nat) : BufTy := match i % 128 with
  | 0 => ⟨S1x512, .f32⟩
  | 1 => ⟨S10000x512, .f32⟩
  | 2 => ⟨S10000x512, .f32⟩
  | 3 => ⟨S_, .f32⟩
  | 4 => ⟨S10000x512, .f32⟩
  | 5 => ⟨S10000x512, .f32⟩
  | 6 => ⟨S1x512x512, .f32⟩
  | 7 => ⟨S512x512, .f32⟩
  | 8 => ⟨S1x512x512, .f32⟩
  | 9 => ⟨S512x512, .f32⟩
  | 10 => ⟨S1x512, .f32⟩
  | 11 => ⟨S512, .f32⟩
  | 12 => ⟨S10000x512, .f32⟩
  | 13 => ⟨S160000x1, .f32⟩
  | 14 => ⟨S_, .i32⟩
  | 15 => ⟨S160000, .i32⟩
  | 16 => ⟨S160000, .i1⟩
  | 17 => ⟨S_, .i32⟩
  | 18 => ⟨S160000, .i32⟩
  | 19 => ⟨S160000, .i32⟩
  | 20 => ⟨S160000, .i32⟩
  | 21 => ⟨S160000x1, .i32⟩
  | 22 => ⟨S160000x512, .f32⟩
  | 23 => ⟨S160000x512, .f32⟩
  | 24 => ⟨S160000x512, .f32⟩
  | 25 => ⟨S_, .f32⟩
  | 26 => ⟨S10000x512, .f32⟩
  | 27 => ⟨S160000x1, .i32⟩
  | 28 => ⟨S10000x512, .f32⟩
  | 29 => ⟨S10000x512, .f32⟩
  | 30 => ⟨S10000x512, .f32⟩
  | 31 => ⟨S1x512, .f32⟩
  | 32 => ⟨S10000x512, .f32⟩
  | 33 => ⟨S10000x512, .f32⟩
  | 34 => ⟨S_, .f32⟩
  | 35 => ⟨S10000x512, .f32⟩
  | 36 => ⟨S10000x512, .f32⟩
  | 37 => ⟨S1x512x512, .f32⟩
  | 38 => ⟨S512x512, .f32⟩
  | 39 => ⟨S1x512x512, .f32⟩
  | 40 => ⟨S512x512, .f32⟩
  | 41 => ⟨S1x512, .f32⟩
  | 42 => ⟨S512, .f32⟩
  | 43 => ⟨S10000x512, .f32⟩
  | 44 => ⟨S160000x1, .f32⟩
  | 45 => ⟨S_, .i32⟩
  | 46 => ⟨S160000, .i32⟩
  | 47 => ⟨S160000, .i1⟩
  | 48 => ⟨S_, .i32⟩
  | 49 => ⟨S160000, .i32⟩
  | 50 => ⟨S160000, .i32⟩
  | 51 => ⟨S160000, .i32⟩
  | 52 => ⟨S160000x1, .i32⟩
  | 53 => ⟨S160000x512, .f32⟩
  | 54 => ⟨S160000x512, .f32⟩
  | 55 => ⟨S160000x512, .f32⟩
  | 56 => ⟨S_, .f32⟩
  | 57 => ⟨S10000x512, .f32⟩
  | 58 => ⟨S160000x1, .i32⟩
  | 59 => ⟨S10000x512, .f32⟩
  | 60 => ⟨S10000x512, .f32⟩
  | 61 => ⟨S10000x512, .f32⟩
  | 62 => ⟨S1x512, .f32⟩
  | 63 => ⟨S10000x512, .f32⟩
  | 64 => ⟨S10000x512, .f32⟩
  | 65 => ⟨S_, .f32⟩
  | 66 => ⟨S10000x512, .f32⟩
  | 67 => ⟨S10000x512, .f32⟩
  | 68 => ⟨S1x512x512, .f32⟩
  | 69 => ⟨S512x512, .f32⟩
  | 70 => ⟨S1x512x512, .f32⟩
  | 71 => ⟨S512x512, .f32⟩
  | 72 => ⟨S1x512, .f32⟩
  | 73 => ⟨S512, .f32⟩
  | 74 => ⟨S10000x512, .f32⟩
  | 75 => ⟨S160000x1, .f32⟩
  | 76 => ⟨S_, .i32⟩
  | 77 => ⟨S160000, .i32⟩
  | 78 => ⟨S160000, .i1⟩
  | 79 => ⟨S_, .i32⟩
  | 80 => ⟨S160000, .i32⟩
  | 81 => ⟨S160000, .i32⟩
  | 82 => ⟨S160000, .i32⟩
  | 83 => ⟨S160000x1, .i32⟩
  | 84 => ⟨S160000x512, .f32⟩
  | 85 => ⟨S160000x512, .f32⟩
  | 86 => ⟨S160000x512, .f32⟩
  | 87 => ⟨S_, .f32⟩
  | 88 => ⟨S10000x512, .f32⟩
  | 89 => ⟨S160000x1, .i32⟩
  | 90 => ⟨S10000x512, .f32⟩
  | 91 => ⟨S10000x512, .f32⟩
  | 92 => ⟨S10000x512, .f32⟩
  | 93 => ⟨S1x512, .f32⟩
  | 94 => ⟨S10000x512, .f32⟩
  | 95 => ⟨S10000x512, .f32⟩
  | 96 => ⟨S_, .f32⟩
  | 97 => ⟨S10000x512, .f32⟩
  | 98 => ⟨S10000x512, .f32⟩
  | 99 => ⟨S1x512x512, .f32⟩
  | 100 => ⟨S512x512, .f32⟩
  | 101 => ⟨S1x512x512, .f32⟩
  | 102 => ⟨S512x512, .f32⟩
  | 103 => ⟨S1x512, .f32⟩
  | 104 => ⟨S512, .f32⟩
  | 105 => ⟨S10000x512, .f32⟩
  | 106 => ⟨S160000x1, .f32⟩
  | 107 => ⟨S_, .i32⟩
  | 108 => ⟨S160000, .i32⟩
  | 109 => ⟨S160000, .i1⟩
  | 110 => ⟨S_, .i32⟩
  | 111 => ⟨S160000, .i32⟩
  | 112 => ⟨S160000, .i32⟩
  | 113 => ⟨S160000, .i32⟩
  | 114 => ⟨S160000x1, .i32⟩
  | 115 => ⟨S160000x512, .f32⟩
  | 116 => ⟨S160000x512, .f32⟩
  | 117 => ⟨S160000x512, .f32⟩
  | 118 => ⟨S_, .f32⟩
  | 119 => ⟨S10000x512, .f32⟩
  | 120 => ⟨S160000x1, .i32⟩
  | 121 => ⟨S10000x512, .f32⟩
  | 122 => ⟨S10000x512, .f32⟩
  | 123 => ⟨S10000x512, .f32⟩
  | 124 => ⟨S1x512, .f32⟩
  | 125 => ⟨S10000x512, .f32⟩
  | 126 => ⟨S10000x512, .f32⟩
  | 127 => ⟨S_, .f32⟩
  | _ => ⟨S10000x256, .f32⟩

abbrev hbmTy0_2 (i : Nat) : BufTy := match i % 128 with
  | 0 => ⟨S10000x512, .f32⟩
  | 1 => ⟨S10000x512, .f32⟩
  | 2 => ⟨S10000x1440, .f32⟩
  | 3 => ⟨S1x1440, .f32⟩
  | 4 => ⟨S10000x1440, .f32⟩
  | 5 => ⟨S10000x1440, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call0_cst : Ref sig .tc := ⟨.hbm, 69, rfl⟩
abbrev main_call0_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call1_cst : Ref sig .tc := ⟨.hbm, 100, rfl⟩
abbrev main_call1_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_13 : Ref sig .tc := ⟨.hbm, 111, rfl⟩
abbrev main_v81 : Ref sig .tc := ⟨.hbm, 112, rfl⟩
abbrev main_v82 : Ref sig .tc := ⟨.hbm, 113, rfl⟩
abbrev main_c_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_15 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call2_cst : Ref sig .tc := ⟨.hbm, 131, rfl⟩
abbrev main_call2_v0 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_16 : Ref sig .tc := ⟨.hbm, 142, rfl⟩
abbrev main_v107 : Ref sig .tc := ⟨.hbm, 143, rfl⟩
abbrev main_v108 : Ref sig .tc := ⟨.hbm, 144, rfl⟩
abbrev main_c_17 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_18 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_call3_cst : Ref sig .tc := ⟨.hbm, 162, rfl⟩
abbrev main_call3_v0 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_c_19 : Ref sig .tc := ⟨.hbm, 173, rfl⟩
abbrev main_v133 : Ref sig .tc := ⟨.hbm, 174, rfl⟩
abbrev main_v134 : Ref sig .tc := ⟨.hbm, 175, rfl⟩
abbrev main_c_20 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_21 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_call4_cst : Ref sig .tc := ⟨.hbm, 193, rfl⟩
abbrev main_call4_v0 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_c_22 : Ref sig .tc := ⟨.hbm, 204, rfl⟩
abbrev main_v159 : Ref sig .tc := ⟨.hbm, 205, rfl⟩
abbrev main_v160 : Ref sig .tc := ⟨.hbm, 206, rfl⟩
abbrev main_c_23 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_cst_24 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_call5_cst : Ref sig .tc := ⟨.hbm, 224, rfl⟩
abbrev main_call5_v0 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_c_25 : Ref sig .tc := ⟨.hbm, 235, rfl⟩
abbrev main_v185 : Ref sig .tc := ⟨.hbm, 236, rfl⟩
abbrev main_v186 : Ref sig .tc := ⟨.hbm, 237, rfl⟩
abbrev main_c_26 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_cst_27 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_call6_cst : Ref sig .tc := ⟨.hbm, 255, rfl⟩
abbrev main_call6_v0 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S6x512x512_S1x512x512_0_0_0 : S6x512x512.Slices ![0, 0, 0] S1x512x512
  shapeCasts_S1x512x512_S512x512 : S1x512x512.ShapeCasts S512x512
  slices_S6x512_S1x512_0_0 : S6x512.Slices ![0, 0] S1x512
  shapeCasts_S1x512_S512 : S1x512.ShapeCasts S512
  slices_S6x512x512_S1x512x512_1_0_0 : S6x512x512.Slices ![1, 0, 0] S1x512x512
  slices_S6x512_S1x512_1_0 : S6x512.Slices ![1, 0] S1x512
  slices_S6x512x512_S1x512x512_2_0_0 : S6x512x512.Slices ![2, 0, 0] S1x512x512
  slices_S6x512_S1x512_2_0 : S6x512.Slices ![2, 0] S1x512
  slices_S6x512x512_S1x512x512_3_0_0 : S6x512x512.Slices ![3, 0, 0] S1x512x512
  slices_S6x512_S1x512_3_0 : S6x512.Slices ![3, 0] S1x512
  slices_S6x512x512_S1x512x512_4_0_0 : S6x512x512.Slices ![4, 0, 0] S1x512x512
  slices_S6x512_S1x512_4_0 : S6x512.Slices ![4, 0] S1x512
  slices_S6x512x512_S1x512x512_5_0_0 : S6x512x512.Slices ![5, 0, 0] S1x512x512
  slices_S6x512_S1x512_5_0 : S6x512.Slices ![5, 0] S1x512
  bcast_S1440_S1x1440_1 : S1440.BroadcastsInDim S1x1440 (![1] : Fin 1 → Fin S1x1440.rank)
  bcast_S1x1440_S10000x1440_0_1 : S1x1440.BroadcastsInDim S10000x1440 (![0, 1] : Fin 2 → Fin S10000x1440.rank)
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  dot_S10000x256_S256x512_S10000x512_1_0_0_1_n_n_wf : DotDims.WF S10000x256 S256x512 S10000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x512_S10000x512_1_0_0_1_n_n_wf : DotDims.WF S10000x512 S512x512 S10000x512 [1] [0] [0] [1] [] []
  dot_S10000x512_S512x1440_S10000x1440_1_0_0_1_n_n_wf : DotDims.WF S10000x512 S512x1440 S10000x1440 [1] [0] [0] [1] [] []

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x1440_S10000x1440_1_0_0_1_n_n : DotDims S10000x512 S512x1440 S10000x1440 where
  lhsContracting := [1]
  rhsContracting := [0]
  lhsNonContracting := [0]
  rhsNonContracting := [1]
  lhsBatch := []
  rhsBatch := []
  wf := dot_S10000x512_S512x1440_S10000x1440_1_0_0_1_n_n_wf

class Facts : Prop extends Facts₀ where

variable [Facts]
-- ==== Proof.Spec.lean ====
/-
  The mathematics both programs compute, over plain finite index types and the extended reals.

  A matrix is a function of a row and a column.  One graph-convolution layer sends node features `H` to
  `relu (Â (H W) + H V + b)`, where `Â` is the weighted adjacency of the edge list: the kernel holds `Â` as a dense
  matrix over the padded node set and multiplies by it, the reference sums `w e • (H W) (dst e)` over the edges
  leaving each node.  The readout is `H Wd + bd`.
-/
import Idealize.ShloMosaic.PureOps.Ideal
import Idealize.ShloMosaic.Lib.ValueIdx

noncomputable section

namespace Cert.Spec

open Idealize.ShloMosaic Idealize.ShloMosaic.ValueIdx

/-- A matrix of extended reals: a function of the row and the column. -/
abbrev Mat (a b : ℕ) := Fin a → Fin b → EReal

/-- An array of rank two read as a matrix. -/
abbrev mat2 {a b : ℕ} (f : (⟨2, ![a, b]⟩ : Shape).Idx → EReal) : Mat a b := fun r q => f (ix2 r q)

/-- An array of rank one read as a function of its position. -/
abbrev vec1 {a : ℕ} (f : (⟨1, ![a]⟩ : Shape).Idx → EReal) : Fin a → EReal := fun r => f (ix1 r)

/-- The matrix product. -/
def mm {a k b : ℕ} (X : Mat a k) (Y : Mat k b) : Mat a b := fun r q => ∑ j : Fin k, X r j * Y j q

/-- The fused step: `relu (A M + H V + b)` for a given `M`. -/
def fused {n k : ℕ} (A : Mat n n) (M : Mat n 512) (H : Mat n k) (V : Mat k 512) (b : Fin 512 → EReal) : Mat n 512 :=
  fun r q => max ((mm A M r q + mm H V r q) + b q) 0

/-- One layer with a dense adjacency `A` over `n` nodes: `relu (A (H W) + H V + b)`. -/
def denseLayer {n k : ℕ} (A : Mat n n) (H : Mat n k) (W V : Mat k 512) (b : Fin 512 → EReal) : Mat n 512 :=
  fused A (mm H W) H V b

/-- What the edges leaving node `r` bring it: the sum over the edges `e` with source `r` of `w e` times row `d e` of `M`. -/
def edgeSum {n E : ℕ} (s d : Fin E → Fin n) (w : Fin E → EReal) (M : Mat n 512) : Mat n 512 :=
  fun r q => ∑ e ∈ Finset.univ.filter (fun e => s e = r), w e * M (d e) q

/-- One layer over the edge list: `relu (edgeSum (H W) + H V + b)`. -/
def edgeLayer {n k E : ℕ} (s d : Fin E → Fin n) (w : Fin E → EReal) (H : Mat n k) (W V : Mat k 512) (b : Fin 512 → EReal) :
    Mat n 512 :=
  fun r q => max ((edgeSum s d w (mm H W) r q + mm H V r q) + b q) 0

/-- The readout: `H Wd + bd`. -/
def readout {n p : ℕ} (H : Mat n 512) (Wd : Mat 512 p) (bd : Fin p → EReal) : Mat n p := fun r q => mm H Wd r q + bd q

/-- The seven layers and the readout with a dense adjacency. -/
def denseNet {n p : ℕ} (A : Mat n n) (X : Mat n 256) (W1 V1 : Mat 256 512) (b1 : Fin 512 → EReal)
    (Wk Vk : Fin 6 → Mat 512 512) (bk : Fin 6 → Fin 512 → EReal) (Wd : Mat 512 p) (bd : Fin p → EReal) : Mat n p :=
  let h1 := denseLayer A X W1 V1 b1
  let h2 := denseLayer A h1 (Wk 0) (Vk 0) (bk 0)
  let h3 := denseLayer A h2 (Wk 1) (Vk 1) (bk 1)
  let h4 := denseLayer A h3 (Wk 2) (Vk 2) (bk 2)
  let h5 := denseLayer A h4 (Wk 3) (Vk 3) (bk 3)
  let h6 := denseLayer A h5 (Wk 4) (Vk 4) (bk 4)
  let h7 := denseLayer A h6 (Wk 5) (Vk 5) (bk 5)
  readout h7 Wd bd

/-- The seven layers and the readout over the edge list. -/
def edgeNet {n p E : ℕ} (s d : Fin E → Fin n) (w : Fin E → EReal) (X : Mat n 256) (W1 V1 : Mat 256 512) (b1 : Fin 512 → EReal)
    (Wk Vk : Fin 6 → Mat 512 512) (bk : Fin 6 → Fin 512 → EReal) (Wd : Mat 512 p) (bd : Fin p → EReal) : Mat n p :=
  let h1 := edgeLayer s d w X W1 V1 b1
  let h2 := edgeLayer s d w h1 (Wk 0) (Vk 0) (bk 0)
  let h3 := edgeLayer s d w h2 (Wk 1) (Vk 1) (bk 1)
  let h4 := edgeLayer s d w h3 (Wk 2) (Vk 2) (bk 2)
  let h5 := edgeLayer s d w h4 (Wk 3) (Vk 3) (bk 3)
  let h6 := edgeLayer s d w h5 (Wk 4) (Vk 4) (bk 4)
  let h7 := edgeLayer s d w h6 (Wk 5) (Vk 5) (bk 5)
  readout h7 Wd bd

/-- A 32-bit index word read as a node number (its signed value when that lies in `[0, 10000)`). -/
def node (x : BitVec 32) : Fin 10000 := ⟨x.toInt.toNat % 10000, Nat.mod_lt _ (by decide)⟩

/-- Rows past the first `n` filled with zero. -/
def padRows {n N k : ℕ} (X : Mat n k) : Mat N k := fun r q => if h : r.val < n then X ⟨r.val, h⟩ q else 0

/-- Columns past the first `p` filled with zero. -/
def padCols {k p P : ℕ} (X : Mat k p) : Mat k P := fun r q => if h : q.val < p then X r ⟨q.val, h⟩ else 0

/-- Entries past the first `p` filled with zero. -/
def padVec {p P : ℕ} (v : Fin p → EReal) : Fin P → EReal := fun q => if h : q.val < p then v ⟨q.val, h⟩ else 0

/-- The dense adjacency over `N` slots of an edge list on `n` nodes: entry `(r, j)` sums `w e` over the edges from `r` to `j`. -/
def adjacency {n N E : ℕ} (s d : Fin E → Fin n) (w : Fin E → EReal) : Mat N N :=
  fun r j => ∑ e ∈ Finset.univ.filter (fun e => (s e).val = r.val ∧ (d e).val = j.val), w e

end Cert.Spec

end
-- ==== Proof.KDefs.lean ====
/-
  Names for what the kernel program holds at its segment boundaries, read as matrices: the dense weighted adjacency the
  host builds, the padded node features, each layer's output on the padded node set, and the padded readout.
-/
import proofs.«418437_j77618648973637_3_alg».proof.Proof.Gen.KernelIdeal.Frame
import proofs.«418437_j77618648973637_3_alg».proof.Proof.Spec

noncomputable section

namespace Cert.KernelIdeal.Val

open Idealize.ShloMosaic Idealize.ShloMosaic.TcCoe Idealize.SL.Sem Idealize.ShloMosaic.ValueIdx Cert.KernelIdeal Cert.KernelIdeal.Gen Cert.Spec

variable (m : (ℓ : Loc nD τ sig) → Buf (Elt Ideal) ℓ) (ρ : Dev nD → PrngReg)

/-- The dense weighted adjacency, as the host stretch that builds it leaves it. -/
def adj (c : Dev nD) : Mat 10240 10240 := mat2 (W1 (F := Ideal) m ρ c (Proc.devRef .tc main_v0))
/-- The node features padded to 10240 rows. -/
def feat0 (c : Dev nD) : Mat 10240 256 := mat2 (W2 (F := Ideal) m ρ c (Proc.devRef .tc main_call1_v1))
/-- Layer 1's output on the padded node set (the first fused region's array at its exit). -/
def feat1 (c : Dev nD) : Mat 10240 512 := mat2 (W4 (F := Ideal) m ρ c (Proc.devRef .tc main_call1_v6))
def feat2 (c : Dev nD) : Mat 10240 512 := mat2 (W7 (F := Ideal) m ρ c (Proc.devRef .tc main_call1_v17))
def feat3 (c : Dev nD) : Mat 10240 512 := mat2 (W10 (F := Ideal) m ρ c (Proc.devRef .tc main_call1_v28))
def feat4 (c : Dev nD) : Mat 10240 512 := mat2 (W13 (F := Ideal) m ρ c (Proc.devRef .tc main_call1_v39))
def feat5 (c : Dev nD) : Mat 10240 512 := mat2 (W16 (F := Ideal) m ρ c (Proc.devRef .tc main_call1_v50))
def feat6 (c : Dev nD) : Mat 10240 512 := mat2 (W19 (F := Ideal) m ρ c (Proc.devRef .tc main_call1_v61))
def feat7 (c : Dev nD) : Mat 10240 512 := mat2 (W22 (F := Ideal) m ρ c (Proc.devRef .tc main_call1_v72))
/-- The padded readout (the last region's array at its exit). -/
def outPad (c : Dev nD) : Mat 10240 1536 := mat2 (W24 (F := Ideal) m ρ c (Proc.devRef .tc main_call1_v77))

/-- The arguments read as matrices. -/
abbrev argX (c : Dev nD) : Mat 10000 256 := mat2 (m ((c : Thread nD τ).loc main_arg0))
abbrev argW1 (c : Dev nD) : Mat 256 512 := mat2 (m ((c : Thread nD τ).loc main_arg3))
abbrev argV1 (c : Dev nD) : Mat 256 512 := mat2 (m ((c : Thread nD τ).loc main_arg4))
abbrev argB1 (c : Dev nD) : Fin 512 → EReal := vec1 (m ((c : Thread nD τ).loc main_arg5))
abbrev argWk (c : Dev nD) : Fin 6 → Mat 512 512 := fun l j q => m ((c : Thread nD τ).loc main_arg6) (ix3 l j q)
abbrev argVk (c : Dev nD) : Fin 6 → Mat 512 512 := fun l j q => m ((c : Thread nD τ).loc main_arg7) (ix3 l j q)
abbrev argBk (c : Dev nD) : Fin 6 → Fin 512 → EReal := fun l q => m ((c : Thread nD τ).loc main_arg8) (ix2 l q)
abbrev argWd (c : Dev nD) : Mat 512 1440 := mat2 (m ((c : Thread nD τ).loc main_arg9))
abbrev argBd (c : Dev nD) : Fin 1440 → EReal := vec1 (m ((c : Thread nD τ).loc main_arg10))

end Cert.KernelIdeal.Val

end
-- ==== Proof.KAdj.lean ====
/-
  The dense weighted adjacency the kernel's host stretch builds.

  The stretch computes each edge's weight from the two degree counts, then adds every weight into a zero matrix at the
  position its edge names.  Read at one entry, the accumulating scatter is the sum of the weights of the edges that land
  there, which is the adjacency of the edge list.
-/
import proofs.«418437_j77618648973637_3_alg».proof.Proof.Gen.KernelIdeal.Frame
import proofs.«418437_j77618648973637_3_alg».proof.Proof.Spec
import proofs.«418437_j77618648973637_3_alg».proof.Proof.KDefs
import Idealize.ShloMosaic.Lib.Pipeline.Value
import Idealize.ShloMosaic.Lib.ValueIdx
import Idealize.ShloMosaic.Lib.ValueIdxRank1
import Idealize.ShloMosaic.Lib.IdealHost
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

/-- The edge weights, as the stretch's own operations of the two index arrays: each degree count is the accumulating
    scatter of ones at the index array, kept at least one; the weight of an edge is the reciprocal square root of the
    product of the out-degree at its source and the in-degree at its target (an index read with 10000 added where it
    is negative). -/
def wTerm (src dst : IVec S160000 32) : FVec Ideal S160000 .f32 :=
  Host.rsqrt
    (mulf
      (Host.gather gather_S10000_S160000x1_S160000_n_0_n_n_0_1_1
        (maximumf
          (Host.scatterAdd scatter_S10000_S160000x1_S160000_n_0_0_1
            (broadcastInDim S10000 ![] bcast_S_S10000 (constant (F := Ideal) S_ .f32 0x00000000#32))
            (broadcastInDim S160000x1 ![0] bcast_S160000_S160000x1_0 src)
            (broadcastInDim S160000 ![] bcast_S_S160000 (constant (F := Ideal) S_ .f32 0x3F800000#32)))
          (broadcastInDim S10000 ![] bcast_S_S10000 (constant (F := Ideal) S_ .f32 0x3F800000#32)))
        (broadcastInDim S160000x1 ![0] bcast_S160000_S160000x1_0
          (select (cmpi .slt src (broadcastInDim S160000 ![] bcast_S_S160000 (constantI S_ 32 0#32)))
            (addi src (broadcastInDim S160000 ![] bcast_S_S160000 (constantI S_ 32 10000#32))) src)))
      (Host.gather gather_S10000_S160000x1_S160000_n_0_n_n_0_1_1
        (maximumf
          (Host.scatterAdd scatter_S10000_S160000x1_S160000_n_0_0_1
            (broadcastInDim S10000 ![] bcast_S_S10000 (constant (F := Ideal) S_ .f32 0x00000000#32))
            (broadcastInDim S160000x1 ![0] bcast_S160000_S160000x1_0 dst)
            (broadcastInDim S160000 ![] bcast_S_S160000 (constant (F := Ideal) S_ .f32 0x3F800000#32)))
          (broadcastInDim S10000 ![] bcast_S_S10000 (constant (F := Ideal) S_ .f32 0x3F800000#32)))
        (broadcastInDim S160000x1 ![0] bcast_S160000_S160000x1_0
          (select (cmpi .slt dst (broadcastInDim S160000 ![] bcast_S_S160000 (constantI S_ 32 0#32)))
            (addi dst (broadcastInDim S160000 ![] bcast_S_S160000 (constantI S_ 32 10000#32))) dst))))

/-- The weight of edge `e`. -/
def wK (src dst : IVec S160000 32) : Fin 160000 → EReal := fun e => wTerm src dst (ix1 e)

variable (m : (ℓ : Loc nD τ sig) → Buf (Elt Ideal) ℓ) (ρ : Dev nD → PrngReg)

/-- An index array as the scatter into the padded matrix reads it: 10240 added where it is negative. -/
def wrap2 (ix : IVec S160000 32) : IVec S160000 32 :=
  select (cmpi .slt ix (broadcastInDim S160000 ![] bcast_S_S160000 (constantI S_ 32 0#32)))
    (addi ix (broadcastInDim S160000 ![] bcast_S_S160000 (constantI S_ 32 10240#32))) ix

/-- The two index arrays side by side: column 0 the sources, column 1 the targets. -/
def pairs (src dst : IVec S160000 32) : IVec S160000x2 32 :=
  concatenate S160000x2 1
    [⟨S160000x1, broadcastInDim S160000x1 ![0] bcast_S160000_S160000x1_0 (wrap2 src)⟩,
     ⟨S160000x1, broadcastInDim S160000x1 ![0] bcast_S160000_S160000x1_0 (wrap2 dst)⟩]
    concatenates_S160000x1_S160000x1_S160000x2_d1

/-- What the stretch leaves in the adjacency's buffer: the weights added into a zero matrix at the index pairs. -/
theorem W1_main_v0 (c : Dev nD) :
    W1 (F := Ideal) m ρ c (Proc.devRef .tc main_v0)
      = truncf .bf16 (Host.scatterAdd scatter_S10240x10240_S160000x2_S160000_n_01_01_1
          (broadcastInDim S10240x10240 ![] bcast_S_S10240x10240 (constant (F := Ideal) S_ .f32 0x00000000#32))
          (pairs (m ((c : Thread nD τ).loc main_arg1)) (m ((c : Thread nD τ).loc main_arg2)))
          (wTerm (m ((c : Thread nD τ).loc main_arg1)) (m ((c : Thread nD τ).loc main_arg2)))) bitsLt_bf16_f32 := by
  show StableHlo.after hostOps0 _ (Proc.devRef .tc main_v0) = _
  after_results_simp
  rfl

/-! ## Where one update of the scatter into the padded matrix lands -/

/-- The start of update `e`'s window on axis `a` is the index pair's entry `(e, a)`, read signed. -/
theorem start_pair (e : Fin 160000) (idx : IVec S160000x2 32) (a : Fin 2) :
    scatter_S10240x10240_S160000x2_S160000_n_01_01_1.start (ix1 e) idx a = (idx (ix2 e a)).toInt := by
  unfold ScatterDims.start
  rw [dif_pos (by fin_cases a <;> decide)]
  refine congrArg (fun k => (idx k).toInt) ?_
  funext b
  fin_cases a <;> fin_cases b <;> rfl

/-- Every axis of the matrix is an inserted one: an update's window is the single entry at its start. -/
theorem window_pair (e : Fin 160000) (a : Fin 2) :
    scatter_S10240x10240_S160000x2_S160000_n_01_01_1.window (ix1 e) a = 0 := by
  unfold ScatterDims.window
  rw [dif_neg (by fin_cases a <;> decide)]

/-- Update `e` lands on entry `(r, j)` exactly when the index pair's row `e` reads `(r, j)`. -/
theorem resultIdx_pair (e : Fin 160000) (idx : IVec S160000x2 32) (r j : Fin 10240) :
    scatter_S10240x10240_S160000x2_S160000_n_01_01_1.resultIdx? (ix1 e) idx = some (ix2 r j)
      ↔ (idx (ix2 e 0)).toInt = (r.val : Int) ∧ (idx (ix2 e 1)).toInt = (j.val : Int) := by
  have hr := r.isLt
  have hj := j.isLt
  unfold ScatterDims.resultIdx?
  split
  · rename_i h
    rw [Option.some.injEq]
    constructor
    · intro hf
      have h0 : (scatter_S10240x10240_S160000x2_S160000_n_01_01_1.start (ix1 e) idx 0
          + (scatter_S10240x10240_S160000x2_S160000_n_01_01_1.window (ix1 e) 0 : Int)).toNat = r.val :=
        congrArg Fin.val (congrFun hf 0)
      have h1 : (scatter_S10240x10240_S160000x2_S160000_n_01_01_1.start (ix1 e) idx 1
          + (scatter_S10240x10240_S160000x2_S160000_n_01_01_1.window (ix1 e) 1 : Int)).toNat = j.val :=
        congrArg Fin.val (congrFun hf 1)
      have b0 := (h 0).1
      have b1 := (h 1).1
      rw [start_pair, window_pair] at h0 h1 b0 b1
      constructor <;> omega
    · rintro ⟨h0, h1⟩
      funext a
      refine Fin.ext ?_
      revert a
      refine Fin.forall_fin_two.2 ⟨?_, ?_⟩
      · show (_ : Int).toNat = r.val
        rw [start_pair, window_pair]; omega
      · show (_ : Int).toNat = j.val
        rw [start_pair, window_pair]; omega
  · rename_i h
    constructor
    · intro hf; cases hf
    · rintro ⟨h0, h1⟩
      refine absurd (Fin.forall_fin_two.2 ⟨?_, ?_⟩) h
      · rw [start_pair, window_pair]
        show 0 ≤ (idx (ix2 e 0)).toInt + ((0 : Nat) : Int) ∧ (idx (ix2 e 0)).toInt + ((0 : Nat) : Int) < ((10240 : Nat) : Int)
        omega
      · rw [start_pair, window_pair]
        show 0 ≤ (idx (ix2 e 1)).toInt + ((0 : Nat) : Int) ∧ (idx (ix2 e 1)).toInt + ((0 : Nat) : Int) < ((10240 : Nat) : Int)
        omega

/-! ## The index pairs read at a row -/

/-- An array of 160000 words laid as one column, read at row `e`. -/
theorem column_apply (x : IVec S160000 32) (e : Fin 160000) :
    broadcastInDim S160000x1 ![0] bcast_S160000_S160000x1_0 x (ix2 e (0 : Fin 1)) = x (ix1 e) := by
  have h := broadcastInDim_apply ![0] bcast_S160000_S160000x1_0 x (ix2 e (0 : Fin 1)) (ix1 e) (by
    intro a
    match a with
    | ⟨0, _⟩ =>
      show e.val = if (160000 : Nat) = 1 then 0 else e.val
      rw [if_neg (by decide)])
  exact h

/-- Two columns side by side, read at column 0: the first. -/
theorem beside_col0 (x₁ x₂ : IVec S160000x1 32) (e : Fin 160000) :
    concatenate S160000x2 1 [⟨S160000x1, x₁⟩, ⟨S160000x1, x₂⟩] concatenates_S160000x1_S160000x1_S160000x2_d1 (ix2 e 0)
      = x₁ (ix2 e (0 : Fin 1)) := by
  have h := concatenate_pair_apply_left (t := S160000x2) (s₁ := S160000x1) (s₂ := S160000x1) (1 : Fin 2) x₁ x₂
    concatenates_S160000x1_S160000x1_S160000x2_d1 (ix2 e 0) rfl (ix2 e (0 : Fin 1)) (by
      intro b
      match b with
      | ⟨0, _⟩ => rfl
      | ⟨1, _⟩ => rfl)
  exact h

/-- Two columns side by side, read at column 1: the second. -/
theorem beside_col1 (x₁ x₂ : IVec S160000x1 32) (e : Fin 160000) :
    concatenate S160000x2 1 [⟨S160000x1, x₁⟩, ⟨S160000x1, x₂⟩] concatenates_S160000x1_S160000x1_S160000x2_d1 (ix2 e 1)
      = x₂ (ix2 e (0 : Fin 1)) := by
  have h := concatenate_pair_apply_right (t := S160000x2) (s₁ := S160000x1) (s₂ := S160000x1) (1 : Fin 2) x₁ x₂
    concatenates_S160000x1_S160000x1_S160000x2_d1 (ix2 e 1) rfl rfl (ix2 e (0 : Fin 1)) (by
      intro b hb
      match b, hb with
      | ⟨0, _⟩, _ => rfl
      | ⟨1, _⟩, hb => exact absurd rfl hb) rfl
  exact h

/-- A non-negative index is read as it stands: the comparison with zero fails and the select keeps the index. -/
theorem wrap2_apply (ix : IVec S160000 32) (e : Fin 160000) (h : 0 ≤ (ix (ix1 e)).toInt) :
    wrap2 ix (ix1 e) = ix (ix1 e) := by
  unfold wrap2
  rw [select_apply]
  have hc : cmpi .slt ix (broadcastInDim S160000 ![] bcast_S_S160000 (constantI S_ 32 0#32)) (ix1 e) = 0#1 := by
    show IntOp.cmpi .slt (ix (ix1 e)) (broadcastInDim S160000 ![] bcast_S_S160000 (constantI S_ 32 0#32) (ix1 e)) = 0#1
    rw [broadcastInDim_scalar_apply]
    show BitVec.ofBool ((ix (ix1 e)).slt 0#32) = 0#1
    have : (ix (ix1 e)).slt 0#32 = false := by
      rw [BitVec.slt_eq_decide]
      exact decide_eq_false (by simpa using h)
    rw [this]; rfl
  rw [hc, select_zero]

/-- Column 0 of the index pairs is the source array. -/
theorem pairs_col0 (src dst : IVec S160000 32) (e : Fin 160000) :
    pairs src dst (ix2 e 0) = wrap2 src (ix1 e) := by
  unfold pairs
  rw [beside_col0, column_apply]

/-- Column 1 of the index pairs is the target array. -/
theorem pairs_col1 (src dst : IVec S160000 32) (e : Fin 160000) :
    pairs src dst (ix2 e 1) = wrap2 dst (ix1 e) := by
  unfold pairs
  rw [beside_col1, column_apply]

/-! ## The adjacency -/

/-- An index word in `[0, 10000)` read as a node has the word's value. -/
theorem node_val (x : BitVec 32) (h0 : 0 ≤ x.toInt) (h1 : x.toInt < 10000) : ((node x).val : Int) = x.toInt := by
  show ((x.toInt.toNat % 10000 : Nat) : Int) = x.toInt
  omega

/-- The matrix the host stretch builds is the adjacency of the edge list with the stretch's own edge weights: entry
    `(r, j)` of the accumulating scatter into zeros is the sum of the weights of the updates that land there, and under
    the index ranges update `e` lands at `(src e, dst e)`. -/
theorem adj_eq (m : (ℓ : Loc nD τ sig) → Buf (Elt Ideal) ℓ) (ρ : Dev nD → PrngReg) (c : Dev nD)
    (hs : ∀ e : Fin 160000, 0 ≤ (m ((c : Thread nD τ).loc main_arg1) (ix1 e)).toInt ∧ (m ((c : Thread nD τ).loc main_arg1) (ix1 e)).toInt < 10000)
    (hd : ∀ e : Fin 160000, 0 ≤ (m ((c : Thread nD τ).loc main_arg2) (ix1 e)).toInt ∧ (m ((c : Thread nD τ).loc main_arg2) (ix1 e)).toInt < 10000) :
    adj m ρ c = adjacency (fun e => node (m ((c : Thread nD τ).loc main_arg1) (ix1 e))) (fun e => node (m ((c : Thread nD τ).loc main_arg2) (ix1 e)))
                  (wK (m ((c : Thread nD τ).loc main_arg1)) (m ((c : Thread nD τ).loc main_arg2))) := by
  funext r j
  show W1 (F := Ideal) m ρ c (Proc.devRef .tc main_v0) (ix2 r j) = _
  rw [W1_main_v0, truncf_apply]
  generalize hsrc : m ((c : Thread nD τ).loc main_arg1) = src at hs ⊢
  generalize hdst : m ((c : Thread nD τ).loc main_arg2) = dst at hd ⊢
  show Ideal.hostScatterAdd scatter_S10240x10240_S160000x2_S160000_n_01_01_1 _ (pairs src dst) (wTerm src dst) (ix2 r j) = _
  unfold Ideal.hostScatterAdd adjacency
  rw [broadcastInDim_scalar_apply, constant_apply, Ideal.ofBits_zero_f32, zero_add]
  refine Finset.sum_equiv idxEquiv1 (fun e' => ?_) (fun e' _ => ?_)
  · obtain ⟨e, rfl⟩ : ∃ e : Fin 160000, e' = ix1 e := ⟨e' 0, eq_ix1 e'⟩
    rw [Finset.mem_filter, Finset.mem_filter]
    refine (and_iff_right (Finset.mem_univ _)).trans (Iff.trans ?_ (and_iff_right (Finset.mem_univ _)).symm)
    show scatter_S10240x10240_S160000x2_S160000_n_01_01_1.resultIdx? (ix1 e) (pairs src dst) = some (ix2 r j)
      ↔ ((node (src (ix1 e))).val = r.val ∧ (node (dst (ix1 e))).val = j.val)
    rw [resultIdx_pair, pairs_col0, pairs_col1, wrap2_apply _ _ (hs e).1, wrap2_apply _ _ (hd e).1]
    have n1 := node_val _ (hs e).1 (hs e).2
    have n2 := node_val _ (hd e).1 (hd e).2
    omega
  · obtain ⟨e, rfl⟩ : ∃ e : Fin 160000, e' = ix1 e := ⟨e' 0, eq_ix1 e'⟩
    rfl

end Cert.KernelIdeal.Val

end
-- ==== Proof.RegM0.lean ====
/-
  The array that the product region 0 leaves: the region multiplies a [10240, 256] matrix, one block of 1024 rows
  at each of its ten grid points, by a whole [256, 512] matrix, and writes each [1024, 512] block of the product back.
  Entry (r, q) of the output array is therefore Σ_k lhs (r, k) · rhs (k, q), for every row r and column q: row r lies
  in the block of point r / 1024, and that point's body computes the block's entries as the same sums over the
  contraction index, read off the left operand's rows 1024 t … 1024 t + 1023 and the whole right operand.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.PureOps.Ideal.Laws
noncomputable section
namespace Cert.KernelIdeal.Val
open Idealize.ShloMosaic Idealize.ShloMosaic.TcCoe Idealize.SL.Sem Idealize.ShloMosaic.ValueIdx Cert.KernelIdeal Cert.KernelIdeal.Gen Cert.Spec

/-- The zero offsets of a whole-block access. -/
theorem mm0_hz : (![0, 0] : Fin 2 → Nat) = fun _ => 0 := funext fun a => by fin_cases a <;> rfl

/-! ## The body's product at an index -/

/-- The left operand's row coordinate at output index `i` is `i`'s row. -/
theorem mm0_lhs_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
/-- The left operand's column coordinate is the contraction position. -/
theorem mm0_lhs_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
/-- The right operand's row coordinate is the contraction position. -/
theorem mm0_rhs_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
/-- The right operand's column coordinate at output index `i` is `i`'s column. -/
theorem mm0_rhs_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The body's stored value at (p, q): the casts between equal shapes and the change of float format are the identity
    on extended reals, and the product into a zero accumulator is the sum over the contraction index. -/
theorem mm0_pay_apply (x0 : FVec Ideal S1024x256 .bf16) (x1 : FVec Ideal S256x512 .bf16) (p : Fin 1024) (q : Fin 512) :
    k0_pay1 (F := Ideal) x0 x1 (ix2 p q) = ∑ k : Fin 256, x0 (ix2 p k) * x1 (ix2 k q) := by
  unfold k0_pay1
  simp only [shapeCast_self]
  show FloatOps.matmul dot_S1024x256_S256x512_S1024x512_1_0_0_1_n_n none x0 x1 (constant S1024x512 .f32 0x00000000#32) (ix2 p q) = _
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 p q) ((contrEquiv1 dot_S1024x256_S256x512_S1024x512_1_0_0_1_n_n 256 rfl rfl).symm k) = ix2 p k := funext fun a => Fin.ext (by
    match a with
    | ⟨0, _⟩ => exact mm0_lhs_0 _ _
    | ⟨1, _⟩ => exact (mm0_lhs_1 _ _).trans hk)
  have er : dot_S1024x256_S256x512_S1024x512_1_0_0_1_n_n.rhsIdx (ix2 p q) ((contrEquiv1 dot_S1024x256_S256x512_S1024x512_1_0_0_1_n_n 256 rfl rfl).symm k) = ix2 k q := funext fun a => Fin.ext (by
    match a with
    | ⟨0, _⟩ => exact (mm0_rhs_0 _ _).trans hk
    | ⟨1, _⟩ => exact mm0_rhs_1 _ _)
  rw [el, er]

/-! ## The whole product, and each point's block of it -/

variable (V : (c : Dev nD) → (b : Ref sig .tc) → Buf (Elt Ideal) ((c : Thread nD τ).loc b))

/-- The whole product of the two arrays, index by index. -/
def mm0_prod (A : S10240x256.Idx → EReal) (B : S256x512.Idx → EReal) : S10240x512.Idx → EReal :=
  fun i => mm (mat2 A) (mat2 B) (i 0) (i 1)

/-- The block indices over the grid: the left operand's and the output's blocks move down the rows with the point, the
    right operand stays whole. -/
theorem mm0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block's entry (p, q) is the whole product's entry at `i` when the left block's row p is the left array's row
    `i 0` and the right block's column q is the right array's column `i 1`. -/
theorem mm0_point (A : S10240x256.Idx → EReal) (B : S256x512.Idx → EReal) (x0 : FVec Ideal S1024x256 .bf16) (x1 : FVec Ideal S256x512 .bf16)
    (p : Fin 1024) (q : Fin 512) (i : S10240x512.Idx)
    (hx0 : ∀ k : Fin 256, x0 (ix2 p k) = A (ix2 (i 0) k)) (hx1 : ∀ k : Fin 256, x1 (ix2 k q) = B (ix2 k (i 1))) :
    k0_pay1 (F := Ideal) x0 x1 (ix2 p q) = mm0_prod A B i := by
  rw [mm0_pay_apply]
  show _ = ∑ k : Fin 256, A (ix2 (i 0) k) * B (ix2 k (i 1))
  exact Finset.sum_congr rfl fun k _ => by rw [hx0 k, hx1 k]

/-- The left operand's block at point `t` holds rows 1024 t … 1024 t + 1023 of its array. -/
theorem mm0_blk_0 (c : Dev nD) (t : Fin cfg0.N) (p : Fin 1024) (k : Fin 256) (i : S10240x256.Idx)
    (h0 : (i 0).val = t.val * 1024 + p.val) (h1 : (i 1).val = k.val) :
    (iblk0 V c 0 t : FVec Ideal S1024x256 .bf16) (ix2 p k) = V c (Pipeline.arrRef spec0 0) i := by
  obtain ⟨e0, e1, -⟩ := mm0_idx t
  unfold iblk0
  rw [View.read_apply]
  show V c (Pipeline.arrRef spec0 0) (((cfg0.win 0).blk t).view.emb (ix2 p k)) = V c (Pipeline.arrRef spec0 0) i
  refine congrArg _ (funext fun a => Fin.ext ?_)
  match a with
  | ⟨0, _⟩ => show win0_0.index t (0 : Fin 2) * 1024 + 1 * p.val = (i 0).val; omega
  | ⟨1, _⟩ => show win0_0.index t (1 : Fin 2) * 256 + 1 * k.val = (i 1).val; omega

/-- The right operand's block at every point is its whole array. -/
theorem mm0_blk_1 (c : Dev nD) (t : Fin cfg0.N) (k : Fin 256) (q : Fin 512) (i : S256x512.Idx)
    (h0 : (i 0).val = k.val) (h1 : (i 1).val = q.val) :
    (iblk0 V c 1 t : FVec Ideal S256x512 .bf16) (ix2 k q) = V c (Pipeline.arrRef spec0 1) i := by
  obtain ⟨-, -, e2, e3, -⟩ := mm0_idx t
  unfold iblk0
  rw [View.read_apply]
  show V c (Pipeline.arrRef spec0 1) (((cfg0.win 1).blk t).view.emb (ix2 k q)) = V c (Pipeline.arrRef spec0 1) i
  refine congrArg _ (funext fun a => Fin.ext ?_)
  match a with
  | ⟨0, _⟩ => show win0_1.index t (0 : Fin 2) * 256 + 1 * k.val = (i 0).val; omega
  | ⟨1, _⟩ => show win0_1.index t (1 : Fin 2) * 512 + 1 * q.val = (i 1).val; omega

/-- Entry (p, q) of the output's block at point `t` sits at row 1024 t + p, column q of the output array. -/
theorem mm0_emb (t : Fin cfg0.N) (p : Fin 1024) (q : Fin 512) :
    ((((cfg0.win 2).blk t).view.emb (ix2 p q)) 0).val = t.val * 1024 + p.val
      ∧ ((((cfg0.win 2).blk t).view.emb (ix2 p q)) 1).val = q.val := by
  obtain ⟨-, -, -, -, e4, e5⟩ := mm0_idx t
  constructor
  · show win0_2.index t (0 : Fin 2) * 1024 + 1 * p.val = _; omega
  · show win0_2.index t (1 : Fin 2) * 512 + 1 * q.val = _; omega

/-- What point `t` writes back is block `t` of the whole product of the arrays as the region finds them. -/
theorem mm0_flushed_eq (c : Dev nD) (t : Fin cfg0.N) :
    (dat0 (F := Ideal) V c).flushed 2 t
      = ((cfg0.win 2).blk t).view.read (Elt Ideal) (mm0_prod (V c (Pipeline.arrRef spec0 0)) (V c (Pipeline.arrRef spec0 1))) := by
  show (cfg0.win 2).cut (grid0.coords t) ((dat0 V c).after 2 t) = _
  rw [after0_2]
  unfold out0_2
  rw [View.canon_unit_zero mm0_hz]
  simp only [View.ld_unit_zero (S := S1024x256) mm0_hz, View.ld_unit_zero (S := S256x512) mm0_hz]
  funext j
  obtain ⟨p, q, rfl⟩ : ∃ (p : Fin 1024) (q : Fin 512), j = ix2 p q := ⟨j 0, j 1, eq_ix2 j⟩
  show k0_pay1 (F := Ideal) (iblk0 V c 0 t) (iblk0 V c 1 t) (ix2 p q)
    = mm0_prod (V c (Pipeline.arrRef spec0 0)) (V c (Pipeline.arrRef spec0 1)) (((cfg0.win 2).blk t).view.emb (ix2 p q))
  exact mm0_point _ _ (iblk0 V c 0 t) (iblk0 V c 1 t) p q _
    (fun k => mm0_blk_0 V c t p k _ (mm0_emb t p q).1 rfl) (fun k => mm0_blk_1 V c t k q _ rfl (mm0_emb t p q).2)

/-! ## The blocks cover the array -/

/-- An index of the output array is in point `t`'s block iff each coordinate is in the block's range on its axis. -/
theorem mm0_mem_blk (t : Fin cfg0.N) (i : S10240x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole (Pipeline.arrRef spec0 2)).slice (win0_2.rect t)).set ↔ _
  rw [View.set_slice_whole, Rect.mem_set_unit]
  exact Iff.rfl

/-- Row r of the output array lies in the block of point r / 1024. -/
theorem mm0_cover (i : S10240x512.Idx) : ∃ t : Fin cfg0.N, (cfg0.win 2).flush t = true ∧ i ∈ ((cfg0.win 2).blk t).view.set := by
  have hi0 : (i 0).val < 10240 := (i 0).isLt
  have hi1 : (i 1).val < 512 := (i 1).isLt
  have hN : cfg0.N = 10 := N_0
  have ht : (i 0).val / 1024 < cfg0.N := by rw [hN]; omega
  refine ⟨⟨(i 0).val / 1024, ht⟩, flush0_2 _, ?_⟩
  rw [mm0_mem_blk]
  obtain ⟨-, -, -, -, e4, e5⟩ := mm0_idx ⟨(i 0).val / 1024, ht⟩
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e4]
    show (i 0).val / 1024 * 1024 ≤ (i 0).val ∧ (i 0).val < (i 0).val / 1024 * 1024 + 1024
    omega
  | ⟨1, _⟩ =>
    show win0_2.index ⟨(i 0).val / 1024, ht⟩ (1 : Fin 2) * 512 ≤ (i 1).val
      ∧ (i 1).val < win0_2.index ⟨(i 0).val / 1024, ht⟩ (1 : Fin 2) * 512 + 512
    rw [e5]
    omega

/-! ## The output array after the region -/

/-- After the region the output array holds the product of the two input arrays as the region found them, entry by entry. -/
theorem arr0 (c : Dev nD) (r : Fin 10240) (q : Fin 512) :
    (dat0 (F := Ideal) V c).arrAt 2 cfg0.N (ix2 r q)
      = mm (mat2 (V c (Pipeline.arrRef spec0 0))) (mat2 (V c (Pipeline.arrRef spec0 1))) r q :=
  congrFun ((dat0 (F := Ideal) V c).arrAt_eq_of_cover 2
    (mm0_prod (V c (Pipeline.arrRef spec0 0)) (V c (Pipeline.arrRef spec0 1)))
    (fun t _ => mm0_flushed_eq V c t) mm0_cover) (ix2 r q)

end Cert.KernelIdeal.Val

end
-- ==== Proof.RegS1.lean ====
/-
  The fused region of the first layer: what its output array holds after the region, entry by entry.

  The grid has 20 points. Point `t` takes rows `512 t … 512 t + 511` of the adjacency `A` (10240 columns) and of the node
  features `H` (256 columns), and the whole of `M` (10240 × 512), of `V` (256 × 512) and of the bias row `b`; it stores
  `max (A_t M + H_t V + b) 0` into rows `512 t … 512 t + 511` of the output. On the extended reals each product is the exact
  sum over its inner index and the change of format is the identity, so entry `(512 t + p, q)` of what point `t` writes is
  `Spec.fused A M H V b (512 t + p) q`. The 20 row blocks cover the 10240 rows, so the output array is `Spec.fused` of the
  arrays the region finds, at every entry.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

/-! ## The two products of the fused step, entry by entry -/

theorem hz1 : (![0, 0] : Fin 2 → Nat) = fun _ => 0 := funext fun a => by fin_cases a <;> rfl

/-- The product with the adjacency block: the left operand is read at the output's row and the summed position, -/
theorem lhsA1_0 (i : S512x512.Idx) (q : dot_S512x10240_S10240x512_S512x512_1_0_0_1_n_n.contr.Idx) :
    (dot_S512x10240_S10240x512_S512x512_1_0_0_1_n_n.lhsIdx i q 0).val = (i 0).val := by
  unfold DotDims.lhsIdx
  rw [dif_neg (show ¬(0 : Fin S512x10240.rank) ∈ dot_S512x10240_S10240x512_S512x512_1_0_0_1_n_n.lhsBatch by decide), dif_pos (show (0 : Fin S512x10240.rank) ∈ dot_S512x10240_S10240x512_S512x512_1_0_0_1_n_n.lhsNonContracting by decide)]
  rfl
theorem lhsA1_1 (i : S512x512.Idx) (q : dot_S512x10240_S10240x512_S512x512_1_0_0_1_n_n.contr.Idx) :
    (dot_S512x10240_S10240x512_S512x512_1_0_0_1_n_n.lhsIdx i q 1).val = (q ⟨0, by decide⟩).val :=
  dot_S512x10240_S10240x512_S512x512_1_0_0_1_n_n.lhsIdx_val_of_single rfl i q
/-- the right operand at the summed position and the output's column. -/
theorem rhsA1_0 (i : S512x512.Idx) (q : dot_S512x10240_S10240x512_S512x512_1_0_0_1_n_n.contr.Idx) :
    (dot_S512x10240_S10240x512_S512x512_1_0_0_1_n_n.rhsIdx i q 0).val = (q ⟨0, by decide⟩).val :=
  dot_S512x10240_S10240x512_S512x512_1_0_0_1_n_n.rhsIdx_val_of_single rfl i q
theorem rhsA1_1 (i : S512x512.Idx) (q : dot_S512x10240_S10240x512_S512x512_1_0_0_1_n_n.contr.Idx) :
    (dot_S512x10240_S10240x512_S512x512_1_0_0_1_n_n.rhsIdx i q 1).val = (i 1).val := by
  unfold DotDims.rhsIdx
  rw [dif_neg (show ¬(1 : Fin S10240x512.rank) ∈ dot_S512x10240_S10240x512_S512x512_1_0_0_1_n_n.rhsBatch by decide), dif_pos (show (1 : Fin S10240x512.rank) ∈ dot_S512x10240_S10240x512_S512x512_1_0_0_1_n_n.rhsNonContracting by decide)]
  rfl

/-- A block of 512 rows of the adjacency against the whole of `M`, into a zero accumulator: entry `(p, q)` is the sum
    over the 10240 slots `k` of the row's weight at `k` times `M k q`. -/
theorem mmA1_apply (x : FVec Ideal S512x10240 .bf16) (y : FVec Ideal S10240x512 .bf16) (p q : Fin 512) :
    matmul dot_S512x10240_S10240x512_S512x512_1_0_0_1_n_n none x y (constant S512x512 .f32 0x00000000#32) (ix2 p q)
      = ∑ k : Fin 10240, x (ix2 p k) * y (ix2 k q) := by
  simp only [matmul]
  rw [Ideal.matmul_constant_zero_apply, ← Equiv.sum_comp (contrEquiv1 dot_S512x10240_S10240x512_S512x512_1_0_0_1_n_n 10240 rfl rfl).symm]
  refine Finset.sum_congr rfl fun k _ => ?_
  have hk := contrEquiv1_symm_val dot_S512x10240_S10240x512_S512x512_1_0_0_1_n_n 10240 rfl rfl k
  have el : dot_S512x10240_S10240x512_S512x512_1_0_0_1_n_n.lhsIdx (ix2 p q) ((contrEquiv1 dot_S512x10240_S10240x512_S512x512_1_0_0_1_n_n 10240 rfl rfl).symm k) = ix2 p k := funext fun a => Fin.ext (by
    match a with
    | ⟨0, _⟩ => exact lhsA1_0 _ _
    | ⟨1, _⟩ => exact (lhsA1_1 _ _).trans hk)
  have er : dot_S512x10240_S10240x512_S512x512_1_0_0_1_n_n.rhsIdx (ix2 p q) ((contrEquiv1 dot_S512x10240_S10240x512_S512x512_1_0_0_1_n_n 10240 rfl rfl).symm k) = ix2 k q := funext fun a => Fin.ext (by
    match a with
    | ⟨0, _⟩ => exact (rhsA1_0 _ _).trans hk
    | ⟨1, _⟩ => exact rhsA1_1 _ _)
  rw [el, er]

/-- The product of the block's own features with `V`: the same reading of the two operands. -/
theorem lhsB1_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhsB1_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem rhsB1_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem rhsB1_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- A block of 512 rows of `H` against the whole of `V`, into a zero accumulator: entry `(p, q)` is the sum over the
    256 feature positions `k` of `H p k * V k q`. -/
theorem mmB1_apply (x : FVec Ideal S512x256 .bf16) (y : FVec Ideal S256x512 .bf16) (p q : Fin 512) :
    matmul dot_S512x256_S256x512_S512x512_1_0_0_1_n_n none x y (constant S512x512 .f32 0x00000000#32) (ix2 p q)
      = ∑ k : Fin 256, x (ix2 p k) * y (ix2 k q) := by
  simp only [matmul]
  rw [Ideal.matmul_constant_zero_apply, ← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 p q) ((contrEquiv1 dot_S512x256_S256x512_S512x512_1_0_0_1_n_n 256 rfl rfl).symm k) = ix2 p k := funext fun a => Fin.ext (by
    match a with
    | ⟨0, _⟩ => exact lhsB1_0 _ _
    | ⟨1, _⟩ => exact (lhsB1_1 _ _).trans hk)
  have er : dot_S512x256_S256x512_S512x512_1_0_0_1_n_n.rhsIdx (ix2 p q) ((contrEquiv1 dot_S512x256_S256x512_S512x512_1_0_0_1_n_n 256 rfl rfl).symm k) = ix2 k q := funext fun a => Fin.ext (by
    match a with
    | ⟨0, _⟩ => exact (rhsB1_0 _ _).trans hk
    | ⟨1, _⟩ => exact rhsB1_1 _ _)
  rw [el, er]

/-! ## The body's result at an entry of the block -/

/-- Entry `(p, q)` of what the body stores: the two products added, the bias of column `q` added, the maximum with zero
    taken; the change of format at the end is the identity on the extended reals. -/
theorem pay1_apply (x0 : Vec Ideal S512x10240 .bf16) (x1 : Vec Ideal S10240x512 .bf16) (x2 : Vec Ideal S512x256 .bf16)
    (x3 : Vec Ideal S256x512 .bf16) (x4 : Vec Ideal S1x512 .f32) (p q : Fin 512) :
    k1_pay1 x0 x1 x2 x3 x4 (ix2 p q)
      = max (((∑ k : Fin 10240, x0 (ix2 p k) * x1 (ix2 k q)) + ∑ k : Fin 256, x2 (ix2 p k) * x3 (ix2 k q)) + x4 (ix2 (0 : Fin 1) q)) 0 := by
  unfold k1_pay1
  simp only [shapeCast_self]
  rw [truncf_apply, maximumf_apply, addf_apply, addf_apply, mmA1_apply, mmB1_apply, broadcast_apply,
    broadcastTo_apply x4 broadcasts_S1x512_S512x512 (ix2 p q) (ix2 (0 : Fin 1) q) (fun a => by
      match a with
      | ⟨0, _⟩ => rfl
      | ⟨1, _⟩ => rfl)]
  show max _ (Ideal.ofBits .f32 0x00000000#32) = _
  rw [Ideal.ofBits_zero_f32]

/-! ## Which block of each array a point reads -/

variable (V : (c : Dev nD) → (b : Ref sig .tc) → Buf (Elt Ideal) ((c : Thread nD τ).loc b))

/-- Point `t` takes block `t` of the rows of the adjacency, of `H` and of the output, and the whole of `M`, of `V`
    and of the bias (decided over the 20 points). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the adjacency block at point `t` is row `512 t + p` of the adjacency. -/
theorem blk1_0 (c : Dev nD) (t : Fin cfg1.N) (p : Fin 512) (k : Fin 10240) (r : Fin 10240) (hr : r.val = t.val * 512 + p.val) :
    (iblk1 V c 0 t : Vec Ideal S512x10240 .bf16) (ix2 p k) = mat2 (V c (Pipeline.arrRef spec1 0)) r k := by
  obtain ⟨e0, e1, -⟩ := idx1 t
  unfold iblk1
  rw [View.read_apply]
  show V c (Pipeline.arrRef spec1 0) _ = V c (Pipeline.arrRef spec1 0) (ix2 r k)
  congr 1
  funext a; apply Fin.ext
  match a with
  | ⟨0, _⟩ => show win1_0.index t (0 : Fin 2) * 512 + 1 * p.val = r.val; omega
  | ⟨1, _⟩ => show win1_0.index t (1 : Fin 2) * 10240 + 1 * k.val = k.val; omega

/-- The block of `M` is all of `M`. -/
theorem blk1_1 (c : Dev nD) (t : Fin cfg1.N) (k : Fin 10240) (q : Fin 512) :
    (iblk1 V c 1 t : Vec Ideal S10240x512 .bf16) (ix2 k q) = mat2 (V c (Pipeline.arrRef spec1 1)) k q := by
  obtain ⟨-, -, e0, e1, -⟩ := idx1 t
  unfold iblk1
  rw [View.read_apply]
  show V c (Pipeline.arrRef spec1 1) _ = V c (Pipeline.arrRef spec1 1) (ix2 k q)
  congr 1
  funext a; apply Fin.ext
  match a with
  | ⟨0, _⟩ => show win1_1.index t (0 : Fin 2) * 10240 + 1 * k.val = k.val; omega
  | ⟨1, _⟩ => show win1_1.index t (1 : Fin 2) * 512 + 1 * q.val = q.val; omega

/-- Row `p` of the block of `H` at point `t` is row `512 t + p` of `H`. -/
theorem blk1_2 (c : Dev nD) (t : Fin cfg1.N) (p : Fin 512) (k : Fin 256) (r : Fin 10240) (hr : r.val = t.val * 512 + p.val) :
    (iblk1 V c 2 t : Vec Ideal S512x256 .bf16) (ix2 p k) = mat2 (V c (Pipeline.arrRef spec1 2)) r k := by
  obtain ⟨-, -, -, -, e0, e1, -⟩ := idx1 t
  unfold iblk1
  rw [View.read_apply]
  show V c (Pipeline.arrRef spec1 2) _ = V c (Pipeline.arrRef spec1 2) (ix2 r k)
  congr 1
  funext a; apply Fin.ext
  match a with
  | ⟨0, _⟩ => show win1_2.index t (0 : Fin 2) * 512 + 1 * p.val = r.val; omega
  | ⟨1, _⟩ => show win1_2.index t (1 : Fin 2) * 256 + 1 * k.val = k.val; omega

/-- The block of `V` is all of `V`. -/
theorem blk1_3 (c : Dev nD) (t : Fin cfg1.N) (k : Fin 256) (q : Fin 512) :
    (iblk1 V c 3 t : Vec Ideal S256x512 .bf16) (ix2 k q) = mat2 (V c (Pipeline.arrRef spec1 3)) k q := by
  obtain ⟨-, -, -, -, -, -, e0, e1, -⟩ := idx1 t
  unfold iblk1
  rw [View.read_apply]
  show V c (Pipeline.arrRef spec1 3) _ = V c (Pipeline.arrRef spec1 3) (ix2 k q)
  congr 1
  funext a; apply Fin.ext
  match a with
  | ⟨0, _⟩ => show win1_3.index t (0 : Fin 2) * 256 + 1 * k.val = k.val; omega
  | ⟨1, _⟩ => show win1_3.index t (1 : Fin 2) * 512 + 1 * q.val = q.val; omega

/-- The block of the bias is the whole bias row. -/
theorem blk1_4 (c : Dev nD) (t : Fin cfg1.N) (q : Fin 512) :
    (iblk1 V c 4 t : Vec Ideal S1x512 .f32) (ix2 (0 : Fin 1) q) = V c (Pipeline.arrRef spec1 4) (ix2 (0 : Fin 1) q) := by
  obtain ⟨-, -, -, -, -, -, -, -, e0, e1, -⟩ := idx1 t
  unfold iblk1
  rw [View.read_apply]
  show V c (Pipeline.arrRef spec1 4) _ = V c (Pipeline.arrRef spec1 4) (ix2 (0 : Fin 1) q)
  congr 1
  funext a; apply Fin.ext
  match a with
  | ⟨0, _⟩ => show win1_4.index t (0 : Fin 2) * 1 + 1 * (0 : Fin 1).val = (0 : Fin 1).val; omega
  | ⟨1, _⟩ => show win1_4.index t (1 : Fin 2) * 512 + 1 * q.val = q.val; omega

/-! ## What a point writes back, and the whole array -/

/-- Entry `(p, q)` of the body's result at point `t` is entry `(512 t + p, q)` of the fused step of the whole arrays:
    each block entry is read where the point's rectangle puts it, the sums term by term. -/
theorem point1 (c : Dev nD) (t : Fin cfg1.N) (p q : Fin 512) (r : Fin 10240) (hr : r.val = t.val * 512 + p.val) :
    k1_pay1 (iblk1 V c 0 t) (iblk1 V c 1 t) (iblk1 V c 2 t) (iblk1 V c 3 t) (iblk1 V c 4 t) (ix2 p q)
      = fused (mat2 (V c (Pipeline.arrRef spec1 0))) (mat2 (V c (Pipeline.arrRef spec1 1))) (mat2 (V c (Pipeline.arrRef spec1 2)))
        (mat2 (V c (Pipeline.arrRef spec1 3))) (fun q => V c (Pipeline.arrRef spec1 4) (ix2 (0 : Fin 1) q)) r q := by
  refine (pay1_apply (iblk1 V c 0 t) (iblk1 V c 1 t) (iblk1 V c 2 t) (iblk1 V c 3 t) (iblk1 V c 4 t) p q).trans ?_
  unfold fused mm
  refine congrArg (fun z => max z 0) ?_
  refine congrArg₂ (· + ·) (congrArg₂ (· + ·) (Finset.sum_congr rfl fun k _ => ?_) (Finset.sum_congr rfl fun k _ => ?_)) ?_
  · exact congrArg₂ (· * ·) (blk1_0 V c t p k r hr) (blk1_1 V c t k q)
  · exact congrArg₂ (· * ·) (blk1_2 V c t p k r hr) (blk1_3 V c t k q)
  · exact blk1_4 V c t q

/-- The output array as one function of the arrays the region finds: the fused step, entry by entry. -/
abbrev res1 (c : Dev nD) : S10240x512.Idx → EReal := fun i =>
  fused (mat2 (V c (Pipeline.arrRef spec1 0))) (mat2 (V c (Pipeline.arrRef spec1 1))) (mat2 (V c (Pipeline.arrRef spec1 2)))
        (mat2 (V c (Pipeline.arrRef spec1 3))) (fun q => V c (Pipeline.arrRef spec1 4) (ix2 (0 : Fin 1) q)) (i 0) (i 1)

/-- What point `t` writes back is block `t` of that function. -/
theorem flushed1_eq (c : Dev nD) (t : Fin cfg1.N) :
    (dat1 (F := Ideal) V c).flushed 5 t = ((cfg1.win 5).blk t).view.read (Elt Ideal) (res1 V c) := by
  show (cfg1.win 5).cut (grid1.coords t) ((dat1 V c).after 5 t) = _
  rw [after1_5]
  unfold out1_5
  rw [View.canon_unit_zero hz1]
  simp only [View.ld_unit_zero (S := S512x10240) hz1, View.ld_unit_zero (S := S10240x512) hz1, View.ld_unit_zero (S := S512x256) hz1, View.ld_unit_zero (S := S256x512) hz1, View.ld_unit_zero (S := S1x512) hz1]
  obtain ⟨-, -, -, -, -, -, -, -, -, -, e0, e1⟩ := idx1 t
  have hN : cfg1.N = 20 := N_1
  have ht : t.val < 20 := hN ▸ t.isLt
  funext j
  have hj0 : (j 0).val < 512 := (j 0).isLt
  have hj1 : (j 1).val < 512 := (j 1).isLt
  have hx : (cfg1.win 5).xinj (grid1.coords t) j = ix2 (⟨(j 0).val, hj0⟩ : Fin 512) (⟨(j 1).val, hj1⟩ : Fin 512) :=
    funext fun a => by
      match a with
      | ⟨0, _⟩ => rfl
      | ⟨1, _⟩ => rfl
  have hy : ((cfg1.win 5).blk t).view.emb j
      = ix2 (⟨t.val * 512 + (j 0).val, by omega⟩ : Fin 10240) (⟨(j 1).val, hj1⟩ : Fin 512) := by
    funext a; apply Fin.ext
    match a with
    | ⟨0, _⟩ => show win1_5.index t (0 : Fin 2) * 512 + 1 * (j 0).val = t.val * 512 + (j 0).val; omega
    | ⟨1, _⟩ => show win1_5.index t (1 : Fin 2) * 512 + 1 * (j 1).val = (j 1).val; omega
  show k1_pay1 (iblk1 V c 0 t) (iblk1 V c 1 t) (iblk1 V c 2 t) (iblk1 V c 3 t) (iblk1 V c 4 t) ((cfg1.win 5).xinj (grid1.coords t) j)
    = res1 V c (((cfg1.win 5).blk t).view.emb j)
  rw [hx, hy]
  exact point1 V c t _ _ _ rfl

/-- An entry of the array is in point `t`'s block when each coordinate is in the block's range on its axis. -/
theorem mem_blk1 (t : Fin cfg1.N) (i : S10240x512.Idx) :
    i ∈ ((cfg1.win 5).blk t).view.set ↔ ∀ a : Fin 2, win1_5.index t a * S512x512.size a ≤ (i a).val ∧ (i a).val < win1_5.index t a * S512x512.size a + S512x512.size a := by
  show i ∈ ((View.whole (Pipeline.arrRef spec1 5)).slice (win1_5.rect t)).set ↔ _
  rw [View.set_slice_whole, Rect.mem_set_unit]
  exact Iff.rfl

/-- Row `r` lies in the block of point `r / 512`: the 20 blocks of 512 rows cover the 10240 rows. -/
theorem cover1 (i : S10240x512.Idx) : ∃ t : Fin cfg1.N, (cfg1.win 5).flush t = true ∧ i ∈ ((cfg1.win 5).blk t).view.set := by
  have hi0 : (i 0).val < 10240 := (i 0).isLt
  have hi1 : (i 1).val < 512 := (i 1).isLt
  have hN : cfg1.N = 20 := N_1
  have hlt : (i 0).val / 512 < cfg1.N := by rw [hN]; omega
  obtain ⟨-, -, -, -, -, -, -, -, -, -, e0, e1⟩ := idx1 ⟨(i 0).val / 512, hlt⟩
  refine ⟨⟨(i 0).val / 512, hlt⟩, flush1_5 _, ?_⟩
  rw [mem_blk1]
  intro a
  match a with
  | ⟨0, _⟩ =>
    show win1_5.index ⟨(i 0).val / 512, hlt⟩ (0 : Fin 2) * 512 ≤ (i 0).val ∧ (i 0).val < win1_5.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win1_5.index ⟨(i 0).val / 512, hlt⟩ (1 : Fin 2) * 512 ≤ (i 1).val ∧ (i 1).val < win1_5.index ⟨(i 0).val / 512, hlt⟩ (1 : Fin 2) * 512 + 512
    rw [e1]; omega

/-- After the region the output array holds the fused step of the arrays the region found, at every entry. -/
theorem arr1 (c : Dev nD) (r : Fin 10240) (q : Fin 512) :
    (dat1 (F := Ideal) V c).arrAt 5 cfg1.N (ix2 r q)
      = fused (mat2 (V c (Pipeline.arrRef spec1 0))) (mat2 (V c (Pipeline.arrRef spec1 1))) (mat2 (V c (Pipeline.arrRef spec1 2)))
        (mat2 (V c (Pipeline.arrRef spec1 3))) (fun q => V c (Pipeline.arrRef spec1 4) (ix2 (0 : Fin 1) q)) r q :=
  congrFun ((dat1 (F := Ideal) V c).arrAt_eq_of_cover 5 (res1 V c) (fun t _ => flushed1_eq V c t) cover1) (ix2 r q)

end Cert.KernelIdeal.Val

end
-- ==== Proof.KLayer1.lean ====
/-
  The kernel's first layer, read off its buffers.

  The preparing host stretch pads `x` with 240 rows of the integer zero converted to a float, the real zero, and
  rounds; it rounds `W` and `V` and lays `b` out as one row. On the extended reals rounding is the identity, so the
  feature buffer is `padRows x` and the other three hold the arguments. The product region then leaves `H W` in its
  output array and its input arrays as it found them; the fused region, reading the adjacency (which nothing after its
  own stretch writes), that product, the features, `V` and `b`, leaves `relu (A (H W) + H V + b)`: the dense layer.
-/
import proofs.«418437_j77618648973637_3_alg».proof.Proof.Gen.KernelIdeal.Frame
import proofs.«418437_j77618648973637_3_alg».proof.Proof.Spec
import proofs.«418437_j77618648973637_3_alg».proof.Proof.KDefs
import proofs.«418437_j77618648973637_3_alg».proof.Proof.RegM0
import proofs.«418437_j77618648973637_3_alg».proof.Proof.RegS1
import Idealize.ShloMosaic.Lib.Pipeline.Value
import Idealize.ShloMosaic.Lib.Pipeline.Cells
import Idealize.ShloMosaic.Lib.ValueIdx
import Idealize.ShloMosaic.Lib.KernelVsHost
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

variable (m : (ℓ : Loc nD τ sig) → Buf (Elt Ideal) ℓ) (ρ : Dev nD → PrngReg)

/-- A buffer that no operation of a host stretch writes holds after the stretch what it held before. -/
local macro "stretch_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

namespace Layer1
/-! ## The arguments as the adjacency's stretch leaves them: untouched -/

theorem x_after_adj (c : Dev nD) :
    W1 (F := Ideal) m ρ c (Proc.devRef .tc main_arg0) = m ((c : Thread nD τ).loc main_arg0) :=
  (show W1 (F := Ideal) m ρ c (Proc.devRef .tc main_arg0) = W0 m ρ c (Proc.devRef .tc main_arg0) by
    stretch_keeps hostOps0).trans rfl

theorem w1_after_adj (c : Dev nD) :
    W1 (F := Ideal) m ρ c (Proc.devRef .tc main_arg3) = m ((c : Thread nD τ).loc main_arg3) :=
  (show W1 (F := Ideal) m ρ c (Proc.devRef .tc main_arg3) = W0 m ρ c (Proc.devRef .tc main_arg3) by
    stretch_keeps hostOps0).trans rfl

theorem v1_after_adj (c : Dev nD) :
    W1 (F := Ideal) m ρ c (Proc.devRef .tc main_arg4) = m ((c : Thread nD τ).loc main_arg4) :=
  (show W1 (F := Ideal) m ρ c (Proc.devRef .tc main_arg4) = W0 m ρ c (Proc.devRef .tc main_arg4) by
    stretch_keeps hostOps0).trans rfl

theorem b1_after_adj (c : Dev nD) :
    W1 (F := Ideal) m ρ c (Proc.devRef .tc main_arg5) = m ((c : Thread nD τ).loc main_arg5) :=
  (show W1 (F := Ideal) m ρ c (Proc.devRef .tc main_arg5) = W0 m ρ c (Proc.devRef .tc main_arg5) by
    stretch_keeps hostOps0).trans rfl

/-! ## What the preparing stretch leaves in the first layer's operand buffers -/

/-- The feature buffer: `x` with 240 rows of the converted integer zero below it, rounded. -/
theorem featbuf_prep (c : Dev nD) :
    W2 (F := Ideal) m ρ c (Proc.devRef .tc main_call1_v1)
      = truncf .bf16 (pad S10240x256 ![0, 0] ![240, 0] ![0, 0]
          (W1 (F := Ideal) m ρ c (Proc.devRef .tc main_arg0) : S10000x256.Idx → Ideal .f32)
          (sitofp (F := Ideal) .f32 (constantI S_ 32 0#32)) pads_S10000x256_S10240x256_02400_000 h_S_) bitsLt_bf16_f32 := by
  show StableHlo.after hostOps0_1 (W1 (F := Ideal) m ρ c) (Proc.devRef .tc main_call1_v1) = _
  generalize W1 (F := Ideal) m ρ c = U
  after_results
  rfl

/-- The first layer's `W` buffer: the argument rounded. -/
theorem wbuf_prep (c : Dev nD) :
    W2 (F := Ideal) m ρ c (Proc.devRef .tc main_call1_v2)
      = (truncf .bf16 (W1 (F := Ideal) m ρ c (Proc.devRef .tc main_arg3) : FVec Ideal S256x512 .f32) bitsLt_bf16_f32 : FVec Ideal S256x512 .bf16) := by
  show StableHlo.after hostOps0_1 (W1 (F := Ideal) m ρ c) (Proc.devRef .tc main_call1_v2) = _
  generalize W1 (F := Ideal) m ρ c = U
  after_results
  rfl

/-- The first layer's `V` buffer: the argument rounded. -/
theorem vbuf_prep (c : Dev nD) :
    W2 (F := Ideal) m ρ c (Proc.devRef .tc main_call1_v3)
      = (truncf .bf16 (W1 (F := Ideal) m ρ c (Proc.devRef .tc main_arg4) : FVec Ideal S256x512 .f32) bitsLt_bf16_f32 : FVec Ideal S256x512 .bf16) := by
  show StableHlo.after hostOps0_1 (W1 (F := Ideal) m ρ c) (Proc.devRef .tc main_call1_v3) = _
  generalize W1 (F := Ideal) m ρ c = U
  after_results
  rfl

/-- The first layer's bias buffer: the argument laid out as one row. -/
theorem bbuf_prep (c : Dev nD) :
    W2 (F := Ideal) m ρ c (Proc.devRef .tc main_call1_v4)
      = shapeCast S1x512 (W1 (F := Ideal) m ρ c (Proc.devRef .tc main_arg5) : S512.Idx → Ideal .f32) shapeCasts_S512_S1x512 := by
  show StableHlo.after hostOps0_1 (W1 (F := Ideal) m ρ c) (Proc.devRef .tc main_call1_v4) = _
  generalize W1 (F := Ideal) m ρ c = U
  after_results
  rfl

/-- The adjacency's buffer is not written by the preparing stretch. -/
theorem adjbuf_prep (c : Dev nD) :
    W2 (F := Ideal) m ρ c (Proc.devRef .tc main_v0) = W1 m ρ c (Proc.devRef .tc main_v0) := by
  stretch_keeps hostOps0_1

end Layer1

open Layer1

/-! ## The padded features -/

/-- Rows below 10000 of the padded feature buffer are `x`'s; the 240 rows under them hold the pad value, the integer
    zero converted, which is the real zero; rounding changes nothing on the extended reals. -/
theorem feat0_eq (c : Dev nD) : feat0 m ρ c = padRows (argX m c) := by
  funext r q
  refine (congrFun (featbuf_prep m ρ c) (ix2 r q)).trans ?_
  rw [truncf_apply, x_after_adj]
  unfold padRows
  by_cases h : r.val < 10000
  · rw [dif_pos h]
    exact pad_apply_of_inside _ _ _ _ _ _ _ (ix2 r q) (ix2 (⟨r.val, h⟩ : Fin 10000) q) (fun a => by
      match a with
      | ⟨0, _⟩ => show r.val = 0 + r.val * (0 + 1); omega
      | ⟨1, _⟩ => show q.val = 0 + q.val * (0 + 1); omega)
  · rw [dif_neg h]
    refine (pad_apply_of_not_inside _ _ _ _ _ _ _ (ix2 r q) (⟨0, by decide⟩ : Fin S10000x256.rank) (fun hh => h ?_)).trans ?_
    · have h3 : (r.val - 0) / (0 + 1) < 10000 := hh.2.2
      omega
    · exact sitofp_zero (φ := .f32)

namespace Layer1

/-! ## The first layer's operands at its two regions' entries -/

/-- The product region leaves its feature window's array as it found it: an input window is never written back. -/
theorem featbuf_after_product (c : Dev nD) :
    W3 (F := Ideal) m ρ c (Proc.devRef .tc main_call1_v1) = W2 m ρ c (Proc.devRef .tc main_call1_v1) :=
  (W3_arr (F := Ideal) m ρ c 0).trans (((dat0 (F := Ideal) (V2 m ρ) c).arrAt_in 0 rfl cfg0.N).trans (A_eq0 (V2 m ρ) c 0))

/-- The fused region's adjacency window holds what the adjacency's stretch left: neither the preparing stretch nor
    the product region writes that buffer. -/
theorem adj_entry (c : Dev nD) : mat2 (V3 (F := Ideal) m ρ c (Pipeline.arrRef spec1 0)) = adj m ρ c :=
  congrArg mat2 ((W3_of_ne (F := Ideal) m ρ c main_v0 (by decide)).trans (adjbuf_prep m ρ c))

/-- The fused region's feature window holds the padded features. -/
theorem feat_entry (c : Dev nD) : mat2 (V3 (F := Ideal) m ρ c (Pipeline.arrRef spec1 2)) = feat0 m ρ c :=
  congrArg mat2 (featbuf_after_product m ρ c)

/-- The product region's `W` window holds the argument: rounding is the identity on the extended reals. -/
theorem w_entry (c : Dev nD) : mat2 (V2 (F := Ideal) m ρ c (Pipeline.arrRef spec0 1)) = argW1 m c := by
  funext j q
  refine (congrFun (wbuf_prep m ρ c) (ix2 j q)).trans ?_
  rw [truncf_apply, w1_after_adj]

/-- The fused region's `V` window holds the argument (the product region does not hold that buffer). -/
theorem v_entry (c : Dev nD) : mat2 (V3 (F := Ideal) m ρ c (Pipeline.arrRef spec1 3)) = argV1 m c := by
  funext j q
  refine (congrFun ((W3_of_ne (F := Ideal) m ρ c main_call1_v3 (by decide)).trans (vbuf_prep m ρ c)) (ix2 j q)).trans ?_
  rw [truncf_apply, v1_after_adj]

/-- The fused region's bias window, one row of 512, holds the argument: entry `(0, q)` of the row sits at the same
    row-major position as entry `q` of the vector. -/
theorem b_entry (c : Dev nD) :
    (fun q : Fin 512 => V3 (F := Ideal) m ρ c (Pipeline.arrRef spec1 4) (ix2 (0 : Fin 1) q)) = argB1 m c := by
  funext q
  refine (congrFun ((W3_of_ne (F := Ideal) m ρ c main_call1_v4 (by decide)).trans (bbuf_prep m ρ c)) (ix2 (0 : Fin 1) q)).trans ?_
  rw [shapeCast_apply _ _ (ix2 (0 : Fin 1) q) (ix1 q) (by
    rw [Shape.rowMajor_val_one, Shape.rowMajor_val_two]; show q.val = 0 * 512 + q.val; omega), b1_after_adj]

/-- The product region's output, as the fused region finds it, is the padded features times `W`. -/
theorem prod_entry (c : Dev nD) :
    mat2 (V3 (F := Ideal) m ρ c (Pipeline.arrRef spec1 1)) = mm (feat0 m ρ c) (argW1 m c) := by
  funext r q
  refine (congrFun (W3_arr (F := Ideal) m ρ c 2) (ix2 r q)).trans ?_
  rw [arr0 (V2 m ρ) c r q, w_entry]
  rfl

end Layer1

/-! ## The first layer -/

/-- The fused region's output array at its exit is `relu (A M + H V + b)` of its five windows, and those are the
    adjacency, the product `H W`, the padded features `H`, `V` and `b`. -/
theorem feat1_eq (c : Dev nD) :
    feat1 m ρ c = denseLayer (adj m ρ c) (feat0 m ρ c) (argW1 m c) (argV1 m c) (argB1 m c) := by
  funext r q
  refine (congrFun (W4_arr (F := Ideal) m ρ c 5) (ix2 r q)).trans ?_
  rw [arr1 (V3 m ρ) c r q, adj_entry, prod_entry, feat_entry, v_entry, b_entry]
  rfl

end Cert.KernelIdeal.Val

end
-- ==== Proof.KWalk.lean ====
/-
  Buffers the run writes at most once and only reads afterwards, followed back through the segment boundaries at
  which the layers read them.

  The dense adjacency is written by the first host stretch; after that no host operation writes it, the product
  regions do not hold it, and each fused region holds it as an input window, whose array a region leaves as it found
  it.  So at the entry of every fused region it is still what the first host stretch left.

  The stacked layer weights and biases are arguments: no host operation writes them and no region holds them, so at
  every boundary they are the launch memory.
-/
import proofs.«418437_j77618648973637_3_alg».proof.Proof.Gen.KernelIdeal.Frame
import Idealize.ShloMosaic.PureOps.Ideal

noncomputable section

namespace Cert.KernelIdeal.Val

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- A buffer that none of a host stretch's operations writes keeps its contents across the stretch: the buffer differs
    from each operation's result buffer. -/
macro "walk_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The adjacency at the entry of each fused region

Back from a fused region's entry: the product region before it does not hold the adjacency, the host stretch before
that does not write it, and the previous fused region holds it as its first input window. -/

theorem adj_at_W6 (c : Dev nD) : W6 (F := Ideal) m ρ c (Proc.devRef .tc main_v0) = W1 m ρ c (Proc.devRef .tc main_v0) :=
  calc W6 (F := Ideal) m ρ c (Proc.devRef .tc main_v0)
    _ = W5 m ρ c (Proc.devRef .tc main_v0) := W6_of_ne m ρ c main_v0 (by decide)
    _ = W4 m ρ c (Proc.devRef .tc main_v0) := by walk_keeps hostOps2
    _ = (dat1 (V3 m ρ) c).arrAt 0 cfg1.N := W4_arr m ρ c 0
    _ = (dat1 (V3 m ρ) c).A 0 := (dat1 (V3 m ρ) c).arrAt_in 0 rfl cfg1.N
    _ = W3 m ρ c (Proc.devRef .tc main_v0) := A_eq1 (V3 m ρ) c 0
    _ = W2 m ρ c (Proc.devRef .tc main_v0) := W3_of_ne m ρ c main_v0 (by decide)
    _ = W1 m ρ c (Proc.devRef .tc main_v0) := by walk_keeps hostOps0_1

theorem adj_at_W9 (c : Dev nD) : W9 (F := Ideal) m ρ c (Proc.devRef .tc main_v0) = W1 m ρ c (Proc.devRef .tc main_v0) :=
  calc W9 (F := Ideal) m ρ c (Proc.devRef .tc main_v0)
    _ = W8 m ρ c (Proc.devRef .tc main_v0) := W9_of_ne m ρ c main_v0 (by decide)
    _ = W7 m ρ c (Proc.devRef .tc main_v0) := by walk_keeps hostOps4
    _ = (dat3 (V6 m ρ) c).arrAt 0 cfg3.N := W7_arr m ρ c 0
    _ = (dat3 (V6 m ρ) c).A 0 := (dat3 (V6 m ρ) c).arrAt_in 0 rfl cfg3.N
    _ = W6 m ρ c (Proc.devRef .tc main_v0) := A_eq3 (V6 m ρ) c 0
    _ = W1 m ρ c (Proc.devRef .tc main_v0) := adj_at_W6 m ρ c

theorem adj_at_W12 (c : Dev nD) : W12 (F := Ideal) m ρ c (Proc.devRef .tc main_v0) = W1 m ρ c (Proc.devRef .tc main_v0) :=
  calc W12 (F := Ideal) m ρ c (Proc.devRef .tc main_v0)
    _ = W11 m ρ c (Proc.devRef .tc main_v0) := W12_of_ne m ρ c main_v0 (by decide)
    _ = W10 m ρ c (Proc.devRef .tc main_v0) := by walk_keeps hostOps6
    _ = (dat5 (V9 m ρ) c).arrAt 0 cfg5.N := W10_arr m ρ c 0
    _ = (dat5 (V9 m ρ) c).A 0 := (dat5 (V9 m ρ) c).arrAt_in 0 rfl cfg5.N
    _ = W9 m ρ c (Proc.devRef .tc main_v0) := A_eq5 (V9 m ρ) c 0
    _ = W1 m ρ c (Proc.devRef .tc main_v0) := adj_at_W9 m ρ c

theorem adj_at_W15 (c : Dev nD) : W15 (F := Ideal) m ρ c (Proc.devRef .tc main_v0) = W1 m ρ c (Proc.devRef .tc main_v0) :=
  calc W15 (F := Ideal) m ρ c (Proc.devRef .tc main_v0)
    _ = W14 m ρ c (Proc.devRef .tc main_v0) := W15_of_ne m ρ c main_v0 (by decide)
    _ = W13 m ρ c (Proc.devRef .tc main_v0) := by walk_keeps hostOps8
    _ = (dat7 (V12 m ρ) c).arrAt 0 cfg7.N := W13_arr m ρ c 0
    _ = (dat7 (V12 m ρ) c).A 0 := (dat7 (V12 m ρ) c).arrAt_in 0 rfl cfg7.N
    _ = W12 m ρ c (Proc.devRef .tc main_v0) := A_eq7 (V12 m ρ) c 0
    _ = W1 m ρ c (Proc.devRef .tc main_v0) := adj_at_W12 m ρ c

theorem adj_at_W18 (c : Dev nD) : W18 (F := Ideal) m ρ c (Proc.devRef .tc main_v0) = W1 m ρ c (Proc.devRef .tc main_v0) :=
  calc W18 (F := Ideal) m ρ c (Proc.devRef .tc main_v0)
    _ = W17 m ρ c (Proc.devRef .tc main_v0) := W18_of_ne m ρ c main_v0 (by decide)
    _ = W16 m ρ c (Proc.devRef .tc main_v0) := by walk_keeps hostOps10
    _ = (dat9 (V15 m ρ) c).arrAt 0 cfg9.N := W16_arr m ρ c 0
    _ = (dat9 (V15 m ρ) c).A 0 := (dat9 (V15 m ρ) c).arrAt_in 0 rfl cfg9.N
    _ = W15 m ρ c (Proc.devRef .tc main_v0) := A_eq9 (V15 m ρ) c 0
    _ = W1 m ρ c (Proc.devRef .tc main_v0) := adj_at_W15 m ρ c

theorem adj_at_W21 (c : Dev nD) : W21 (F := Ideal) m ρ c (Proc.devRef .tc main_v0) = W1 m ρ c (Proc.devRef .tc main_v0) :=
  calc W21 (F := Ideal) m ρ c (Proc.devRef .tc main_v0)
    _ = W20 m ρ c (Proc.devRef .tc main_v0) := W21_of_ne m ρ c main_v0 (by decide)
    _ = W19 m ρ c (Proc.devRef .tc main_v0) := by walk_keeps hostOps12
    _ = (dat11 (V18 m ρ) c).arrAt 0 cfg11.N := W19_arr m ρ c 0
    _ = (dat11 (V18 m ρ) c).A 0 := (dat11 (V18 m ρ) c).arrAt_in 0 rfl cfg11.N
    _ = W18 m ρ c (Proc.devRef .tc main_v0) := A_eq11 (V18 m ρ) c 0
    _ = W1 m ρ c (Proc.devRef .tc main_v0) := adj_at_W18 m ρ c

/-! ## The stacked weights `W` at the boundary before each layer's host stretch -/

theorem arg6_at_W4 (c : Dev nD) : W4 (F := Ideal) m ρ c (Proc.devRef .tc main_arg6) = m ((c : Thread nD τ).loc main_arg6) :=
  calc W4 (F := Ideal) m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := by walk_keeps hostOps0_1
    _ = W0 m ρ c (Proc.devRef .tc main_arg6) := by walk_keeps hostOps0
    _ = m ((c : Thread nD τ).loc main_arg6) := rfl

theorem arg6_at_W7 (c : Dev nD) : W7 (F := Ideal) m ρ c (Proc.devRef .tc main_arg6) = m ((c : Thread nD τ).loc main_arg6) :=
  calc W7 (F := Ideal) m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by walk_keeps hostOps2
    _ = m ((c : Thread nD τ).loc main_arg6) := arg6_at_W4 m ρ c

theorem arg6_at_W10 (c : Dev nD) : W10 (F := Ideal) m ρ c (Proc.devRef .tc main_arg6) = m ((c : Thread nD τ).loc main_arg6) :=
  calc W10 (F := Ideal) m ρ c (Proc.devRef .tc main_arg6)
    _ = W9 m ρ c (Proc.devRef .tc main_arg6) := W10_of_ne m ρ c main_arg6 (by decide)
    _ = W8 m ρ c (Proc.devRef .tc main_arg6) := W9_of_ne m ρ c main_arg6 (by decide)
    _ = W7 m ρ c (Proc.devRef .tc main_arg6) := by walk_keeps hostOps4
    _ = m ((c : Thread nD τ).loc main_arg6) := arg6_at_W7 m ρ c

theorem arg6_at_W13 (c : Dev nD) : W13 (F := Ideal) m ρ c (Proc.devRef .tc main_arg6) = m ((c : Thread nD τ).loc main_arg6) :=
  calc W13 (F := Ideal) m ρ c (Proc.devRef .tc main_arg6)
    _ = W12 m ρ c (Proc.devRef .tc main_arg6) := W13_of_ne m ρ c main_arg6 (by decide)
    _ = W11 m ρ c (Proc.devRef .tc main_arg6) := W12_of_ne m ρ c main_arg6 (by decide)
    _ = W10 m ρ c (Proc.devRef .tc main_arg6) := by walk_keeps hostOps6
    _ = m ((c : Thread nD τ).loc main_arg6) := arg6_at_W10 m ρ c

theorem arg6_at_W16 (c : Dev nD) : W16 (F := Ideal) m ρ c (Proc.devRef .tc main_arg6) = m ((c : Thread nD τ).loc main_arg6) :=
  calc W16 (F := Ideal) m ρ c (Proc.devRef .tc main_arg6)
    _ = W15 m ρ c (Proc.devRef .tc main_arg6) := W16_of_ne m ρ c main_arg6 (by decide)
    _ = W14 m ρ c (Proc.devRef .tc main_arg6) := W15_of_ne m ρ c main_arg6 (by decide)
    _ = W13 m ρ c (Proc.devRef .tc main_arg6) := by walk_keeps hostOps8
    _ = m ((c : Thread nD τ).loc main_arg6) := arg6_at_W13 m ρ c

theorem arg6_at_W19 (c : Dev nD) : W19 (F := Ideal) m ρ c (Proc.devRef .tc main_arg6) = m ((c : Thread nD τ).loc main_arg6) :=
  calc W19 (F := Ideal) m ρ c (Proc.devRef .tc main_arg6)
    _ = W18 m ρ c (Proc.devRef .tc main_arg6) := W19_of_ne m ρ c main_arg6 (by decide)
    _ = W17 m ρ c (Proc.devRef .tc main_arg6) := W18_of_ne m ρ c main_arg6 (by decide)
    _ = W16 m ρ c (Proc.devRef .tc main_arg6) := by walk_keeps hostOps10
    _ = m ((c : Thread nD τ).loc main_arg6) := arg6_at_W16 m ρ c

/-! ## The stacked weights `V` -/

theorem arg7_at_W4 (c : Dev nD) : W4 (F := Ideal) m ρ c (Proc.devRef .tc main_arg7) = m ((c : Thread nD τ).loc main_arg7) :=
  calc W4 (F := Ideal) m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := by walk_keeps hostOps0_1
    _ = W0 m ρ c (Proc.devRef .tc main_arg7) := by walk_keeps hostOps0
    _ = m ((c : Thread nD τ).loc main_arg7) := rfl

theorem arg7_at_W7 (c : Dev nD) : W7 (F := Ideal) m ρ c (Proc.devRef .tc main_arg7) = m ((c : Thread nD τ).loc main_arg7) :=
  calc W7 (F := Ideal) m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by walk_keeps hostOps2
    _ = m ((c : Thread nD τ).loc main_arg7) := arg7_at_W4 m ρ c

theorem arg7_at_W10 (c : Dev nD) : W10 (F := Ideal) m ρ c (Proc.devRef .tc main_arg7) = m ((c : Thread nD τ).loc main_arg7) :=
  calc W10 (F := Ideal) m ρ c (Proc.devRef .tc main_arg7)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := by walk_keeps hostOps4
    _ = m ((c : Thread nD τ).loc main_arg7) := arg7_at_W7 m ρ c

theorem arg7_at_W13 (c : Dev nD) : W13 (F := Ideal) m ρ c (Proc.devRef .tc main_arg7) = m ((c : Thread nD τ).loc main_arg7) :=
  calc W13 (F := Ideal) m ρ c (Proc.devRef .tc main_arg7)
    _ = W12 m ρ c (Proc.devRef .tc main_arg7) := W13_of_ne m ρ c main_arg7 (by decide)
    _ = W11 m ρ c (Proc.devRef .tc main_arg7) := W12_of_ne m ρ c main_arg7 (by decide)
    _ = W10 m ρ c (Proc.devRef .tc main_arg7) := by walk_keeps hostOps6
    _ = m ((c : Thread nD τ).loc main_arg7) := arg7_at_W10 m ρ c

theorem arg7_at_W16 (c : Dev nD) : W16 (F := Ideal) m ρ c (Proc.devRef .tc main_arg7) = m ((c : Thread nD τ).loc main_arg7) :=
  calc W16 (F := Ideal) m ρ c (Proc.devRef .tc main_arg7)
    _ = W15 m ρ c (Proc.devRef .tc main_arg7) := W16_of_ne m ρ c main_arg7 (by decide)
    _ = W14 m ρ c (Proc.devRef .tc main_arg7) := W15_of_ne m ρ c main_arg7 (by decide)
    _ = W13 m ρ c (Proc.devRef .tc main_arg7) := by walk_keeps hostOps8
    _ = m ((c : Thread nD τ).loc main_arg7) := arg7_at_W13 m ρ c

theorem arg7_at_W19 (c : Dev nD) : W19 (F := Ideal) m ρ c (Proc.devRef .tc main_arg7) = m ((c : Thread nD τ).loc main_arg7) :=
  calc W19 (F := Ideal) m ρ c (Proc.devRef .tc main_arg7)
    _ = W18 m ρ c (Proc.devRef .tc main_arg7) := W19_of_ne m ρ c main_arg7 (by decide)
    _ = W17 m ρ c (Proc.devRef .tc main_arg7) := W18_of_ne m ρ c main_arg7 (by decide)
    _ = W16 m ρ c (Proc.devRef .tc main_arg7) := by walk_keeps hostOps10
    _ = m ((c : Thread nD τ).loc main_arg7) := arg7_at_W16 m ρ c

/-! ## The stacked biases -/

theorem arg8_at_W4 (c : Dev nD) : W4 (F := Ideal) m ρ c (Proc.devRef .tc main_arg8) = m ((c : Thread nD τ).loc main_arg8) :=
  calc W4 (F := Ideal) m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := by walk_keeps hostOps0_1
    _ = W0 m ρ c (Proc.devRef .tc main_arg8) := by walk_keeps hostOps0
    _ = m ((c : Thread nD τ).loc main_arg8) := rfl

theorem arg8_at_W7 (c : Dev nD) : W7 (F := Ideal) m ρ c (Proc.devRef .tc main_arg8) = m ((c : Thread nD τ).loc main_arg8) :=
  calc W7 (F := Ideal) m ρ c (Proc.devRef .tc main_arg8)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by walk_keeps hostOps2
    _ = m ((c : Thread nD τ).loc main_arg8) := arg8_at_W4 m ρ c

theorem arg8_at_W10 (c : Dev nD) : W10 (F := Ideal) m ρ c (Proc.devRef .tc main_arg8) = m ((c : Thread nD τ).loc main_arg8) :=
  calc W10 (F := Ideal) m ρ c (Proc.devRef .tc main_arg8)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := by walk_keeps hostOps4
    _ = m ((c : Thread nD τ).loc main_arg8) := arg8_at_W7 m ρ c

theorem arg8_at_W13 (c : Dev nD) : W13 (F := Ideal) m ρ c (Proc.devRef .tc main_arg8) = m ((c : Thread nD τ).loc main_arg8) :=
  calc W13 (F := Ideal) m ρ c (Proc.devRef .tc main_arg8)
    _ = W12 m ρ c (Proc.devRef .tc main_arg8) := W13_of_ne m ρ c main_arg8 (by decide)
    _ = W11 m ρ c (Proc.devRef .tc main_arg8) := W12_of_ne m ρ c main_arg8 (by decide)
    _ = W10 m ρ c (Proc.devRef .tc main_arg8) := by walk_keeps hostOps6
    _ = m ((c : Thread nD τ).loc main_arg8) := arg8_at_W10 m ρ c

theorem arg8_at_W16 (c : Dev nD) : W16 (F := Ideal) m ρ c (Proc.devRef .tc main_arg8) = m ((c : Thread nD τ).loc main_arg8) :=
  calc W16 (F := Ideal) m ρ c (Proc.devRef .tc main_arg8)
    _ = W15 m ρ c (Proc.devRef .tc main_arg8) := W16_of_ne m ρ c main_arg8 (by decide)
    _ = W14 m ρ c (Proc.devRef .tc main_arg8) := W15_of_ne m ρ c main_arg8 (by decide)
    _ = W13 m ρ c (Proc.devRef .tc main_arg8) := by walk_keeps hostOps8
    _ = m ((c : Thread nD τ).loc main_arg8) := arg8_at_W13 m ρ c

theorem arg8_at_W19 (c : Dev nD) : W19 (F := Ideal) m ρ c (Proc.devRef .tc main_arg8) = m ((c : Thread nD τ).loc main_arg8) :=
  calc W19 (F := Ideal) m ρ c (Proc.devRef .tc main_arg8)
    _ = W18 m ρ c (Proc.devRef .tc main_arg8) := W19_of_ne m ρ c main_arg8 (by decide)
    _ = W17 m ρ c (Proc.devRef .tc main_arg8) := W18_of_ne m ρ c main_arg8 (by decide)
    _ = W16 m ρ c (Proc.devRef .tc main_arg8) := by walk_keeps hostOps10
    _ = m ((c : Thread nD τ).loc main_arg8) := arg8_at_W16 m ρ c

end Cert.KernelIdeal.Val

end
-- ==== Proof.RegM2.lean ====
/-
  The array that the product region 2 leaves: the region multiplies a [10240, 512] matrix, one block of 1024 rows
  at each of its ten grid points, by a whole [512, 512] matrix, and writes each [1024, 512] block of the product back.
  Entry (r, q) of the output array is therefore Σ_k lhs (r, k) · rhs (k, q), for every row r and column q: row r lies
  in the block of point r / 1024, and that point's body computes the block's entries as the same sums over the
  contraction index, read off the left operand's rows 1024 t … 1024 t + 1023 and the whole right operand.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.PureOps.Ideal.Laws
noncomputable section
namespace Cert.KernelIdeal.Val
open Idealize.ShloMosaic Idealize.ShloMosaic.TcCoe Idealize.SL.Sem Idealize.ShloMosaic.ValueIdx Cert.KernelIdeal Cert.KernelIdeal.Gen Cert.Spec

/-- The zero offsets of a whole-block access. -/
theorem mm2_hz : (![0, 0] : Fin 2 → Nat) = fun _ => 0 := funext fun a => by fin_cases a <;> rfl

/-! ## The body's product at an index -/

/-- The left operand's row coordinate at output index `i` is `i`'s row. -/
theorem mm2_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column coordinate is the contraction position. -/
theorem mm2_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row coordinate is the contraction position. -/
theorem mm2_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column coordinate at output index `i` is `i`'s column. -/
theorem mm2_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The body's stored value at (p, q): the casts between equal shapes and the change of float format are the identity
    on extended reals, and the product into a zero accumulator is the sum over the contraction index. -/
theorem mm2_pay_apply (x0 : FVec Ideal S1024x512 .bf16) (x1 : FVec Ideal S512x512 .bf16) (p : Fin 1024) (q : Fin 512) :
    k2_pay1 (F := Ideal) x0 x1 (ix2 p q) = ∑ k : Fin 512, x0 (ix2 p k) * x1 (ix2 k q) := by
  unfold k2_pay1
  simp only [shapeCast_self]
  show FloatOps.matmul dot_S1024x512_S512x512_S1024x512_1_0_0_1_n_n none x0 x1 (constant S1024x512 .f32 0x00000000#32) (ix2 p q) = _
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact mm2_lhs_0 _ _
    | ⟨1, _⟩ => exact (mm2_lhs_1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (mm2_rhs_0 _ _).trans hk
    | ⟨1, _⟩ => exact mm2_rhs_1 _ _)
  rw [el, er]

/-! ## The whole product, and each point's block of it -/

variable (V : (c : Dev nD) → (b : Ref sig .tc) → Buf (Elt Ideal) ((c : Thread nD τ).loc b))

/-- The whole product of the two arrays, index by index. -/
def mm2_prod (A : S10240x512.Idx → EReal) (B : S512x512.Idx → EReal) : S10240x512.Idx → EReal :=
  fun i => mm (mat2 A) (mat2 B) (i 0) (i 1)

/-- The block indices over the grid: the left operand's and the output's blocks move down the rows with the point, the
    right operand stays whole. -/
theorem mm2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block's entry (p, q) is the whole product's entry at `i` when the left block's row p is the left array's row
    `i 0` and the right block's column q is the right array's column `i 1`. -/
theorem mm2_point (A : S10240x512.Idx → EReal) (B : S512x512.Idx → EReal) (x0 : FVec Ideal S1024x512 .bf16) (x1 : FVec Ideal S512x512 .bf16)
    (p : Fin 1024) (q : Fin 512) (i : S10240x512.Idx)
    (hx0 : ∀ k : Fin 512, x0 (ix2 p k) = A (ix2 (i 0) k)) (hx1 : ∀ k : Fin 512, x1 (ix2 k q) = B (ix2 k (i 1))) :
    k2_pay1 (F := Ideal) x0 x1 (ix2 p q) = mm2_prod A B i := by
  rw [mm2_pay_apply]
  show _ = ∑ k : Fin 512, A (ix2 (i 0) k) * B (ix2 k (i 1))
  exact Finset.sum_congr rfl fun k _ => by rw [hx0 k, hx1 k]

/-- The left operand's block at point `t` holds rows 1024 t … 1024 t + 1023 of its array. -/
theorem mm2_blk_0 (c : Dev nD) (t : Fin cfg2.N) (p : Fin 1024) (k : Fin 512) (i : S10240x512.Idx)
    (h0 : (i 0).val = t.val * 1024 + p.val) (h1 : (i 1).val = k.val) :
    (iblk2 V c 0 t : FVec Ideal S1024x512 .bf16) (ix2 p k) = V c (Pipeline.arrRef spec2 0) i := by
  obtain ⟨e0, e1, -⟩ := mm2_idx t
  unfold iblk2
  rw [View.read_apply]
  show V c (Pipeline.arrRef spec2 0) (((cfg2.win 0).blk t).view.emb (ix2 p k)) = V c (Pipeline.arrRef spec2 0) i
  refine congrArg _ (funext fun a => Fin.ext ?_)
  match a with
  | ⟨0, _⟩ => show win2_0.index t (0 : Fin 2) * 1024 + 1 * p.val = (i 0).val; omega
  | ⟨1, _⟩ => show win2_0.index t (1 : Fin 2) * 512 + 1 * k.val = (i 1).val; omega

/-- The right operand's block at every point is its whole array. -/
theorem mm2_blk_1 (c : Dev nD) (t : Fin cfg2.N) (k : Fin 512) (q : Fin 512) (i : S512x512.Idx)
    (h0 : (i 0).val = k.val) (h1 : (i 1).val = q.val) :
    (iblk2 V c 1 t : FVec Ideal S512x512 .bf16) (ix2 k q) = V c (Pipeline.arrRef spec2 1) i := by
  obtain ⟨-, -, e2, e3, -⟩ := mm2_idx t
  unfold iblk2
  rw [View.read_apply]
  show V c (Pipeline.arrRef spec2 1) (((cfg2.win 1).blk t).view.emb (ix2 k q)) = V c (Pipeline.arrRef spec2 1) i
  refine congrArg _ (funext fun a => Fin.ext ?_)
  match a with
  | ⟨0, _⟩ => show win2_1.index t (0 : Fin 2) * 512 + 1 * k.val = (i 0).val; omega
  | ⟨1, _⟩ => show win2_1.index t (1 : Fin 2) * 512 + 1 * q.val = (i 1).val; omega

/-- Entry (p, q) of the output's block at point `t` sits at row 1024 t + p, column q of the output array. -/
theorem mm2_emb (t : Fin cfg2.N) (p : Fin 1024) (q : Fin 512) :
    ((((cfg2.win 2).blk t).view.emb (ix2 p q)) 0).val = t.val * 1024 + p.val
      ∧ ((((cfg2.win 2).blk t).view.emb (ix2 p q)) 1).val = q.val := by
  obtain ⟨-, -, -, -, e4, e5⟩ := mm2_idx t
  constructor
  · show win2_2.index t (0 : Fin 2) * 1024 + 1 * p.val = _; omega
  · show win2_2.index t (1 : Fin 2) * 512 + 1 * q.val = _; omega

/-- What point `t` writes back is block `t` of the whole product of the arrays as the region finds them. -/
theorem mm2_flushed_eq (c : Dev nD) (t : Fin cfg2.N) :
    (dat2 (F := Ideal) V c).flushed 2 t
      = ((cfg2.win 2).blk t).view.read (Elt Ideal) (mm2_prod (V c (Pipeline.arrRef spec2 0)) (V c (Pipeline.arrRef spec2 1))) := by
  show (cfg2.win 2).cut (grid2.coords t) ((dat2 V c).after 2 t) = _
  rw [after2_2]
  unfold out2_2
  rw [View.canon_unit_zero mm2_hz]
  simp only [View.ld_unit_zero (S := S1024x512) mm2_hz, View.ld_unit_zero (S := S512x512) mm2_hz]
  funext j
  obtain ⟨p, q, rfl⟩ : ∃ (p : Fin 1024) (q : Fin 512), j = ix2 p q := ⟨j 0, j 1, eq_ix2 j⟩
  show k2_pay1 (F := Ideal) (iblk2 V c 0 t) (iblk2 V c 1 t) (ix2 p q)
    = mm2_prod (V c (Pipeline.arrRef spec2 0)) (V c (Pipeline.arrRef spec2 1)) (((cfg2.win 2).blk t).view.emb (ix2 p q))
  exact mm2_point _ _ (iblk2 V c 0 t) (iblk2 V c 1 t) p q _
    (fun k => mm2_blk_0 V c t p k _ (mm2_emb t p q).1 rfl) (fun k => mm2_blk_1 V c t k q _ rfl (mm2_emb t p q).2)

/-! ## The blocks cover the array -/

/-- An index of the output array is in point `t`'s block iff each coordinate is in the block's range on its axis. -/
theorem mm2_mem_blk (t : Fin cfg2.N) (i : S10240x512.Idx) :
    i ∈ ((cfg2.win 2).blk t).view.set ↔ ∀ a : Fin 2, win2_2.index t a * S1024x512.size a ≤ (i a).val ∧ (i a).val < win2_2.index t a * S1024x512.size a + S1024x512.size a := by
  show i ∈ ((View.whole (Pipeline.arrRef spec2 2)).slice (win2_2.rect t)).set ↔ _
  rw [View.set_slice_whole, Rect.mem_set_unit]
  exact Iff.rfl

/-- Row r of the output array lies in the block of point r / 1024. -/
theorem mm2_cover (i : S10240x512.Idx) : ∃ t : Fin cfg2.N, (cfg2.win 2).flush t = true ∧ i ∈ ((cfg2.win 2).blk t).view.set := by
  have hi0 : (i 0).val < 10240 := (i 0).isLt
  have hi1 : (i 1).val < 512 := (i 1).isLt
  have hN : cfg2.N = 10 := N_2
  have ht : (i 0).val / 1024 < cfg2.N := by rw [hN]; omega
  refine ⟨⟨(i 0).val / 1024, ht⟩, flush2_2 _, ?_⟩
  rw [mm2_mem_blk]
  obtain ⟨-, -, -, -, e4, e5⟩ := mm2_idx ⟨(i 0).val / 1024, ht⟩
  intro a
  match a with
  | ⟨0, _⟩ =>
    show win2_2.index ⟨(i 0).val / 1024, ht⟩ (0 : Fin 2) * 1024 ≤ (i 0).val
      ∧ (i 0).val < win2_2.index ⟨(i 0).val / 1024, ht⟩ (0 : Fin 2) * 1024 + 1024
    rw [e4]
    show (i 0).val / 1024 * 1024 ≤ (i 0).val ∧ (i 0).val < (i 0).val / 1024 * 1024 + 1024
    omega
  | ⟨1, _⟩ =>
    show win2_2.index ⟨(i 0).val / 1024, ht⟩ (1 : Fin 2) * 512 ≤ (i 1).val
      ∧ (i 1).val < win2_2.index ⟨(i 0).val / 1024, ht⟩ (1 : Fin 2) * 512 + 512
    rw [e5]
    omega

/-! ## The output array after the region -/

/-- After the region the output array holds the product of the two input arrays as the region found them, entry by entry. -/
theorem arr2 (c : Dev nD) (r : Fin 10240) (q : Fin 512) :
    (dat2 (F := Ideal) V c).arrAt 2 cfg2.N (ix2 r q)
      = mm (mat2 (V c (Pipeline.arrRef spec2 0))) (mat2 (V c (Pipeline.arrRef spec2 1))) r q :=
  congrFun ((dat2 (F := Ideal) V c).arrAt_eq_of_cover 2
    (mm2_prod (V c (Pipeline.arrRef spec2 0)) (V c (Pipeline.arrRef spec2 1)))
    (fun t _ => mm2_flushed_eq V c t) mm2_cover) (ix2 r q)

end Cert.KernelIdeal.Val

end
-- ==== Proof.RegS3.lean ====
/-
  The fused region of a later layer: what its output array holds after the region, entry by entry.

  The grid has 20 points. Point `t` takes rows `512 t … 512 t + 511` of the adjacency `A` (10240 columns) and of the node
  features `H` (512 columns), and the whole of `M` (10240 × 512), of `V` (512 × 512) and of the bias row `b`; it stores
  `max (A_t M + H_t V + b) 0` into rows `512 t … 512 t + 511` of the output. On the extended reals each product is the exact
  sum over its inner index and the change of format is the identity, so entry `(512 t + p, q)` of what point `t` writes is
  `Spec.fused A M H V b (512 t + p) q`. The 20 row blocks cover the 10240 rows, so the output array is `Spec.fused` of the
  arrays the region finds, at every entry.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

/-! ## The two products of the fused step, entry by entry -/

theorem hz3 : (![0, 0] : Fin 2 → Nat) = fun _ => 0 := funext fun a => by fin_cases a <;> rfl

/-- The product with the adjacency block: the left operand is read at the output's row and the summed position, -/
theorem lhsA3_0 (i : S512x512.Idx) (q : dot_S512x10240_S10240x512_S512x512_1_0_0_1_n_n.contr.Idx) :
    (dot_S512x10240_S10240x512_S512x512_1_0_0_1_n_n.lhsIdx i q 0).val = (i 0).val := by
  unfold DotDims.lhsIdx
  rw [dif_neg (show ¬(0 : Fin S512x10240.rank) ∈ dot_S512x10240_S10240x512_S512x512_1_0_0_1_n_n.lhsBatch by decide), dif_pos (show (0 : Fin S512x10240.rank) ∈ dot_S512x10240_S10240x512_S512x512_1_0_0_1_n_n.lhsNonContracting by decide)]
  rfl
theorem lhsA3_1 (i : S512x512.Idx) (q : dot_S512x10240_S10240x512_S512x512_1_0_0_1_n_n.contr.Idx) :
    (dot_S512x10240_S10240x512_S512x512_1_0_0_1_n_n.lhsIdx i q 1).val = (q ⟨0, by decide⟩).val :=
  dot_S512x10240_S10240x512_S512x512_1_0_0_1_n_n.lhsIdx_val_of_single rfl i q
/-- the right operand at the summed position and the output's column. -/
theorem rhsA3_0 (i : S512x512.Idx) (q : dot_S512x10240_S10240x512_S512x512_1_0_0_1_n_n.contr.Idx) :
    (dot_S512x10240_S10240x512_S512x512_1_0_0_1_n_n.rhsIdx i q 0).val = (q ⟨0, by decide⟩).val :=
  dot_S512x10240_S10240x512_S512x512_1_0_0_1_n_n.rhsIdx_val_of_single rfl i q
theorem rhsA3_1 (i : S512x512.Idx) (q : dot_S512x10240_S10240x512_S512x512_1_0_0_1_n_n.contr.Idx) :
    (dot_S512x10240_S10240x512_S512x512_1_0_0_1_n_n.rhsIdx i q 1).val = (i 1).val := by
  unfold DotDims.rhsIdx
  rw [dif_neg (show ¬(1 : Fin S10240x512.rank) ∈ dot_S512x10240_S10240x512_S512x512_1_0_0_1_n_n.rhsBatch by decide), dif_pos (show (1 : Fin S10240x512.rank) ∈ dot_S512x10240_S10240x512_S512x512_1_0_0_1_n_n.rhsNonContracting by decide)]
  rfl

/-- A block of 512 rows of the adjacency against the whole of `M`, into a zero accumulator: entry `(p, q)` is the sum
    over the 10240 slots `k` of the row's weight at `k` times `M k q`. -/
theorem mmA3_apply (x : FVec Ideal S512x10240 .bf16) (y : FVec Ideal S10240x512 .bf16) (p q : Fin 512) :
    matmul dot_S512x10240_S10240x512_S512x512_1_0_0_1_n_n none x y (constant S512x512 .f32 0x00000000#32) (ix2 p q)
      = ∑ k : Fin 10240, x (ix2 p k) * y (ix2 k q) := by
  simp only [matmul]
  rw [Ideal.matmul_constant_zero_apply, ← Equiv.sum_comp (contrEquiv1 dot_S512x10240_S10240x512_S512x512_1_0_0_1_n_n 10240 rfl rfl).symm]
  refine Finset.sum_congr rfl fun k _ => ?_
  have hk := contrEquiv1_symm_val dot_S512x10240_S10240x512_S512x512_1_0_0_1_n_n 10240 rfl rfl k
  have el : dot_S512x10240_S10240x512_S512x512_1_0_0_1_n_n.lhsIdx (ix2 p q) ((contrEquiv1 dot_S512x10240_S10240x512_S512x512_1_0_0_1_n_n 10240 rfl rfl).symm k) = ix2 p k := funext fun a => Fin.ext (by
    match a with
    | ⟨0, _⟩ => exact lhsA3_0 _ _
    | ⟨1, _⟩ => exact (lhsA3_1 _ _).trans hk)
  have er : dot_S512x10240_S10240x512_S512x512_1_0_0_1_n_n.rhsIdx (ix2 p q) ((contrEquiv1 dot_S512x10240_S10240x512_S512x512_1_0_0_1_n_n 10240 rfl rfl).symm k) = ix2 k q := funext fun a => Fin.ext (by
    match a with
    | ⟨0, _⟩ => exact (rhsA3_0 _ _).trans hk
    | ⟨1, _⟩ => exact rhsA3_1 _ _)
  rw [el, er]

/-- The product of the block's own features with `V`: the same reading of the two operands. -/
theorem lhsB3_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhsB3_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhsB3_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhsB3_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A block of 512 rows of `H` against the whole of `V`, into a zero accumulator: entry `(p, q)` is the sum over the
    512 feature positions `k` of `H p k * V k q`. -/
theorem mmB3_apply (x : FVec Ideal S512x512 .bf16) (y : FVec Ideal S512x512 .bf16) (p q : Fin 512) :
    matmul dot_S512x512_S512x512_S512x512_1_0_0_1_n_n none x y (constant S512x512 .f32 0x00000000#32) (ix2 p q)
      = ∑ k : Fin 512, x (ix2 p k) * y (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhsB3_0 _ _
    | ⟨1, _⟩ => exact (lhsB3_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhsB3_0 _ _).trans hk
    | ⟨1, _⟩ => exact rhsB3_1 _ _)
  rw [el, er]

/-! ## The body's result at an entry of the block -/

/-- Entry `(p, q)` of what the body stores: the two products added, the bias of column `q` added, the maximum with zero
    taken; the change of format at the end is the identity on the extended reals. -/
theorem pay3_apply (xa : Vec Ideal S512x10240 .bf16) (xm : Vec Ideal S10240x512 .bf16) (xh : Vec Ideal S512x512 .bf16)
    (xv : Vec Ideal S512x512 .bf16) (xb : Vec Ideal S1x512 .f32) (p q : Fin 512) :
    k3_pay1 xa xm xh xv xb (ix2 p q)
      = max (((∑ k : Fin 10240, xa (ix2 p k) * xm (ix2 k q)) + ∑ k : Fin 512, xh (ix2 p k) * xv (ix2 k q)) + xb (ix2 (0 : Fin 1) q)) 0 := by
  unfold k3_pay1
  simp only [shapeCast_self]
  rw [truncf_apply, maximumf_apply, addf_apply, addf_apply, mmA3_apply, mmB3_apply, broadcast_apply,
    broadcastTo_apply xb broadcasts_S1x512_S512x512 (ix2 p q) (ix2 (0 : Fin 1) q) (fun a => by
      match a with
      | ⟨0, _⟩ => rfl
      | ⟨1, _⟩ => rfl)]
  show max _ (Ideal.ofBits .f32 0x00000000#32) = _
  rw [Ideal.ofBits_zero_f32]

/-! ## Which block of each array a point reads -/

variable (V : (c : Dev nD) → (b : Ref sig .tc) → Buf (Elt Ideal) ((c : Thread nD τ).loc b))

/-- Point `t` takes block `t` of the rows of the adjacency, of `H` and of the output, and the whole of `M`, of `V`
    and of the bias (decided over the 20 points). -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of the adjacency block at point `t` is row `512 t + p` of the adjacency. -/
theorem blk3_0 (c : Dev nD) (t : Fin cfg3.N) (p : Fin 512) (k : Fin 10240) (r : Fin 10240) (hr : r.val = t.val * 512 + p.val) :
    (iblk3 V c 0 t : Vec Ideal S512x10240 .bf16) (ix2 p k) = mat2 (V c (Pipeline.arrRef spec3 0)) r k := by
  obtain ⟨e0, e1, -⟩ := idx3 t
  unfold iblk3
  rw [View.read_apply]
  show V c (Pipeline.arrRef spec3 0) _ = V c (Pipeline.arrRef spec3 0) (ix2 r k)
  congr 1
  funext a; apply Fin.ext
  match a with
  | ⟨0, _⟩ => show win3_0.index t (0 : Fin 2) * 512 + 1 * p.val = r.val; omega
  | ⟨1, _⟩ => show win3_0.index t (1 : Fin 2) * 10240 + 1 * k.val = k.val; omega

/-- The block of `M` is all of `M`. -/
theorem blk3_1 (c : Dev nD) (t : Fin cfg3.N) (k : Fin 10240) (q : Fin 512) :
    (iblk3 V c 1 t : Vec Ideal S10240x512 .bf16) (ix2 k q) = mat2 (V c (Pipeline.arrRef spec3 1)) k q := by
  obtain ⟨-, -, e0, e1, -⟩ := idx3 t
  unfold iblk3
  rw [View.read_apply]
  show V c (Pipeline.arrRef spec3 1) _ = V c (Pipeline.arrRef spec3 1) (ix2 k q)
  congr 1
  funext a; apply Fin.ext
  match a with
  | ⟨0, _⟩ => show win3_1.index t (0 : Fin 2) * 10240 + 1 * k.val = k.val; omega
  | ⟨1, _⟩ => show win3_1.index t (1 : Fin 2) * 512 + 1 * q.val = q.val; omega

/-- Row `p` of the block of `H` at point `t` is row `512 t + p` of `H`. -/
theorem blk3_2 (c : Dev nD) (t : Fin cfg3.N) (p : Fin 512) (k : Fin 512) (r : Fin 10240) (hr : r.val = t.val * 512 + p.val) :
    (iblk3 V c 2 t : Vec Ideal S512x512 .bf16) (ix2 p k) = mat2 (V c (Pipeline.arrRef spec3 2)) r k := by
  obtain ⟨-, -, -, -, e0, e1, -⟩ := idx3 t
  unfold iblk3
  rw [View.read_apply]
  show V c (Pipeline.arrRef spec3 2) _ = V c (Pipeline.arrRef spec3 2) (ix2 r k)
  congr 1
  funext a; apply Fin.ext
  match a with
  | ⟨0, _⟩ => show win3_2.index t (0 : Fin 2) * 512 + 1 * p.val = r.val; omega
  | ⟨1, _⟩ => show win3_2.index t (1 : Fin 2) * 512 + 1 * k.val = k.val; omega

/-- The block of `V` is all of `V`. -/
theorem blk3_3 (c : Dev nD) (t : Fin cfg3.N) (k : Fin 512) (q : Fin 512) :
    (iblk3 V c 3 t : Vec Ideal S512x512 .bf16) (ix2 k q) = mat2 (V c (Pipeline.arrRef spec3 3)) k q := by
  obtain ⟨-, -, -, -, -, -, e0, e1, -⟩ := idx3 t
  unfold iblk3
  rw [View.read_apply]
  show V c (Pipeline.arrRef spec3 3) _ = V c (Pipeline.arrRef spec3 3) (ix2 k q)
  congr 1
  funext a; apply Fin.ext
  match a with
  | ⟨0, _⟩ => show win3_3.index t (0 : Fin 2) * 512 + 1 * k.val = k.val; omega
  | ⟨1, _⟩ => show win3_3.index t (1 : Fin 2) * 512 + 1 * q.val = q.val; omega

/-- The block of the bias is the whole bias row. -/
theorem blk3_4 (c : Dev nD) (t : Fin cfg3.N) (q : Fin 512) :
    (iblk3 V c 4 t : Vec Ideal S1x512 .f32) (ix2 (0 : Fin 1) q) = V c (Pipeline.arrRef spec3 4) (ix2 (0 : Fin 1) q) := by
  obtain ⟨-, -, -, -, -, -, -, -, e0, e1, -⟩ := idx3 t
  unfold iblk3
  rw [View.read_apply]
  show V c (Pipeline.arrRef spec3 4) _ = V c (Pipeline.arrRef spec3 4) (ix2 (0 : Fin 1) q)
  congr 1
  funext a; apply Fin.ext
  match a with
  | ⟨0, _⟩ => show win3_4.index t (0 : Fin 2) * 1 + 1 * (0 : Fin 1).val = (0 : Fin 1).val; omega
  | ⟨1, _⟩ => show win3_4.index t (1 : Fin 2) * 512 + 1 * q.val = q.val; omega

/-! ## What a point writes back, and the whole array -/

/-- Entry `(p, q)` of the body's result at point `t` is entry `(512 t + p, q)` of the fused step of the whole arrays:
    each block entry is read where the point's rectangle puts it, the sums term by term. -/
theorem point3 (c : Dev nD) (t : Fin cfg3.N) (p q : Fin 512) (r : Fin 10240) (hr : r.val = t.val * 512 + p.val) :
    k3_pay1 (iblk3 V c 0 t) (iblk3 V c 1 t) (iblk3 V c 2 t) (iblk3 V c 3 t) (iblk3 V c 4 t) (ix2 p q)
      = fused (mat2 (V c (Pipeline.arrRef spec3 0))) (mat2 (V c (Pipeline.arrRef spec3 1))) (mat2 (V c (Pipeline.arrRef spec3 2)))
        (mat2 (V c (Pipeline.arrRef spec3 3))) (fun q => V c (Pipeline.arrRef spec3 4) (ix2 (0 : Fin 1) q)) r q := by
  refine (pay3_apply (iblk3 V c 0 t) (iblk3 V c 1 t) (iblk3 V c 2 t) (iblk3 V c 3 t) (iblk3 V c 4 t) p q).trans ?_
  unfold fused mm
  refine congrArg (fun z => max z 0) ?_
  refine congrArg₂ (· + ·) (congrArg₂ (· + ·) (Finset.sum_congr rfl fun k _ => ?_) (Finset.sum_congr rfl fun k _ => ?_)) ?_
  · exact congrArg₂ (· * ·) (blk3_0 V c t p k r hr) (blk3_1 V c t k q)
  · exact congrArg₂ (· * ·) (blk3_2 V c t p k r hr) (blk3_3 V c t k q)
  · exact blk3_4 V c t q

/-- The output array as one function of the arrays the region finds: the fused step, entry by entry. -/
abbrev res3 (c : Dev nD) : S10240x512.Idx → EReal := fun i =>
  fused (mat2 (V c (Pipeline.arrRef spec3 0))) (mat2 (V c (Pipeline.arrRef spec3 1))) (mat2 (V c (Pipeline.arrRef spec3 2)))
        (mat2 (V c (Pipeline.arrRef spec3 3))) (fun q => V c (Pipeline.arrRef spec3 4) (ix2 (0 : Fin 1) q)) (i 0) (i 1)

/-- What point `t` writes back is block `t` of that function. -/
theorem flushed3_eq (c : Dev nD) (t : Fin cfg3.N) :
    (dat3 (F := Ideal) V c).flushed 5 t = ((cfg3.win 5).blk t).view.read (Elt Ideal) (res3 V c) := by
  show (cfg3.win 5).cut (grid3.coords t) ((dat3 V c).after 5 t) = _
  rw [after3_5]
  unfold out3_5
  rw [View.canon_unit_zero hz3]
  simp only [View.ld_unit_zero (S := S512x10240) hz3, View.ld_unit_zero (S := S10240x512) hz3, View.ld_unit_zero (S := S512x512) hz3, View.ld_unit_zero (S := S1x512) hz3]
  obtain ⟨-, -, -, -, -, -, -, -, -, -, e0, e1⟩ := idx3 t
  have hN : cfg3.N = 20 := N_3
  have ht : t.val < 20 := hN ▸ t.isLt
  funext j
  have hj0 : (j 0).val < 512 := (j 0).isLt
  have hj1 : (j 1).val < 512 := (j 1).isLt
  have hx : (cfg3.win 5).xinj (grid3.coords t) j = ix2 (⟨(j 0).val, hj0⟩ : Fin 512) (⟨(j 1).val, hj1⟩ : Fin 512) :=
    funext fun a => by
      match a with
      | ⟨0, _⟩ => rfl
      | ⟨1, _⟩ => rfl
  have hy : ((cfg3.win 5).blk t).view.emb j
      = ix2 (⟨t.val * 512 + (j 0).val, by omega⟩ : Fin 10240) (⟨(j 1).val, hj1⟩ : Fin 512) := by
    funext a; apply Fin.ext
    match a with
    | ⟨0, _⟩ => show win3_5.index t (0 : Fin 2) * 512 + 1 * (j 0).val = t.val * 512 + (j 0).val; omega
    | ⟨1, _⟩ => show win3_5.index t (1 : Fin 2) * 512 + 1 * (j 1).val = (j 1).val; omega
  show k3_pay1 (iblk3 V c 0 t) (iblk3 V c 1 t) (iblk3 V c 2 t) (iblk3 V c 3 t) (iblk3 V c 4 t) ((cfg3.win 5).xinj (grid3.coords t) j)
    = res3 V c (((cfg3.win 5).blk t).view.emb j)
  rw [hx, hy]
  exact point3 V c t _ _ _ rfl

/-- An entry of the array is in point `t`'s block when each coordinate is in the block's range on its axis. -/
theorem mem_blk3 (t : Fin cfg3.N) (i : S10240x512.Idx) :
    i ∈ ((cfg3.win 5).blk t).view.set ↔ ∀ a : Fin 2, win3_5.index t a * S512x512.size a ≤ (i a).val ∧ (i a).val < win3_5.index t a * S512x512.size a + S512x512.size a := by
  show i ∈ ((View.whole (Pipeline.arrRef spec3 5)).slice (win3_5.rect t)).set ↔ _
  rw [View.set_slice_whole, Rect.mem_set_unit]
  exact Iff.rfl

/-- Row `r` lies in the block of point `r / 512`: the 20 blocks of 512 rows cover the 10240 rows. -/
theorem cover3 (i : S10240x512.Idx) : ∃ t : Fin cfg3.N, (cfg3.win 5).flush t = true ∧ i ∈ ((cfg3.win 5).blk t).view.set := by
  have hi0 : (i 0).val < 10240 := (i 0).isLt
  have hi1 : (i 1).val < 512 := (i 1).isLt
  have hN : cfg3.N = 20 := N_3
  have hlt : (i 0).val / 512 < cfg3.N := by rw [hN]; omega
  obtain ⟨-, -, -, -, -, -, -, -, -, -, e0, e1⟩ := idx3 ⟨(i 0).val / 512, hlt⟩
  refine ⟨⟨(i 0).val / 512, hlt⟩, flush3_5 _, ?_⟩
  rw [mem_blk3]
  intro a
  match a with
  | ⟨0, _⟩ =>
    show win3_5.index ⟨(i 0).val / 512, hlt⟩ (0 : Fin 2) * 512 ≤ (i 0).val ∧ (i 0).val < win3_5.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win3_5.index ⟨(i 0).val / 512, hlt⟩ (1 : Fin 2) * 512 ≤ (i 1).val ∧ (i 1).val < win3_5.index ⟨(i 0).val / 512, hlt⟩ (1 : Fin 2) * 512 + 512
    rw [e1]; omega

/-- After the region the output array holds the fused step of the arrays the region found, at every entry. -/
theorem arr3 (c : Dev nD) (r : Fin 10240) (q : Fin 512) :
    (dat3 (F := Ideal) V c).arrAt 5 cfg3.N (ix2 r q)
      = fused (mat2 (V c (Pipeline.arrRef spec3 0))) (mat2 (V c (Pipeline.arrRef spec3 1))) (mat2 (V c (Pipeline.arrRef spec3 2)))
        (mat2 (V c (Pipeline.arrRef spec3 3))) (fun q => V c (Pipeline.arrRef spec3 4) (ix2 (0 : Fin 1) q)) r q :=
  congrFun ((dat3 (F := Ideal) V c).arrAt_eq_of_cover 5 (res3 V c) (fun t _ => flushed3_eq V c t) cover3) (ix2 r q)

end Cert.KernelIdeal.Val

end
-- ==== Proof.KLayer2.lean ====
/-
  One hidden layer of the kernel program as mathematics: the fused region's output on the padded node set is
  `relu (A (H W) + H V + b)`, with `A` the dense adjacency the host built, `H` the previous layer's output and
  `W`, `V`, `b` the layer's blocks of the stacked arguments.

  The host stretch before the layer cuts the blocks out; the product region forms `H W`; the fused region reads the
  adjacency, that product, `H` again, `V` and `b`.  Each input window of the fused region is followed back to the
  boundary where its contents were made, and identified there.
-/
import proofs.«418437_j77618648973637_3_alg».proof.Proof.Gen.KernelIdeal.Frame
import proofs.«418437_j77618648973637_3_alg».proof.Proof.Spec
import proofs.«418437_j77618648973637_3_alg».proof.Proof.KDefs
import proofs.«418437_j77618648973637_3_alg».proof.Proof.KWalk
import proofs.«418437_j77618648973637_3_alg».proof.Proof.RegM2
import proofs.«418437_j77618648973637_3_alg».proof.Proof.RegS3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

variable (m : (ℓ : Loc nD τ sig) → Buf (Elt Ideal) ℓ) (ρ : Dev nD → PrngReg)

/-! ## What the host stretch before the layer leaves

The stretch cuts block `(0 : Fin 6)` out of the stacked weights and biases, drops the unit axis, and rounds to the
kernel's format, which at exact arithmetic changes nothing: each buffer read at an entry is the argument's entry in
that block. -/

theorem L2_hostW (c : Dev nD) (j q : Fin 512) :
    W5 (F := Ideal) m ρ c (Proc.devRef .tc main_call1_v13) (ix2 j q) = argWk m c (0 : Fin 6) j q := by
  show StableHlo.after hostOps2 _ (Proc.devRef .tc main_call1_v13) (ix2 j q) = _
  after_results
  refine (shapeCast_1ab_ab_apply (extractStridedSlice S1x512x512 _ (W4 (F := Ideal) m ρ c (Proc.devRef .tc main_arg6)) slices_S6x512x512_S1x512x512_0_0_0) _ j q).trans ?_
  refine (extractStridedSlice_apply _ _ _ _ (ix3 (0 : Fin 6) j q) (fun a => ?_)).trans
    (congrFun (arg6_at_W4 m ρ c) (ix3 (0 : Fin 6) j q))
  match a with
  | ⟨0, _⟩ => rfl
  | ⟨1, _⟩ => exact (Nat.zero_add _).symm
  | ⟨2, _⟩ => exact (Nat.zero_add _).symm

theorem L2_hostV (c : Dev nD) (j q : Fin 512) :
    W5 (F := Ideal) m ρ c (Proc.devRef .tc main_call1_v14) (ix2 j q) = argVk m c (0 : Fin 6) j q := by
  show StableHlo.after hostOps2 _ (Proc.devRef .tc main_call1_v14) (ix2 j q) = _
  after_results
  refine (shapeCast_1ab_ab_apply (extractStridedSlice S1x512x512 _ (W4 (F := Ideal) m ρ c (Proc.devRef .tc main_arg7)) slices_S6x512x512_S1x512x512_0_0_0) _ j q).trans ?_
  refine (extractStridedSlice_apply _ _ _ _ (ix3 (0 : Fin 6) j q) (fun a => ?_)).trans
    (congrFun (arg7_at_W4 m ρ c) (ix3 (0 : Fin 6) j q))
  match a with
  | ⟨0, _⟩ => rfl
  | ⟨1, _⟩ => exact (Nat.zero_add _).symm
  | ⟨2, _⟩ => exact (Nat.zero_add _).symm

theorem L2_hostB (c : Dev nD) (q : Fin 512) :
    W5 (F := Ideal) m ρ c (Proc.devRef .tc main_call1_v15) (ix2 (0 : Fin 1) q) = argBk m c (0 : Fin 6) q := by
  show StableHlo.after hostOps2 _ (Proc.devRef .tc main_call1_v15) (ix2 (0 : Fin 1) q) = _
  after_results
  refine (shapeCast_a_1a_apply (shapeCast S512 (extractStridedSlice S1x512 _ (W4 (F := Ideal) m ρ c (Proc.devRef .tc main_arg8)) slices_S6x512_S1x512_0_0) shapeCasts_S1x512_S512) _ (0 : Fin 1) q).trans ?_
  refine (shapeCast_1a_a_apply (extractStridedSlice S1x512 _ (W4 (F := Ideal) m ρ c (Proc.devRef .tc main_arg8)) slices_S6x512_S1x512_0_0) _ q).trans ?_
  refine (extractStridedSlice_apply _ _ _ _ (ix2 (0 : Fin 6) q) (fun a => ?_)).trans
    (congrFun (arg8_at_W4 m ρ c) (ix2 (0 : Fin 6) q))
  match a with
  | ⟨0, _⟩ => rfl
  | ⟨1, _⟩ => exact (Nat.zero_add _).symm

/-! ## The layer's input through the host stretch and the product region

No operation of the host stretch writes the previous layer's output, and the product region holds it as an input
window, whose array a region leaves as it found it. -/

theorem L2_in_W5 (c : Dev nD) :
    W5 (F := Ideal) m ρ c (Proc.devRef .tc main_call1_v6) = W4 m ρ c (Proc.devRef .tc main_call1_v6) := by
  walk_keeps hostOps2

theorem L2_in_W6 (c : Dev nD) :
    W6 (F := Ideal) m ρ c (Proc.devRef .tc main_call1_v6) = W4 m ρ c (Proc.devRef .tc main_call1_v6) :=
  calc W6 (F := Ideal) m ρ c (Proc.devRef .tc main_call1_v6)
    _ = (dat2 (V5 m ρ) c).arrAt 0 cfg2.N := W6_arr m ρ c 0
    _ = (dat2 (V5 m ρ) c).A 0 := (dat2 (V5 m ρ) c).arrAt_in 0 rfl cfg2.N
    _ = W5 m ρ c (Proc.devRef .tc main_call1_v6) := A_eq2 (V5 m ρ) c 0
    _ = W4 m ρ c (Proc.devRef .tc main_call1_v6) := L2_in_W5 m ρ c

/-! ## The two regions' input windows as the named matrices -/

/-- The product region multiplies the previous layer's output … -/
theorem L2_prod_in (c : Dev nD) : mat2 (V5 (F := Ideal) m ρ c (Pipeline.arrRef spec2 0)) = feat1 m ρ c :=
  funext fun a => funext fun b => congrFun (L2_in_W5 m ρ c) (ix2 a b)

/-- … by the layer's block of `W`. -/
theorem L2_prod_w (c : Dev nD) : mat2 (V5 (F := Ideal) m ρ c (Pipeline.arrRef spec2 1)) = argWk m c (0 : Fin 6) :=
  funext fun j => funext fun q => L2_hostW m ρ c j q

/-- The fused region's second window is the product region's output: the product of the two. -/
theorem L2_fused_prod (c : Dev nD) :
    mat2 (V6 (F := Ideal) m ρ c (Pipeline.arrRef spec3 1)) = mm (feat1 m ρ c) (argWk m c (0 : Fin 6)) := by
  funext a b
  refine (congrFun (W6_arr m ρ c 2) (ix2 a b)).trans ?_
  refine (arr2 (V5 m ρ) c a b).trans ?_
  show mm (mat2 (V5 (F := Ideal) m ρ c (Pipeline.arrRef spec2 0))) (mat2 (V5 (F := Ideal) m ρ c (Pipeline.arrRef spec2 1))) a b = _
  rw [L2_prod_in, L2_prod_w]

/-- Its first window is the adjacency. -/
theorem L2_fused_adj (c : Dev nD) : mat2 (V6 (F := Ideal) m ρ c (Pipeline.arrRef spec3 0)) = adj m ρ c :=
  funext fun a => funext fun b => congrFun (adj_at_W6 m ρ c) (ix2 a b)

/-- Its third window is the previous layer's output again. -/
theorem L2_fused_in (c : Dev nD) : mat2 (V6 (F := Ideal) m ρ c (Pipeline.arrRef spec3 2)) = feat1 m ρ c :=
  funext fun a => funext fun b => congrFun (L2_in_W6 m ρ c) (ix2 a b)

/-- Its fourth window is the layer's block of `V`: the product region does not hold that buffer. -/
theorem L2_fused_v (c : Dev nD) : mat2 (V6 (F := Ideal) m ρ c (Pipeline.arrRef spec3 3)) = argVk m c (0 : Fin 6) :=
  funext fun j => funext fun q =>
    (congrFun (W6_of_ne m ρ c main_call1_v14 (by decide)) (ix2 j q)).trans (L2_hostV m ρ c j q)

/-- Its fifth window is the layer's bias as one row. -/
theorem L2_fused_b (c : Dev nD) :
    (fun q => V6 (F := Ideal) m ρ c (Pipeline.arrRef spec3 4) (ix2 (0 : Fin 1) q)) = argBk m c (0 : Fin 6) :=
  funext fun q =>
    (congrFun (W6_of_ne m ρ c main_call1_v15 (by decide)) (ix2 (0 : Fin 1) q)).trans (L2_hostB m ρ c q)

/-! ## The layer -/

/-- The fused region's output is one dense layer applied to the previous layer's output. -/
theorem feat2_eq (c : Dev nD) :
    feat2 m ρ c = denseLayer (adj m ρ c) (feat1 m ρ c) (argWk m c (0 : Fin 6)) (argVk m c (0 : Fin 6)) (argBk m c (0 : Fin 6)) := by
  funext r q
  refine (congrFun (W7_arr m ρ c 5) (ix2 r q)).trans ?_
  refine (arr3 (V6 m ρ) c r q).trans ?_
  show fused (mat2 (V6 (F := Ideal) m ρ c (Pipeline.arrRef spec3 0))) (mat2 (V6 (F := Ideal) m ρ c (Pipeline.arrRef spec3 1)))
      (mat2 (V6 (F := Ideal) m ρ c (Pipeline.arrRef spec3 2))) (mat2 (V6 (F := Ideal) m ρ c (Pipeline.arrRef spec3 3)))
      (fun q => V6 (F := Ideal) m ρ c (Pipeline.arrRef spec3 4) (ix2 (0 : Fin 1) q)) r q = _
  rw [L2_fused_adj, L2_fused_prod, L2_fused_in, L2_fused_v, L2_fused_b]
  rfl

end Cert.KernelIdeal.Val

end
-- ==== Proof.RegM4.lean ====
/-
  The array that the product region 4 leaves: the region multiplies a [10240, 512] matrix, one block of 1024 rows
  at each of its ten grid points, by a whole [512, 512] matrix, and writes each [1024, 512] block of the product back.
  Entry (r, q) of the output array is therefore Σ_k lhs (r, k) · rhs (k, q), for every row r and column q: row r lies
  in the block of point r / 1024, and that point's body computes the block's entries as the same sums over the
  contraction index, read off the left operand's rows 1024 t … 1024 t + 1023 and the whole right operand.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.PureOps.Ideal.Laws
noncomputable section
namespace Cert.KernelIdeal.Val
open Idealize.ShloMosaic Idealize.ShloMosaic.TcCoe Idealize.SL.Sem Idealize.ShloMosaic.ValueIdx Cert.KernelIdeal Cert.KernelIdeal.Gen Cert.Spec

/-- The zero offsets of a whole-block access. -/
theorem mm4_hz : (![0, 0] : Fin 2 → Nat) = fun _ => 0 := funext fun a => by fin_cases a <;> rfl

/-! ## The body's product at an index -/

/-- The left operand's row coordinate at output index `i` is `i`'s row. -/
theorem mm4_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column coordinate is the contraction position. -/
theorem mm4_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row coordinate is the contraction position. -/
theorem mm4_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column coordinate at output index `i` is `i`'s column. -/
theorem mm4_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The body's stored value at (p, q): the casts between equal shapes and the change of float format are the identity
    on extended reals, and the product into a zero accumulator is the sum over the contraction index. -/
theorem mm4_pay_apply (x0 : FVec Ideal S1024x512 .bf16) (x1 : FVec Ideal S512x512 .bf16) (p : Fin 1024) (q : Fin 512) :
    k4_pay1 (F := Ideal) x0 x1 (ix2 p q) = ∑ k : Fin 512, x0 (ix2 p k) * x1 (ix2 k q) := by
  unfold k4_pay1
  simp only [shapeCast_self]
  show FloatOps.matmul dot_S1024x512_S512x512_S1024x512_1_0_0_1_n_n none x0 x1 (constant S1024x512 .f32 0x00000000#32) (ix2 p q) = _
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact mm4_lhs_0 _ _
    | ⟨1, _⟩ => exact (mm4_lhs_1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (mm4_rhs_0 _ _).trans hk
    | ⟨1, _⟩ => exact mm4_rhs_1 _ _)
  rw [el, er]

/-! ## The whole product, and each point's block of it -/

variable (V : (c : Dev nD) → (b : Ref sig .tc) → Buf (Elt Ideal) ((c : Thread nD τ).loc b))

/-- The whole product of the two arrays, index by index. -/
def mm4_prod (A : S10240x512.Idx → EReal) (B : S512x512.Idx → EReal) : S10240x512.Idx → EReal :=
  fun i => mm (mat2 A) (mat2 B) (i 0) (i 1)

/-- The block indices over the grid: the left operand's and the output's blocks move down the rows with the point, the
    right operand stays whole. -/
theorem mm4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- A block's entry (p, q) is the whole product's entry at `i` when the left block's row p is the left array's row
    `i 0` and the right block's column q is the right array's column `i 1`. -/
theorem mm4_point (A : S10240x512.Idx → EReal) (B : S512x512.Idx → EReal) (x0 : FVec Ideal S1024x512 .bf16) (x1 : FVec Ideal S512x512 .bf16)
    (p : Fin 1024) (q : Fin 512) (i : S10240x512.Idx)
    (hx0 : ∀ k : Fin 512, x0 (ix2 p k) = A (ix2 (i 0) k)) (hx1 : ∀ k : Fin 512, x1 (ix2 k q) = B (ix2 k (i 1))) :
    k4_pay1 (F := Ideal) x0 x1 (ix2 p q) = mm4_prod A B i := by
  rw [mm4_pay_apply]
  show _ = ∑ k : Fin 512, A (ix2 (i 0) k) * B (ix2 k (i 1))
  exact Finset.sum_congr rfl fun k _ => by rw [hx0 k, hx1 k]

/-- The left operand's block at point `t` holds rows 1024 t … 1024 t + 1023 of its array. -/
theorem mm4_blk_0 (c : Dev nD) (t : Fin cfg4.N) (p : Fin 1024) (k : Fin 512) (i : S10240x512.Idx)
    (h0 : (i 0).val = t.val * 1024 + p.val) (h1 : (i 1).val = k.val) :
    (iblk4 V c 0 t : FVec Ideal S1024x512 .bf16) (ix2 p k) = V c (Pipeline.arrRef spec4 0) i := by
  obtain ⟨e0, e1, -⟩ := mm4_idx t
  unfold iblk4
  rw [View.read_apply]
  show V c (Pipeline.arrRef spec4 0) (((cfg4.win 0).blk t).view.emb (ix2 p k)) = V c (Pipeline.arrRef spec4 0) i
  refine congrArg _ (funext fun a => Fin.ext ?_)
  match a with
  | ⟨0, _⟩ => show win4_0.index t (0 : Fin 2) * 1024 + 1 * p.val = (i 0).val; omega
  | ⟨1, _⟩ => show win4_0.index t (1 : Fin 2) * 512 + 1 * k.val = (i 1).val; omega

/-- The right operand's block at every point is its whole array. -/
theorem mm4_blk_1 (c : Dev nD) (t : Fin cfg4.N) (k : Fin 512) (q : Fin 512) (i : S512x512.Idx)
    (h0 : (i 0).val = k.val) (h1 : (i 1).val = q.val) :
    (iblk4 V c 1 t : FVec Ideal S512x512 .bf16) (ix2 k q) = V c (Pipeline.arrRef spec4 1) i := by
  obtain ⟨-, -, e2, e3, -⟩ := mm4_idx t
  unfold iblk4
  rw [View.read_apply]
  show V c (Pipeline.arrRef spec4 1) (((cfg4.win 1).blk t).view.emb (ix2 k q)) = V c (Pipeline.arrRef spec4 1) i
  refine congrArg _ (funext fun a => Fin.ext ?_)
  match a with
  | ⟨0, _⟩ => show win4_1.index t (0 : Fin 2) * 512 + 1 * k.val = (i 0).val; omega
  | ⟨1, _⟩ => show win4_1.index t (1 : Fin 2) * 512 + 1 * q.val = (i 1).val; omega

/-- Entry (p, q) of the output's block at point `t` sits at row 1024 t + p, column q of the output array. -/
theorem mm4_emb (t : Fin cfg4.N) (p : Fin 1024) (q : Fin 512) :
    ((((cfg4.win 2).blk t).view.emb (ix2 p q)) 0).val = t.val * 1024 + p.val
      ∧ ((((cfg4.win 2).blk t).view.emb (ix2 p q)) 1).val = q.val := by
  obtain ⟨-, -, -, -, e4, e5⟩ := mm4_idx t
  constructor
  · show win4_2.index t (0 : Fin 2) * 1024 + 1 * p.val = _; omega
  · show win4_2.index t (1 : Fin 2) * 512 + 1 * q.val = _; omega

/-- What point `t` writes back is block `t` of the whole product of the arrays as the region finds them. -/
theorem mm4_flushed_eq (c : Dev nD) (t : Fin cfg4.N) :
    (dat4 (F := Ideal) V c).flushed 2 t
      = ((cfg4.win 2).blk t).view.read (Elt Ideal) (mm4_prod (V c (Pipeline.arrRef spec4 0)) (V c (Pipeline.arrRef spec4 1))) := by
  show (cfg4.win 2).cut (grid4.coords t) ((dat4 V c).after 2 t) = _
  rw [after4_2]
  unfold out4_2
  rw [View.canon_unit_zero mm4_hz]
  simp only [View.ld_unit_zero (S := S1024x512) mm4_hz, View.ld_unit_zero (S := S512x512) mm4_hz]
  funext j
  obtain ⟨p, q, rfl⟩ : ∃ (p : Fin 1024) (q : Fin 512), j = ix2 p q := ⟨j 0, j 1, eq_ix2 j⟩
  show k4_pay1 (F := Ideal) (iblk4 V c 0 t) (iblk4 V c 1 t) (ix2 p q)
    = mm4_prod (V c (Pipeline.arrRef spec4 0)) (V c (Pipeline.arrRef spec4 1)) (((cfg4.win 2).blk t).view.emb (ix2 p q))
  exact mm4_point _ _ (iblk4 V c 0 t) (iblk4 V c 1 t) p q _
    (fun k => mm4_blk_0 V c t p k _ (mm4_emb t p q).1 rfl) (fun k => mm4_blk_1 V c t k q _ rfl (mm4_emb t p q).2)

/-! ## The blocks cover the array -/

/-- An index of the output array is in point `t`'s block iff each coordinate is in the block's range on its axis. -/
theorem mm4_mem_blk (t : Fin cfg4.N) (i : S10240x512.Idx) :
    i ∈ ((cfg4.win 2).blk t).view.set ↔ ∀ a : Fin 2, win4_2.index t a * S1024x512.size a ≤ (i a).val ∧ (i a).val < win4_2.index t a * S1024x512.size a + S1024x512.size a := by
  show i ∈ ((View.whole (Pipeline.arrRef spec4 2)).slice (win4_2.rect t)).set ↔ _
  rw [View.set_slice_whole, Rect.mem_set_unit]
  exact Iff.rfl

/-- Row r of the output array lies in the block of point r / 1024. -/
theorem mm4_cover (i : S10240x512.Idx) : ∃ t : Fin cfg4.N, (cfg4.win 2).flush t = true ∧ i ∈ ((cfg4.win 2).blk t).view.set := by
  have hi0 : (i 0).val < 10240 := (i 0).isLt
  have hi1 : (i 1).val < 512 := (i 1).isLt
  have hN : cfg4.N = 10 := N_4
  have ht : (i 0).val / 1024 < cfg4.N := by rw [hN]; omega
  refine ⟨⟨(i 0).val / 1024, ht⟩, flush4_2 _, ?_⟩
  rw [mm4_mem_blk]
  obtain ⟨-, -, -, -, e4, e5⟩ := mm4_idx ⟨(i 0).val / 1024, ht⟩
  intro a
  match a with
  | ⟨0, _⟩ =>
    show win4_2.index ⟨(i 0).val / 1024, ht⟩ (0 : Fin 2) * 1024 ≤ (i 0).val
      ∧ (i 0).val < win4_2.index ⟨(i 0).val / 1024, ht⟩ (0 : Fin 2) * 1024 + 1024
    rw [e4]
    show (i 0).val / 1024 * 1024 ≤ (i 0).val ∧ (i 0).val < (i 0).val / 1024 * 1024 + 1024
    omega
  | ⟨1, _⟩ =>
    show win4_2.index ⟨(i 0).val / 1024, ht⟩ (1 : Fin 2) * 512 ≤ (i 1).val
      ∧ (i 1).val < win4_2.index ⟨(i 0).val / 1024, ht⟩ (1 : Fin 2) * 512 + 512
    rw [e5]
    omega

/-! ## The output array after the region -/

/-- After the region the output array holds the product of the two input arrays as the region found them, entry by entry. -/
theorem arr4 (c : Dev nD) (r : Fin 10240) (q : Fin 512) :
    (dat4 (F := Ideal) V c).arrAt 2 cfg4.N (ix2 r q)
      = mm (mat2 (V c (Pipeline.arrRef spec4 0))) (mat2 (V c (Pipeline.arrRef spec4 1))) r q :=
  congrFun ((dat4 (F := Ideal) V c).arrAt_eq_of_cover 2
    (mm4_prod (V c (Pipeline.arrRef spec4 0)) (V c (Pipeline.arrRef spec4 1)))
    (fun t _ => mm4_flushed_eq V c t) mm4_cover) (ix2 r q)

end Cert.KernelIdeal.Val

end
-- ==== Proof.RegS5.lean ====
/-
  The fused region of a later layer: what its output array holds after the region, entry by entry.

  The grid has 20 points. Point `t` takes rows `512 t … 512 t + 511` of the adjacency `A` (10240 columns) and of the node
  features `H` (512 columns), and the whole of `M` (10240 × 512), of `V` (512 × 512) and of the bias row `b`; it stores
  `max (A_t M + H_t V + b) 0` into rows `512 t … 512 t + 511` of the output. On the extended reals each product is the exact
  sum over its inner index and the change of format is the identity, so entry `(512 t + p, q)` of what point `t` writes is
  `Spec.fused A M H V b (512 t + p) q`. The 20 row blocks cover the 10240 rows, so the output array is `Spec.fused` of the
  arrays the region finds, at every entry.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

/-! ## The two products of the fused step, entry by entry -/

theorem hz5 : (![0, 0] : Fin 2 → Nat) = fun _ => 0 := funext fun a => by fin_cases a <;> rfl

/-- The product with the adjacency block: the left operand is read at the output's row and the summed position, -/
theorem lhsA5_0 (i : S512x512.Idx) (q : dot_S512x10240_S10240x512_S512x512_1_0_0_1_n_n.contr.Idx) :
    (dot_S512x10240_S10240x512_S512x512_1_0_0_1_n_n.lhsIdx i q 0).val = (i 0).val := by
  unfold DotDims.lhsIdx
  rw [dif_neg (show ¬(0 : Fin S512x10240.rank) ∈ dot_S512x10240_S10240x512_S512x512_1_0_0_1_n_n.lhsBatch by decide), dif_pos (show (0 : Fin S512x10240.rank) ∈ dot_S512x10240_S10240x512_S512x512_1_0_0_1_n_n.lhsNonContracting by decide)]
  rfl
theorem lhsA5_1 (i : S512x512.Idx) (q : dot_S512x10240_S10240x512_S512x512_1_0_0_1_n_n.contr.Idx) :
    (dot_S512x10240_S10240x512_S512x512_1_0_0_1_n_n.lhsIdx i q 1).val = (q ⟨0, by decide⟩).val :=
  dot_S512x10240_S10240x512_S512x512_1_0_0_1_n_n.lhsIdx_val_of_single rfl i q
/-- the right operand at the summed position and the output's column. -/
theorem rhsA5_0 (i : S512x512.Idx) (q : dot_S512x10240_S10240x512_S512x512_1_0_0_1_n_n.contr.Idx) :
    (dot_S512x10240_S10240x512_S512x512_1_0_0_1_n_n.rhsIdx i q 0).val = (q ⟨0, by decide⟩).val :=
  dot_S512x10240_S10240x512_S512x512_1_0_0_1_n_n.rhsIdx_val_of_single rfl i q
theorem rhsA5_1 (i : S512x512.Idx) (q : dot_S512x10240_S10240x512_S512x512_1_0_0_1_n_n.contr.Idx) :
    (dot_S512x10240_S10240x512_S512x512_1_0_0_1_n_n.rhsIdx i q 1).val = (i 1).val := by
  unfold DotDims.rhsIdx
  rw [dif_neg (show ¬(1 : Fin S10240x512.rank) ∈ dot_S512x10240_S10240x512_S512x512_1_0_0_1_n_n.rhsBatch by decide), dif_pos (show (1 : Fin S10240x512.rank) ∈ dot_S512x10240_S10240x512_S512x512_1_0_0_1_n_n.rhsNonContracting by decide)]
  rfl

/-- A block of 512 rows of the adjacency against the whole of `M`, into a zero accumulator: entry `(p, q)` is the sum
    over the 10240 slots `k` of the row's weight at `k` times `M k q`. -/
theorem mmA5_apply (x : FVec Ideal S512x10240 .bf16) (y : FVec Ideal S10240x512 .bf16) (p q : Fin 512) :
    matmul dot_S512x10240_S10240x512_S512x512_1_0_0_1_n_n none x y (constant S512x512 .f32 0x00000000#32) (ix2 p q)
      = ∑ k : Fin 10240, x (ix2 p k) * y (ix2 k q) := by
  simp only [matmul]
  rw [Ideal.matmul_constant_zero_apply, ← Equiv.sum_comp (contrEquiv1 dot_S512x10240_S10240x512_S512x512_1_0_0_1_n_n 10240 rfl rfl).symm]
  refine Finset.sum_congr rfl fun k _ => ?_
  have hk := contrEquiv1_symm_val dot_S512x10240_S10240x512_S512x512_1_0_0_1_n_n 10240 rfl rfl k
  have el : dot_S512x10240_S10240x512_S512x512_1_0_0_1_n_n.lhsIdx (ix2 p q) ((contrEquiv1 dot_S512x10240_S10240x512_S512x512_1_0_0_1_n_n 10240 rfl rfl).symm k) = ix2 p k := funext fun a => Fin.ext (by
    match a with
    | ⟨0, _⟩ => exact lhsA5_0 _ _
    | ⟨1, _⟩ => exact (lhsA5_1 _ _).trans hk)
  have er : dot_S512x10240_S10240x512_S512x512_1_0_0_1_n_n.rhsIdx (ix2 p q) ((contrEquiv1 dot_S512x10240_S10240x512_S512x512_1_0_0_1_n_n 10240 rfl rfl).symm k) = ix2 k q := funext fun a => Fin.ext (by
    match a with
    | ⟨0, _⟩ => exact (rhsA5_0 _ _).trans hk
    | ⟨1, _⟩ => exact rhsA5_1 _ _)
  rw [el, er]

/-- The product of the block's own features with `V`: the same reading of the two operands. -/
theorem lhsB5_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhsB5_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhsB5_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhsB5_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A block of 512 rows of `H` against the whole of `V`, into a zero accumulator: entry `(p, q)` is the sum over the
    512 feature positions `k` of `H p k * V k q`. -/
theorem mmB5_apply (x : FVec Ideal S512x512 .bf16) (y : FVec Ideal S512x512 .bf16) (p q : Fin 512) :
    matmul dot_S512x512_S512x512_S512x512_1_0_0_1_n_n none x y (constant S512x512 .f32 0x00000000#32) (ix2 p q)
      = ∑ k : Fin 512, x (ix2 p k) * y (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhsB5_0 _ _
    | ⟨1, _⟩ => exact (lhsB5_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhsB5_0 _ _).trans hk
    | ⟨1, _⟩ => exact rhsB5_1 _ _)
  rw [el, er]

/-! ## The body's result at an entry of the block -/

/-- Entry `(p, q)` of what the body stores: the two products added, the bias of column `q` added, the maximum with zero
    taken; the change of format at the end is the identity on the extended reals. -/
theorem pay5_apply (xa : Vec Ideal S512x10240 .bf16) (xm : Vec Ideal S10240x512 .bf16) (xh : Vec Ideal S512x512 .bf16)
    (xv : Vec Ideal S512x512 .bf16) (xb : Vec Ideal S1x512 .f32) (p q : Fin 512) :
    k5_pay1 xa xm xh xv xb (ix2 p q)
      = max (((∑ k : Fin 10240, xa (ix2 p k) * xm (ix2 k q)) + ∑ k : Fin 512, xh (ix2 p k) * xv (ix2 k q)) + xb (ix2 (0 : Fin 1) q)) 0 := by
  unfold k5_pay1
  simp only [shapeCast_self]
  rw [truncf_apply, maximumf_apply, addf_apply, addf_apply, mmA5_apply, mmB5_apply, broadcast_apply,
    broadcastTo_apply xb broadcasts_S1x512_S512x512 (ix2 p q) (ix2 (0 : Fin 1) q) (fun a => by
      match a with
      | ⟨0, _⟩ => rfl
      | ⟨1, _⟩ => rfl)]
  show max _ (Ideal.ofBits .f32 0x00000000#32) = _
  rw [Ideal.ofBits_zero_f32]

/-! ## Which block of each array a point reads -/

variable (V : (c : Dev nD) → (b : Ref sig .tc) → Buf (Elt Ideal) ((c : Thread nD τ).loc b))

/-- Point `t` takes block `t` of the rows of the adjacency, of `H` and of the output, and the whole of `M`, of `V`
    and of the bias (decided over the 20 points). -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row `p` of the adjacency block at point `t` is row `512 t + p` of the adjacency. -/
theorem blk5_0 (c : Dev nD) (t : Fin cfg5.N) (p : Fin 512) (k : Fin 10240) (r : Fin 10240) (hr : r.val = t.val * 512 + p.val) :
    (iblk5 V c 0 t : Vec Ideal S512x10240 .bf16) (ix2 p k) = mat2 (V c (Pipeline.arrRef spec5 0)) r k := by
  obtain ⟨e0, e1, -⟩ := idx5 t
  unfold iblk5
  rw [View.read_apply]
  show V c (Pipeline.arrRef spec5 0) _ = V c (Pipeline.arrRef spec5 0) (ix2 r k)
  congr 1
  funext a; apply Fin.ext
  match a with
  | ⟨0, _⟩ => show win5_0.index t (0 : Fin 2) * 512 + 1 * p.val = r.val; omega
  | ⟨1, _⟩ => show win5_0.index t (1 : Fin 2) * 10240 + 1 * k.val = k.val; omega

/-- The block of `M` is all of `M`. -/
theorem blk5_1 (c : Dev nD) (t : Fin cfg5.N) (k : Fin 10240) (q : Fin 512) :
    (iblk5 V c 1 t : Vec Ideal S10240x512 .bf16) (ix2 k q) = mat2 (V c (Pipeline.arrRef spec5 1)) k q := by
  obtain ⟨-, -, e0, e1, -⟩ := idx5 t
  unfold iblk5
  rw [View.read_apply]
  show V c (Pipeline.arrRef spec5 1) _ = V c (Pipeline.arrRef spec5 1) (ix2 k q)
  congr 1
  funext a; apply Fin.ext
  match a with
  | ⟨0, _⟩ => show win5_1.index t (0 : Fin 2) * 10240 + 1 * k.val = k.val; omega
  | ⟨1, _⟩ => show win5_1.index t (1 : Fin 2) * 512 + 1 * q.val = q.val; omega

/-- Row `p` of the block of `H` at point `t` is row `512 t + p` of `H`. -/
theorem blk5_2 (c : Dev nD) (t : Fin cfg5.N) (p : Fin 512) (k : Fin 512) (r : Fin 10240) (hr : r.val = t.val * 512 + p.val) :
    (iblk5 V c 2 t : Vec Ideal S512x512 .bf16) (ix2 p k) = mat2 (V c (Pipeline.arrRef spec5 2)) r k := by
  obtain ⟨-, -, -, -, e0, e1, -⟩ := idx5 t
  unfold iblk5
  rw [View.read_apply]
  show V c (Pipeline.arrRef spec5 2) _ = V c (Pipeline.arrRef spec5 2) (ix2 r k)
  congr 1
  funext a; apply Fin.ext
  match a with
  | ⟨0, _⟩ => show win5_2.index t (0 : Fin 2) * 512 + 1 * p.val = r.val; omega
  | ⟨1, _⟩ => show win5_2.index t (1 : Fin 2) * 512 + 1 * k.val = k.val; omega

/-- The block of `V` is all of `V`. -/
theorem blk5_3 (c : Dev nD) (t : Fin cfg5.N) (k : Fin 512) (q : Fin 512) :
    (iblk5 V c 3 t : Vec Ideal S512x512 .bf16) (ix2 k q) = mat2 (V c (Pipeline.arrRef spec5 3)) k q := by
  obtain ⟨-, -, -, -, -, -, e0, e1, -⟩ := idx5 t
  unfold iblk5
  rw [View.read_apply]
  show V c (Pipeline.arrRef spec5 3) _ = V c (Pipeline.arrRef spec5 3) (ix2 k q)
  congr 1
  funext a; apply Fin.ext
  match a with
  | ⟨0, _⟩ => show win5_3.index t (0 : Fin 2) * 512 + 1 * k.val = k.val; omega
  | ⟨1, _⟩ => show win5_3.index t (1 : Fin 2) * 512 + 1 * q.val = q.val; omega

/-- The block of the bias is the whole bias row. -/
theorem blk5_4 (c : Dev nD) (t : Fin cfg5.N) (q : Fin 512) :
    (iblk5 V c 4 t : Vec Ideal S1x512 .f32) (ix2 (0 : Fin 1) q) = V c (Pipeline.arrRef spec5 4) (ix2 (0 : Fin 1) q) := by
  obtain ⟨-, -, -, -, -, -, -, -, e0, e1, -⟩ := idx5 t
  unfold iblk5
  rw [View.read_apply]
  show V c (Pipeline.arrRef spec5 4) _ = V c (Pipeline.arrRef spec5 4) (ix2 (0 : Fin 1) q)
  congr 1
  funext a; apply Fin.ext
  match a with
  | ⟨0, _⟩ => show win5_4.index t (0 : Fin 2) * 1 + 1 * (0 : Fin 1).val = (0 : Fin 1).val; omega
  | ⟨1, _⟩ => show win5_4.index t (1 : Fin 2) * 512 + 1 * q.val = q.val; omega

/-! ## What a point writes back, and the whole array -/

/-- Entry `(p, q)` of the body's result at point `t` is entry `(512 t + p, q)` of the fused step of the whole arrays:
    each block entry is read where the point's rectangle puts it, the sums term by term. -/
theorem point5 (c : Dev nD) (t : Fin cfg5.N) (p q : Fin 512) (r : Fin 10240) (hr : r.val = t.val * 512 + p.val) :
    k5_pay1 (iblk5 V c 0 t) (iblk5 V c 1 t) (iblk5 V c 2 t) (iblk5 V c 3 t) (iblk5 V c 4 t) (ix2 p q)
      = fused (mat2 (V c (Pipeline.arrRef spec5 0))) (mat2 (V c (Pipeline.arrRef spec5 1))) (mat2 (V c (Pipeline.arrRef spec5 2)))
        (mat2 (V c (Pipeline.arrRef spec5 3))) (fun q => V c (Pipeline.arrRef spec5 4) (ix2 (0 : Fin 1) q)) r q := by
  refine (pay5_apply (iblk5 V c 0 t) (iblk5 V c 1 t) (iblk5 V c 2 t) (iblk5 V c 3 t) (iblk5 V c 4 t) p q).trans ?_
  unfold fused mm
  refine congrArg (fun z => max z 0) ?_
  refine congrArg₂ (· + ·) (congrArg₂ (· + ·) (Finset.sum_congr rfl fun k _ => ?_) (Finset.sum_congr rfl fun k _ => ?_)) ?_
  · exact congrArg₂ (· * ·) (blk5_0 V c t p k r hr) (blk5_1 V c t k q)
  · exact congrArg₂ (· * ·) (blk5_2 V c t p k r hr) (blk5_3 V c t k q)
  · exact blk5_4 V c t q

/-- The output array as one function of the arrays the region finds: the fused step, entry by entry. -/
abbrev res5 (c : Dev nD) : S10240x512.Idx → EReal := fun i =>
  fused (mat2 (V c (Pipeline.arrRef spec5 0))) (mat2 (V c (Pipeline.arrRef spec5 1))) (mat2 (V c (Pipeline.arrRef spec5 2)))
        (mat2 (V c (Pipeline.arrRef spec5 3))) (fun q => V c (Pipeline.arrRef spec5 4) (ix2 (0 : Fin 1) q)) (i 0) (i 1)

/-- What point `t` writes back is block `t` of that function. -/
theorem flushed5_eq (c : Dev nD) (t : Fin cfg5.N) :
    (dat5 (F := Ideal) V c).flushed 5 t = ((cfg5.win 5).blk t).view.read (Elt Ideal) (res5 V c) := by
  show (cfg5.win 5).cut (grid5.coords t) ((dat5 V c).after 5 t) = _
  rw [after5_5]
  unfold out5_5
  rw [View.canon_unit_zero hz5]
  simp only [View.ld_unit_zero (S := S512x10240) hz5, View.ld_unit_zero (S := S10240x512) hz5, View.ld_unit_zero (S := S512x512) hz5, View.ld_unit_zero (S := S1x512) hz5]
  obtain ⟨-, -, -, -, -, -, -, -, -, -, e0, e1⟩ := idx5 t
  have hN : cfg5.N = 20 := N_5
  have ht : t.val < 20 := hN ▸ t.isLt
  funext j
  have hj0 : (j 0).val < 512 := (j 0).isLt
  have hj1 : (j 1).val < 512 := (j 1).isLt
  have hx : (cfg5.win 5).xinj (grid5.coords t) j = ix2 (⟨(j 0).val, hj0⟩ : Fin 512) (⟨(j 1).val, hj1⟩ : Fin 512) :=
    funext fun a => by
      match a with
      | ⟨0, _⟩ => rfl
      | ⟨1, _⟩ => rfl
  have hy : ((cfg5.win 5).blk t).view.emb j
      = ix2 (⟨t.val * 512 + (j 0).val, by omega⟩ : Fin 10240) (⟨(j 1).val, hj1⟩ : Fin 512) := by
    funext a; apply Fin.ext
    match a with
    | ⟨0, _⟩ => show win5_5.index t (0 : Fin 2) * 512 + 1 * (j 0).val = t.val * 512 + (j 0).val; omega
    | ⟨1, _⟩ => show win5_5.index t (1 : Fin 2) * 512 + 1 * (j 1).val = (j 1).val; omega
  show k5_pay1 (iblk5 V c 0 t) (iblk5 V c 1 t) (iblk5 V c 2 t) (iblk5 V c 3 t) (iblk5 V c 4 t) ((cfg5.win 5).xinj (grid5.coords t) j)
    = res5 V c (((cfg5.win 5).blk t).view.emb j)
  rw [hx, hy]
  exact point5 V c t _ _ _ rfl

/-- An entry of the array is in point `t`'s block when each coordinate is in the block's range on its axis. -/
theorem mem_blk5 (t : Fin cfg5.N) (i : S10240x512.Idx) :
    i ∈ ((cfg5.win 5).blk t).view.set ↔ ∀ a : Fin 2, win5_5.index t a * S512x512.size a ≤ (i a).val ∧ (i a).val < win5_5.index t a * S512x512.size a + S512x512.size a := by
  show i ∈ ((View.whole (Pipeline.arrRef spec5 5)).slice (win5_5.rect t)).set ↔ _
  rw [View.set_slice_whole, Rect.mem_set_unit]
  exact Iff.rfl

/-- Row `r` lies in the block of point `r / 512`: the 20 blocks of 512 rows cover the 10240 rows. -/
theorem cover5 (i : S10240x512.Idx) : ∃ t : Fin cfg5.N, (cfg5.win 5).flush t = true ∧ i ∈ ((cfg5.win 5).blk t).view.set := by
  have hi0 : (i 0).val < 10240 := (i 0).isLt
  have hi1 : (i 1).val < 512 := (i 1).isLt
  have hN : cfg5.N = 20 := N_5
  have hlt : (i 0).val / 512 < cfg5.N := by rw [hN]; omega
  obtain ⟨-, -, -, -, -, -, -, -, -, -, e0, e1⟩ := idx5 ⟨(i 0).val / 512, hlt⟩
  refine ⟨⟨(i 0).val / 512, hlt⟩, flush5_5 _, ?_⟩
  rw [mem_blk5]
  intro a
  match a with
  | ⟨0, _⟩ =>
    show win5_5.index ⟨(i 0).val / 512, hlt⟩ (0 : Fin 2) * 512 ≤ (i 0).val ∧ (i 0).val < win5_5.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win5_5.index ⟨(i 0).val / 512, hlt⟩ (1 : Fin 2) * 512 ≤ (i 1).val ∧ (i 1).val < win5_5.index ⟨(i 0).val / 512, hlt⟩ (1 : Fin 2) * 512 + 512
    rw [e1]; omega

/-- After the region the output array holds the fused step of the arrays the region found, at every entry. -/
theorem arr5 (c : Dev nD) (r : Fin 10240) (q : Fin 512) :
    (dat5 (F := Ideal) V c).arrAt 5 cfg5.N (ix2 r q)
      = fused (mat2 (V c (Pipeline.arrRef spec5 0))) (mat2 (V c (Pipeline.arrRef spec5 1))) (mat2 (V c (Pipeline.arrRef spec5 2)))
        (mat2 (V c (Pipeline.arrRef spec5 3))) (fun q => V c (Pipeline.arrRef spec5 4) (ix2 (0 : Fin 1) q)) r q :=
  congrFun ((dat5 (F := Ideal) V c).arrAt_eq_of_cover 5 (res5 V c) (fun t _ => flushed5_eq V c t) cover5) (ix2 r q)

end Cert.KernelIdeal.Val

end
-- ==== Proof.KLayer3.lean ====
/-
  One hidden layer of the kernel program as mathematics: the fused region's output on the padded node set is
  `relu (A (H W) + H V + b)`, with `A` the dense adjacency the host built, `H` the previous layer's output and
  `W`, `V`, `b` the layer's blocks of the stacked arguments.

  The host stretch before the layer cuts the blocks out; the product region forms `H W`; the fused region reads the
  adjacency, that product, `H` again, `V` and `b`.  Each input window of the fused region is followed back to the
  boundary where its contents were made, and identified there.
-/
import proofs.«418437_j77618648973637_3_alg».proof.Proof.Gen.KernelIdeal.Frame
import proofs.«418437_j77618648973637_3_alg».proof.Proof.Spec
import proofs.«418437_j77618648973637_3_alg».proof.Proof.KDefs
import proofs.«418437_j77618648973637_3_alg».proof.Proof.KWalk
import proofs.«418437_j77618648973637_3_alg».proof.Proof.RegM4
import proofs.«418437_j77618648973637_3_alg».proof.Proof.RegS5
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

variable (m : (ℓ : Loc nD τ sig) → Buf (Elt Ideal) ℓ) (ρ : Dev nD → PrngReg)

/-! ## What the host stretch before the layer leaves

The stretch cuts block `(1 : Fin 6)` out of the stacked weights and biases, drops the unit axis, and rounds to the
kernel's format, which at exact arithmetic changes nothing: each buffer read at an entry is the argument's entry in
that block. -/

theorem L3_hostW (c : Dev nD) (j q : Fin 512) :
    W8 (F := Ideal) m ρ c (Proc.devRef .tc main_call1_v24) (ix2 j q) = argWk m c (1 : Fin 6) j q := by
  show StableHlo.after hostOps4 _ (Proc.devRef .tc main_call1_v24) (ix2 j q) = _
  after_results
  refine (shapeCast_1ab_ab_apply (extractStridedSlice S1x512x512 _ (W7 (F := Ideal) m ρ c (Proc.devRef .tc main_arg6)) slices_S6x512x512_S1x512x512_1_0_0) _ j q).trans ?_
  refine (extractStridedSlice_apply _ _ _ _ (ix3 (1 : Fin 6) j q) (fun a => ?_)).trans
    (congrFun (arg6_at_W7 m ρ c) (ix3 (1 : Fin 6) j q))
  match a with
  | ⟨0, _⟩ => rfl
  | ⟨1, _⟩ => exact (Nat.zero_add _).symm
  | ⟨2, _⟩ => exact (Nat.zero_add _).symm

theorem L3_hostV (c : Dev nD) (j q : Fin 512) :
    W8 (F := Ideal) m ρ c (Proc.devRef .tc main_call1_v25) (ix2 j q) = argVk m c (1 : Fin 6) j q := by
  show StableHlo.after hostOps4 _ (Proc.devRef .tc main_call1_v25) (ix2 j q) = _
  after_results
  refine (shapeCast_1ab_ab_apply (extractStridedSlice S1x512x512 _ (W7 (F := Ideal) m ρ c (Proc.devRef .tc main_arg7)) slices_S6x512x512_S1x512x512_1_0_0) _ j q).trans ?_
  refine (extractStridedSlice_apply _ _ _ _ (ix3 (1 : Fin 6) j q) (fun a => ?_)).trans
    (congrFun (arg7_at_W7 m ρ c) (ix3 (1 : Fin 6) j q))
  match a with
  | ⟨0, _⟩ => rfl
  | ⟨1, _⟩ => exact (Nat.zero_add _).symm
  | ⟨2, _⟩ => exact (Nat.zero_add _).symm

theorem L3_hostB (c : Dev nD) (q : Fin 512) :
    W8 (F := Ideal) m ρ c (Proc.devRef .tc main_call1_v26) (ix2 (0 : Fin 1) q) = argBk m c (1 : Fin 6) q := by
  show StableHlo.after hostOps4 _ (Proc.devRef .tc main_call1_v26) (ix2 (0 : Fin 1) q) = _
  after_results
  refine (shapeCast_a_1a_apply (shapeCast S512 (extractStridedSlice S1x512 _ (W7 (F := Ideal) m ρ c (Proc.devRef .tc main_arg8)) slices_S6x512_S1x512_1_0) shapeCasts_S1x512_S512) _ (0 : Fin 1) q).trans ?_
  refine (shapeCast_1a_a_apply (extractStridedSlice S1x512 _ (W7 (F := Ideal) m ρ c (Proc.devRef .tc main_arg8)) slices_S6x512_S1x512_1_0) _ q).trans ?_
  refine (extractStridedSlice_apply _ _ _ _ (ix2 (1 : Fin 6) q) (fun a => ?_)).trans
    (congrFun (arg8_at_W7 m ρ c) (ix2 (1 : Fin 6) q))
  match a with
  | ⟨0, _⟩ => rfl
  | ⟨1, _⟩ => exact (Nat.zero_add _).symm

/-! ## The layer's input through the host stretch and the product region

No operation of the host stretch writes the previous layer's output, and the product region holds it as an input
window, whose array a region leaves as it found it. -/

theorem L3_in_W8 (c : Dev nD) :
    W8 (F := Ideal) m ρ c (Proc.devRef .tc main_call1_v17) = W7 m ρ c (Proc.devRef .tc main_call1_v17) := by
  walk_keeps hostOps4

theorem L3_in_W9 (c : Dev nD) :
    W9 (F := Ideal) m ρ c (Proc.devRef .tc main_call1_v17) = W7 m ρ c (Proc.devRef .tc main_call1_v17) :=
  calc W9 (F := Ideal) m ρ c (Proc.devRef .tc main_call1_v17)
    _ = (dat4 (V8 m ρ) c).arrAt 0 cfg4.N := W9_arr m ρ c 0
    _ = (dat4 (V8 m ρ) c).A 0 := (dat4 (V8 m ρ) c).arrAt_in 0 rfl cfg4.N
    _ = W8 m ρ c (Proc.devRef .tc main_call1_v17) := A_eq4 (V8 m ρ) c 0
    _ = W7 m ρ c (Proc.devRef .tc main_call1_v17) := L3_in_W8 m ρ c

/-! ## The two regions' input windows as the named matrices -/

/-- The product region multiplies the previous layer's output … -/
theorem L3_prod_in (c : Dev nD) : mat2 (V8 (F := Ideal) m ρ c (Pipeline.arrRef spec4 0)) = feat2 m ρ c :=
  funext fun a => funext fun b => congrFun (L3_in_W8 m ρ c) (ix2 a b)

/-- … by the layer's block of `W`. -/
theorem L3_prod_w (c : Dev nD) : mat2 (V8 (F := Ideal) m ρ c (Pipeline.arrRef spec4 1)) = argWk m c (1 : Fin 6) :=
  funext fun j => funext fun q => L3_hostW m ρ c j q

/-- The fused region's second window is the product region's output: the product of the two. -/
theorem L3_fused_prod (c : Dev nD) :
    mat2 (V9 (F := Ideal) m ρ c (Pipeline.arrRef spec5 1)) = mm (feat2 m ρ c) (argWk m c (1 : Fin 6)) := by
  funext a b
  refine (congrFun (W9_arr m ρ c 2) (ix2 a b)).trans ?_
  refine (arr4 (V8 m ρ) c a b).trans ?_
  show mm (mat2 (V8 (F := Ideal) m ρ c (Pipeline.arrRef spec4 0))) (mat2 (V8 (F := Ideal) m ρ c (Pipeline.arrRef spec4 1))) a b = _
  rw [L3_prod_in, L3_prod_w]

/-- Its first window is the adjacency. -/
theorem L3_fused_adj (c : Dev nD) : mat2 (V9 (F := Ideal) m ρ c (Pipeline.arrRef spec5 0)) = adj m ρ c :=
  funext fun a => funext fun b => congrFun (adj_at_W9 m ρ c) (ix2 a b)

/-- Its third window is the previous layer's output again. -/
theorem L3_fused_in (c : Dev nD) : mat2 (V9 (F := Ideal) m ρ c (Pipeline.arrRef spec5 2)) = feat2 m ρ c :=
  funext fun a => funext fun b => congrFun (L3_in_W9 m ρ c) (ix2 a b)

/-- Its fourth window is the layer's block of `V`: the product region does not hold that buffer. -/
theorem L3_fused_v (c : Dev nD) : mat2 (V9 (F := Ideal) m ρ c (Pipeline.arrRef spec5 3)) = argVk m c (1 : Fin 6) :=
  funext fun j => funext fun q =>
    (congrFun (W9_of_ne m ρ c main_call1_v25 (by decide)) (ix2 j q)).trans (L3_hostV m ρ c j q)

/-- Its fifth window is the layer's bias as one row. -/
theorem L3_fused_b (c : Dev nD) :
    (fun q => V9 (F := Ideal) m ρ c (Pipeline.arrRef spec5 4) (ix2 (0 : Fin 1) q)) = argBk m c (1 : Fin 6) :=
  funext fun q =>
    (congrFun (W9_of_ne m ρ c main_call1_v26 (by decide)) (ix2 (0 : Fin 1) q)).trans (L3_hostB m ρ c q)

/-! ## The layer -/

/-- The fused region's output is one dense layer applied to the previous layer's output. -/
theorem feat3_eq (c : Dev nD) :
    feat3 m ρ c = denseLayer (adj m ρ c) (feat2 m ρ c) (argWk m c (1 : Fin 6)) (argVk m c (1 : Fin 6)) (argBk m c (1 : Fin 6)) := by
  funext r q
  refine (congrFun (W10_arr m ρ c 5) (ix2 r q)).trans ?_
  refine (arr5 (V9 m ρ) c r q).trans ?_
  show fused (mat2 (V9 (F := Ideal) m ρ c (Pipeline.arrRef spec5 0))) (mat2 (V9 (F := Ideal) m ρ c (Pipeline.arrRef spec5 1)))
      (mat2 (V9 (F := Ideal) m ρ c (Pipeline.arrRef spec5 2))) (mat2 (V9 (F := Ideal) m ρ c (Pipeline.arrRef spec5 3)))
      (fun q => V9 (F := Ideal) m ρ c (Pipeline.arrRef spec5 4) (ix2 (0 : Fin 1) q)) r q = _
  rw [L3_fused_adj, L3_fused_prod, L3_fused_in, L3_fused_v, L3_fused_b]
  rfl

end Cert.KernelIdeal.Val

end
-- ==== Proof.RegM6.lean ====
/-
  The array that the product region 6 leaves: the region multiplies a [10240, 512] matrix, one block of 1024 rows
  at each of its ten grid points, by a whole [512, 512] matrix, and writes each [1024, 512] block of the product back.
  Entry (r, q) of the output array is therefore Σ_k lhs (r, k) · rhs (k, q), for every row r and column q: row r lies
  in the block of point r / 1024, and that point's body computes the block's entries as the same sums over the
  contraction index, read off the left operand's rows 1024 t … 1024 t + 1023 and the whole right operand.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.PureOps.Ideal.Laws
noncomputable section
namespace Cert.KernelIdeal.Val
open Idealize.ShloMosaic Idealize.ShloMosaic.TcCoe Idealize.SL.Sem Idealize.ShloMosaic.ValueIdx Cert.KernelIdeal Cert.KernelIdeal.Gen Cert.Spec

/-- The zero offsets of a whole-block access. -/
theorem mm6_hz : (![0, 0] : Fin 2 → Nat) = fun _ => 0 := funext fun a => by fin_cases a <;> rfl

/-! ## The body's product at an index -/

/-- The left operand's row coordinate at output index `i` is `i`'s row. -/
theorem mm6_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column coordinate is the contraction position. -/
theorem mm6_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row coordinate is the contraction position. -/
theorem mm6_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column coordinate at output index `i` is `i`'s column. -/
theorem mm6_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The body's stored value at (p, q): the casts between equal shapes and the change of float format are the identity
    on extended reals, and the product into a zero accumulator is the sum over the contraction index. -/
theorem mm6_pay_apply (x0 : FVec Ideal S1024x512 .bf16) (x1 : FVec Ideal S512x512 .bf16) (p : Fin 1024) (q : Fin 512) :
    k6_pay1 (F := Ideal) x0 x1 (ix2 p q) = ∑ k : Fin 512, x0 (ix2 p k) * x1 (ix2 k q) := by
  unfold k6_pay1
  simp only [shapeCast_self]
  show FloatOps.matmul dot_S1024x512_S512x512_S1024x512_1_0_0_1_n_n none x0 x1 (constant S1024x512 .f32 0x00000000#32) (ix2 p q) = _
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact mm6_lhs_0 _ _
    | ⟨1, _⟩ => exact (mm6_lhs_1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (mm6_rhs_0 _ _).trans hk
    | ⟨1, _⟩ => exact mm6_rhs_1 _ _)
  rw [el, er]

/-! ## The whole product, and each point's block of it -/

variable (V : (c : Dev nD) → (b : Ref sig .tc) → Buf (Elt Ideal) ((c : Thread nD τ).loc b))

/-- The whole product of the two arrays, index by index. -/
def mm6_prod (A : S10240x512.Idx → EReal) (B : S512x512.Idx → EReal) : S10240x512.Idx → EReal :=
  fun i => mm (mat2 A) (mat2 B) (i 0) (i 1)

/-- The block indices over the grid: the left operand's and the output's blocks move down the rows with the point, the
    right operand stays whole. -/
theorem mm6_idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- A block's entry (p, q) is the whole product's entry at `i` when the left block's row p is the left array's row
    `i 0` and the right block's column q is the right array's column `i 1`. -/
theorem mm6_point (A : S10240x512.Idx → EReal) (B : S512x512.Idx → EReal) (x0 : FVec Ideal S1024x512 .bf16) (x1 : FVec Ideal S512x512 .bf16)
    (p : Fin 1024) (q : Fin 512) (i : S10240x512.Idx)
    (hx0 : ∀ k : Fin 512, x0 (ix2 p k) = A (ix2 (i 0) k)) (hx1 : ∀ k : Fin 512, x1 (ix2 k q) = B (ix2 k (i 1))) :
    k6_pay1 (F := Ideal) x0 x1 (ix2 p q) = mm6_prod A B i := by
  rw [mm6_pay_apply]
  show _ = ∑ k : Fin 512, A (ix2 (i 0) k) * B (ix2 k (i 1))
  exact Finset.sum_congr rfl fun k _ => by rw [hx0 k, hx1 k]

/-- The left operand's block at point `t` holds rows 1024 t … 1024 t + 1023 of its array. -/
theorem mm6_blk_0 (c : Dev nD) (t : Fin cfg6.N) (p : Fin 1024) (k : Fin 512) (i : S10240x512.Idx)
    (h0 : (i 0).val = t.val * 1024 + p.val) (h1 : (i 1).val = k.val) :
    (iblk6 V c 0 t : FVec Ideal S1024x512 .bf16) (ix2 p k) = V c (Pipeline.arrRef spec6 0) i := by
  obtain ⟨e0, e1, -⟩ := mm6_idx t
  unfold iblk6
  rw [View.read_apply]
  show V c (Pipeline.arrRef spec6 0) (((cfg6.win 0).blk t).view.emb (ix2 p k)) = V c (Pipeline.arrRef spec6 0) i
  refine congrArg _ (funext fun a => Fin.ext ?_)
  match a with
  | ⟨0, _⟩ => show win6_0.index t (0 : Fin 2) * 1024 + 1 * p.val = (i 0).val; omega
  | ⟨1, _⟩ => show win6_0.index t (1 : Fin 2) * 512 + 1 * k.val = (i 1).val; omega

/-- The right operand's block at every point is its whole array. -/
theorem mm6_blk_1 (c : Dev nD) (t : Fin cfg6.N) (k : Fin 512) (q : Fin 512) (i : S512x512.Idx)
    (h0 : (i 0).val = k.val) (h1 : (i 1).val = q.val) :
    (iblk6 V c 1 t : FVec Ideal S512x512 .bf16) (ix2 k q) = V c (Pipeline.arrRef spec6 1) i := by
  obtain ⟨-, -, e2, e3, -⟩ := mm6_idx t
  unfold iblk6
  rw [View.read_apply]
  show V c (Pipeline.arrRef spec6 1) (((cfg6.win 1).blk t).view.emb (ix2 k q)) = V c (Pipeline.arrRef spec6 1) i
  refine congrArg _ (funext fun a => Fin.ext ?_)
  match a with
  | ⟨0, _⟩ => show win6_1.index t (0 : Fin 2) * 512 + 1 * k.val = (i 0).val; omega
  | ⟨1, _⟩ => show win6_1.index t (1 : Fin 2) * 512 + 1 * q.val = (i 1).val; omega

/-- Entry (p, q) of the output's block at point `t` sits at row 1024 t + p, column q of the output array. -/
theorem mm6_emb (t : Fin cfg6.N) (p : Fin 1024) (q : Fin 512) :
    ((((cfg6.win 2).blk t).view.emb (ix2 p q)) 0).val = t.val * 1024 + p.val
      ∧ ((((cfg6.win 2).blk t).view.emb (ix2 p q)) 1).val = q.val := by
  obtain ⟨-, -, -, -, e4, e5⟩ := mm6_idx t
  constructor
  · show win6_2.index t (0 : Fin 2) * 1024 + 1 * p.val = _; omega
  · show win6_2.index t (1 : Fin 2) * 512 + 1 * q.val = _; omega

/-- What point `t` writes back is block `t` of the whole product of the arrays as the region finds them. -/
theorem mm6_flushed_eq (c : Dev nD) (t : Fin cfg6.N) :
    (dat6 (F := Ideal) V c).flushed 2 t
      = ((cfg6.win 2).blk t).view.read (Elt Ideal) (mm6_prod (V c (Pipeline.arrRef spec6 0)) (V c (Pipeline.arrRef spec6 1))) := by
  show (cfg6.win 2).cut (grid6.coords t) ((dat6 V c).after 2 t) = _
  rw [after6_2]
  unfold out6_2
  rw [View.canon_unit_zero mm6_hz]
  simp only [View.ld_unit_zero (S := S1024x512) mm6_hz, View.ld_unit_zero (S := S512x512) mm6_hz]
  funext j
  obtain ⟨p, q, rfl⟩ : ∃ (p : Fin 1024) (q : Fin 512), j = ix2 p q := ⟨j 0, j 1, eq_ix2 j⟩
  show k6_pay1 (F := Ideal) (iblk6 V c 0 t) (iblk6 V c 1 t) (ix2 p q)
    = mm6_prod (V c (Pipeline.arrRef spec6 0)) (V c (Pipeline.arrRef spec6 1)) (((cfg6.win 2).blk t).view.emb (ix2 p q))
  exact mm6_point _ _ (iblk6 V c 0 t) (iblk6 V c 1 t) p q _
    (fun k => mm6_blk_0 V c t p k _ (mm6_emb t p q).1 rfl) (fun k => mm6_blk_1 V c t k q _ rfl (mm6_emb t p q).2)

/-! ## The blocks cover the array -/

/-- An index of the output array is in point `t`'s block iff each coordinate is in the block's range on its axis. -/
theorem mm6_mem_blk (t : Fin cfg6.N) (i : S10240x512.Idx) :
    i ∈ ((cfg6.win 2).blk t).view.set ↔ ∀ a : Fin 2, win6_2.index t a * S1024x512.size a ≤ (i a).val ∧ (i a).val < win6_2.index t a * S1024x512.size a + S1024x512.size a := by
  show i ∈ ((View.whole (Pipeline.arrRef spec6 2)).slice (win6_2.rect t)).set ↔ _
  rw [View.set_slice_whole, Rect.mem_set_unit]
  exact Iff.rfl

/-- Row r of the output array lies in the block of point r / 1024. -/
theorem mm6_cover (i : S10240x512.Idx) : ∃ t : Fin cfg6.N, (cfg6.win 2).flush t = true ∧ i ∈ ((cfg6.win 2).blk t).view.set := by
  have hi0 : (i 0).val < 10240 := (i 0).isLt
  have hi1 : (i 1).val < 512 := (i 1).isLt
  have hN : cfg6.N = 10 := N_6
  have ht : (i 0).val / 1024 < cfg6.N := by rw [hN]; omega
  refine ⟨⟨(i 0).val / 1024, ht⟩, flush6_2 _, ?_⟩
  rw [mm6_mem_blk]
  obtain ⟨-, -, -, -, e4, e5⟩ := mm6_idx ⟨(i 0).val / 1024, ht⟩
  intro a
  match a with
  | ⟨0, _⟩ =>
    show win6_2.index ⟨(i 0).val / 1024, ht⟩ (0 : Fin 2) * 1024 ≤ (i 0).val
      ∧ (i 0).val < win6_2.index ⟨(i 0).val / 1024, ht⟩ (0 : Fin 2) * 1024 + 1024
    rw [e4]
    show (i 0).val / 1024 * 1024 ≤ (i 0).val ∧ (i 0).val < (i 0).val / 1024 * 1024 + 1024
    omega
  | ⟨1, _⟩ =>
    show win6_2.index ⟨(i 0).val / 1024, ht⟩ (1 : Fin 2) * 512 ≤ (i 1).val
      ∧ (i 1).val < win6_2.index ⟨(i 0).val / 1024, ht⟩ (1 : Fin 2) * 512 + 512
    rw [e5]
    omega

/-! ## The output array after the region -/

/-- After the region the output array holds the product of the two input arrays as the region found them, entry by entry. -/
theorem arr6 (c : Dev nD) (r : Fin 10240) (q : Fin 512) :
    (dat6 (F := Ideal) V c).arrAt 2 cfg6.N (ix2 r q)
      = mm (mat2 (V c (Pipeline.arrRef spec6 0))) (mat2 (V c (Pipeline.arrRef spec6 1))) r q :=
  congrFun ((dat6 (F := Ideal) V c).arrAt_eq_of_cover 2
    (mm6_prod (V c (Pipeline.arrRef spec6 0)) (V c (Pipeline.arrRef spec6 1)))
    (fun t _ => mm6_flushed_eq V c t) mm6_cover) (ix2 r q)

end Cert.KernelIdeal.Val

end
-- ==== Proof.RegS7.lean ====
/-
  The fused region of a later layer: what its output array holds after the region, entry by entry.

  The grid has 20 points. Point `t` takes rows `512 t … 512 t + 511` of the adjacency `A` (10240 columns) and of the node
  features `H` (512 columns), and the whole of `M` (10240 × 512), of `V` (512 × 512) and of the bias row `b`; it stores
  `max (A_t M + H_t V + b) 0` into rows `512 t … 512 t + 511` of the output. On the extended reals each product is the exact
  sum over its inner index and the change of format is the identity, so entry `(512 t + p, q)` of what point `t` writes is
  `Spec.fused A M H V b (512 t + p) q`. The 20 row blocks cover the 10240 rows, so the output array is `Spec.fused` of the
  arrays the region finds, at every entry.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

/-! ## The two products of the fused step, entry by entry -/

theorem hz7 : (![0, 0] : Fin 2 → Nat) = fun _ => 0 := funext fun a => by fin_cases a <;> rfl

/-- The product with the adjacency block: the left operand is read at the output's row and the summed position, -/
theorem lhsA7_0 (i : S512x512.Idx) (q : dot_S512x10240_S10240x512_S512x512_1_0_0_1_n_n.contr.Idx) :
    (dot_S512x10240_S10240x512_S512x512_1_0_0_1_n_n.lhsIdx i q 0).val = (i 0).val := by
  unfold DotDims.lhsIdx
  rw [dif_neg (show ¬(0 : Fin S512x10240.rank) ∈ dot_S512x10240_S10240x512_S512x512_1_0_0_1_n_n.lhsBatch by decide), dif_pos (show (0 : Fin S512x10240.rank) ∈ dot_S512x10240_S10240x512_S512x512_1_0_0_1_n_n.lhsNonContracting by decide)]
  rfl
theorem lhsA7_1 (i : S512x512.Idx) (q : dot_S512x10240_S10240x512_S512x512_1_0_0_1_n_n.contr.Idx) :
    (dot_S512x10240_S10240x512_S512x512_1_0_0_1_n_n.lhsIdx i q 1).val = (q ⟨0, by decide⟩).val :=
  dot_S512x10240_S10240x512_S512x512_1_0_0_1_n_n.lhsIdx_val_of_single rfl i q
/-- the right operand at the summed position and the output's column. -/
theorem rhsA7_0 (i : S512x512.Idx) (q : dot_S512x10240_S10240x512_S512x512_1_0_0_1_n_n.contr.Idx) :
    (dot_S512x10240_S10240x512_S512x512_1_0_0_1_n_n.rhsIdx i q 0).val = (q ⟨0, by decide⟩).val :=
  dot_S512x10240_S10240x512_S512x512_1_0_0_1_n_n.rhsIdx_val_of_single rfl i q
theorem rhsA7_1 (i : S512x512.Idx) (q : dot_S512x10240_S10240x512_S512x512_1_0_0_1_n_n.contr.Idx) :
    (dot_S512x10240_S10240x512_S512x512_1_0_0_1_n_n.rhsIdx i q 1).val = (i 1).val := by
  unfold DotDims.rhsIdx
  rw [dif_neg (show ¬(1 : Fin S10240x512.rank) ∈ dot_S512x10240_S10240x512_S512x512_1_0_0_1_n_n.rhsBatch by decide), dif_pos (show (1 : Fin S10240x512.rank) ∈ dot_S512x10240_S10240x512_S512x512_1_0_0_1_n_n.rhsNonContracting by decide)]
  rfl

/-- A block of 512 rows of the adjacency against the whole of `M`, into a zero accumulator: entry `(p, q)` is the sum
    over the 10240 slots `k` of the row's weight at `k` times `M k q`. -/
theorem mmA7_apply (x : FVec Ideal S512x10240 .bf16) (y : FVec Ideal S10240x512 .bf16) (p q : Fin 512) :
    matmul dot_S512x10240_S10240x512_S512x512_1_0_0_1_n_n none x y (constant S512x512 .f32 0x00000000#32) (ix2 p q)
      = ∑ k : Fin 10240, x (ix2 p k) * y (ix2 k q) := by
  simp only [matmul]
  rw [Ideal.matmul_constant_zero_apply, ← Equiv.sum_comp (contrEquiv1 dot_S512x10240_S10240x512_S512x512_1_0_0_1_n_n 10240 rfl rfl).symm]
  refine Finset.sum_congr rfl fun k _ => ?_
  have hk := contrEquiv1_symm_val dot_S512x10240_S10240x512_S512x512_1_0_0_1_n_n 10240 rfl rfl k
  have el : dot_S512x10240_S10240x512_S512x512_1_0_0_1_n_n.lhsIdx (ix2 p q) ((contrEquiv1 dot_S512x10240_S10240x512_S512x512_1_0_0_1_n_n 10240 rfl rfl).symm k) = ix2 p k := funext fun a => Fin.ext (by
    match a with
    | ⟨0, _⟩ => exact lhsA7_0 _ _
    | ⟨1, _⟩ => exact (lhsA7_1 _ _).trans hk)
  have er : dot_S512x10240_S10240x512_S512x512_1_0_0_1_n_n.rhsIdx (ix2 p q) ((contrEquiv1 dot_S512x10240_S10240x512_S512x512_1_0_0_1_n_n 10240 rfl rfl).symm k) = ix2 k q := funext fun a => Fin.ext (by
    match a with
    | ⟨0, _⟩ => exact (rhsA7_0 _ _).trans hk
    | ⟨1, _⟩ => exact rhsA7_1 _ _)
  rw [el, er]

/-- The product of the block's own features with `V`: the same reading of the two operands. -/
theorem lhsB7_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhsB7_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhsB7_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhsB7_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A block of 512 rows of `H` against the whole of `V`, into a zero accumulator: entry `(p, q)` is the sum over the
    512 feature positions `k` of `H p k * V k q`. -/
theorem mmB7_apply (x : FVec Ideal S512x512 .bf16) (y : FVec Ideal S512x512 .bf16) (p q : Fin 512) :
    matmul dot_S512x512_S512x512_S512x512_1_0_0_1_n_n none x y (constant S512x512 .f32 0x00000000#32) (ix2 p q)
      = ∑ k : Fin 512, x (ix2 p k) * y (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhsB7_0 _ _
    | ⟨1, _⟩ => exact (lhsB7_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhsB7_0 _ _).trans hk
    | ⟨1, _⟩ => exact rhsB7_1 _ _)
  rw [el, er]

/-! ## The body's result at an entry of the block -/

/-- Entry `(p, q)` of what the body stores: the two products added, the bias of column `q` added, the maximum with zero
    taken; the change of format at the end is the identity on the extended reals. -/
theorem pay7_apply (xa : Vec Ideal S512x10240 .bf16) (xm : Vec Ideal S10240x512 .bf16) (xh : Vec Ideal S512x512 .bf16)
    (xv : Vec Ideal S512x512 .bf16) (xb : Vec Ideal S1x512 .f32) (p q : Fin 512) :
    k7_pay1 xa xm xh xv xb (ix2 p q)
      = max (((∑ k : Fin 10240, xa (ix2 p k) * xm (ix2 k q)) + ∑ k : Fin 512, xh (ix2 p k) * xv (ix2 k q)) + xb (ix2 (0 : Fin 1) q)) 0 := by
  unfold k7_pay1
  simp only [shapeCast_self]
  rw [truncf_apply, maximumf_apply, addf_apply, addf_apply, mmA7_apply, mmB7_apply, broadcast_apply,
    broadcastTo_apply xb broadcasts_S1x512_S512x512 (ix2 p q) (ix2 (0 : Fin 1) q) (fun a => by
      match a with
      | ⟨0, _⟩ => rfl
      | ⟨1, _⟩ => rfl)]
  show max _ (Ideal.ofBits .f32 0x00000000#32) = _
  rw [Ideal.ofBits_zero_f32]

/-! ## Which block of each array a point reads -/

variable (V : (c : Dev nD) → (b : Ref sig .tc) → Buf (Elt Ideal) ((c : Thread nD τ).loc b))

/-- Point `t` takes block `t` of the rows of the adjacency, of `H` and of the output, and the whole of `M`, of `V`
    and of the bias (decided over the 20 points). -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Row `p` of the adjacency block at point `t` is row `512 t + p` of the adjacency. -/
theorem blk7_0 (c : Dev nD) (t : Fin cfg7.N) (p : Fin 512) (k : Fin 10240) (r : Fin 10240) (hr : r.val = t.val * 512 + p.val) :
    (iblk7 V c 0 t : Vec Ideal S512x10240 .bf16) (ix2 p k) = mat2 (V c (Pipeline.arrRef spec7 0)) r k := by
  obtain ⟨e0, e1, -⟩ := idx7 t
  unfold iblk7
  rw [View.read_apply]
  show V c (Pipeline.arrRef spec7 0) _ = V c (Pipeline.arrRef spec7 0) (ix2 r k)
  congr 1
  funext a; apply Fin.ext
  match a with
  | ⟨0, _⟩ => show win7_0.index t (0 : Fin 2) * 512 + 1 * p.val = r.val; omega
  | ⟨1, _⟩ => show win7_0.index t (1 : Fin 2) * 10240 + 1 * k.val = k.val; omega

/-- The block of `M` is all of `M`. -/
theorem blk7_1 (c : Dev nD) (t : Fin cfg7.N) (k : Fin 10240) (q : Fin 512) :
    (iblk7 V c 1 t : Vec Ideal S10240x512 .bf16) (ix2 k q) = mat2 (V c (Pipeline.arrRef spec7 1)) k q := by
  obtain ⟨-, -, e0, e1, -⟩ := idx7 t
  unfold iblk7
  rw [View.read_apply]
  show V c (Pipeline.arrRef spec7 1) _ = V c (Pipeline.arrRef spec7 1) (ix2 k q)
  congr 1
  funext a; apply Fin.ext
  match a with
  | ⟨0, _⟩ => show win7_1.index t (0 : Fin 2) * 10240 + 1 * k.val = k.val; omega
  | ⟨1, _⟩ => show win7_1.index t (1 : Fin 2) * 512 + 1 * q.val = q.val; omega

/-- Row `p` of the block of `H` at point `t` is row `512 t + p` of `H`. -/
theorem blk7_2 (c : Dev nD) (t : Fin cfg7.N) (p : Fin 512) (k : Fin 512) (r : Fin 10240) (hr : r.val = t.val * 512 + p.val) :
    (iblk7 V c 2 t : Vec Ideal S512x512 .bf16) (ix2 p k) = mat2 (V c (Pipeline.arrRef spec7 2)) r k := by
  obtain ⟨-, -, -, -, e0, e1, -⟩ := idx7 t
  unfold iblk7
  rw [View.read_apply]
  show V c (Pipeline.arrRef spec7 2) _ = V c (Pipeline.arrRef spec7 2) (ix2 r k)
  congr 1
  funext a; apply Fin.ext
  match a with
  | ⟨0, _⟩ => show win7_2.index t (0 : Fin 2) * 512 + 1 * p.val = r.val; omega
  | ⟨1, _⟩ => show win7_2.index t (1 : Fin 2) * 512 + 1 * k.val = k.val; omega

/-- The block of `V` is all of `V`. -/
theorem blk7_3 (c : Dev nD) (t : Fin cfg7.N) (k : Fin 512) (q : Fin 512) :
    (iblk7 V c 3 t : Vec Ideal S512x512 .bf16) (ix2 k q) = mat2 (V c (Pipeline.arrRef spec7 3)) k q := by
  obtain ⟨-, -, -, -, -, -, e0, e1, -⟩ := idx7 t
  unfold iblk7
  rw [View.read_apply]
  show V c (Pipeline.arrRef spec7 3) _ = V c (Pipeline.arrRef spec7 3) (ix2 k q)
  congr 1
  funext a; apply Fin.ext
  match a with
  | ⟨0, _⟩ => show win7_3.index t (0 : Fin 2) * 512 + 1 * k.val = k.val; omega
  | ⟨1, _⟩ => show win7_3.index t (1 : Fin 2) * 512 + 1 * q.val = q.val; omega

/-- The block of the bias is the whole bias row. -/
theorem blk7_4 (c : Dev nD) (t : Fin cfg7.N) (q : Fin 512) :
    (iblk7 V c 4 t : Vec Ideal S1x512 .f32) (ix2 (0 : Fin 1) q) = V c (Pipeline.arrRef spec7 4) (ix2 (0 : Fin 1) q) := by
  obtain ⟨-, -, -, -, -, -, -, -, e0, e1, -⟩ := idx7 t
  unfold iblk7
  rw [View.read_apply]
  show V c (Pipeline.arrRef spec7 4) _ = V c (Pipeline.arrRef spec7 4) (ix2 (0 : Fin 1) q)
  congr 1
  funext a; apply Fin.ext
  match a with
  | ⟨0, _⟩ => show win7_4.index t (0 : Fin 2) * 1 + 1 * (0 : Fin 1).val = (0 : Fin 1).val; omega
  | ⟨1, _⟩ => show win7_4.index t (1 : Fin 2) * 512 + 1 * q.val = q.val; omega

/-! ## What a point writes back, and the whole array -/

/-- Entry `(p, q)` of the body's result at point `t` is entry `(512 t + p, q)` of the fused step of the whole arrays:
    each block entry is read where the point's rectangle puts it, the sums term by term. -/
theorem point7 (c : Dev nD) (t : Fin cfg7.N) (p q : Fin 512) (r : Fin 10240) (hr : r.val = t.val * 512 + p.val) :
    k7_pay1 (iblk7 V c 0 t) (iblk7 V c 1 t) (iblk7 V c 2 t) (iblk7 V c 3 t) (iblk7 V c 4 t) (ix2 p q)
      = fused (mat2 (V c (Pipeline.arrRef spec7 0))) (mat2 (V c (Pipeline.arrRef spec7 1))) (mat2 (V c (Pipeline.arrRef spec7 2)))
        (mat2 (V c (Pipeline.arrRef spec7 3))) (fun q => V c (Pipeline.arrRef spec7 4) (ix2 (0 : Fin 1) q)) r q := by
  refine (pay7_apply (iblk7 V c 0 t) (iblk7 V c 1 t) (iblk7 V c 2 t) (iblk7 V c 3 t) (iblk7 V c 4 t) p q).trans ?_
  unfold fused mm
  refine congrArg (fun z => max z 0) ?_
  refine congrArg₂ (· + ·) (congrArg₂ (· + ·) (Finset.sum_congr rfl fun k _ => ?_) (Finset.sum_congr rfl fun k _ => ?_)) ?_
  · exact congrArg₂ (· * ·) (blk7_0 V c t p k r hr) (blk7_1 V c t k q)
  · exact congrArg₂ (· * ·) (blk7_2 V c t p k r hr) (blk7_3 V c t k q)
  · exact blk7_4 V c t q

/-- The output array as one function of the arrays the region finds: the fused step, entry by entry. -/
abbrev res7 (c : Dev nD) : S10240x512.Idx → EReal := fun i =>
  fused (mat2 (V c (Pipeline.arrRef spec7 0))) (mat2 (V c (Pipeline.arrRef spec7 1))) (mat2 (V c (Pipeline.arrRef spec7 2)))
        (mat2 (V c (Pipeline.arrRef spec7 3))) (fun q => V c (Pipeline.arrRef spec7 4) (ix2 (0 : Fin 1) q)) (i 0) (i 1)

/-- What point `t` writes back is block `t` of that function. -/
theorem flushed7_eq (c : Dev nD) (t : Fin cfg7.N) :
    (dat7 (F := Ideal) V c).flushed 5 t = ((cfg7.win 5).blk t).view.read (Elt Ideal) (res7 V c) := by
  show (cfg7.win 5).cut (grid7.coords t) ((dat7 V c).after 5 t) = _
  rw [after7_5]
  unfold out7_5
  rw [View.canon_unit_zero hz7]
  simp only [View.ld_unit_zero (S := S512x10240) hz7, View.ld_unit_zero (S := S10240x512) hz7, View.ld_unit_zero (S := S512x512) hz7, View.ld_unit_zero (S := S1x512) hz7]
  obtain ⟨-, -, -, -, -, -, -, -, -, -, e0, e1⟩ := idx7 t
  have hN : cfg7.N = 20 := N_7
  have ht : t.val < 20 := hN ▸ t.isLt
  funext j
  have hj0 : (j 0).val < 512 := (j 0).isLt
  have hj1 : (j 1).val < 512 := (j 1).isLt
  have hx : (cfg7.win 5).xinj (grid7.coords t) j = ix2 (⟨(j 0).val, hj0⟩ : Fin 512) (⟨(j 1).val, hj1⟩ : Fin 512) :=
    funext fun a => by
      match a with
      | ⟨0, _⟩ => rfl
      | ⟨1, _⟩ => rfl
  have hy : ((cfg7.win 5).blk t).view.emb j
      = ix2 (⟨t.val * 512 + (j 0).val, by omega⟩ : Fin 10240) (⟨(j 1).val, hj1⟩ : Fin 512) := by
    funext a; apply Fin.ext
    match a with
    | ⟨0, _⟩ => show win7_5.index t (0 : Fin 2) * 512 + 1 * (j 0).val = t.val * 512 + (j 0).val; omega
    | ⟨1, _⟩ => show win7_5.index t (1 : Fin 2) * 512 + 1 * (j 1).val = (j 1).val; omega
  show k7_pay1 (iblk7 V c 0 t) (iblk7 V c 1 t) (iblk7 V c 2 t) (iblk7 V c 3 t) (iblk7 V c 4 t) ((cfg7.win 5).xinj (grid7.coords t) j)
    = res7 V c (((cfg7.win 5).blk t).view.emb j)
  rw [hx, hy]
  exact point7 V c t _ _ _ rfl

/-- An entry of the array is in point `t`'s block when each coordinate is in the block's range on its axis. -/
theorem mem_blk7 (t : Fin cfg7.N) (i : S10240x512.Idx) :
    i ∈ ((cfg7.win 5).blk t).view.set ↔ ∀ a : Fin 2, win7_5.index t a * S512x512.size a ≤ (i a).val ∧ (i a).val < win7_5.index t a * S512x512.size a + S512x512.size a := by
  show i ∈ ((View.whole (Pipeline.arrRef spec7 5)).slice (win7_5.rect t)).set ↔ _
  rw [View.set_slice_whole, Rect.mem_set_unit]
  exact Iff.rfl

/-- Row `r` lies in the block of point `r / 512`: the 20 blocks of 512 rows cover the 10240 rows. -/
theorem cover7 (i : S10240x512.Idx) : ∃ t : Fin cfg7.N, (cfg7.win 5).flush t = true ∧ i ∈ ((cfg7.win 5).blk t).view.set := by
  have hi0 : (i 0).val < 10240 := (i 0).isLt
  have hi1 : (i 1).val < 512 := (i 1).isLt
  have hN : cfg7.N = 20 := N_7
  have hlt : (i 0).val / 512 < cfg7.N := by rw [hN]; omega
  obtain ⟨-, -, -, -, -, -, -, -, -, -, e0, e1⟩ := idx7 ⟨(i 0).val / 512, hlt⟩
  refine ⟨⟨(i 0).val / 512, hlt⟩, flush7_5 _, ?_⟩
  rw [mem_blk7]
  intro a
  match a with
  | ⟨0, _⟩ =>
    show win7_5.index ⟨(i 0).val / 512, hlt⟩ (0 : Fin 2) * 512 ≤ (i 0).val ∧ (i 0).val < win7_5.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win7_5.index ⟨(i 0).val / 512, hlt⟩ (1 : Fin 2) * 512 ≤ (i 1).val ∧ (i 1).val < win7_5.index ⟨(i 0).val / 512, hlt⟩ (1 : Fin 2) * 512 + 512
    rw [e1]; omega

/-- After the region the output array holds the fused step of the arrays the region found, at every entry. -/
theorem arr7 (c : Dev nD) (r : Fin 10240) (q : Fin 512) :
    (dat7 (F := Ideal) V c).arrAt 5 cfg7.N (ix2 r q)
      = fused (mat2 (V c (Pipeline.arrRef spec7 0))) (mat2 (V c (Pipeline.arrRef spec7 1))) (mat2 (V c (Pipeline.arrRef spec7 2)))
        (mat2 (V c (Pipeline.arrRef spec7 3))) (fun q => V c (Pipeline.arrRef spec7 4) (ix2 (0 : Fin 1) q)) r q :=
  congrFun ((dat7 (F := Ideal) V c).arrAt_eq_of_cover 5 (res7 V c) (fun t _ => flushed7_eq V c t) cover7) (ix2 r q)

end Cert.KernelIdeal.Val

end
-- ==== Proof.KLayer4.lean ====
/-
  One hidden layer of the kernel program as mathematics: the fused region's output on the padded node set is
  `relu (A (H W) + H V + b)`, with `A` the dense adjacency the host built, `H` the previous layer's output and
  `W`, `V`, `b` the layer's blocks of the stacked arguments.

  The host stretch before the layer cuts the blocks out; the product region forms `H W`; the fused region reads the
  adjacency, that product, `H` again, `V` and `b`.  Each input window of the fused region is followed back to the
  boundary where its contents were made, and identified there.
-/
import proofs.«418437_j77618648973637_3_alg».proof.Proof.Gen.KernelIdeal.Frame
import proofs.«418437_j77618648973637_3_alg».proof.Proof.Spec
import proofs.«418437_j77618648973637_3_alg».proof.Proof.KDefs
import proofs.«418437_j77618648973637_3_alg».proof.Proof.KWalk
import proofs.«418437_j77618648973637_3_alg».proof.Proof.RegM6
import proofs.«418437_j77618648973637_3_alg».proof.Proof.RegS7
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

variable (m : (ℓ : Loc nD τ sig) → Buf (Elt Ideal) ℓ) (ρ : Dev nD → PrngReg)

/-! ## What the host stretch before the layer leaves

The stretch cuts block `(2 : Fin 6)` out of the stacked weights and biases, drops the unit axis, and rounds to the
kernel's format, which at exact arithmetic changes nothing: each buffer read at an entry is the argument's entry in
that block. -/

theorem L4_hostW (c : Dev nD) (j q : Fin 512) :
    W11 (F := Ideal) m ρ c (Proc.devRef .tc main_call1_v35) (ix2 j q) = argWk m c (2 : Fin 6) j q := by
  show StableHlo.after hostOps6 _ (Proc.devRef .tc main_call1_v35) (ix2 j q) = _
  after_results
  refine (shapeCast_1ab_ab_apply (extractStridedSlice S1x512x512 _ (W10 (F := Ideal) m ρ c (Proc.devRef .tc main_arg6)) slices_S6x512x512_S1x512x512_2_0_0) _ j q).trans ?_
  refine (extractStridedSlice_apply _ _ _ _ (ix3 (2 : Fin 6) j q) (fun a => ?_)).trans
    (congrFun (arg6_at_W10 m ρ c) (ix3 (2 : Fin 6) j q))
  match a with
  | ⟨0, _⟩ => rfl
  | ⟨1, _⟩ => exact (Nat.zero_add _).symm
  | ⟨2, _⟩ => exact (Nat.zero_add _).symm

theorem L4_hostV (c : Dev nD) (j q : Fin 512) :
    W11 (F := Ideal) m ρ c (Proc.devRef .tc main_call1_v36) (ix2 j q) = argVk m c (2 : Fin 6) j q := by
  show StableHlo.after hostOps6 _ (Proc.devRef .tc main_call1_v36) (ix2 j q) = _
  after_results
  refine (shapeCast_1ab_ab_apply (extractStridedSlice S1x512x512 _ (W10 (F := Ideal) m ρ c (Proc.devRef .tc main_arg7)) slices_S6x512x512_S1x512x512_2_0_0) _ j q).trans ?_
  refine (extractStridedSlice_apply _ _ _ _ (ix3 (2 : Fin 6) j q) (fun a => ?_)).trans
    (congrFun (arg7_at_W10 m ρ c) (ix3 (2 : Fin 6) j q))
  match a with
  | ⟨0, _⟩ => rfl
  | ⟨1, _⟩ => exact (Nat.zero_add _).symm
  | ⟨2, _⟩ => exact (Nat.zero_add _).symm

theorem L4_hostB (c : Dev nD) (q : Fin 512) :
    W11 (F := Ideal) m ρ c (Proc.devRef .tc main_call1_v37) (ix2 (0 : Fin 1) q) = argBk m c (2 : Fin 6) q := by
  show StableHlo.after hostOps6 _ (Proc.devRef .tc main_call1_v37) (ix2 (0 : Fin 1) q) = _
  after_results
  refine (shapeCast_a_1a_apply (shapeCast S512 (extractStridedSlice S1x512 _ (W10 (F := Ideal) m ρ c (Proc.devRef .tc main_arg8)) slices_S6x512_S1x512_2_0) shapeCasts_S1x512_S512) _ (0 : Fin 1) q).trans ?_
  refine (shapeCast_1a_a_apply (extractStridedSlice S1x512 _ (W10 (F := Ideal) m ρ c (Proc.devRef .tc main_arg8)) slices_S6x512_S1x512_2_0) _ q).trans ?_
  refine (extractStridedSlice_apply _ _ _ _ (ix2 (2 : Fin 6) q) (fun a => ?_)).trans
    (congrFun (arg8_at_W10 m ρ c) (ix2 (2 : Fin 6) q))
  match a with
  | ⟨0, _⟩ => rfl
  | ⟨1, _⟩ => exact (Nat.zero_add _).symm

/-! ## The layer's input through the host stretch and the product region

No operation of the host stretch writes the previous layer's output, and the product region holds it as an input
window, whose array a region leaves as it found it. -/

theorem L4_in_W11 (c : Dev nD) :
    W11 (F := Ideal) m ρ c (Proc.devRef .tc main_call1_v28) = W10 m ρ c (Proc.devRef .tc main_call1_v28) := by
  walk_keeps hostOps6

theorem L4_in_W12 (c : Dev nD) :
    W12 (F := Ideal) m ρ c (Proc.devRef .tc main_call1_v28) = W10 m ρ c (Proc.devRef .tc main_call1_v28) :=
  calc W12 (F := Ideal) m ρ c (Proc.devRef .tc main_call1_v28)
    _ = (dat6 (V11 m ρ) c).arrAt 0 cfg6.N := W12_arr m ρ c 0
    _ = (dat6 (V11 m ρ) c).A 0 := (dat6 (V11 m ρ) c).arrAt_in 0 rfl cfg6.N
    _ = W11 m ρ c (Proc.devRef .tc main_call1_v28) := A_eq6 (V11 m ρ) c 0
    _ = W10 m ρ c (Proc.devRef .tc main_call1_v28) := L4_in_W11 m ρ c

/-! ## The two regions' input windows as the named matrices -/

/-- The product region multiplies the previous layer's output … -/
theorem L4_prod_in (c : Dev nD) : mat2 (V11 (F := Ideal) m ρ c (Pipeline.arrRef spec6 0)) = feat3 m ρ c :=
  funext fun a => funext fun b => congrFun (L4_in_W11 m ρ c) (ix2 a b)

/-- … by the layer's block of `W`. -/
theorem L4_prod_w (c : Dev nD) : mat2 (V11 (F := Ideal) m ρ c (Pipeline.arrRef spec6 1)) = argWk m c (2 : Fin 6) :=
  funext fun j => funext fun q => L4_hostW m ρ c j q

/-- The fused region's second window is the product region's output: the product of the two. -/
theorem L4_fused_prod (c : Dev nD) :
    mat2 (V12 (F := Ideal) m ρ c (Pipeline.arrRef spec7 1)) = mm (feat3 m ρ c) (argWk m c (2 : Fin 6)) := by
  funext a b
  refine (congrFun (W12_arr m ρ c 2) (ix2 a b)).trans ?_
  refine (arr6 (V11 m ρ) c a b).trans ?_
  show mm (mat2 (V11 (F := Ideal) m ρ c (Pipeline.arrRef spec6 0))) (mat2 (V11 (F := Ideal) m ρ c (Pipeline.arrRef spec6 1))) a b = _
  rw [L4_prod_in, L4_prod_w]

/-- Its first window is the adjacency. -/
theorem L4_fused_adj (c : Dev nD) : mat2 (V12 (F := Ideal) m ρ c (Pipeline.arrRef spec7 0)) = adj m ρ c :=
  funext fun a => funext fun b => congrFun (adj_at_W12 m ρ c) (ix2 a b)

/-- Its third window is the previous layer's output again. -/
theorem L4_fused_in (c : Dev nD) : mat2 (V12 (F := Ideal) m ρ c (Pipeline.arrRef spec7 2)) = feat3 m ρ c :=
  funext fun a => funext fun b => congrFun (L4_in_W12 m ρ c) (ix2 a b)

/-- Its fourth window is the layer's block of `V`: the product region does not hold that buffer. -/
theorem L4_fused_v (c : Dev nD) : mat2 (V12 (F := Ideal) m ρ c (Pipeline.arrRef spec7 3)) = argVk m c (2 : Fin 6) :=
  funext fun j => funext fun q =>
    (congrFun (W12_of_ne m ρ c main_call1_v36 (by decide)) (ix2 j q)).trans (L4_hostV m ρ c j q)

/-- Its fifth window is the layer's bias as one row. -/
theorem L4_fused_b (c : Dev nD) :
    (fun q => V12 (F := Ideal) m ρ c (Pipeline.arrRef spec7 4) (ix2 (0 : Fin 1) q)) = argBk m c (2 : Fin 6) :=
  funext fun q =>
    (congrFun (W12_of_ne m ρ c main_call1_v37 (by decide)) (ix2 (0 : Fin 1) q)).trans (L4_hostB m ρ c q)

/-! ## The layer -/

/-- The fused region's output is one dense layer applied to the previous layer's output. -/
theorem feat4_eq (c : Dev nD) :
    feat4 m ρ c = denseLayer (adj m ρ c) (feat3 m ρ c) (argWk m c (2 : Fin 6)) (argVk m c (2 : Fin 6)) (argBk m c (2 : Fin 6)) := by
  funext r q
  refine (congrFun (W13_arr m ρ c 5) (ix2 r q)).trans ?_
  refine (arr7 (V12 m ρ) c r q).trans ?_
  show fused (mat2 (V12 (F := Ideal) m ρ c (Pipeline.arrRef spec7 0))) (mat2 (V12 (F := Ideal) m ρ c (Pipeline.arrRef spec7 1)))
      (mat2 (V12 (F := Ideal) m ρ c (Pipeline.arrRef spec7 2))) (mat2 (V12 (F := Ideal) m ρ c (Pipeline.arrRef spec7 3)))
      (fun q => V12 (F := Ideal) m ρ c (Pipeline.arrRef spec7 4) (ix2 (0 : Fin 1) q)) r q = _
  rw [L4_fused_adj, L4_fused_prod, L4_fused_in, L4_fused_v, L4_fused_b]
  rfl

end Cert.KernelIdeal.Val

end
-- ==== Proof.RegM8.lean ====
/-
  The array that the product region 8 leaves: the region multiplies a [10240, 512] matrix, one block of 1024 rows
  at each of its ten grid points, by a whole [512, 512] matrix, and writes each [1024, 512] block of the product back.
  Entry (r, q) of the output array is therefore Σ_k lhs (r, k) · rhs (k, q), for every row r and column q: row r lies
  in the block of point r / 1024, and that point's body computes the block's entries as the same sums over the
  contraction index, read off the left operand's rows 1024 t … 1024 t + 1023 and the whole right operand.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.PureOps.Ideal.Laws
noncomputable section
namespace Cert.KernelIdeal.Val
open Idealize.ShloMosaic Idealize.ShloMosaic.TcCoe Idealize.SL.Sem Idealize.ShloMosaic.ValueIdx Cert.KernelIdeal Cert.KernelIdeal.Gen Cert.Spec

/-- The zero offsets of a whole-block access. -/
theorem mm8_hz : (![0, 0] : Fin 2 → Nat) = fun _ => 0 := funext fun a => by fin_cases a <;> rfl

/-! ## The body's product at an index -/

/-- The left operand's row coordinate at output index `i` is `i`'s row. -/
theorem mm8_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column coordinate is the contraction position. -/
theorem mm8_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row coordinate is the contraction position. -/
theorem mm8_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column coordinate at output index `i` is `i`'s column. -/
theorem mm8_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The body's stored value at (p, q): the casts between equal shapes and the change of float format are the identity
    on extended reals, and the product into a zero accumulator is the sum over the contraction index. -/
theorem mm8_pay_apply (x0 : FVec Ideal S1024x512 .bf16) (x1 : FVec Ideal S512x512 .bf16) (p : Fin 1024) (q : Fin 512) :
    k8_pay1 (F := Ideal) x0 x1 (ix2 p q) = ∑ k : Fin 512, x0 (ix2 p k) * x1 (ix2 k q) := by
  unfold k8_pay1
  simp only [shapeCast_self]
  show FloatOps.matmul dot_S1024x512_S512x512_S1024x512_1_0_0_1_n_n none x0 x1 (constant S1024x512 .f32 0x00000000#32) (ix2 p q) = _
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact mm8_lhs_0 _ _
    | ⟨1, _⟩ => exact (mm8_lhs_1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (mm8_rhs_0 _ _).trans hk
    | ⟨1, _⟩ => exact mm8_rhs_1 _ _)
  rw [el, er]

/-! ## The whole product, and each point's block of it -/

variable (V : (c : Dev nD) → (b : Ref sig .tc) → Buf (Elt Ideal) ((c : Thread nD τ).loc b))

/-- The whole product of the two arrays, index by index. -/
def mm8_prod (A : S10240x512.Idx → EReal) (B : S512x512.Idx → EReal) : S10240x512.Idx → EReal :=
  fun i => mm (mat2 A) (mat2 B) (i 0) (i 1)

/-- The block indices over the grid: the left operand's and the output's blocks move down the rows with the point, the
    right operand stays whole. -/
theorem mm8_idx : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- A block's entry (p, q) is the whole product's entry at `i` when the left block's row p is the left array's row
    `i 0` and the right block's column q is the right array's column `i 1`. -/
theorem mm8_point (A : S10240x512.Idx → EReal) (B : S512x512.Idx → EReal) (x0 : FVec Ideal S1024x512 .bf16) (x1 : FVec Ideal S512x512 .bf16)
    (p : Fin 1024) (q : Fin 512) (i : S10240x512.Idx)
    (hx0 : ∀ k : Fin 512, x0 (ix2 p k) = A (ix2 (i 0) k)) (hx1 : ∀ k : Fin 512, x1 (ix2 k q) = B (ix2 k (i 1))) :
    k8_pay1 (F := Ideal) x0 x1 (ix2 p q) = mm8_prod A B i := by
  rw [mm8_pay_apply]
  show _ = ∑ k : Fin 512, A (ix2 (i 0) k) * B (ix2 k (i 1))
  exact Finset.sum_congr rfl fun k _ => by rw [hx0 k, hx1 k]

/-- The left operand's block at point `t` holds rows 1024 t … 1024 t + 1023 of its array. -/
theorem mm8_blk_0 (c : Dev nD) (t : Fin cfg8.N) (p : Fin 1024) (k : Fin 512) (i : S10240x512.Idx)
    (h0 : (i 0).val = t.val * 1024 + p.val) (h1 : (i 1).val = k.val) :
    (iblk8 V c 0 t : FVec Ideal S1024x512 .bf16) (ix2 p k) = V c (Pipeline.arrRef spec8 0) i := by
  obtain ⟨e0, e1, -⟩ := mm8_idx t
  unfold iblk8
  rw [View.read_apply]
  show V c (Pipeline.arrRef spec8 0) (((cfg8.win 0).blk t).view.emb (ix2 p k)) = V c (Pipeline.arrRef spec8 0) i
  refine congrArg _ (funext fun a => Fin.ext ?_)
  match a with
  | ⟨0, _⟩ => show win8_0.index t (0 : Fin 2) * 1024 + 1 * p.val = (i 0).val; omega
  | ⟨1, _⟩ => show win8_0.index t (1 : Fin 2) * 512 + 1 * k.val = (i 1).val; omega

/-- The right operand's block at every point is its whole array. -/
theorem mm8_blk_1 (c : Dev nD) (t : Fin cfg8.N) (k : Fin 512) (q : Fin 512) (i : S512x512.Idx)
    (h0 : (i 0).val = k.val) (h1 : (i 1).val = q.val) :
    (iblk8 V c 1 t : FVec Ideal S512x512 .bf16) (ix2 k q) = V c (Pipeline.arrRef spec8 1) i := by
  obtain ⟨-, -, e2, e3, -⟩ := mm8_idx t
  unfold iblk8
  rw [View.read_apply]
  show V c (Pipeline.arrRef spec8 1) (((cfg8.win 1).blk t).view.emb (ix2 k q)) = V c (Pipeline.arrRef spec8 1) i
  refine congrArg _ (funext fun a => Fin.ext ?_)
  match a with
  | ⟨0, _⟩ => show win8_1.index t (0 : Fin 2) * 512 + 1 * k.val = (i 0).val; omega
  | ⟨1, _⟩ => show win8_1.index t (1 : Fin 2) * 512 + 1 * q.val = (i 1).val; omega

/-- Entry (p, q) of the output's block at point `t` sits at row 1024 t + p, column q of the output array. -/
theorem mm8_emb (t : Fin cfg8.N) (p : Fin 1024) (q : Fin 512) :
    ((((cfg8.win 2).blk t).view.emb (ix2 p q)) 0).val = t.val * 1024 + p.val
      ∧ ((((cfg8.win 2).blk t).view.emb (ix2 p q)) 1).val = q.val := by
  obtain ⟨-, -, -, -, e4, e5⟩ := mm8_idx t
  constructor
  · show win8_2.index t (0 : Fin 2) * 1024 + 1 * p.val = _; omega
  · show win8_2.index t (1 : Fin 2) * 512 + 1 * q.val = _; omega

/-- What point `t` writes back is block `t` of the whole product of the arrays as the region finds them. -/
theorem mm8_flushed_eq (c : Dev nD) (t : Fin cfg8.N) :
    (dat8 (F := Ideal) V c).flushed 2 t
      = ((cfg8.win 2).blk t).view.read (Elt Ideal) (mm8_prod (V c (Pipeline.arrRef spec8 0)) (V c (Pipeline.arrRef spec8 1))) := by
  show (cfg8.win 2).cut (grid8.coords t) ((dat8 V c).after 2 t) = _
  rw [after8_2]
  unfold out8_2
  rw [View.canon_unit_zero mm8_hz]
  simp only [View.ld_unit_zero (S := S1024x512) mm8_hz, View.ld_unit_zero (S := S512x512) mm8_hz]
  funext j
  obtain ⟨p, q, rfl⟩ : ∃ (p : Fin 1024) (q : Fin 512), j = ix2 p q := ⟨j 0, j 1, eq_ix2 j⟩
  show k8_pay1 (F := Ideal) (iblk8 V c 0 t) (iblk8 V c 1 t) (ix2 p q)
    = mm8_prod (V c (Pipeline.arrRef spec8 0)) (V c (Pipeline.arrRef spec8 1)) (((cfg8.win 2).blk t).view.emb (ix2 p q))
  exact mm8_point _ _ (iblk8 V c 0 t) (iblk8 V c 1 t) p q _
    (fun k => mm8_blk_0 V c t p k _ (mm8_emb t p q).1 rfl) (fun k => mm8_blk_1 V c t k q _ rfl (mm8_emb t p q).2)

/-! ## The blocks cover the array -/

/-- An index of the output array is in point `t`'s block iff each coordinate is in the block's range on its axis. -/
theorem mm8_mem_blk (t : Fin cfg8.N) (i : S10240x512.Idx) :
    i ∈ ((cfg8.win 2).blk t).view.set ↔ ∀ a : Fin 2, win8_2.index t a * S1024x512.size a ≤ (i a).val ∧ (i a).val < win8_2.index t a * S1024x512.size a + S1024x512.size a := by
  show i ∈ ((View.whole (Pipeline.arrRef spec8 2)).slice (win8_2.rect t)).set ↔ _
  rw [View.set_slice_whole, Rect.mem_set_unit]
  exact Iff.rfl

/-- Row r of the output array lies in the block of point r / 1024. -/
theorem mm8_cover (i : S10240x512.Idx) : ∃ t : Fin cfg8.N, (cfg8.win 2).flush t = true ∧ i ∈ ((cfg8.win 2).blk t).view.set := by
  have hi0 : (i 0).val < 10240 := (i 0).isLt
  have hi1 : (i 1).val < 512 := (i 1).isLt
  have hN : cfg8.N = 10 := N_8
  have ht : (i 0).val / 1024 < cfg8.N := by rw [hN]; omega
  refine ⟨⟨(i 0).val / 1024, ht⟩, flush8_2 _, ?_⟩
  rw [mm8_mem_blk]
  obtain ⟨-, -, -, -, e4, e5⟩ := mm8_idx ⟨(i 0).val / 1024, ht⟩
  intro a
  match a with
  | ⟨0, _⟩ =>
    show win8_2.index ⟨(i 0).val / 1024, ht⟩ (0 : Fin 2) * 1024 ≤ (i 0).val
      ∧ (i 0).val < win8_2.index ⟨(i 0).val / 1024, ht⟩ (0 : Fin 2) * 1024 + 1024
    rw [e4]
    show (i 0).val / 1024 * 1024 ≤ (i 0).val ∧ (i 0).val < (i 0).val / 1024 * 1024 + 1024
    omega
  | ⟨1, _⟩ =>
    show win8_2.index ⟨(i 0).val / 1024, ht⟩ (1 : Fin 2) * 512 ≤ (i 1).val
      ∧ (i 1).val < win8_2.index ⟨(i 0).val / 1024, ht⟩ (1 : Fin 2) * 512 + 512
    rw [e5]
    omega

/-! ## The output array after the region -/

/-- After the region the output array holds the product of the two input arrays as the region found them, entry by entry. -/
theorem arr8 (c : Dev nD) (r : Fin 10240) (q : Fin 512) :
    (dat8 (F := Ideal) V c).arrAt 2 cfg8.N (ix2 r q)
      = mm (mat2 (V c (Pipeline.arrRef spec8 0))) (mat2 (V c (Pipeline.arrRef spec8 1))) r q :=
  congrFun ((dat8 (F := Ideal) V c).arrAt_eq_of_cover 2
    (mm8_prod (V c (Pipeline.arrRef spec8 0)) (V c (Pipeline.arrRef spec8 1)))
    (fun t _ => mm8_flushed_eq V c t) mm8_cover) (ix2 r q)

end Cert.KernelIdeal.Val

end
-- ==== Proof.RegS9.lean ====
/-
  The fused region of a later layer: what its output array holds after the region, entry by entry.

  The grid has 20 points. Point `t` takes rows `512 t … 512 t + 511` of the adjacency `A` (10240 columns) and of the node
  features `H` (512 columns), and the whole of `M` (10240 × 512), of `V` (512 × 512) and of the bias row `b`; it stores
  `max (A_t M + H_t V + b) 0` into rows `512 t … 512 t + 511` of the output. On the extended reals each product is the exact
  sum over its inner index and the change of format is the identity, so entry `(512 t + p, q)` of what point `t` writes is
  `Spec.fused A M H V b (512 t + p) q`. The 20 row blocks cover the 10240 rows, so the output array is `Spec.fused` of the
  arrays the region finds, at every entry.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

/-! ## The two products of the fused step, entry by entry -/

theorem hz9 : (![0, 0] : Fin 2 → Nat) = fun _ => 0 := funext fun a => by fin_cases a <;> rfl

/-- The product with the adjacency block: the left operand is read at the output's row and the summed position, -/
theorem lhsA9_0 (i : S512x512.Idx) (q : dot_S512x10240_S10240x512_S512x512_1_0_0_1_n_n.contr.Idx) :
    (dot_S512x10240_S10240x512_S512x512_1_0_0_1_n_n.lhsIdx i q 0).val = (i 0).val := by
  unfold DotDims.lhsIdx
  rw [dif_neg (show ¬(0 : Fin S512x10240.rank) ∈ dot_S512x10240_S10240x512_S512x512_1_0_0_1_n_n.lhsBatch by decide), dif_pos (show (0 : Fin S512x10240.rank) ∈ dot_S512x10240_S10240x512_S512x512_1_0_0_1_n_n.lhsNonContracting by decide)]
  rfl
theorem lhsA9_1 (i : S512x512.Idx) (q : dot_S512x10240_S10240x512_S512x512_1_0_0_1_n_n.contr.Idx) :
    (dot_S512x10240_S10240x512_S512x512_1_0_0_1_n_n.lhsIdx i q 1).val = (q ⟨0, by decide⟩).val :=
  dot_S512x10240_S10240x512_S512x512_1_0_0_1_n_n.lhsIdx_val_of_single rfl i q
/-- the right operand at the summed position and the output's column. -/
theorem rhsA9_0 (i : S512x512.Idx) (q : dot_S512x10240_S10240x512_S512x512_1_0_0_1_n_n.contr.Idx) :
    (dot_S512x10240_S10240x512_S512x512_1_0_0_1_n_n.rhsIdx i q 0).val = (q ⟨0, by decide⟩).val :=
  dot_S512x10240_S10240x512_S512x512_1_0_0_1_n_n.rhsIdx_val_of_single rfl i q
theorem rhsA9_1 (i : S512x512.Idx) (q : dot_S512x10240_S10240x512_S512x512_1_0_0_1_n_n.contr.Idx) :
    (dot_S512x10240_S10240x512_S512x512_1_0_0_1_n_n.rhsIdx i q 1).val = (i 1).val := by
  unfold DotDims.rhsIdx
  rw [dif_neg (show ¬(1 : Fin S10240x512.rank) ∈ dot_S512x10240_S10240x512_S512x512_1_0_0_1_n_n.rhsBatch by decide), dif_pos (show (1 : Fin S10240x512.rank) ∈ dot_S512x10240_S10240x512_S512x512_1_0_0_1_n_n.rhsNonContracting by decide)]
  rfl

/-- A block of 512 rows of the adjacency against the whole of `M`, into a zero accumulator: entry `(p, q)` is the sum
    over the 10240 slots `k` of the row's weight at `k` times `M k q`. -/
theorem mmA9_apply (x : FVec Ideal S512x10240 .bf16) (y : FVec Ideal S10240x512 .bf16) (p q : Fin 512) :
    matmul dot_S512x10240_S10240x512_S512x512_1_0_0_1_n_n none x y (constant S512x512 .f32 0x00000000#32) (ix2 p q)
      = ∑ k : Fin 10240, x (ix2 p k) * y (ix2 k q) := by
  simp only [matmul]
  rw [Ideal.matmul_constant_zero_apply, ← Equiv.sum_comp (contrEquiv1 dot_S512x10240_S10240x512_S512x512_1_0_0_1_n_n 10240 rfl rfl).symm]
  refine Finset.sum_congr rfl fun k _ => ?_
  have hk := contrEquiv1_symm_val dot_S512x10240_S10240x512_S512x512_1_0_0_1_n_n 10240 rfl rfl k
  have el : dot_S512x10240_S10240x512_S512x512_1_0_0_1_n_n.lhsIdx (ix2 p q) ((contrEquiv1 dot_S512x10240_S10240x512_S512x512_1_0_0_1_n_n 10240 rfl rfl).symm k) = ix2 p k := funext fun a => Fin.ext (by
    match a with
    | ⟨0, _⟩ => exact lhsA9_0 _ _
    | ⟨1, _⟩ => exact (lhsA9_1 _ _).trans hk)
  have er : dot_S512x10240_S10240x512_S512x512_1_0_0_1_n_n.rhsIdx (ix2 p q) ((contrEquiv1 dot_S512x10240_S10240x512_S512x512_1_0_0_1_n_n 10240 rfl rfl).symm k) = ix2 k q := funext fun a => Fin.ext (by
    match a with
    | ⟨0, _⟩ => exact (rhsA9_0 _ _).trans hk
    | ⟨1, _⟩ => exact rhsA9_1 _ _)
  rw [el, er]

/-- The product of the block's own features with `V`: the same reading of the two operands. -/
theorem lhsB9_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhsB9_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhsB9_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhsB9_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A block of 512 rows of `H` against the whole of `V`, into a zero accumulator: entry `(p, q)` is the sum over the
    512 feature positions `k` of `H p k * V k q`. -/
theorem mmB9_apply (x : FVec Ideal S512x512 .bf16) (y : FVec Ideal S512x512 .bf16) (p q : Fin 512) :
    matmul dot_S512x512_S512x512_S512x512_1_0_0_1_n_n none x y (constant S512x512 .f32 0x00000000#32) (ix2 p q)
      = ∑ k : Fin 512, x (ix2 p k) * y (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhsB9_0 _ _
    | ⟨1, _⟩ => exact (lhsB9_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhsB9_0 _ _).trans hk
    | ⟨1, _⟩ => exact rhsB9_1 _ _)
  rw [el, er]

/-! ## The body's result at an entry of the block -/

/-- Entry `(p, q)` of what the body stores: the two products added, the bias of column `q` added, the maximum with zero
    taken; the change of format at the end is the identity on the extended reals. -/
theorem pay9_apply (xa : Vec Ideal S512x10240 .bf16) (xm : Vec Ideal S10240x512 .bf16) (xh : Vec Ideal S512x512 .bf16)
    (xv : Vec Ideal S512x512 .bf16) (xb : Vec Ideal S1x512 .f32) (p q : Fin 512) :
    k9_pay1 xa xm xh xv xb (ix2 p q)
      = max (((∑ k : Fin 10240, xa (ix2 p k) * xm (ix2 k q)) + ∑ k : Fin 512, xh (ix2 p k) * xv (ix2 k q)) + xb (ix2 (0 : Fin 1) q)) 0 := by
  unfold k9_pay1
  simp only [shapeCast_self]
  rw [truncf_apply, maximumf_apply, addf_apply, addf_apply, mmA9_apply, mmB9_apply, broadcast_apply,
    broadcastTo_apply xb broadcasts_S1x512_S512x512 (ix2 p q) (ix2 (0 : Fin 1) q) (fun a => by
      match a with
      | ⟨0, _⟩ => rfl
      | ⟨1, _⟩ => rfl)]
  show max _ (Ideal.ofBits .f32 0x00000000#32) = _
  rw [Ideal.ofBits_zero_f32]

/-! ## Which block of each array a point reads -/

variable (V : (c : Dev nD) → (b : Ref sig .tc) → Buf (Elt Ideal) ((c : Thread nD τ).loc b))

/-- Point `t` takes block `t` of the rows of the adjacency, of `H` and of the output, and the whole of `M`, of `V`
    and of the bias (decided over the 20 points). -/
theorem idx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- Row `p` of the adjacency block at point `t` is row `512 t + p` of the adjacency. -/
theorem blk9_0 (c : Dev nD) (t : Fin cfg9.N) (p : Fin 512) (k : Fin 10240) (r : Fin 10240) (hr : r.val = t.val * 512 + p.val) :
    (iblk9 V c 0 t : Vec Ideal S512x10240 .bf16) (ix2 p k) = mat2 (V c (Pipeline.arrRef spec9 0)) r k := by
  obtain ⟨e0, e1, -⟩ := idx9 t
  unfold iblk9
  rw [View.read_apply]
  show V c (Pipeline.arrRef spec9 0) _ = V c (Pipeline.arrRef spec9 0) (ix2 r k)
  congr 1
  funext a; apply Fin.ext
  match a with
  | ⟨0, _⟩ => show win9_0.index t (0 : Fin 2) * 512 + 1 * p.val = r.val; omega
  | ⟨1, _⟩ => show win9_0.index t (1 : Fin 2) * 10240 + 1 * k.val = k.val; omega

/-- The block of `M` is all of `M`. -/
theorem blk9_1 (c : Dev nD) (t : Fin cfg9.N) (k : Fin 10240) (q : Fin 512) :
    (iblk9 V c 1 t : Vec Ideal S10240x512 .bf16) (ix2 k q) = mat2 (V c (Pipeline.arrRef spec9 1)) k q := by
  obtain ⟨-, -, e0, e1, -⟩ := idx9 t
  unfold iblk9
  rw [View.read_apply]
  show V c (Pipeline.arrRef spec9 1) _ = V c (Pipeline.arrRef spec9 1) (ix2 k q)
  congr 1
  funext a; apply Fin.ext
  match a with
  | ⟨0, _⟩ => show win9_1.index t (0 : Fin 2) * 10240 + 1 * k.val = k.val; omega
  | ⟨1, _⟩ => show win9_1.index t (1 : Fin 2) * 512 + 1 * q.val = q.val; omega

/-- Row `p` of the block of `H` at point `t` is row `512 t + p` of `H`. -/
theorem blk9_2 (c : Dev nD) (t : Fin cfg9.N) (p : Fin 512) (k : Fin 512) (r : Fin 10240) (hr : r.val = t.val * 512 + p.val) :
    (iblk9 V c 2 t : Vec Ideal S512x512 .bf16) (ix2 p k) = mat2 (V c (Pipeline.arrRef spec9 2)) r k := by
  obtain ⟨-, -, -, -, e0, e1, -⟩ := idx9 t
  unfold iblk9
  rw [View.read_apply]
  show V c (Pipeline.arrRef spec9 2) _ = V c (Pipeline.arrRef spec9 2) (ix2 r k)
  congr 1
  funext a; apply Fin.ext
  match a with
  | ⟨0, _⟩ => show win9_2.index t (0 : Fin 2) * 512 + 1 * p.val = r.val; omega
  | ⟨1, _⟩ => show win9_2.index t (1 : Fin 2) * 512 + 1 * k.val = k.val; omega

/-- The block of `V` is all of `V`. -/
theorem blk9_3 (c : Dev nD) (t : Fin cfg9.N) (k : Fin 512) (q : Fin 512) :
    (iblk9 V c 3 t : Vec Ideal S512x512 .bf16) (ix2 k q) = mat2 (V c (Pipeline.arrRef spec9 3)) k q := by
  obtain ⟨-, -, -, -, -, -, e0, e1, -⟩ := idx9 t
  unfold iblk9
  rw [View.read_apply]
  show V c (Pipeline.arrRef spec9 3) _ = V c (Pipeline.arrRef spec9 3) (ix2 k q)
  congr 1
  funext a; apply Fin.ext
  match a with
  | ⟨0, _⟩ => show win9_3.index t (0 : Fin 2) * 512 + 1 * k.val = k.val; omega
  | ⟨1, _⟩ => show win9_3.index t (1 : Fin 2) * 512 + 1 * q.val = q.val; omega

/-- The block of the bias is the whole bias row. -/
theorem blk9_4 (c : Dev nD) (t : Fin cfg9.N) (q : Fin 512) :
    (iblk9 V c 4 t : Vec Ideal S1x512 .f32) (ix2 (0 : Fin 1) q) = V c (Pipeline.arrRef spec9 4) (ix2 (0 : Fin 1) q) := by
  obtain ⟨-, -, -, -, -, -, -, -, e0, e1, -⟩ := idx9 t
  unfold iblk9
  rw [View.read_apply]
  show V c (Pipeline.arrRef spec9 4) _ = V c (Pipeline.arrRef spec9 4) (ix2 (0 : Fin 1) q)
  congr 1
  funext a; apply Fin.ext
  match a with
  | ⟨0, _⟩ => show win9_4.index t (0 : Fin 2) * 1 + 1 * (0 : Fin 1).val = (0 : Fin 1).val; omega
  | ⟨1, _⟩ => show win9_4.index t (1 : Fin 2) * 512 + 1 * q.val = q.val; omega

/-! ## What a point writes back, and the whole array -/

/-- Entry `(p, q)` of the body's result at point `t` is entry `(512 t + p, q)` of the fused step of the whole arrays:
    each block entry is read where the point's rectangle puts it, the sums term by term. -/
theorem point9 (c : Dev nD) (t : Fin cfg9.N) (p q : Fin 512) (r : Fin 10240) (hr : r.val = t.val * 512 + p.val) :
    k9_pay1 (iblk9 V c 0 t) (iblk9 V c 1 t) (iblk9 V c 2 t) (iblk9 V c 3 t) (iblk9 V c 4 t) (ix2 p q)
      = fused (mat2 (V c (Pipeline.arrRef spec9 0))) (mat2 (V c (Pipeline.arrRef spec9 1))) (mat2 (V c (Pipeline.arrRef spec9 2)))
        (mat2 (V c (Pipeline.arrRef spec9 3))) (fun q => V c (Pipeline.arrRef spec9 4) (ix2 (0 : Fin 1) q)) r q := by
  refine (pay9_apply (iblk9 V c 0 t) (iblk9 V c 1 t) (iblk9 V c 2 t) (iblk9 V c 3 t) (iblk9 V c 4 t) p q).trans ?_
  unfold fused mm
  refine congrArg (fun z => max z 0) ?_
  refine congrArg₂ (· + ·) (congrArg₂ (· + ·) (Finset.sum_congr rfl fun k _ => ?_) (Finset.sum_congr rfl fun k _ => ?_)) ?_
  · exact congrArg₂ (· * ·) (blk9_0 V c t p k r hr) (blk9_1 V c t k q)
  · exact congrArg₂ (· * ·) (blk9_2 V c t p k r hr) (blk9_3 V c t k q)
  · exact blk9_4 V c t q

/-- The output array as one function of the arrays the region finds: the fused step, entry by entry. -/
abbrev res9 (c : Dev nD) : S10240x512.Idx → EReal := fun i =>
  fused (mat2 (V c (Pipeline.arrRef spec9 0))) (mat2 (V c (Pipeline.arrRef spec9 1))) (mat2 (V c (Pipeline.arrRef spec9 2)))
        (mat2 (V c (Pipeline.arrRef spec9 3))) (fun q => V c (Pipeline.arrRef spec9 4) (ix2 (0 : Fin 1) q)) (i 0) (i 1)

/-- What point `t` writes back is block `t` of that function. -/
theorem flushed9_eq (c : Dev nD) (t : Fin cfg9.N) :
    (dat9 (F := Ideal) V c).flushed 5 t = ((cfg9.win 5).blk t).view.read (Elt Ideal) (res9 V c) := by
  show (cfg9.win 5).cut (grid9.coords t) ((dat9 V c).after 5 t) = _
  rw [after9_5]
  unfold out9_5
  rw [View.canon_unit_zero hz9]
  simp only [View.ld_unit_zero (S := S512x10240) hz9, View.ld_unit_zero (S := S10240x512) hz9, View.ld_unit_zero (S := S512x512) hz9, View.ld_unit_zero (S := S1x512) hz9]
  obtain ⟨-, -, -, -, -, -, -, -, -, -, e0, e1⟩ := idx9 t
  have hN : cfg9.N = 20 := N_9
  have ht : t.val < 20 := hN ▸ t.isLt
  funext j
  have hj0 : (j 0).val < 512 := (j 0).isLt
  have hj1 : (j 1).val < 512 := (j 1).isLt
  have hx : (cfg9.win 5).xinj (grid9.coords t) j = ix2 (⟨(j 0).val, hj0⟩ : Fin 512) (⟨(j 1).val, hj1⟩ : Fin 512) :=
    funext fun a => by
      match a with
      | ⟨0, _⟩ => rfl
      | ⟨1, _⟩ => rfl
  have hy : ((cfg9.win 5).blk t).view.emb j
      = ix2 (⟨t.val * 512 + (j 0).val, by omega⟩ : Fin 10240) (⟨(j 1).val, hj1⟩ : Fin 512) := by
    funext a; apply Fin.ext
    match a with
    | ⟨0, _⟩ => show win9_5.index t (0 : Fin 2) * 512 + 1 * (j 0).val = t.val * 512 + (j 0).val; omega
    | ⟨1, _⟩ => show win9_5.index t (1 : Fin 2) * 512 + 1 * (j 1).val = (j 1).val; omega
  show k9_pay1 (iblk9 V c 0 t) (iblk9 V c 1 t) (iblk9 V c 2 t) (iblk9 V c 3 t) (iblk9 V c 4 t) ((cfg9.win 5).xinj (grid9.coords t) j)
    = res9 V c (((cfg9.win 5).blk t).view.emb j)
  rw [hx, hy]
  exact point9 V c t _ _ _ rfl

/-- An entry of the array is in point `t`'s block when each coordinate is in the block's range on its axis. -/
theorem mem_blk9 (t : Fin cfg9.N) (i : S10240x512.Idx) :
    i ∈ ((cfg9.win 5).blk t).view.set ↔ ∀ a : Fin 2, win9_5.index t a * S512x512.size a ≤ (i a).val ∧ (i a).val < win9_5.index t a * S512x512.size a + S512x512.size a := by
  show i ∈ ((View.whole (Pipeline.arrRef spec9 5)).slice (win9_5.rect t)).set ↔ _
  rw [View.set_slice_whole, Rect.mem_set_unit]
  exact Iff.rfl

/-- Row `r` lies in the block of point `r / 512`: the 20 blocks of 512 rows cover the 10240 rows. -/
theorem cover9 (i : S10240x512.Idx) : ∃ t : Fin cfg9.N, (cfg9.win 5).flush t = true ∧ i ∈ ((cfg9.win 5).blk t).view.set := by
  have hi0 : (i 0).val < 10240 := (i 0).isLt
  have hi1 : (i 1).val < 512 := (i 1).isLt
  have hN : cfg9.N = 20 := N_9
  have hlt : (i 0).val / 512 < cfg9.N := by rw [hN]; omega
  obtain ⟨-, -, -, -, -, -, -, -, -, -, e0, e1⟩ := idx9 ⟨(i 0).val / 512, hlt⟩
  refine ⟨⟨(i 0).val / 512, hlt⟩, flush9_5 _, ?_⟩
  rw [mem_blk9]
  intro a
  match a with
  | ⟨0, _⟩ =>
    show win9_5.index ⟨(i 0).val / 512, hlt⟩ (0 : Fin 2) * 512 ≤ (i 0).val ∧ (i 0).val < win9_5.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win9_5.index ⟨(i 0).val / 512, hlt⟩ (1 : Fin 2) * 512 ≤ (i 1).val ∧ (i 1).val < win9_5.index ⟨(i 0).val / 512, hlt⟩ (1 : Fin 2) * 512 + 512
    rw [e1]; omega

/-- After the region the output array holds the fused step of the arrays the region found, at every entry. -/
theorem arr9 (c : Dev nD) (r : Fin 10240) (q : Fin 512) :
    (dat9 (F := Ideal) V c).arrAt 5 cfg9.N (ix2 r q)
      = fused (mat2 (V c (Pipeline.arrRef spec9 0))) (mat2 (V c (Pipeline.arrRef spec9 1))) (mat2 (V c (Pipeline.arrRef spec9 2)))
        (mat2 (V c (Pipeline.arrRef spec9 3))) (fun q => V c (Pipeline.arrRef spec9 4) (ix2 (0 : Fin 1) q)) r q :=
  congrFun ((dat9 (F := Ideal) V c).arrAt_eq_of_cover 5 (res9 V c) (fun t _ => flushed9_eq V c t) cover9) (ix2 r q)

end Cert.KernelIdeal.Val

end
-- ==== Proof.KLayer5.lean ====
/-
  One hidden layer of the kernel program as mathematics: the fused region's output on the padded node set is
  `relu (A (H W) + H V + b)`, with `A` the dense adjacency the host built, `H` the previous layer's output and
  `W`, `V`, `b` the layer's blocks of the stacked arguments.

  The host stretch before the layer cuts the blocks out; the product region forms `H W`; the fused region reads the
  adjacency, that product, `H` again, `V` and `b`.  Each input window of the fused region is followed back to the
  boundary where its contents were made, and identified there.
-/
import proofs.«418437_j77618648973637_3_alg».proof.Proof.Gen.KernelIdeal.Frame
import proofs.«418437_j77618648973637_3_alg».proof.Proof.Spec
import proofs.«418437_j77618648973637_3_alg».proof.Proof.KDefs
import proofs.«418437_j77618648973637_3_alg».proof.Proof.KWalk
import proofs.«418437_j77618648973637_3_alg».proof.Proof.RegM8
import proofs.«418437_j77618648973637_3_alg».proof.Proof.RegS9
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

variable (m : (ℓ : Loc nD τ sig) → Buf (Elt Ideal) ℓ) (ρ : Dev nD → PrngReg)

/-! ## What the host stretch before the layer leaves

The stretch cuts block `(3 : Fin 6)` out of the stacked weights and biases, drops the unit axis, and rounds to the
kernel's format, which at exact arithmetic changes nothing: each buffer read at an entry is the argument's entry in
that block. -/

theorem L5_hostW (c : Dev nD) (j q : Fin 512) :
    W14 (F := Ideal) m ρ c (Proc.devRef .tc main_call1_v46) (ix2 j q) = argWk m c (3 : Fin 6) j q := by
  show StableHlo.after hostOps8 _ (Proc.devRef .tc main_call1_v46) (ix2 j q) = _
  after_results
  refine (shapeCast_1ab_ab_apply (extractStridedSlice S1x512x512 _ (W13 (F := Ideal) m ρ c (Proc.devRef .tc main_arg6)) slices_S6x512x512_S1x512x512_3_0_0) _ j q).trans ?_
  refine (extractStridedSlice_apply _ _ _ _ (ix3 (3 : Fin 6) j q) (fun a => ?_)).trans
    (congrFun (arg6_at_W13 m ρ c) (ix3 (3 : Fin 6) j q))
  match a with
  | ⟨0, _⟩ => rfl
  | ⟨1, _⟩ => exact (Nat.zero_add _).symm
  | ⟨2, _⟩ => exact (Nat.zero_add _).symm

theorem L5_hostV (c : Dev nD) (j q : Fin 512) :
    W14 (F := Ideal) m ρ c (Proc.devRef .tc main_call1_v47) (ix2 j q) = argVk m c (3 : Fin 6) j q := by
  show StableHlo.after hostOps8 _ (Proc.devRef .tc main_call1_v47) (ix2 j q) = _
  after_results
  refine (shapeCast_1ab_ab_apply (extractStridedSlice S1x512x512 _ (W13 (F := Ideal) m ρ c (Proc.devRef .tc main_arg7)) slices_S6x512x512_S1x512x512_3_0_0) _ j q).trans ?_
  refine (extractStridedSlice_apply _ _ _ _ (ix3 (3 : Fin 6) j q) (fun a => ?_)).trans
    (congrFun (arg7_at_W13 m ρ c) (ix3 (3 : Fin 6) j q))
  match a with
  | ⟨0, _⟩ => rfl
  | ⟨1, _⟩ => exact (Nat.zero_add _).symm
  | ⟨2, _⟩ => exact (Nat.zero_add _).symm

theorem L5_hostB (c : Dev nD) (q : Fin 512) :
    W14 (F := Ideal) m ρ c (Proc.devRef .tc main_call1_v48) (ix2 (0 : Fin 1) q) = argBk m c (3 : Fin 6) q := by
  show StableHlo.after hostOps8 _ (Proc.devRef .tc main_call1_v48) (ix2 (0 : Fin 1) q) = _
  after_results
  refine (shapeCast_a_1a_apply (shapeCast S512 (extractStridedSlice S1x512 _ (W13 (F := Ideal) m ρ c (Proc.devRef .tc main_arg8)) slices_S6x512_S1x512_3_0) shapeCasts_S1x512_S512) _ (0 : Fin 1) q).trans ?_
  refine (shapeCast_1a_a_apply (extractStridedSlice S1x512 _ (W13 (F := Ideal) m ρ c (Proc.devRef .tc main_arg8)) slices_S6x512_S1x512_3_0) _ q).trans ?_
  refine (extractStridedSlice_apply _ _ _ _ (ix2 (3 : Fin 6) q) (fun a => ?_)).trans
    (congrFun (arg8_at_W13 m ρ c) (ix2 (3 : Fin 6) q))
  match a with
  | ⟨0, _⟩ => rfl
  | ⟨1, _⟩ => exact (Nat.zero_add _).symm

/-! ## The layer's input through the host stretch and the product region

No operation of the host stretch writes the previous layer's output, and the product region holds it as an input
window, whose array a region leaves as it found it. -/

theorem L5_in_W14 (c : Dev nD) :
    W14 (F := Ideal) m ρ c (Proc.devRef .tc main_call1_v39) = W13 m ρ c (Proc.devRef .tc main_call1_v39) := by
  walk_keeps hostOps8

theorem L5_in_W15 (c : Dev nD) :
    W15 (F := Ideal) m ρ c (Proc.devRef .tc main_call1_v39) = W13 m ρ c (Proc.devRef .tc main_call1_v39) :=
  calc W15 (F := Ideal) m ρ c (Proc.devRef .tc main_call1_v39)
    _ = (dat8 (V14 m ρ) c).arrAt 0 cfg8.N := W15_arr m ρ c 0
    _ = (dat8 (V14 m ρ) c).A 0 := (dat8 (V14 m ρ) c).arrAt_in 0 rfl cfg8.N
    _ = W14 m ρ c (Proc.devRef .tc main_call1_v39) := A_eq8 (V14 m ρ) c 0
    _ = W13 m ρ c (Proc.devRef .tc main_call1_v39) := L5_in_W14 m ρ c

/-! ## The two regions' input windows as the named matrices -/

/-- The product region multiplies the previous layer's output … -/
theorem L5_prod_in (c : Dev nD) : mat2 (V14 (F := Ideal) m ρ c (Pipeline.arrRef spec8 0)) = feat4 m ρ c :=
  funext fun a => funext fun b => congrFun (L5_in_W14 m ρ c) (ix2 a b)

/-- … by the layer's block of `W`. -/
theorem L5_prod_w (c : Dev nD) : mat2 (V14 (F := Ideal) m ρ c (Pipeline.arrRef spec8 1)) = argWk m c (3 : Fin 6) :=
  funext fun j => funext fun q => L5_hostW m ρ c j q

/-- The fused region's second window is the product region's output: the product of the two. -/
theorem L5_fused_prod (c : Dev nD) :
    mat2 (V15 (F := Ideal) m ρ c (Pipeline.arrRef spec9 1)) = mm (feat4 m ρ c) (argWk m c (3 : Fin 6)) := by
  funext a b
  refine (congrFun (W15_arr m ρ c 2) (ix2 a b)).trans ?_
  refine (arr8 (V14 m ρ) c a b).trans ?_
  show mm (mat2 (V14 (F := Ideal) m ρ c (Pipeline.arrRef spec8 0))) (mat2 (V14 (F := Ideal) m ρ c (Pipeline.arrRef spec8 1))) a b = _
  rw [L5_prod_in, L5_prod_w]

/-- Its first window is the adjacency. -/
theorem L5_fused_adj (c : Dev nD) : mat2 (V15 (F := Ideal) m ρ c (Pipeline.arrRef spec9 0)) = adj m ρ c :=
  funext fun a => funext fun b => congrFun (adj_at_W15 m ρ c) (ix2 a b)

/-- Its third window is the previous layer's output again. -/
theorem L5_fused_in (c : Dev nD) : mat2 (V15 (F := Ideal) m ρ c (Pipeline.arrRef spec9 2)) = feat4 m ρ c :=
  funext fun a => funext fun b => congrFun (L5_in_W15 m ρ c) (ix2 a b)

/-- Its fourth window is the layer's block of `V`: the product region does not hold that buffer. -/
theorem L5_fused_v (c : Dev nD) : mat2 (V15 (F := Ideal) m ρ c (Pipeline.arrRef spec9 3)) = argVk m c (3 : Fin 6) :=
  funext fun j => funext fun q =>
    (congrFun (W15_of_ne m ρ c main_call1_v47 (by decide)) (ix2 j q)).trans (L5_hostV m ρ c j q)

/-- Its fifth window is the layer's bias as one row. -/
theorem L5_fused_b (c : Dev nD) :
    (fun q => V15 (F := Ideal) m ρ c (Pipeline.arrRef spec9 4) (ix2 (0 : Fin 1) q)) = argBk m c (3 : Fin 6) :=
  funext fun q =>
    (congrFun (W15_of_ne m ρ c main_call1_v48 (by decide)) (ix2 (0 : Fin 1) q)).trans (L5_hostB m ρ c q)

/-! ## The layer -/

/-- The fused region's output is one dense layer applied to the previous layer's output. -/
theorem feat5_eq (c : Dev nD) :
    feat5 m ρ c = denseLayer (adj m ρ c) (feat4 m ρ c) (argWk m c (3 : Fin 6)) (argVk m c (3 : Fin 6)) (argBk m c (3 : Fin 6)) := by
  funext r q
  refine (congrFun (W16_arr m ρ c 5) (ix2 r q)).trans ?_
  refine (arr9 (V15 m ρ) c r q).trans ?_
  show fused (mat2 (V15 (F := Ideal) m ρ c (Pipeline.arrRef spec9 0))) (mat2 (V15 (F := Ideal) m ρ c (Pipeline.arrRef spec9 1)))
      (mat2 (V15 (F := Ideal) m ρ c (Pipeline.arrRef spec9 2))) (mat2 (V15 (F := Ideal) m ρ c (Pipeline.arrRef spec9 3)))
      (fun q => V15 (F := Ideal) m ρ c (Pipeline.arrRef spec9 4) (ix2 (0 : Fin 1) q)) r q = _
  rw [L5_fused_adj, L5_fused_prod, L5_fused_in, L5_fused_v, L5_fused_b]
  rfl

end Cert.KernelIdeal.Val

end
-- ==== Proof.RegM10.lean ====
/-
  The array that the product region 10 leaves: the region multiplies a [10240, 512] matrix, one block of 1024 rows
  at each of its ten grid points, by a whole [512, 512] matrix, and writes each [1024, 512] block of the product back.
  Entry (r, q) of the output array is therefore Σ_k lhs (r, k) · rhs (k, q), for every row r and column q: row r lies
  in the block of point r / 1024, and that point's body computes the block's entries as the same sums over the
  contraction index, read off the left operand's rows 1024 t … 1024 t + 1023 and the whole right operand.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.PureOps.Ideal.Laws
noncomputable section
namespace Cert.KernelIdeal.Val
open Idealize.ShloMosaic Idealize.ShloMosaic.TcCoe Idealize.SL.Sem Idealize.ShloMosaic.ValueIdx Cert.KernelIdeal Cert.KernelIdeal.Gen Cert.Spec

/-- The zero offsets of a whole-block access. -/
theorem mm10_hz : (![0, 0] : Fin 2 → Nat) = fun _ => 0 := funext fun a => by fin_cases a <;> rfl

/-! ## The body's product at an index -/

/-- The left operand's row coordinate at output index `i` is `i`'s row. -/
theorem mm10_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column coordinate is the contraction position. -/
theorem mm10_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row coordinate is the contraction position. -/
theorem mm10_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column coordinate at output index `i` is `i`'s column. -/
theorem mm10_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The body's stored value at (p, q): the casts between equal shapes and the change of float format are the identity
    on extended reals, and the product into a zero accumulator is the sum over the contraction index. -/
theorem mm10_pay_apply (x0 : FVec Ideal S1024x512 .bf16) (x1 : FVec Ideal S512x512 .bf16) (p : Fin 1024) (q : Fin 512) :
    k10_pay1 (F := Ideal) x0 x1 (ix2 p q) = ∑ k : Fin 512, x0 (ix2 p k) * x1 (ix2 k q) := by
  unfold k10_pay1
  simp only [shapeCast_self]
  show FloatOps.matmul dot_S1024x512_S512x512_S1024x512_1_0_0_1_n_n none x0 x1 (constant S1024x512 .f32 0x00000000#32) (ix2 p q) = _
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact mm10_lhs_0 _ _
    | ⟨1, _⟩ => exact (mm10_lhs_1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (mm10_rhs_0 _ _).trans hk
    | ⟨1, _⟩ => exact mm10_rhs_1 _ _)
  rw [el, er]

/-! ## The whole product, and each point's block of it -/

variable (V : (c : Dev nD) → (b : Ref sig .tc) → Buf (Elt Ideal) ((c : Thread nD τ).loc b))

/-- The whole product of the two arrays, index by index. -/
def mm10_prod (A : S10240x512.Idx → EReal) (B : S512x512.Idx → EReal) : S10240x512.Idx → EReal :=
  fun i => mm (mat2 A) (mat2 B) (i 0) (i 1)

/-- The block indices over the grid: the left operand's and the output's blocks move down the rows with the point, the
    right operand stays whole. -/
theorem mm10_idx : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- A block's entry (p, q) is the whole product's entry at `i` when the left block's row p is the left array's row
    `i 0` and the right block's column q is the right array's column `i 1`. -/
theorem mm10_point (A : S10240x512.Idx → EReal) (B : S512x512.Idx → EReal) (x0 : FVec Ideal S1024x512 .bf16) (x1 : FVec Ideal S512x512 .bf16)
    (p : Fin 1024) (q : Fin 512) (i : S10240x512.Idx)
    (hx0 : ∀ k : Fin 512, x0 (ix2 p k) = A (ix2 (i 0) k)) (hx1 : ∀ k : Fin 512, x1 (ix2 k q) = B (ix2 k (i 1))) :
    k10_pay1 (F := Ideal) x0 x1 (ix2 p q) = mm10_prod A B i := by
  rw [mm10_pay_apply]
  show _ = ∑ k : Fin 512, A (ix2 (i 0) k) * B (ix2 k (i 1))
  exact Finset.sum_congr rfl fun k _ => by rw [hx0 k, hx1 k]

/-- The left operand's block at point `t` holds rows 1024 t … 1024 t + 1023 of its array. -/
theorem mm10_blk_0 (c : Dev nD) (t : Fin cfg10.N) (p : Fin 1024) (k : Fin 512) (i : S10240x512.Idx)
    (h0 : (i 0).val = t.val * 1024 + p.val) (h1 : (i 1).val = k.val) :
    (iblk10 V c 0 t : FVec Ideal S1024x512 .bf16) (ix2 p k) = V c (Pipeline.arrRef spec10 0) i := by
  obtain ⟨e0, e1, -⟩ := mm10_idx t
  unfold iblk10
  rw [View.read_apply]
  show V c (Pipeline.arrRef spec10 0) (((cfg10.win 0).blk t).view.emb (ix2 p k)) = V c (Pipeline.arrRef spec10 0) i
  refine congrArg _ (funext fun a => Fin.ext ?_)
  match a with
  | ⟨0, _⟩ => show win10_0.index t (0 : Fin 2) * 1024 + 1 * p.val = (i 0).val; omega
  | ⟨1, _⟩ => show win10_0.index t (1 : Fin 2) * 512 + 1 * k.val = (i 1).val; omega

/-- The right operand's block at every point is its whole array. -/
theorem mm10_blk_1 (c : Dev nD) (t : Fin cfg10.N) (k : Fin 512) (q : Fin 512) (i : S512x512.Idx)
    (h0 : (i 0).val = k.val) (h1 : (i 1).val = q.val) :
    (iblk10 V c 1 t : FVec Ideal S512x512 .bf16) (ix2 k q) = V c (Pipeline.arrRef spec10 1) i := by
  obtain ⟨-, -, e2, e3, -⟩ := mm10_idx t
  unfold iblk10
  rw [View.read_apply]
  show V c (Pipeline.arrRef spec10 1) (((cfg10.win 1).blk t).view.emb (ix2 k q)) = V c (Pipeline.arrRef spec10 1) i
  refine congrArg _ (funext fun a => Fin.ext ?_)
  match a with
  | ⟨0, _⟩ => show win10_1.index t (0 : Fin 2) * 512 + 1 * k.val = (i 0).val; omega
  | ⟨1, _⟩ => show win10_1.index t (1 : Fin 2) * 512 + 1 * q.val = (i 1).val; omega

/-- Entry (p, q) of the output's block at point `t` sits at row 1024 t + p, column q of the output array. -/
theorem mm10_emb (t : Fin cfg10.N) (p : Fin 1024) (q : Fin 512) :
    ((((cfg10.win 2).blk t).view.emb (ix2 p q)) 0).val = t.val * 1024 + p.val
      ∧ ((((cfg10.win 2).blk t).view.emb (ix2 p q)) 1).val = q.val := by
  obtain ⟨-, -, -, -, e4, e5⟩ := mm10_idx t
  constructor
  · show win10_2.index t (0 : Fin 2) * 1024 + 1 * p.val = _; omega
  · show win10_2.index t (1 : Fin 2) * 512 + 1 * q.val = _; omega

/-- What point `t` writes back is block `t` of the whole product of the arrays as the region finds them. -/
theorem mm10_flushed_eq (c : Dev nD) (t : Fin cfg10.N) :
    (dat10 (F := Ideal) V c).flushed 2 t
      = ((cfg10.win 2).blk t).view.read (Elt Ideal) (mm10_prod (V c (Pipeline.arrRef spec10 0)) (V c (Pipeline.arrRef spec10 1))) := by
  show (cfg10.win 2).cut (grid10.coords t) ((dat10 V c).after 2 t) = _
  rw [after10_2]
  unfold out10_2
  rw [View.canon_unit_zero mm10_hz]
  simp only [View.ld_unit_zero (S := S1024x512) mm10_hz, View.ld_unit_zero (S := S512x512) mm10_hz]
  funext j
  obtain ⟨p, q, rfl⟩ : ∃ (p : Fin 1024) (q : Fin 512), j = ix2 p q := ⟨j 0, j 1, eq_ix2 j⟩
  show k10_pay1 (F := Ideal) (iblk10 V c 0 t) (iblk10 V c 1 t) (ix2 p q)
    = mm10_prod (V c (Pipeline.arrRef spec10 0)) (V c (Pipeline.arrRef spec10 1)) (((cfg10.win 2).blk t).view.emb (ix2 p q))
  exact mm10_point _ _ (iblk10 V c 0 t) (iblk10 V c 1 t) p q _
    (fun k => mm10_blk_0 V c t p k _ (mm10_emb t p q).1 rfl) (fun k => mm10_blk_1 V c t k q _ rfl (mm10_emb t p q).2)

/-! ## The blocks cover the array -/

/-- An index of the output array is in point `t`'s block iff each coordinate is in the block's range on its axis. -/
theorem mm10_mem_blk (t : Fin cfg10.N) (i : S10240x512.Idx) :
    i ∈ ((cfg10.win 2).blk t).view.set ↔ ∀ a : Fin 2, win10_2.index t a * S1024x512.size a ≤ (i a).val ∧ (i a).val < win10_2.index t a * S1024x512.size a + S1024x512.size a := by
  show i ∈ ((View.whole (Pipeline.arrRef spec10 2)).slice (win10_2.rect t)).set ↔ _
  rw [View.set_slice_whole, Rect.mem_set_unit]
  exact Iff.rfl

/-- Row r of the output array lies in the block of point r / 1024. -/
theorem mm10_cover (i : S10240x512.Idx) : ∃ t : Fin cfg10.N, (cfg10.win 2).flush t = true ∧ i ∈ ((cfg10.win 2).blk t).view.set := by
  have hi0 : (i 0).val < 10240 := (i 0).isLt
  have hi1 : (i 1).val < 512 := (i 1).isLt
  have hN : cfg10.N = 10 := N_10
  have ht : (i 0).val / 1024 < cfg10.N := by rw [hN]; omega
  refine ⟨⟨(i 0).val / 1024, ht⟩, flush10_2 _, ?_⟩
  rw [mm10_mem_blk]
  obtain ⟨-, -, -, -, e4, e5⟩ := mm10_idx ⟨(i 0).val / 1024, ht⟩
  intro a
  match a with
  | ⟨0, _⟩ =>
    show win10_2.index ⟨(i 0).val / 1024, ht⟩ (0 : Fin 2) * 1024 ≤ (i 0).val
      ∧ (i 0).val < win10_2.index ⟨(i 0).val / 1024, ht⟩ (0 : Fin 2) * 1024 + 1024
    rw [e4]
    show (i 0).val / 1024 * 1024 ≤ (i 0).val ∧ (i 0).val < (i 0).val / 1024 * 1024 + 1024
    omega
  | ⟨1, _⟩ =>
    show win10_2.index ⟨(i 0).val / 1024, ht⟩ (1 : Fin 2) * 512 ≤ (i 1).val
      ∧ (i 1).val < win10_2.index ⟨(i 0).val / 1024, ht⟩ (1 : Fin 2) * 512 + 512
    rw [e5]
    omega

/-! ## The output array after the region -/

/-- After the region the output array holds the product of the two input arrays as the region found them, entry by entry. -/
theorem arr10 (c : Dev nD) (r : Fin 10240) (q : Fin 512) :
    (dat10 (F := Ideal) V c).arrAt 2 cfg10.N (ix2 r q)
      = mm (mat2 (V c (Pipeline.arrRef spec10 0))) (mat2 (V c (Pipeline.arrRef spec10 1))) r q :=
  congrFun ((dat10 (F := Ideal) V c).arrAt_eq_of_cover 2
    (mm10_prod (V c (Pipeline.arrRef spec10 0)) (V c (Pipeline.arrRef spec10 1)))
    (fun t _ => mm10_flushed_eq V c t) mm10_cover) (ix2 r q)

end Cert.KernelIdeal.Val

end
-- ==== Proof.RegS11.lean ====
/-
  The fused region of a later layer: what its output array holds after the region, entry by entry.

  The grid has 20 points. Point `t` takes rows `512 t … 512 t + 511` of the adjacency `A` (10240 columns) and of the node
  features `H` (512 columns), and the whole of `M` (10240 × 512), of `V` (512 × 512) and of the bias row `b`; it stores
  `max (A_t M + H_t V + b) 0` into rows `512 t … 512 t + 511` of the output. On the extended reals each product is the exact
  sum over its inner index and the change of format is the identity, so entry `(512 t + p, q)` of what point `t` writes is
  `Spec.fused A M H V b (512 t + p) q`. The 20 row blocks cover the 10240 rows, so the output array is `Spec.fused` of the
  arrays the region finds, at every entry.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

/-! ## The two products of the fused step, entry by entry -/

theorem hz11 : (![0, 0] : Fin 2 → Nat) = fun _ => 0 := funext fun a => by fin_cases a <;> rfl

/-- The product with the adjacency block: the left operand is read at the output's row and the summed position, -/
theorem lhsA11_0 (i : S512x512.Idx) (q : dot_S512x10240_S10240x512_S512x512_1_0_0_1_n_n.contr.Idx) :
    (dot_S512x10240_S10240x512_S512x512_1_0_0_1_n_n.lhsIdx i q 0).val = (i 0).val := by
  unfold DotDims.lhsIdx
  rw [dif_neg (show ¬(0 : Fin S512x10240.rank) ∈ dot_S512x10240_S10240x512_S512x512_1_0_0_1_n_n.lhsBatch by decide), dif_pos (show (0 : Fin S512x10240.rank) ∈ dot_S512x10240_S10240x512_S512x512_1_0_0_1_n_n.lhsNonContracting by decide)]
  rfl
theorem lhsA11_1 (i : S512x512.Idx) (q : dot_S512x10240_S10240x512_S512x512_1_0_0_1_n_n.contr.Idx) :
    (dot_S512x10240_S10240x512_S512x512_1_0_0_1_n_n.lhsIdx i q 1).val = (q ⟨0, by decide⟩).val :=
  dot_S512x10240_S10240x512_S512x512_1_0_0_1_n_n.lhsIdx_val_of_single rfl i q
/-- the right operand at the summed position and the output's column. -/
theorem rhsA11_0 (i : S512x512.Idx) (q : dot_S512x10240_S10240x512_S512x512_1_0_0_1_n_n.contr.Idx) :
    (dot_S512x10240_S10240x512_S512x512_1_0_0_1_n_n.rhsIdx i q 0).val = (q ⟨0, by decide⟩).val :=
  dot_S512x10240_S10240x512_S512x512_1_0_0_1_n_n.rhsIdx_val_of_single rfl i q
theorem rhsA11_1 (i : S512x512.Idx) (q : dot_S512x10240_S10240x512_S512x512_1_0_0_1_n_n.contr.Idx) :
    (dot_S512x10240_S10240x512_S512x512_1_0_0_1_n_n.rhsIdx i q 1).val = (i 1).val := by
  unfold DotDims.rhsIdx
  rw [dif_neg (show ¬(1 : Fin S10240x512.rank) ∈ dot_S512x10240_S10240x512_S512x512_1_0_0_1_n_n.rhsBatch by decide), dif_pos (show (1 : Fin S10240x512.rank) ∈ dot_S512x10240_S10240x512_S512x512_1_0_0_1_n_n.rhsNonContracting by decide)]
  rfl

/-- A block of 512 rows of the adjacency against the whole of `M`, into a zero accumulator: entry `(p, q)` is the sum
    over the 10240 slots `k` of the row's weight at `k` times `M k q`. -/
theorem mmA11_apply (x : FVec Ideal S512x10240 .bf16) (y : FVec Ideal S10240x512 .bf16) (p q : Fin 512) :
    matmul dot_S512x10240_S10240x512_S512x512_1_0_0_1_n_n none x y (constant S512x512 .f32 0x00000000#32) (ix2 p q)
      = ∑ k : Fin 10240, x (ix2 p k) * y (ix2 k q) := by
  simp only [matmul]
  rw [Ideal.matmul_constant_zero_apply, ← Equiv.sum_comp (contrEquiv1 dot_S512x10240_S10240x512_S512x512_1_0_0_1_n_n 10240 rfl rfl).symm]
  refine Finset.sum_congr rfl fun k _ => ?_
  have hk := contrEquiv1_symm_val dot_S512x10240_S10240x512_S512x512_1_0_0_1_n_n 10240 rfl rfl k
  have el : dot_S512x10240_S10240x512_S512x512_1_0_0_1_n_n.lhsIdx (ix2 p q) ((contrEquiv1 dot_S512x10240_S10240x512_S512x512_1_0_0_1_n_n 10240 rfl rfl).symm k) = ix2 p k := funext fun a => Fin.ext (by
    match a with
    | ⟨0, _⟩ => exact lhsA11_0 _ _
    | ⟨1, _⟩ => exact (lhsA11_1 _ _).trans hk)
  have er : dot_S512x10240_S10240x512_S512x512_1_0_0_1_n_n.rhsIdx (ix2 p q) ((contrEquiv1 dot_S512x10240_S10240x512_S512x512_1_0_0_1_n_n 10240 rfl rfl).symm k) = ix2 k q := funext fun a => Fin.ext (by
    match a with
    | ⟨0, _⟩ => exact (rhsA11_0 _ _).trans hk
    | ⟨1, _⟩ => exact rhsA11_1 _ _)
  rw [el, er]

/-- The product of the block's own features with `V`: the same reading of the two operands. -/
theorem lhsB11_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhsB11_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhsB11_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhsB11_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A block of 512 rows of `H` against the whole of `V`, into a zero accumulator: entry `(p, q)` is the sum over the
    512 feature positions `k` of `H p k * V k q`. -/
theorem mmB11_apply (x : FVec Ideal S512x512 .bf16) (y : FVec Ideal S512x512 .bf16) (p q : Fin 512) :
    matmul dot_S512x512_S512x512_S512x512_1_0_0_1_n_n none x y (constant S512x512 .f32 0x00000000#32) (ix2 p q)
      = ∑ k : Fin 512, x (ix2 p k) * y (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhsB11_0 _ _
    | ⟨1, _⟩ => exact (lhsB11_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhsB11_0 _ _).trans hk
    | ⟨1, _⟩ => exact rhsB11_1 _ _)
  rw [el, er]

/-! ## The body's result at an entry of the block -/

/-- Entry `(p, q)` of what the body stores: the two products added, the bias of column `q` added, the maximum with zero
    taken; the change of format at the end is the identity on the extended reals. -/
theorem pay11_apply (xa : Vec Ideal S512x10240 .bf16) (xm : Vec Ideal S10240x512 .bf16) (xh : Vec Ideal S512x512 .bf16)
    (xv : Vec Ideal S512x512 .bf16) (xb : Vec Ideal S1x512 .f32) (p q : Fin 512) :
    k11_pay1 xa xm xh xv xb (ix2 p q)
      = max (((∑ k : Fin 10240, xa (ix2 p k) * xm (ix2 k q)) + ∑ k : Fin 512, xh (ix2 p k) * xv (ix2 k q)) + xb (ix2 (0 : Fin 1) q)) 0 := by
  unfold k11_pay1
  simp only [shapeCast_self]
  rw [truncf_apply, maximumf_apply, addf_apply, addf_apply, mmA11_apply, mmB11_apply, broadcast_apply,
    broadcastTo_apply xb broadcasts_S1x512_S512x512 (ix2 p q) (ix2 (0 : Fin 1) q) (fun a => by
      match a with
      | ⟨0, _⟩ => rfl
      | ⟨1, _⟩ => rfl)]
  show max _ (Ideal.ofBits .f32 0x00000000#32) = _
  rw [Ideal.ofBits_zero_f32]

/-! ## Which block of each array a point reads -/

variable (V : (c : Dev nD) → (b : Ref sig .tc) → Buf (Elt Ideal) ((c : Thread nD τ).loc b))

/-- Point `t` takes block `t` of the rows of the adjacency, of `H` and of the output, and the whole of `M`, of `V`
    and of the bias (decided over the 20 points). -/
theorem idx11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- Row `p` of the adjacency block at point `t` is row `512 t + p` of the adjacency. -/
theorem blk11_0 (c : Dev nD) (t : Fin cfg11.N) (p : Fin 512) (k : Fin 10240) (r : Fin 10240) (hr : r.val = t.val * 512 + p.val) :
    (iblk11 V c 0 t : Vec Ideal S512x10240 .bf16) (ix2 p k) = mat2 (V c (Pipeline.arrRef spec11 0)) r k := by
  obtain ⟨e0, e1, -⟩ := idx11 t
  unfold iblk11
  rw [View.read_apply]
  show V c (Pipeline.arrRef spec11 0) _ = V c (Pipeline.arrRef spec11 0) (ix2 r k)
  congr 1
  funext a; apply Fin.ext
  match a with
  | ⟨0, _⟩ => show win11_0.index t (0 : Fin 2) * 512 + 1 * p.val = r.val; omega
  | ⟨1, _⟩ => show win11_0.index t (1 : Fin 2) * 10240 + 1 * k.val = k.val; omega

/-- The block of `M` is all of `M`. -/
theorem blk11_1 (c : Dev nD) (t : Fin cfg11.N) (k : Fin 10240) (q : Fin 512) :
    (iblk11 V c 1 t : Vec Ideal S10240x512 .bf16) (ix2 k q) = mat2 (V c (Pipeline.arrRef spec11 1)) k q := by
  obtain ⟨-, -, e0, e1, -⟩ := idx11 t
  unfold iblk11
  rw [View.read_apply]
  show V c (Pipeline.arrRef spec11 1) _ = V c (Pipeline.arrRef spec11 1) (ix2 k q)
  congr 1
  funext a; apply Fin.ext
  match a with
  | ⟨0, _⟩ => show win11_1.index t (0 : Fin 2) * 10240 + 1 * k.val = k.val; omega
  | ⟨1, _⟩ => show win11_1.index t (1 : Fin 2) * 512 + 1 * q.val = q.val; omega

/-- Row `p` of the block of `H` at point `t` is row `512 t + p` of `H`. -/
theorem blk11_2 (c : Dev nD) (t : Fin cfg11.N) (p : Fin 512) (k : Fin 512) (r : Fin 10240) (hr : r.val = t.val * 512 + p.val) :
    (iblk11 V c 2 t : Vec Ideal S512x512 .bf16) (ix2 p k) = mat2 (V c (Pipeline.arrRef spec11 2)) r k := by
  obtain ⟨-, -, -, -, e0, e1, -⟩ := idx11 t
  unfold iblk11
  rw [View.read_apply]
  show V c (Pipeline.arrRef spec11 2) _ = V c (Pipeline.arrRef spec11 2) (ix2 r k)
  congr 1
  funext a; apply Fin.ext
  match a with
  | ⟨0, _⟩ => show win11_2.index t (0 : Fin 2) * 512 + 1 * p.val = r.val; omega
  | ⟨1, _⟩ => show win11_2.index t (1 : Fin 2) * 512 + 1 * k.val = k.val; omega

/-- The block of `V` is all of `V`. -/
theorem blk11_3 (c : Dev nD) (t : Fin cfg11.N) (k : Fin 512) (q : Fin 512) :
    (iblk11 V c 3 t : Vec Ideal S512x512 .bf16) (ix2 k q) = mat2 (V c (Pipeline.arrRef spec11 3)) k q := by
  obtain ⟨-, -, -, -, -, -, e0, e1, -⟩ := idx11 t
  unfold iblk11
  rw [View.read_apply]
  show V c (Pipeline.arrRef spec11 3) _ = V c (Pipeline.arrRef spec11 3) (ix2 k q)
  congr 1
  funext a; apply Fin.ext
  match a with
  | ⟨0, _⟩ => show win11_3.index t (0 : Fin 2) * 512 + 1 * k.val = k.val; omega
  | ⟨1, _⟩ => show win11_3.index t (1 : Fin 2) * 512 + 1 * q.val = q.val; omega

/-- The block of the bias is the whole bias row. -/
theorem blk11_4 (c : Dev nD) (t : Fin cfg11.N) (q : Fin 512) :
    (iblk11 V c 4 t : Vec Ideal S1x512 .f32) (ix2 (0 : Fin 1) q) = V c (Pipeline.arrRef spec11 4) (ix2 (0 : Fin 1) q) := by
  obtain ⟨-, -, -, -, -, -, -, -, e0, e1, -⟩ := idx11 t
  unfold iblk11
  rw [View.read_apply]
  show V c (Pipeline.arrRef spec11 4) _ = V c (Pipeline.arrRef spec11 4) (ix2 (0 : Fin 1) q)
  congr 1
  funext a; apply Fin.ext
  match a with
  | ⟨0, _⟩ => show win11_4.index t (0 : Fin 2) * 1 + 1 * (0 : Fin 1).val = (0 : Fin 1).val; omega
  | ⟨1, _⟩ => show win11_4.index t (1 : Fin 2) * 512 + 1 * q.val = q.val; omega

/-! ## What a point writes back, and the whole array -/

/-- Entry `(p, q)` of the body's result at point `t` is entry `(512 t + p, q)` of the fused step of the whole arrays:
    each block entry is read where the point's rectangle puts it, the sums term by term. -/
theorem point11 (c : Dev nD) (t : Fin cfg11.N) (p q : Fin 512) (r : Fin 10240) (hr : r.val = t.val * 512 + p.val) :
    k11_pay1 (iblk11 V c 0 t) (iblk11 V c 1 t) (iblk11 V c 2 t) (iblk11 V c 3 t) (iblk11 V c 4 t) (ix2 p q)
      = fused (mat2 (V c (Pipeline.arrRef spec11 0))) (mat2 (V c (Pipeline.arrRef spec11 1))) (mat2 (V c (Pipeline.arrRef spec11 2)))
        (mat2 (V c (Pipeline.arrRef spec11 3))) (fun q => V c (Pipeline.arrRef spec11 4) (ix2 (0 : Fin 1) q)) r q := by
  refine (pay11_apply (iblk11 V c 0 t) (iblk11 V c 1 t) (iblk11 V c 2 t) (iblk11 V c 3 t) (iblk11 V c 4 t) p q).trans ?_
  unfold fused mm
  refine congrArg (fun z => max z 0) ?_
  refine congrArg₂ (· + ·) (congrArg₂ (· + ·) (Finset.sum_congr rfl fun k _ => ?_) (Finset.sum_congr rfl fun k _ => ?_)) ?_
  · exact congrArg₂ (· * ·) (blk11_0 V c t p k r hr) (blk11_1 V c t k q)
  · exact congrArg₂ (· * ·) (blk11_2 V c t p k r hr) (blk11_3 V c t k q)
  · exact blk11_4 V c t q

/-- The output array as one function of the arrays the region finds: the fused step, entry by entry. -/
abbrev res11 (c : Dev nD) : S10240x512.Idx → EReal := fun i =>
  fused (mat2 (V c (Pipeline.arrRef spec11 0))) (mat2 (V c (Pipeline.arrRef spec11 1))) (mat2 (V c (Pipeline.arrRef spec11 2)))
        (mat2 (V c (Pipeline.arrRef spec11 3))) (fun q => V c (Pipeline.arrRef spec11 4) (ix2 (0 : Fin 1) q)) (i 0) (i 1)

/-- What point `t` writes back is block `t` of that function. -/
theorem flushed11_eq (c : Dev nD) (t : Fin cfg11.N) :
    (dat11 (F := Ideal) V c).flushed 5 t = ((cfg11.win 5).blk t).view.read (Elt Ideal) (res11 V c) := by
  show (cfg11.win 5).cut (grid11.coords t) ((dat11 V c).after 5 t) = _
  rw [after11_5]
  unfold out11_5
  rw [View.canon_unit_zero hz11]
  simp only [View.ld_unit_zero (S := S512x10240) hz11, View.ld_unit_zero (S := S10240x512) hz11, View.ld_unit_zero (S := S512x512) hz11, View.ld_unit_zero (S := S1x512) hz11]
  obtain ⟨-, -, -, -, -, -, -, -, -, -, e0, e1⟩ := idx11 t
  have hN : cfg11.N = 20 := N_11
  have ht : t.val < 20 := hN ▸ t.isLt
  funext j
  have hj0 : (j 0).val < 512 := (j 0).isLt
  have hj1 : (j 1).val < 512 := (j 1).isLt
  have hx : (cfg11.win 5).xinj (grid11.coords t) j = ix2 (⟨(j 0).val, hj0⟩ : Fin 512) (⟨(j 1).val, hj1⟩ : Fin 512) :=
    funext fun a => by
      match a with
      | ⟨0, _⟩ => rfl
      | ⟨1, _⟩ => rfl
  have hy : ((cfg11.win 5).blk t).view.emb j
      = ix2 (⟨t.val * 512 + (j 0).val, by omega⟩ : Fin 10240) (⟨(j 1).val, hj1⟩ : Fin 512) := by
    funext a; apply Fin.ext
    match a with
    | ⟨0, _⟩ => show win11_5.index t (0 : Fin 2) * 512 + 1 * (j 0).val = t.val * 512 + (j 0).val; omega
    | ⟨1, _⟩ => show win11_5.index t (1 : Fin 2) * 512 + 1 * (j 1).val = (j 1).val; omega
  show k11_pay1 (iblk11 V c 0 t) (iblk11 V c 1 t) (iblk11 V c 2 t) (iblk11 V c 3 t) (iblk11 V c 4 t) ((cfg11.win 5).xinj (grid11.coords t) j)
    = res11 V c (((cfg11.win 5).blk t).view.emb j)
  rw [hx, hy]
  exact point11 V c t _ _ _ rfl

/-- An entry of the array is in point `t`'s block when each coordinate is in the block's range on its axis. -/
theorem mem_blk11 (t : Fin cfg11.N) (i : S10240x512.Idx) :
    i ∈ ((cfg11.win 5).blk t).view.set ↔ ∀ a : Fin 2, win11_5.index t a * S512x512.size a ≤ (i a).val ∧ (i a).val < win11_5.index t a * S512x512.size a + S512x512.size a := by
  show i ∈ ((View.whole (Pipeline.arrRef spec11 5)).slice (win11_5.rect t)).set ↔ _
  rw [View.set_slice_whole, Rect.mem_set_unit]
  exact Iff.rfl

/-- Row `r` lies in the block of point `r / 512`: the 20 blocks of 512 rows cover the 10240 rows. -/
theorem cover11 (i : S10240x512.Idx) : ∃ t : Fin cfg11.N, (cfg11.win 5).flush t = true ∧ i ∈ ((cfg11.win 5).blk t).view.set := by
  have hi0 : (i 0).val < 10240 := (i 0).isLt
  have hi1 : (i 1).val < 512 := (i 1).isLt
  have hN : cfg11.N = 20 := N_11
  have hlt : (i 0).val / 512 < cfg11.N := by rw [hN]; omega
  obtain ⟨-, -, -, -, -, -, -, -, -, -, e0, e1⟩ := idx11 ⟨(i 0).val / 512, hlt⟩
  refine ⟨⟨(i 0).val / 512, hlt⟩, flush11_5 _, ?_⟩
  rw [mem_blk11]
  intro a
  match a with
  | ⟨0, _⟩ =>
    show win11_5.index ⟨(i 0).val / 512, hlt⟩ (0 : Fin 2) * 512 ≤ (i 0).val ∧ (i 0).val < win11_5.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win11_5.index ⟨(i 0).val / 512, hlt⟩ (1 : Fin 2) * 512 ≤ (i 1).val ∧ (i 1).val < win11_5.index ⟨(i 0).val / 512, hlt⟩ (1 : Fin 2) * 512 + 512
    rw [e1]; omega

/-- After the region the output array holds the fused step of the arrays the region found, at every entry. -/
theorem arr11 (c : Dev nD) (r : Fin 10240) (q : Fin 512) :
    (dat11 (F := Ideal) V c).arrAt 5 cfg11.N (ix2 r q)
      = fused (mat2 (V c (Pipeline.arrRef spec11 0))) (mat2 (V c (Pipeline.arrRef spec11 1))) (mat2 (V c (Pipeline.arrRef spec11 2)))
        (mat2 (V c (Pipeline.arrRef spec11 3))) (fun q => V c (Pipeline.arrRef spec11 4) (ix2 (0 : Fin 1) q)) r q :=
  congrFun ((dat11 (F := Ideal) V c).arrAt_eq_of_cover 5 (res11 V c) (fun t _ => flushed11_eq V c t) cover11) (ix2 r q)

end Cert.KernelIdeal.Val

end
-- ==== Proof.KLayer6.lean ====
/-
  One hidden layer of the kernel program as mathematics: the fused region's output on the padded node set is
  `relu (A (H W) + H V + b)`, with `A` the dense adjacency the host built, `H` the previous layer's output and
  `W`, `V`, `b` the layer's blocks of the stacked arguments.

  The host stretch before the layer cuts the blocks out; the product region forms `H W`; the fused region reads the
  adjacency, that product, `H` again, `V` and `b`.  Each input window of the fused region is followed back to the
  boundary where its contents were made, and identified there.
-/
import proofs.«418437_j77618648973637_3_alg».proof.Proof.Gen.KernelIdeal.Frame
import proofs.«418437_j77618648973637_3_alg».proof.Proof.Spec
import proofs.«418437_j77618648973637_3_alg».proof.Proof.KDefs
import proofs.«418437_j77618648973637_3_alg».proof.Proof.KWalk
import proofs.«418437_j77618648973637_3_alg».proof.Proof.RegM10
import proofs.«418437_j77618648973637_3_alg».proof.Proof.RegS11
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

variable (m : (ℓ : Loc nD τ sig) → Buf (Elt Ideal) ℓ) (ρ : Dev nD → PrngReg)

/-! ## What the host stretch before the layer leaves

The stretch cuts block `(4 : Fin 6)` out of the stacked weights and biases, drops the unit axis, and rounds to the
kernel's format, which at exact arithmetic changes nothing: each buffer read at an entry is the argument's entry in
that block. -/

theorem L6_hostW (c : Dev nD) (j q : Fin 512) :
    W17 (F := Ideal) m ρ c (Proc.devRef .tc main_call1_v57) (ix2 j q) = argWk m c (4 : Fin 6) j q := by
  show StableHlo.after hostOps10 _ (Proc.devRef .tc main_call1_v57) (ix2 j q) = _
  after_results
  refine (shapeCast_1ab_ab_apply (extractStridedSlice S1x512x512 _ (W16 (F := Ideal) m ρ c (Proc.devRef .tc main_arg6)) slices_S6x512x512_S1x512x512_4_0_0) _ j q).trans ?_
  refine (extractStridedSlice_apply _ _ _ _ (ix3 (4 : Fin 6) j q) (fun a => ?_)).trans
    (congrFun (arg6_at_W16 m ρ c) (ix3 (4 : Fin 6) j q))
  match a with
  | ⟨0, _⟩ => rfl
  | ⟨1, _⟩ => exact (Nat.zero_add _).symm
  | ⟨2, _⟩ => exact (Nat.zero_add _).symm

theorem L6_hostV (c : Dev nD) (j q : Fin 512) :
    W17 (F := Ideal) m ρ c (Proc.devRef .tc main_call1_v58) (ix2 j q) = argVk m c (4 : Fin 6) j q := by
  show StableHlo.after hostOps10 _ (Proc.devRef .tc main_call1_v58) (ix2 j q) = _
  after_results
  refine (shapeCast_1ab_ab_apply (extractStridedSlice S1x512x512 _ (W16 (F := Ideal) m ρ c (Proc.devRef .tc main_arg7)) slices_S6x512x512_S1x512x512_4_0_0) _ j q).trans ?_
  refine (extractStridedSlice_apply _ _ _ _ (ix3 (4 : Fin 6) j q) (fun a => ?_)).trans
    (congrFun (arg7_at_W16 m ρ c) (ix3 (4 : Fin 6) j q))
  match a with
  | ⟨0, _⟩ => rfl
  | ⟨1, _⟩ => exact (Nat.zero_add _).symm
  | ⟨2, _⟩ => exact (Nat.zero_add _).symm

theorem L6_hostB (c : Dev nD) (q : Fin 512) :
    W17 (F := Ideal) m ρ c (Proc.devRef .tc main_call1_v59) (ix2 (0 : Fin 1) q) = argBk m c (4 : Fin 6) q := by
  show StableHlo.after hostOps10 _ (Proc.devRef .tc main_call1_v59) (ix2 (0 : Fin 1) q) = _
  after_results
  refine (shapeCast_a_1a_apply (shapeCast S512 (extractStridedSlice S1x512 _ (W16 (F := Ideal) m ρ c (Proc.devRef .tc main_arg8)) slices_S6x512_S1x512_4_0) shapeCasts_S1x512_S512) _ (0 : Fin 1) q).trans ?_
  refine (shapeCast_1a_a_apply (extractStridedSlice S1x512 _ (W16 (F := Ideal) m ρ c (Proc.devRef .tc main_arg8)) slices_S6x512_S1x512_4_0) _ q).trans ?_
  refine (extractStridedSlice_apply _ _ _ _ (ix2 (4 : Fin 6) q) (fun a => ?_)).trans
    (congrFun (arg8_at_W16 m ρ c) (ix2 (4 : Fin 6) q))
  match a with
  | ⟨0, _⟩ => rfl
  | ⟨1, _⟩ => exact (Nat.zero_add _).symm

/-! ## The layer's input through the host stretch and the product region

No operation of the host stretch writes the previous layer's output, and the product region holds it as an input
window, whose array a region leaves as it found it. -/

theorem L6_in_W17 (c : Dev nD) :
    W17 (F := Ideal) m ρ c (Proc.devRef .tc main_call1_v50) = W16 m ρ c (Proc.devRef .tc main_call1_v50) := by
  walk_keeps hostOps10

theorem L6_in_W18 (c : Dev nD) :
    W18 (F := Ideal) m ρ c (Proc.devRef .tc main_call1_v50) = W16 m ρ c (Proc.devRef .tc main_call1_v50) :=
  calc W18 (F := Ideal) m ρ c (Proc.devRef .tc main_call1_v50)
    _ = (dat10 (V17 m ρ) c).arrAt 0 cfg10.N := W18_arr m ρ c 0
    _ = (dat10 (V17 m ρ) c).A 0 := (dat10 (V17 m ρ) c).arrAt_in 0 rfl cfg10.N
    _ = W17 m ρ c (Proc.devRef .tc main_call1_v50) := A_eq10 (V17 m ρ) c 0
    _ = W16 m ρ c (Proc.devRef .tc main_call1_v50) := L6_in_W17 m ρ c

/-! ## The two regions' input windows as the named matrices -/

/-- The product region multiplies the previous layer's output … -/
theorem L6_prod_in (c : Dev nD) : mat2 (V17 (F := Ideal) m ρ c (Pipeline.arrRef spec10 0)) = feat5 m ρ c :=
  funext fun a => funext fun b => congrFun (L6_in_W17 m ρ c) (ix2 a b)

/-- … by the layer's block of `W`. -/
theorem L6_prod_w (c : Dev nD) : mat2 (V17 (F := Ideal) m ρ c (Pipeline.arrRef spec10 1)) = argWk m c (4 : Fin 6) :=
  funext fun j => funext fun q => L6_hostW m ρ c j q

/-- The fused region's second window is the product region's output: the product of the two. -/
theorem L6_fused_prod (c : Dev nD) :
    mat2 (V18 (F := Ideal) m ρ c (Pipeline.arrRef spec11 1)) = mm (feat5 m ρ c) (argWk m c (4 : Fin 6)) := by
  funext a b
  refine (congrFun (W18_arr m ρ c 2) (ix2 a b)).trans ?_
  refine (arr10 (V17 m ρ) c a b).trans ?_
  show mm (mat2 (V17 (F := Ideal) m ρ c (Pipeline.arrRef spec10 0))) (mat2 (V17 (F := Ideal) m ρ c (Pipeline.arrRef spec10 1))) a b = _
  rw [L6_prod_in, L6_prod_w]

/-- Its first window is the adjacency. -/
theorem L6_fused_adj (c : Dev nD) : mat2 (V18 (F := Ideal) m ρ c (Pipeline.arrRef spec11 0)) = adj m ρ c :=
  funext fun a => funext fun b => congrFun (adj_at_W18 m ρ c) (ix2 a b)

/-- Its third window is the previous layer's output again. -/
theorem L6_fused_in (c : Dev nD) : mat2 (V18 (F := Ideal) m ρ c (Pipeline.arrRef spec11 2)) = feat5 m ρ c :=
  funext fun a => funext fun b => congrFun (L6_in_W18 m ρ c) (ix2 a b)

/-- Its fourth window is the layer's block of `V`: the product region does not hold that buffer. -/
theorem L6_fused_v (c : Dev nD) : mat2 (V18 (F := Ideal) m ρ c (Pipeline.arrRef spec11 3)) = argVk m c (4 : Fin 6) :=
  funext fun j => funext fun q =>
    (congrFun (W18_of_ne m ρ c main_call1_v58 (by decide)) (ix2 j q)).trans (L6_hostV m ρ c j q)

/-- Its fifth window is the layer's bias as one row. -/
theorem L6_fused_b (c : Dev nD) :
    (fun q => V18 (F := Ideal) m ρ c (Pipeline.arrRef spec11 4) (ix2 (0 : Fin 1) q)) = argBk m c (4 : Fin 6) :=
  funext fun q =>
    (congrFun (W18_of_ne m ρ c main_call1_v59 (by decide)) (ix2 (0 : Fin 1) q)).trans (L6_hostB m ρ c q)

/-! ## The layer -/

/-- The fused region's output is one dense layer applied to the previous layer's output. -/
theorem feat6_eq (c : Dev nD) :
    feat6 m ρ c = denseLayer (adj m ρ c) (feat5 m ρ c) (argWk m c (4 : Fin 6)) (argVk m c (4 : Fin 6)) (argBk m c (4 : Fin 6)) := by
  funext r q
  refine (congrFun (W19_arr m ρ c 5) (ix2 r q)).trans ?_
  refine (arr11 (V18 m ρ) c r q).trans ?_
  show fused (mat2 (V18 (F := Ideal) m ρ c (Pipeline.arrRef spec11 0))) (mat2 (V18 (F := Ideal) m ρ c (Pipeline.arrRef spec11 1)))
      (mat2 (V18 (F := Ideal) m ρ c (Pipeline.arrRef spec11 2))) (mat2 (V18 (F := Ideal) m ρ c (Pipeline.arrRef spec11 3)))
      (fun q => V18 (F := Ideal) m ρ c (Pipeline.arrRef spec11 4) (ix2 (0 : Fin 1) q)) r q = _
  rw [L6_fused_adj, L6_fused_prod, L6_fused_in, L6_fused_v, L6_fused_b]
  rfl

end Cert.KernelIdeal.Val

end
-- ==== Proof.RegM12.lean ====
/-
  The array that the product region 12 leaves: the region multiplies a [10240, 512] matrix, one block of 1024 rows
  at each of its ten grid points, by a whole [512, 512] matrix, and writes each [1024, 512] block of the product back.
  Entry (r, q) of the output array is therefore Σ_k lhs (r, k) · rhs (k, q), for every row r and column q: row r lies
  in the block of point r / 1024, and that point's body computes the block's entries as the same sums over the
  contraction index, read off the left operand's rows 1024 t … 1024 t + 1023 and the whole right operand.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.PureOps.Ideal.Laws
noncomputable section
namespace Cert.KernelIdeal.Val
open Idealize.ShloMosaic Idealize.ShloMosaic.TcCoe Idealize.SL.Sem Idealize.ShloMosaic.ValueIdx Cert.KernelIdeal Cert.KernelIdeal.Gen Cert.Spec

/-- The zero offsets of a whole-block access. -/
theorem mm12_hz : (![0, 0] : Fin 2 → Nat) = fun _ => 0 := funext fun a => by fin_cases a <;> rfl

/-! ## The body's product at an index -/

/-- The left operand's row coordinate at output index `i` is `i`'s row. -/
theorem mm12_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column coordinate is the contraction position. -/
theorem mm12_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row coordinate is the contraction position. -/
theorem mm12_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column coordinate at output index `i` is `i`'s column. -/
theorem mm12_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The body's stored value at (p, q): the casts between equal shapes and the change of float format are the identity
    on extended reals, and the product into a zero accumulator is the sum over the contraction index. -/
theorem mm12_pay_apply (x0 : FVec Ideal S1024x512 .bf16) (x1 : FVec Ideal S512x512 .bf16) (p : Fin 1024) (q : Fin 512) :
    k12_pay1 (F := Ideal) x0 x1 (ix2 p q) = ∑ k : Fin 512, x0 (ix2 p k) * x1 (ix2 k q) := by
  unfold k12_pay1
  simp only [shapeCast_self]
  show FloatOps.matmul dot_S1024x512_S512x512_S1024x512_1_0_0_1_n_n none x0 x1 (constant S1024x512 .f32 0x00000000#32) (ix2 p q) = _
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact mm12_lhs_0 _ _
    | ⟨1, _⟩ => exact (mm12_lhs_1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (mm12_rhs_0 _ _).trans hk
    | ⟨1, _⟩ => exact mm12_rhs_1 _ _)
  rw [el, er]

/-! ## The whole product, and each point's block of it -/

variable (V : (c : Dev nD) → (b : Ref sig .tc) → Buf (Elt Ideal) ((c : Thread nD τ).loc b))

/-- The whole product of the two arrays, index by index. -/
def mm12_prod (A : S10240x512.Idx → EReal) (B : S512x512.Idx → EReal) : S10240x512.Idx → EReal :=
  fun i => mm (mat2 A) (mat2 B) (i 0) (i 1)

/-- The block indices over the grid: the left operand's and the output's blocks move down the rows with the point, the
    right operand stays whole. -/
theorem mm12_idx : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

/-- A block's entry (p, q) is the whole product's entry at `i` when the left block's row p is the left array's row
    `i 0` and the right block's column q is the right array's column `i 1`. -/
theorem mm12_point (A : S10240x512.Idx → EReal) (B : S512x512.Idx → EReal) (x0 : FVec Ideal S1024x512 .bf16) (x1 : FVec Ideal S512x512 .bf16)
    (p : Fin 1024) (q : Fin 512) (i : S10240x512.Idx)
    (hx0 : ∀ k : Fin 512, x0 (ix2 p k) = A (ix2 (i 0) k)) (hx1 : ∀ k : Fin 512, x1 (ix2 k q) = B (ix2 k (i 1))) :
    k12_pay1 (F := Ideal) x0 x1 (ix2 p q) = mm12_prod A B i := by
  rw [mm12_pay_apply]
  show _ = ∑ k : Fin 512, A (ix2 (i 0) k) * B (ix2 k (i 1))
  exact Finset.sum_congr rfl fun k _ => by rw [hx0 k, hx1 k]

/-- The left operand's block at point `t` holds rows 1024 t … 1024 t + 1023 of its array. -/
theorem mm12_blk_0 (c : Dev nD) (t : Fin cfg12.N) (p : Fin 1024) (k : Fin 512) (i : S10240x512.Idx)
    (h0 : (i 0).val = t.val * 1024 + p.val) (h1 : (i 1).val = k.val) :
    (iblk12 V c 0 t : FVec Ideal S1024x512 .bf16) (ix2 p k) = V c (Pipeline.arrRef spec12 0) i := by
  obtain ⟨e0, e1, -⟩ := mm12_idx t
  unfold iblk12
  rw [View.read_apply]
  show V c (Pipeline.arrRef spec12 0) (((cfg12.win 0).blk t).view.emb (ix2 p k)) = V c (Pipeline.arrRef spec12 0) i
  refine congrArg _ (funext fun a => Fin.ext ?_)
  match a with
  | ⟨0, _⟩ => show win12_0.index t (0 : Fin 2) * 1024 + 1 * p.val = (i 0).val; omega
  | ⟨1, _⟩ => show win12_0.index t (1 : Fin 2) * 512 + 1 * k.val = (i 1).val; omega

/-- The right operand's block at every point is its whole array. -/
theorem mm12_blk_1 (c : Dev nD) (t : Fin cfg12.N) (k : Fin 512) (q : Fin 512) (i : S512x512.Idx)
    (h0 : (i 0).val = k.val) (h1 : (i 1).val = q.val) :
    (iblk12 V c 1 t : FVec Ideal S512x512 .bf16) (ix2 k q) = V c (Pipeline.arrRef spec12 1) i := by
  obtain ⟨-, -, e2, e3, -⟩ := mm12_idx t
  unfold iblk12
  rw [View.read_apply]
  show V c (Pipeline.arrRef spec12 1) (((cfg12.win 1).blk t).view.emb (ix2 k q)) = V c (Pipeline.arrRef spec12 1) i
  refine congrArg _ (funext fun a => Fin.ext ?_)
  match a with
  | ⟨0, _⟩ => show win12_1.index t (0 : Fin 2) * 512 + 1 * k.val = (i 0).val; omega
  | ⟨1, _⟩ => show win12_1.index t (1 : Fin 2) * 512 + 1 * q.val = (i 1).val; omega

/-- Entry (p, q) of the output's block at point `t` sits at row 1024 t + p, column q of the output array. -/
theorem mm12_emb (t : Fin cfg12.N) (p : Fin 1024) (q : Fin 512) :
    ((((cfg12.win 2).blk t).view.emb (ix2 p q)) 0).val = t.val * 1024 + p.val
      ∧ ((((cfg12.win 2).blk t).view.emb (ix2 p q)) 1).val = q.val := by
  obtain ⟨-, -, -, -, e4, e5⟩ := mm12_idx t
  constructor
  · show win12_2.index t (0 : Fin 2) * 1024 + 1 * p.val = _; omega
  · show win12_2.index t (1 : Fin 2) * 512 + 1 * q.val = _; omega

/-- What point `t` writes back is block `t` of the whole product of the arrays as the region finds them. -/
theorem mm12_flushed_eq (c : Dev nD) (t : Fin cfg12.N) :
    (dat12 (F := Ideal) V c).flushed 2 t
      = ((cfg12.win 2).blk t).view.read (Elt Ideal) (mm12_prod (V c (Pipeline.arrRef spec12 0)) (V c (Pipeline.arrRef spec12 1))) := by
  show (cfg12.win 2).cut (grid12.coords t) ((dat12 V c).after 2 t) = _
  rw [after12_2]
  unfold out12_2
  rw [View.canon_unit_zero mm12_hz]
  simp only [View.ld_unit_zero (S := S1024x512) mm12_hz, View.ld_unit_zero (S := S512x512) mm12_hz]
  funext j
  obtain ⟨p, q, rfl⟩ : ∃ (p : Fin 1024) (q : Fin 512), j = ix2 p q := ⟨j 0, j 1, eq_ix2 j⟩
  show k12_pay1 (F := Ideal) (iblk12 V c 0 t) (iblk12 V c 1 t) (ix2 p q)
    = mm12_prod (V c (Pipeline.arrRef spec12 0)) (V c (Pipeline.arrRef spec12 1)) (((cfg12.win 2).blk t).view.emb (ix2 p q))
  exact mm12_point _ _ (iblk12 V c 0 t) (iblk12 V c 1 t) p q _
    (fun k => mm12_blk_0 V c t p k _ (mm12_emb t p q).1 rfl) (fun k => mm12_blk_1 V c t k q _ rfl (mm12_emb t p q).2)

/-! ## The blocks cover the array -/

/-- An index of the output array is in point `t`'s block iff each coordinate is in the block's range on its axis. -/
theorem mm12_mem_blk (t : Fin cfg12.N) (i : S10240x512.Idx) :
    i ∈ ((cfg12.win 2).blk t).view.set ↔ ∀ a : Fin 2, win12_2.index t a * S1024x512.size a ≤ (i a).val ∧ (i a).val < win12_2.index t a * S1024x512.size a + S1024x512.size a := by
  show i ∈ ((View.whole (Pipeline.arrRef spec12 2)).slice (win12_2.rect t)).set ↔ _
  rw [View.set_slice_whole, Rect.mem_set_unit]
  exact Iff.rfl

/-- Row r of the output array lies in the block of point r / 1024. -/
theorem mm12_cover (i : S10240x512.Idx) : ∃ t : Fin cfg12.N, (cfg12.win 2).flush t = true ∧ i ∈ ((cfg12.win 2).blk t).view.set := by
  have hi0 : (i 0).val < 10240 := (i 0).isLt
  have hi1 : (i 1).val < 512 := (i 1).isLt
  have hN : cfg12.N = 10 := N_12
  have ht : (i 0).val / 1024 < cfg12.N := by rw [hN]; omega
  refine ⟨⟨(i 0).val / 1024, ht⟩, flush12_2 _, ?_⟩
  rw [mm12_mem_blk]
  obtain ⟨-, -, -, -, e4, e5⟩ := mm12_idx ⟨(i 0).val / 1024, ht⟩
  intro a
  match a with
  | ⟨0, _⟩ =>
    show win12_2.index ⟨(i 0).val / 1024, ht⟩ (0 : Fin 2) * 1024 ≤ (i 0).val
      ∧ (i 0).val < win12_2.index ⟨(i 0).val / 1024, ht⟩ (0 : Fin 2) * 1024 + 1024
    rw [e4]
    show (i 0).val / 1024 * 1024 ≤ (i 0).val ∧ (i 0).val < (i 0).val / 1024 * 1024 + 1024
    omega
  | ⟨1, _⟩ =>
    show win12_2.index ⟨(i 0).val / 1024, ht⟩ (1 : Fin 2) * 512 ≤ (i 1).val
      ∧ (i 1).val < win12_2.index ⟨(i 0).val / 1024, ht⟩ (1 : Fin 2) * 512 + 512
    rw [e5]
    omega

/-! ## The output array after the region -/

/-- After the region the output array holds the product of the two input arrays as the region found them, entry by entry. -/
theorem arr12 (c : Dev nD) (r : Fin 10240) (q : Fin 512) :
    (dat12 (F := Ideal) V c).arrAt 2 cfg12.N (ix2 r q)
      = mm (mat2 (V c (Pipeline.arrRef spec12 0))) (mat2 (V c (Pipeline.arrRef spec12 1))) r q :=
  congrFun ((dat12 (F := Ideal) V c).arrAt_eq_of_cover 2
    (mm12_prod (V c (Pipeline.arrRef spec12 0)) (V c (Pipeline.arrRef spec12 1)))
    (fun t _ => mm12_flushed_eq V c t) mm12_cover) (ix2 r q)

end Cert.KernelIdeal.Val

end
-- ==== Proof.RegS13.lean ====
/-
  The fused region of a later layer: what its output array holds after the region, entry by entry.

  The grid has 20 points. Point `t` takes rows `512 t … 512 t + 511` of the adjacency `A` (10240 columns) and of the node
  features `H` (512 columns), and the whole of `M` (10240 × 512), of `V` (512 × 512) and of the bias row `b`; it stores
  `max (A_t M + H_t V + b) 0` into rows `512 t … 512 t + 511` of the output. On the extended reals each product is the exact
  sum over its inner index and the change of format is the identity, so entry `(512 t + p, q)` of what point `t` writes is
  `Spec.fused A M H V b (512 t + p) q`. The 20 row blocks cover the 10240 rows, so the output array is `Spec.fused` of the
  arrays the region finds, at every entry.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

/-! ## The two products of the fused step, entry by entry -/

theorem hz13 : (![0, 0] : Fin 2 → Nat) = fun _ => 0 := funext fun a => by fin_cases a <;> rfl

/-- The product with the adjacency block: the left operand is read at the output's row and the summed position, -/
theorem lhsA13_0 (i : S512x512.Idx) (q : dot_S512x10240_S10240x512_S512x512_1_0_0_1_n_n.contr.Idx) :
    (dot_S512x10240_S10240x512_S512x512_1_0_0_1_n_n.lhsIdx i q 0).val = (i 0).val := by
  unfold DotDims.lhsIdx
  rw [dif_neg (show ¬(0 : Fin S512x10240.rank) ∈ dot_S512x10240_S10240x512_S512x512_1_0_0_1_n_n.lhsBatch by decide), dif_pos (show (0 : Fin S512x10240.rank) ∈ dot_S512x10240_S10240x512_S512x512_1_0_0_1_n_n.lhsNonContracting by decide)]
  rfl
theorem lhsA13_1 (i : S512x512.Idx) (q : dot_S512x10240_S10240x512_S512x512_1_0_0_1_n_n.contr.Idx) :
    (dot_S512x10240_S10240x512_S512x512_1_0_0_1_n_n.lhsIdx i q 1).val = (q ⟨0, by decide⟩).val :=
  dot_S512x10240_S10240x512_S512x512_1_0_0_1_n_n.lhsIdx_val_of_single rfl i q
/-- the right operand at the summed position and the output's column. -/
theorem rhsA13_0 (i : S512x512.Idx) (q : dot_S512x10240_S10240x512_S512x512_1_0_0_1_n_n.contr.Idx) :
    (dot_S512x10240_S10240x512_S512x512_1_0_0_1_n_n.rhsIdx i q 0).val = (q ⟨0, by decide⟩).val :=
  dot_S512x10240_S10240x512_S512x512_1_0_0_1_n_n.rhsIdx_val_of_single rfl i q
theorem rhsA13_1 (i : S512x512.Idx) (q : dot_S512x10240_S10240x512_S512x512_1_0_0_1_n_n.contr.Idx) :
    (dot_S512x10240_S10240x512_S512x512_1_0_0_1_n_n.rhsIdx i q 1).val = (i 1).val := by
  unfold DotDims.rhsIdx
  rw [dif_neg (show ¬(1 : Fin S10240x512.rank) ∈ dot_S512x10240_S10240x512_S512x512_1_0_0_1_n_n.rhsBatch by decide), dif_pos (show (1 : Fin S10240x512.rank) ∈ dot_S512x10240_S10240x512_S512x512_1_0_0_1_n_n.rhsNonContracting by decide)]
  rfl

/-- A block of 512 rows of the adjacency against the whole of `M`, into a zero accumulator: entry `(p, q)` is the sum
    over the 10240 slots `k` of the row's weight at `k` times `M k q`. -/
theorem mmA13_apply (x : FVec Ideal S512x10240 .bf16) (y : FVec Ideal S10240x512 .bf16) (p q : Fin 512) :
    matmul dot_S512x10240_S10240x512_S512x512_1_0_0_1_n_n none x y (constant S512x512 .f32 0x00000000#32) (ix2 p q)
      = ∑ k : Fin 10240, x (ix2 p k) * y (ix2 k q) := by
  simp only [matmul]
  rw [Ideal.matmul_constant_zero_apply, ← Equiv.sum_comp (contrEquiv1 dot_S512x10240_S10240x512_S512x512_1_0_0_1_n_n 10240 rfl rfl).symm]
  refine Finset.sum_congr rfl fun k _ => ?_
  have hk := contrEquiv1_symm_val dot_S512x10240_S10240x512_S512x512_1_0_0_1_n_n 10240 rfl rfl k
  have el : dot_S512x10240_S10240x512_S512x512_1_0_0_1_n_n.lhsIdx (ix2 p q) ((contrEquiv1 dot_S512x10240_S10240x512_S512x512_1_0_0_1_n_n 10240 rfl rfl).symm k) = ix2 p k := funext fun a => Fin.ext (by
    match a with
    | ⟨0, _⟩ => exact lhsA13_0 _ _
    | ⟨1, _⟩ => exact (lhsA13_1 _ _).trans hk)
  have er : dot_S512x10240_S10240x512_S512x512_1_0_0_1_n_n.rhsIdx (ix2 p q) ((contrEquiv1 dot_S512x10240_S10240x512_S512x512_1_0_0_1_n_n 10240 rfl rfl).symm k) = ix2 k q := funext fun a => Fin.ext (by
    match a with
    | ⟨0, _⟩ => exact (rhsA13_0 _ _).trans hk
    | ⟨1, _⟩ => exact rhsA13_1 _ _)
  rw [el, er]

/-- The product of the block's own features with `V`: the same reading of the two operands. -/
theorem lhsB13_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhsB13_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhsB13_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhsB13_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A block of 512 rows of `H` against the whole of `V`, into a zero accumulator: entry `(p, q)` is the sum over the
    512 feature positions `k` of `H p k * V k q`. -/
theorem mmB13_apply (x : FVec Ideal S512x512 .bf16) (y : FVec Ideal S512x512 .bf16) (p q : Fin 512) :
    matmul dot_S512x512_S512x512_S512x512_1_0_0_1_n_n none x y (constant S512x512 .f32 0x00000000#32) (ix2 p q)
      = ∑ k : Fin 512, x (ix2 p k) * y (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhsB13_0 _ _
    | ⟨1, _⟩ => exact (lhsB13_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhsB13_0 _ _).trans hk
    | ⟨1, _⟩ => exact rhsB13_1 _ _)
  rw [el, er]

/-! ## The body's result at an entry of the block -/

/-- Entry `(p, q)` of what the body stores: the two products added, the bias of column `q` added, the maximum with zero
    taken; the change of format at the end is the identity on the extended reals. -/
theorem pay13_apply (xa : Vec Ideal S512x10240 .bf16) (xm : Vec Ideal S10240x512 .bf16) (xh : Vec Ideal S512x512 .bf16)
    (xv : Vec Ideal S512x512 .bf16) (xb : Vec Ideal S1x512 .f32) (p q : Fin 512) :
    k13_pay1 xa xm xh xv xb (ix2 p q)
      = max (((∑ k : Fin 10240, xa (ix2 p k) * xm (ix2 k q)) + ∑ k : Fin 512, xh (ix2 p k) * xv (ix2 k q)) + xb (ix2 (0 : Fin 1) q)) 0 := by
  unfold k13_pay1
  simp only [shapeCast_self]
  rw [truncf_apply, maximumf_apply, addf_apply, addf_apply, mmA13_apply, mmB13_apply, broadcast_apply,
    broadcastTo_apply xb broadcasts_S1x512_S512x512 (ix2 p q) (ix2 (0 : Fin 1) q) (fun a => by
      match a with
      | ⟨0, _⟩ => rfl
      | ⟨1, _⟩ => rfl)]
  show max _ (Ideal.ofBits .f32 0x00000000#32) = _
  rw [Ideal.ofBits_zero_f32]

/-! ## Which block of each array a point reads -/

variable (V : (c : Dev nD) → (b : Ref sig .tc) → Buf (Elt Ideal) ((c : Thread nD τ).loc b))

/-- Point `t` takes block `t` of the rows of the adjacency, of `H` and of the output, and the whole of `M`, of `V`
    and of the bias (decided over the 20 points). -/
theorem idx13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0 :=
  (by decide +kernel : ∀ t : Fin grid13.N, _)

/-- Row `p` of the adjacency block at point `t` is row `512 t + p` of the adjacency. -/
theorem blk13_0 (c : Dev nD) (t : Fin cfg13.N) (p : Fin 512) (k : Fin 10240) (r : Fin 10240) (hr : r.val = t.val * 512 + p.val) :
    (iblk13 V c 0 t : Vec Ideal S512x10240 .bf16) (ix2 p k) = mat2 (V c (Pipeline.arrRef spec13 0)) r k := by
  obtain ⟨e0, e1, -⟩ := idx13 t
  unfold iblk13
  rw [View.read_apply]
  show V c (Pipeline.arrRef spec13 0) _ = V c (Pipeline.arrRef spec13 0) (ix2 r k)
  congr 1
  funext a; apply Fin.ext
  match a with
  | ⟨0, _⟩ => show win13_0.index t (0 : Fin 2) * 512 + 1 * p.val = r.val; omega
  | ⟨1, _⟩ => show win13_0.index t (1 : Fin 2) * 10240 + 1 * k.val = k.val; omega

/-- The block of `M` is all of `M`. -/
theorem blk13_1 (c : Dev nD) (t : Fin cfg13.N) (k : Fin 10240) (q : Fin 512) :
    (iblk13 V c 1 t : Vec Ideal S10240x512 .bf16) (ix2 k q) = mat2 (V c (Pipeline.arrRef spec13 1)) k q := by
  obtain ⟨-, -, e0, e1, -⟩ := idx13 t
  unfold iblk13
  rw [View.read_apply]
  show V c (Pipeline.arrRef spec13 1) _ = V c (Pipeline.arrRef spec13 1) (ix2 k q)
  congr 1
  funext a; apply Fin.ext
  match a with
  | ⟨0, _⟩ => show win13_1.index t (0 : Fin 2) * 10240 + 1 * k.val = k.val; omega
  | ⟨1, _⟩ => show win13_1.index t (1 : Fin 2) * 512 + 1 * q.val = q.val; omega

/-- Row `p` of the block of `H` at point `t` is row `512 t + p` of `H`. -/
theorem blk13_2 (c : Dev nD) (t : Fin cfg13.N) (p : Fin 512) (k : Fin 512) (r : Fin 10240) (hr : r.val = t.val * 512 + p.val) :
    (iblk13 V c 2 t : Vec Ideal S512x512 .bf16) (ix2 p k) = mat2 (V c (Pipeline.arrRef spec13 2)) r k := by
  obtain ⟨-, -, -, -, e0, e1, -⟩ := idx13 t
  unfold iblk13
  rw [View.read_apply]
  show V c (Pipeline.arrRef spec13 2) _ = V c (Pipeline.arrRef spec13 2) (ix2 r k)
  congr 1
  funext a; apply Fin.ext
  match a with
  | ⟨0, _⟩ => show win13_2.index t (0 : Fin 2) * 512 + 1 * p.val = r.val; omega
  | ⟨1, _⟩ => show win13_2.index t (1 : Fin 2) * 512 + 1 * k.val = k.val; omega

/-- The block of `V` is all of `V`. -/
theorem blk13_3 (c : Dev nD) (t : Fin cfg13.N) (k : Fin 512) (q : Fin 512) :
    (iblk13 V c 3 t : Vec Ideal S512x512 .bf16) (ix2 k q) = mat2 (V c (Pipeline.arrRef spec13 3)) k q := by
  obtain ⟨-, -, -, -, -, -, e0, e1, -⟩ := idx13 t
  unfold iblk13
  rw [View.read_apply]
  show V c (Pipeline.arrRef spec13 3) _ = V c (Pipeline.arrRef spec13 3) (ix2 k q)
  congr 1
  funext a; apply Fin.ext
  match a with
  | ⟨0, _⟩ => show win13_3.index t (0 : Fin 2) * 512 + 1 * k.val = k.val; omega
  | ⟨1, _⟩ => show win13_3.index t (1 : Fin 2) * 512 + 1 * q.val = q.val; omega

/-- The block of the bias is the whole bias row. -/
theorem blk13_4 (c : Dev nD) (t : Fin cfg13.N) (q : Fin 512) :
    (iblk13 V c 4 t : Vec Ideal S1x512 .f32) (ix2 (0 : Fin 1) q) = V c (Pipeline.arrRef spec13 4) (ix2 (0 : Fin 1) q) := by
  obtain ⟨-, -, -, -, -, -, -, -, e0, e1, -⟩ := idx13 t
  unfold iblk13
  rw [View.read_apply]
  show V c (Pipeline.arrRef spec13 4) _ = V c (Pipeline.arrRef spec13 4) (ix2 (0 : Fin 1) q)
  congr 1
  funext a; apply Fin.ext
  match a with
  | ⟨0, _⟩ => show win13_4.index t (0 : Fin 2) * 1 + 1 * (0 : Fin 1).val = (0 : Fin 1).val; omega
  | ⟨1, _⟩ => show win13_4.index t (1 : Fin 2) * 512 + 1 * q.val = q.val; omega

/-! ## What a point writes back, and the whole array -/

/-- Entry `(p, q)` of the body's result at point `t` is entry `(512 t + p, q)` of the fused step of the whole arrays:
    each block entry is read where the point's rectangle puts it, the sums term by term. -/
theorem point13 (c : Dev nD) (t : Fin cfg13.N) (p q : Fin 512) (r : Fin 10240) (hr : r.val = t.val * 512 + p.val) :
    k13_pay1 (iblk13 V c 0 t) (iblk13 V c 1 t) (iblk13 V c 2 t) (iblk13 V c 3 t) (iblk13 V c 4 t) (ix2 p q)
      = fused (mat2 (V c (Pipeline.arrRef spec13 0))) (mat2 (V c (Pipeline.arrRef spec13 1))) (mat2 (V c (Pipeline.arrRef spec13 2)))
        (mat2 (V c (Pipeline.arrRef spec13 3))) (fun q => V c (Pipeline.arrRef spec13 4) (ix2 (0 : Fin 1) q)) r q := by
  refine (pay13_apply (iblk13 V c 0 t) (iblk13 V c 1 t) (iblk13 V c 2 t) (iblk13 V c 3 t) (iblk13 V c 4 t) p q).trans ?_
  unfold fused mm
  refine congrArg (fun z => max z 0) ?_
  refine congrArg₂ (· + ·) (congrArg₂ (· + ·) (Finset.sum_congr rfl fun k _ => ?_) (Finset.sum_congr rfl fun k _ => ?_)) ?_
  · exact congrArg₂ (· * ·) (blk13_0 V c t p k r hr) (blk13_1 V c t k q)
  · exact congrArg₂ (· * ·) (blk13_2 V c t p k r hr) (blk13_3 V c t k q)
  · exact blk13_4 V c t q

/-- The output array as one function of the arrays the region finds: the fused step, entry by entry. -/
abbrev res13 (c : Dev nD) : S10240x512.Idx → EReal := fun i =>
  fused (mat2 (V c (Pipeline.arrRef spec13 0))) (mat2 (V c (Pipeline.arrRef spec13 1))) (mat2 (V c (Pipeline.arrRef spec13 2)))
        (mat2 (V c (Pipeline.arrRef spec13 3))) (fun q => V c (Pipeline.arrRef spec13 4) (ix2 (0 : Fin 1) q)) (i 0) (i 1)

/-- What point `t` writes back is block `t` of that function. -/
theorem flushed13_eq (c : Dev nD) (t : Fin cfg13.N) :
    (dat13 (F := Ideal) V c).flushed 5 t = ((cfg13.win 5).blk t).view.read (Elt Ideal) (res13 V c) := by
  show (cfg13.win 5).cut (grid13.coords t) ((dat13 V c).after 5 t) = _
  rw [after13_5]
  unfold out13_5
  rw [View.canon_unit_zero hz13]
  simp only [View.ld_unit_zero (S := S512x10240) hz13, View.ld_unit_zero (S := S10240x512) hz13, View.ld_unit_zero (S := S512x512) hz13, View.ld_unit_zero (S := S1x512) hz13]
  obtain ⟨-, -, -, -, -, -, -, -, -, -, e0, e1⟩ := idx13 t
  have hN : cfg13.N = 20 := N_13
  have ht : t.val < 20 := hN ▸ t.isLt
  funext j
  have hj0 : (j 0).val < 512 := (j 0).isLt
  have hj1 : (j 1).val < 512 := (j 1).isLt
  have hx : (cfg13.win 5).xinj (grid13.coords t) j = ix2 (⟨(j 0).val, hj0⟩ : Fin 512) (⟨(j 1).val, hj1⟩ : Fin 512) :=
    funext fun a => by
      match a with
      | ⟨0, _⟩ => rfl
      | ⟨1, _⟩ => rfl
  have hy : ((cfg13.win 5).blk t).view.emb j
      = ix2 (⟨t.val * 512 + (j 0).val, by omega⟩ : Fin 10240) (⟨(j 1).val, hj1⟩ : Fin 512) := by
    funext a; apply Fin.ext
    match a with
    | ⟨0, _⟩ => show win13_5.index t (0 : Fin 2) * 512 + 1 * (j 0).val = t.val * 512 + (j 0).val; omega
    | ⟨1, _⟩ => show win13_5.index t (1 : Fin 2) * 512 + 1 * (j 1).val = (j 1).val; omega
  show k13_pay1 (iblk13 V c 0 t) (iblk13 V c 1 t) (iblk13 V c 2 t) (iblk13 V c 3 t) (iblk13 V c 4 t) ((cfg13.win 5).xinj (grid13.coords t) j)
    = res13 V c (((cfg13.win 5).blk t).view.emb j)
  rw [hx, hy]
  exact point13 V c t _ _ _ rfl

/-- An entry of the array is in point `t`'s block when each coordinate is in the block's range on its axis. -/
theorem mem_blk13 (t : Fin cfg13.N) (i : S10240x512.Idx) :
    i ∈ ((cfg13.win 5).blk t).view.set ↔ ∀ a : Fin 2, win13_5.index t a * S512x512.size a ≤ (i a).val ∧ (i a).val < win13_5.index t a * S512x512.size a + S512x512.size a := by
  show i ∈ ((View.whole (Pipeline.arrRef spec13 5)).slice (win13_5.rect t)).set ↔ _
  rw [View.set_slice_whole, Rect.mem_set_unit]
  exact Iff.rfl

/-- Row `r` lies in the block of point `r / 512`: the 20 blocks of 512 rows cover the 10240 rows. -/
theorem cover13 (i : S10240x512.Idx) : ∃ t : Fin cfg13.N, (cfg13.win 5).flush t = true ∧ i ∈ ((cfg13.win 5).blk t).view.set := by
  have hi0 : (i 0).val < 10240 := (i 0).isLt
  have hi1 : (i 1).val < 512 := (i 1).isLt
  have hN : cfg13.N = 20 := N_13
  have hlt : (i 0).val / 512 < cfg13.N := by rw [hN]; omega
  obtain ⟨-, -, -, -, -, -, -, -, -, -, e0, e1⟩ := idx13 ⟨(i 0).val / 512, hlt⟩
  refine ⟨⟨(i 0).val / 512, hlt⟩, flush13_5 _, ?_⟩
  rw [mem_blk13]
  intro a
  match a with
  | ⟨0, _⟩ =>
    show win13_5.index ⟨(i 0).val / 512, hlt⟩ (0 : Fin 2) * 512 ≤ (i 0).val ∧ (i 0).val < win13_5.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win13_5.index ⟨(i 0).val / 512, hlt⟩ (1 : Fin 2) * 512 ≤ (i 1).val ∧ (i 1).val < win13_5.index ⟨(i 0).val / 512, hlt⟩ (1 : Fin 2) * 512 + 512
    rw [e1]; omega

/-- After the region the output array holds the fused step of the arrays the region found, at every entry. -/
theorem arr13 (c : Dev nD) (r : Fin 10240) (q : Fin 512) :
    (dat13 (F := Ideal) V c).arrAt 5 cfg13.N (ix2 r q)
      = fused (mat2 (V c (Pipeline.arrRef spec13 0))) (mat2 (V c (Pipeline.arrRef spec13 1))) (mat2 (V c (Pipeline.arrRef spec13 2)))
        (mat2 (V c (Pipeline.arrRef spec13 3))) (fun q => V c (Pipeline.arrRef spec13 4) (ix2 (0 : Fin 1) q)) r q :=
  congrFun ((dat13 (F := Ideal) V c).arrAt_eq_of_cover 5 (res13 V c) (fun t _ => flushed13_eq V c t) cover13) (ix2 r q)

end Cert.KernelIdeal.Val

end
-- ==== Proof.KLayer7.lean ====
/-
  One hidden layer of the kernel program as mathematics: the fused region's output on the padded node set is
  `relu (A (H W) + H V + b)`, with `A` the dense adjacency the host built, `H` the previous layer's output and
  `W`, `V`, `b` the layer's blocks of the stacked arguments.

  The host stretch before the layer cuts the blocks out; the product region forms `H W`; the fused region reads the
  adjacency, that product, `H` again, `V` and `b`.  Each input window of the fused region is followed back to the
  boundary where its contents were made, and identified there.
-/
import proofs.«418437_j77618648973637_3_alg».proof.Proof.Gen.KernelIdeal.Frame
import proofs.«418437_j77618648973637_3_alg».proof.Proof.Spec
import proofs.«418437_j77618648973637_3_alg».proof.Proof.KDefs
import proofs.«418437_j77618648973637_3_alg».proof.Proof.KWalk
import proofs.«418437_j77618648973637_3_alg».proof.Proof.RegM12
import proofs.«418437_j77618648973637_3_alg».proof.Proof.RegS13
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx Cert.KernelIdeal Cert.KernelIdeal.Gen Cert.Spec

variable (m : (ℓ : Loc nD τ sig) → Buf (Elt Ideal) ℓ) (ρ : Dev nD → PrngReg)

/-! ## What the host stretch before the layer leaves

The stretch cuts block `(5 : Fin 6)` out of the stacked weights and biases, drops the unit axis, and rounds to the
kernel's format, which at exact arithmetic changes nothing: each buffer read at an entry is the argument's entry in
that block. -/

theorem L7_hostW (c : Dev nD) (j q : Fin 512) :
    W20 (F := Ideal) m ρ c (Proc.devRef .tc main_call1_v68) (ix2 j q) = argWk m c (5 : Fin 6) j q := by
  show StableHlo.after hostOps12 _ (Proc.devRef .tc main_call1_v68) (ix2 j q) = _
  after_results
  refine (shapeCast_1ab_ab_apply (extractStridedSlice S1x512x512 _ (W19 (F := Ideal) m ρ c (Proc.devRef .tc main_arg6)) slices_S6x512x512_S1x512x512_5_0_0) _ j q).trans ?_
  refine (extractStridedSlice_apply _ _ _ _ (ix3 (5 : Fin 6) j q) (fun a => ?_)).trans
    (congrFun (arg6_at_W19 m ρ c) (ix3 (5 : Fin 6) j q))
  match a with
  | ⟨0, _⟩ => rfl
  | ⟨1, _⟩ => exact (Nat.zero_add _).symm
  | ⟨2, _⟩ => exact (Nat.zero_add _).symm

theorem L7_hostV (c : Dev nD) (j q : Fin 512) :
    W20 (F := Ideal) m ρ c (Proc.devRef .tc main_call1_v69) (ix2 j q) = argVk m c (5 : Fin 6) j q := by
  show StableHlo.after hostOps12 _ (Proc.devRef .tc main_call1_v69) (ix2 j q) = _
  after_results
  refine (shapeCast_1ab_ab_apply (extractStridedSlice S1x512x512 _ (W19 (F := Ideal) m ρ c (Proc.devRef .tc main_arg7)) slices_S6x512x512_S1x512x512_5_0_0) _ j q).trans ?_
  refine (extractStridedSlice_apply _ _ _ _ (ix3 (5 : Fin 6) j q) (fun a => ?_)).trans
    (congrFun (arg7_at_W19 m ρ c) (ix3 (5 : Fin 6) j q))
  match a with
  | ⟨0, _⟩ => rfl
  | ⟨1, _⟩ => exact (Nat.zero_add _).symm
  | ⟨2, _⟩ => exact (Nat.zero_add _).symm

theorem L7_hostB (c : Dev nD) (q : Fin 512) :
    W20 (F := Ideal) m ρ c (Proc.devRef .tc main_call1_v70) (ix2 (0 : Fin 1) q) = argBk m c (5 : Fin 6) q := by
  show StableHlo.after hostOps12 _ (Proc.devRef .tc main_call1_v70) (ix2 (0 : Fin 1) q) = _
  after_results
  refine (shapeCast_a_1a_apply (shapeCast S512 (extractStridedSlice S1x512 _ (W19 (F := Ideal) m ρ c (Proc.devRef .tc main_arg8)) slices_S6x512_S1x512_5_0) shapeCasts_S1x512_S512) _ (0 : Fin 1) q).trans ?_
  refine (shapeCast_1a_a_apply (extractStridedSlice S1x512 _ (W19 (F := Ideal) m ρ c (Proc.devRef .tc main_arg8)) slices_S6x512_S1x512_5_0) _ q).trans ?_
  refine (extractStridedSlice_apply _ _ _ _ (ix2 (5 : Fin 6) q) (fun a => ?_)).trans
    (congrFun (arg8_at_W19 m ρ c) (ix2 (5 : Fin 6) q))
  match a with
  | ⟨0, _⟩ => rfl
  | ⟨1, _⟩ => exact (Nat.zero_add _).symm

/-! ## The layer's input through the host stretch and the product region

No operation of the host stretch writes the previous layer's output, and the product region holds it as an input
window, whose array a region leaves as it found it. -/

theorem L7_in_W20 (c : Dev nD) :
    W20 (F := Ideal) m ρ c (Proc.devRef .tc main_call1_v61) = W19 m ρ c (Proc.devRef .tc main_call1_v61) := by
  walk_keeps hostOps12

theorem L7_in_W21 (c : Dev nD) :
    W21 (F := Ideal) m ρ c (Proc.devRef .tc main_call1_v61) = W19 m ρ c (Proc.devRef .tc main_call1_v61) :=
  calc W21 (F := Ideal) m ρ c (Proc.devRef .tc main_call1_v61)
    _ = (dat12 (V20 m ρ) c).arrAt 0 cfg12.N := W21_arr m ρ c 0
    _ = (dat12 (V20 m ρ) c).A 0 := (dat12 (V20 m ρ) c).arrAt_in 0 rfl cfg12.N
    _ = W20 m ρ c (Proc.devRef .tc main_call1_v61) := A_eq12 (V20 m ρ) c 0
    _ = W19 m ρ c (Proc.devRef .tc main_call1_v61) := L7_in_W20 m ρ c

/-! ## The two regions' input windows as the named matrices -/

/-- The product region multiplies the previous layer's output … -/
theorem L7_prod_in (c : Dev nD) : mat2 (V20 (F := Ideal) m ρ c (Pipeline.arrRef spec12 0)) = feat6 m ρ c :=
  funext fun a => funext fun b => congrFun (L7_in_W20 m ρ c) (ix2 a b)

/-- … by the layer's block of `W`. -/
theorem L7_prod_w (c : Dev nD) : mat2 (V20 (F := Ideal) m ρ c (Pipeline.arrRef spec12 1)) = argWk m c (5 : Fin 6) :=
  funext fun j => funext fun q => L7_hostW m ρ c j q

/-- The fused region's second window is the product region's output: the product of the two. -/
theorem L7_fused_prod (c : Dev nD) :
    mat2 (V21 (F := Ideal) m ρ c (Pipeline.arrRef spec13 1)) = mm (feat6 m ρ c) (argWk m c (5 : Fin 6)) := by
  funext a b
  refine (congrFun (W21_arr m ρ c 2) (ix2 a b)).trans ?_
  refine (arr12 (V20 m ρ) c a b).trans ?_
  show mm (mat2 (V20 (F := Ideal) m ρ c (Pipeline.arrRef spec12 0))) (mat2 (V20 (F := Ideal) m ρ c (Pipeline.arrRef spec12 1))) a b = _
  rw [L7_prod_in, L7_prod_w]

/-- Its first window is the adjacency. -/
theorem L7_fused_adj (c : Dev nD) : mat2 (V21 (F := Ideal) m ρ c (Pipeline.arrRef spec13 0)) = adj m ρ c :=
  funext fun a => funext fun b => congrFun (adj_at_W21 m ρ c) (ix2 a b)

/-- Its third window is the previous layer's output again. -/
theorem L7_fused_in (c : Dev nD) : mat2 (V21 (F := Ideal) m ρ c (Pipeline.arrRef spec13 2)) = feat6 m ρ c :=
  funext fun a => funext fun b => congrFun (L7_in_W21 m ρ c) (ix2 a b)

/-- Its fourth window is the layer's block of `V`: the product region does not hold that buffer. -/
theorem L7_fused_v (c : Dev nD) : mat2 (V21 (F := Ideal) m ρ c (Pipeline.arrRef spec13 3)) = argVk m c (5 : Fin 6) :=
  funext fun j => funext fun q =>
    (congrFun (W21_of_ne m ρ c main_call1_v69 (by decide)) (ix2 j q)).trans (L7_hostV m ρ c j q)

/-- Its fifth window is the layer's bias as one row. -/
theorem L7_fused_b (c : Dev nD) :
    (fun q => V21 (F := Ideal) m ρ c (Pipeline.arrRef spec13 4) (ix2 (0 : Fin 1) q)) = argBk m c (5 : Fin 6) :=
  funext fun q =>
    (congrFun (W21_of_ne m ρ c main_call1_v70 (by decide)) (ix2 (0 : Fin 1) q)).trans (L7_hostB m ρ c q)

/-! ## The layer -/

/-- The fused region's output is one dense layer applied to the previous layer's output. -/
theorem feat7_eq (c : Dev nD) :
    feat7 m ρ c = denseLayer (adj m ρ c) (feat6 m ρ c) (argWk m c (5 : Fin 6)) (argVk m c (5 : Fin 6)) (argBk m c (5 : Fin 6)) := by
  funext r q
  refine (congrFun (W22_arr m ρ c 5) (ix2 r q)).trans ?_
  refine (arr13 (V21 m ρ) c r q).trans ?_
  show fused (mat2 (V21 (F := Ideal) m ρ c (Pipeline.arrRef spec13 0))) (mat2 (V21 (F := Ideal) m ρ c (Pipeline.arrRef spec13 1)))
      (mat2 (V21 (F := Ideal) m ρ c (Pipeline.arrRef spec13 2))) (mat2 (V21 (F := Ideal) m ρ c (Pipeline.arrRef spec13 3)))
      (fun q => V21 (F := Ideal) m ρ c (Pipeline.arrRef spec13 4) (ix2 (0 : Fin 1) q)) r q = _
  rw [L7_fused_adj, L7_fused_prod, L7_fused_in, L7_fused_v, L7_fused_b]
  rfl

end Cert.KernelIdeal.Val

end
-- ==== Proof.RegF14.lean ====
/-
  The array that the readout region 14 leaves: the region multiplies a [10240, 512] matrix, one block of 512 rows at
  each of its twenty grid points, by a whole [512, 1536] matrix and adds a [1, 1536] row to every row of the product,
  writing each [512, 1536] block back. Entry (r, q) of the output array is therefore Σ_k lhs (r, k) · rhs (k, q) + row q:
  row r lies in the block of point r / 512, whose body computes exactly these sums and adds the row's entry q.
-/
import proofs.«418437_j77618648973637_3_alg».proof.Proof.Gen.KernelIdeal.Frame
import proofs.«418437_j77618648973637_3_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Val
open Idealize.ShloMosaic Idealize.ShloMosaic.TcCoe Idealize.SL.Sem Idealize.ShloMosaic.ValueIdx Cert.KernelIdeal Cert.KernelIdeal.Gen Cert.Spec

/-- The zero offsets of a whole-block access. -/
theorem ro14_hz : (![0, 0] : Fin 2 → Nat) = fun _ => 0 := funext fun a => by fin_cases a <;> rfl

/-! ## The body's product and sum at an index -/

/-- The left operand's row coordinate at output index `i` is `i`'s row. -/
theorem ro14_lhs_0 (i : S512x1536.Idx) (q : dot_S512x512_S512x1536_S512x1536_1_0_0_1_n_n.contr.Idx) :
    (dot_S512x512_S512x1536_S512x1536_1_0_0_1_n_n.lhsIdx i q 0).val = (i 0).val := by
  unfold DotDims.lhsIdx
  rw [dif_neg (show ¬(0 : Fin S512x512.rank) ∈ dot_S512x512_S512x1536_S512x1536_1_0_0_1_n_n.lhsBatch by decide), dif_pos (show (0 : Fin S512x512.rank) ∈ dot_S512x512_S512x1536_S512x1536_1_0_0_1_n_n.lhsNonContracting by decide)]
  rfl
/-- The left operand's column coordinate is the contraction position. -/
theorem ro14_lhs_1 (i : S512x1536.Idx) (q : dot_S512x512_S512x1536_S512x1536_1_0_0_1_n_n.contr.Idx) :
    (dot_S512x512_S512x1536_S512x1536_1_0_0_1_n_n.lhsIdx i q 1).val = (q ⟨0, by decide⟩).val :=
  dot_S512x512_S512x1536_S512x1536_1_0_0_1_n_n.lhsIdx_val_of_single rfl i q
/-- The right operand's row coordinate is the contraction position. -/
theorem ro14_rhs_0 (i : S512x1536.Idx) (q : dot_S512x512_S512x1536_S512x1536_1_0_0_1_n_n.contr.Idx) :
    (dot_S512x512_S512x1536_S512x1536_1_0_0_1_n_n.rhsIdx i q 0).val = (q ⟨0, by decide⟩).val :=
  dot_S512x512_S512x1536_S512x1536_1_0_0_1_n_n.rhsIdx_val_of_single rfl i q
/-- The right operand's column coordinate at output index `i` is `i`'s column. -/
theorem ro14_rhs_1 (i : S512x1536.Idx) (q : dot_S512x512_S512x1536_S512x1536_1_0_0_1_n_n.contr.Idx) :
    (dot_S512x512_S512x1536_S512x1536_1_0_0_1_n_n.rhsIdx i q 1).val = (i 1).val := by
  unfold DotDims.rhsIdx
  rw [dif_neg (show ¬(1 : Fin S512x1536.rank) ∈ dot_S512x512_S512x1536_S512x1536_1_0_0_1_n_n.rhsBatch by decide), dif_pos (show (1 : Fin S512x1536.rank) ∈ dot_S512x512_S512x1536_S512x1536_1_0_0_1_n_n.rhsNonContracting by decide)]
  rfl

/-- The product into a zero accumulator at (p, q): the sum over the contraction index. -/
theorem ro14_mat_apply (x0 : FVec Ideal S512x512 .bf16) (x1 : FVec Ideal S512x1536 .bf16) (p : Fin 512) (q : Fin 1536) :
    FloatOps.matmul dot_S512x512_S512x1536_S512x1536_1_0_0_1_n_n none x0 x1 (constant S512x1536 .f32 0x00000000#32) (ix2 p q)
      = ∑ k : Fin 512, x0 (ix2 p k) * x1 (ix2 k q) := by
  rw [Ideal.matmul_constant_zero_apply, ← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 p q) ((contrEquiv1 dot_S512x512_S512x1536_S512x1536_1_0_0_1_n_n 512 rfl rfl).symm k) = ix2 p k := funext fun a => Fin.ext (by
    match a with
    | ⟨0, _⟩ => exact ro14_lhs_0 _ _
    | ⟨1, _⟩ => exact (ro14_lhs_1 _ _).trans hk)
  have er : dot_S512x512_S512x1536_S512x1536_1_0_0_1_n_n.rhsIdx (ix2 p q) ((contrEquiv1 dot_S512x512_S512x1536_S512x1536_1_0_0_1_n_n 512 rfl rfl).symm k) = ix2 k q := funext fun a => Fin.ext (by
    match a with
    | ⟨0, _⟩ => exact (ro14_rhs_0 _ _).trans hk
    | ⟨1, _⟩ => exact ro14_rhs_1 _ _)
  rw [el, er]

/-- The body's stored value at (p, q): the casts between equal shapes are the identity, the product is the sum over the
    contraction index, and the one-row operand broadcast down the rows contributes its entry of column q. -/
theorem ro14_pay_apply (x0 : FVec Ideal S512x512 .bf16) (x1 : FVec Ideal S512x1536 .bf16) (x2 : FVec Ideal S1x1536 .f32)
    (p : Fin 512) (q : Fin 1536) :
    k14_pay1 (F := Ideal) x0 x1 x2 (ix2 p q) = (∑ k : Fin 512, x0 (ix2 p k) * x1 (ix2 k q)) + x2 (ix2 (0 : Fin 1) q) := by
  unfold k14_pay1
  simp only [shapeCast_self]
  show FloatOps.matmul dot_S512x512_S512x1536_S512x1536_1_0_0_1_n_n none x0 x1 (constant S512x1536 .f32 0x00000000#32) (ix2 p q)
      + broadcastTo S512x1536 x2 broadcasts_S1x1536_S512x1536 (ix2 p q) = _
  rw [ro14_mat_apply, broadcastTo_1b_ab_apply]

/-! ## The whole readout, and each point's block of it -/

variable (V : (c : Dev nD) → (b : Ref sig .tc) → Buf (Elt Ideal) ((c : Thread nD τ).loc b))

/-- The whole readout of the three arrays, index by index. -/
def ro14_whole (A : S10240x512.Idx → EReal) (B : S512x1536.Idx → EReal) (C : S1x1536.Idx → EReal) : S10240x1536.Idx → EReal :=
  fun i => readout (mat2 A) (mat2 B) (fun q => C (ix2 (0 : Fin 1) q)) (i 0) (i 1)

/-- The block indices over the grid: the left operand's and the output's blocks move down the rows with the point, the
    right operand and the added row stay whole. -/
theorem ro14_idx : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

/-- A block's entry (p, q) is the whole readout's entry at `i` when the left block's row p is the left array's row
    `i 0`, the right block's column q is the right array's column `i 1`, and the row block's entry q is the row's. -/
theorem ro14_point (A : S10240x512.Idx → EReal) (B : S512x1536.Idx → EReal) (C : S1x1536.Idx → EReal)
    (x0 : FVec Ideal S512x512 .bf16) (x1 : FVec Ideal S512x1536 .bf16) (x2 : FVec Ideal S1x1536 .f32)
    (p : Fin 512) (q : Fin 1536) (i : S10240x1536.Idx)
    (hx0 : ∀ k : Fin 512, x0 (ix2 p k) = A (ix2 (i 0) k)) (hx1 : ∀ k : Fin 512, x1 (ix2 k q) = B (ix2 k (i 1)))
    (hx2 : x2 (ix2 (0 : Fin 1) q) = C (ix2 (0 : Fin 1) (i 1))) :
    k14_pay1 (F := Ideal) x0 x1 x2 (ix2 p q) = ro14_whole A B C i := by
  rw [ro14_pay_apply, hx2]
  show _ = (∑ k : Fin 512, A (ix2 (i 0) k) * B (ix2 k (i 1))) + C (ix2 (0 : Fin 1) (i 1))
  exact congrArg (· + C (ix2 (0 : Fin 1) (i 1))) (Finset.sum_congr rfl fun k _ => by rw [hx0 k, hx1 k])

/-- The left operand's block at point `t` holds rows 512 t … 512 t + 511 of its array. -/
theorem ro14_blk_0 (c : Dev nD) (t : Fin cfg14.N) (p : Fin 512) (k : Fin 512) (i : S10240x512.Idx)
    (h0 : (i 0).val = t.val * 512 + p.val) (h1 : (i 1).val = k.val) :
    (iblk14 V c 0 t : FVec Ideal S512x512 .bf16) (ix2 p k) = V c (Pipeline.arrRef spec14 0) i := by
  obtain ⟨e0, e1, -⟩ := ro14_idx t
  unfold iblk14
  rw [View.read_apply]
  show V c (Pipeline.arrRef spec14 0) (((cfg14.win 0).blk t).view.emb (ix2 p k)) = V c (Pipeline.arrRef spec14 0) i
  refine congrArg _ (funext fun a => Fin.ext ?_)
  match a with
  | ⟨0, _⟩ => show win14_0.index t (0 : Fin 2) * 512 + 1 * p.val = (i 0).val; omega
  | ⟨1, _⟩ => show win14_0.index t (1 : Fin 2) * 512 + 1 * k.val = (i 1).val; omega

/-- The right operand's block at every point is its whole array. -/
theorem ro14_blk_1 (c : Dev nD) (t : Fin cfg14.N) (k : Fin 512) (q : Fin 1536) (i : S512x1536.Idx)
    (h0 : (i 0).val = k.val) (h1 : (i 1).val = q.val) :
    (iblk14 V c 1 t : FVec Ideal S512x1536 .bf16) (ix2 k q) = V c (Pipeline.arrRef spec14 1) i := by
  obtain ⟨-, -, e2, e3, -⟩ := ro14_idx t
  unfold iblk14
  rw [View.read_apply]
  show V c (Pipeline.arrRef spec14 1) (((cfg14.win 1).blk t).view.emb (ix2 k q)) = V c (Pipeline.arrRef spec14 1) i
  refine congrArg _ (funext fun a => Fin.ext ?_)
  match a with
  | ⟨0, _⟩ => show win14_1.index t (0 : Fin 2) * 512 + 1 * k.val = (i 0).val; omega
  | ⟨1, _⟩ => show win14_1.index t (1 : Fin 2) * 1536 + 1 * q.val = (i 1).val; omega

/-- The added row's block at every point is its whole array. -/
theorem ro14_blk_2 (c : Dev nD) (t : Fin cfg14.N) (q : Fin 1536) (i : S1x1536.Idx)
    (h0 : (i 0).val = 0) (h1 : (i 1).val = q.val) :
    (iblk14 V c 2 t : FVec Ideal S1x1536 .f32) (ix2 (0 : Fin 1) q) = V c (Pipeline.arrRef spec14 2) i := by
  obtain ⟨-, -, -, -, e4, e5, -⟩ := ro14_idx t
  unfold iblk14
  rw [View.read_apply]
  show V c (Pipeline.arrRef spec14 2) (((cfg14.win 2).blk t).view.emb (ix2 (0 : Fin 1) q)) = V c (Pipeline.arrRef spec14 2) i
  refine congrArg _ (funext fun a => Fin.ext ?_)
  match a with
  | ⟨0, _⟩ => show win14_2.index t (0 : Fin 2) * 1 + 1 * (0 : Fin 1).val = (i 0).val; rw [e4, h0]; rfl
  | ⟨1, _⟩ => show win14_2.index t (1 : Fin 2) * 1536 + 1 * q.val = (i 1).val; omega

/-- Entry (p, q) of the output's block at point `t` sits at row 512 t + p, column q of the output array. -/
theorem ro14_emb (t : Fin cfg14.N) (p : Fin 512) (q : Fin 1536) :
    ((((cfg14.win 3).blk t).view.emb (ix2 p q)) 0).val = t.val * 512 + p.val
      ∧ ((((cfg14.win 3).blk t).view.emb (ix2 p q)) 1).val = q.val := by
  obtain ⟨-, -, -, -, -, -, e6, e7⟩ := ro14_idx t
  constructor
  · show win14_3.index t (0 : Fin 2) * 512 + 1 * p.val = _; omega
  · show win14_3.index t (1 : Fin 2) * 1536 + 1 * q.val = _; omega

/-- What point `t` writes back is block `t` of the whole readout of the arrays as the region finds them. -/
theorem ro14_flushed_eq (c : Dev nD) (t : Fin cfg14.N) :
    (dat14 (F := Ideal) V c).flushed 3 t
      = ((cfg14.win 3).blk t).view.read (Elt Ideal)
          (ro14_whole (V c (Pipeline.arrRef spec14 0)) (V c (Pipeline.arrRef spec14 1)) (V c (Pipeline.arrRef spec14 2))) := by
  show (cfg14.win 3).cut (grid14.coords t) ((dat14 V c).after 3 t) = _
  rw [after14_3]
  unfold out14_3
  rw [View.canon_unit_zero ro14_hz]
  simp only [View.ld_unit_zero (S := S512x512) ro14_hz, View.ld_unit_zero (S := S512x1536) ro14_hz, View.ld_unit_zero (S := S1x1536) ro14_hz]
  funext j
  obtain ⟨p, q, rfl⟩ : ∃ (p : Fin 512) (q : Fin 1536), j = ix2 p q := ⟨j 0, j 1, eq_ix2 j⟩
  show k14_pay1 (F := Ideal) (iblk14 V c 0 t) (iblk14 V c 1 t) (iblk14 V c 2 t) (ix2 p q)
    = ro14_whole (V c (Pipeline.arrRef spec14 0)) (V c (Pipeline.arrRef spec14 1)) (V c (Pipeline.arrRef spec14 2))
        (((cfg14.win 3).blk t).view.emb (ix2 p q))
  exact ro14_point _ _ _ (iblk14 V c 0 t) (iblk14 V c 1 t) (iblk14 V c 2 t) p q _
    (fun k => ro14_blk_0 V c t p k _ (ro14_emb t p q).1 rfl) (fun k => ro14_blk_1 V c t k q _ rfl (ro14_emb t p q).2)
    (ro14_blk_2 V c t q _ rfl (ro14_emb t p q).2)

/-! ## The blocks cover the array -/

/-- An index of the output array is in point `t`'s block iff each coordinate is in the block's range on its axis. -/
theorem ro14_mem_blk (t : Fin cfg14.N) (i : S10240x1536.Idx) :
    i ∈ ((cfg14.win 3).blk t).view.set ↔ ∀ a : Fin 2, win14_3.index t a * S512x1536.size a ≤ (i a).val ∧ (i a).val < win14_3.index t a * S512x1536.size a + S512x1536.size a := by
  show i ∈ ((View.whole (Pipeline.arrRef spec14 3)).slice (win14_3.rect t)).set ↔ _
  rw [View.set_slice_whole, Rect.mem_set_unit]
  exact Iff.rfl

/-- Row r of the output array lies in the block of point r / 512. -/
theorem ro14_cover (i : S10240x1536.Idx) : ∃ t : Fin cfg14.N, (cfg14.win 3).flush t = true ∧ i ∈ ((cfg14.win 3).blk t).view.set := by
  have hi0 : (i 0).val < 10240 := (i 0).isLt
  have hi1 : (i 1).val < 1536 := (i 1).isLt
  have hN : cfg14.N = 20 := N_14
  have ht : (i 0).val / 512 < cfg14.N := by rw [hN]; omega
  refine ⟨⟨(i 0).val / 512, ht⟩, flush14_3 _, ?_⟩
  rw [ro14_mem_blk]
  obtain ⟨-, -, -, -, -, -, e6, e7⟩ := ro14_idx ⟨(i 0).val / 512, ht⟩
  intro a
  match a with
  | ⟨0, _⟩ =>
    show win14_3.index ⟨(i 0).val / 512, ht⟩ (0 : Fin 2) * 512 ≤ (i 0).val
      ∧ (i 0).val < win14_3.index ⟨(i 0).val / 512, ht⟩ (0 : Fin 2) * 512 + 512
    rw [e6]
    show (i 0).val / 512 * 512 ≤ (i 0).val ∧ (i 0).val < (i 0).val / 512 * 512 + 512
    omega
  | ⟨1, _⟩ =>
    show win14_3.index ⟨(i 0).val / 512, ht⟩ (1 : Fin 2) * 1536 ≤ (i 1).val
      ∧ (i 1).val < win14_3.index ⟨(i 0).val / 512, ht⟩ (1 : Fin 2) * 1536 + 1536
    rw [e7]
    omega

/-! ## The output array after the region -/

/-- After the region the output array holds the readout of the three input arrays as the region found them, entry by entry. -/
theorem arr14 (c : Dev nD) (r : Fin 10240) (q : Fin 1536) :
    (dat14 (F := Ideal) V c).arrAt 3 cfg14.N (ix2 r q)
      = readout (mat2 (V c (Pipeline.arrRef spec14 0))) (mat2 (V c (Pipeline.arrRef spec14 1)))
          (fun q => V c (Pipeline.arrRef spec14 2) (ix2 (0 : Fin 1) q)) r q :=
  congrFun ((dat14 (F := Ideal) V c).arrAt_eq_of_cover 3
    (ro14_whole (V c (Pipeline.arrRef spec14 0)) (V c (Pipeline.arrRef spec14 1)) (V c (Pipeline.arrRef spec14 2)))
    (fun t _ => ro14_flushed_eq V c t) ro14_cover) (ix2 r q)

end Cert.KernelIdeal.Val

end
-- ==== Proof.KOut.lean ====
/-
  The end of the kernel program, read as matrices.

  The last host stretch widens the readout weights from 1440 to 1536 columns and the readout bias from 1440 to 1536
  entries, filling with the real zero (the integer 0 converted), and stores the weights in the narrower float format,
  which at the ideal values changes nothing.  The last region then holds, on the padded node set, the readout of the last
  layer's output against those padded weights and bias: `outPad_eq`.  The final host operation keeps the first 10000
  rows and the first 1440 columns of that array: `result_eq`.
-/
import proofs.«418437_j77618648973637_3_alg».proof.Proof.Gen.KernelIdeal.Frame
import proofs.«418437_j77618648973637_3_alg».proof.Proof.Spec
import proofs.«418437_j77618648973637_3_alg».proof.Proof.KDefs
import proofs.«418437_j77618648973637_3_alg».proof.Proof.RegF14
import Idealize.ShloMosaic.Lib.Pipeline.Value
import Idealize.ShloMosaic.Lib.ValueIdx
import Idealize.ShloMosaic.Lib.KernelVsHost
import Idealize.ShloMosaic.Lib.StableHlo.Run

noncomputable section

namespace Cert.KernelIdeal.Val

open Idealize.ShloMosaic Idealize.ShloMosaic.TcCoe Idealize.SL.Sem Idealize.ShloMosaic.ValueIdx Cert.KernelIdeal Cert.KernelIdeal.Gen Cert.Spec

variable (m : (ℓ : Loc nD τ sig) → Buf (Elt Ideal) ℓ) (ρ : Dev nD → PrngReg)

/-! ## What the last host stretch reads and keeps -/

/-- The readout weights reach the last host stretch as launched: between that boundary and the end nothing writes them,
    and at the end they are the launch memory's. -/
theorem W22_main_arg9 (c : Dev nD) :
    W22 (F := Ideal) m ρ c (Proc.devRef .tc main_arg9) = m ((c : Thread nD τ).loc main_arg9) := by
  refine Eq.trans (Eq.symm ?_) (W25_main_arg9 m ρ c)
  calc W25 m ρ c (Proc.devRef .tc main_arg9)
    _ = W24 m ρ c (Proc.devRef .tc main_arg9) := StableHlo.after_of_forall_not_mem _ _ (List.forall_iff_forall_mem.mp (by
      simp only [hostOps15, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = W23 m ρ c (Proc.devRef .tc main_arg9) := W24_of_ne m ρ c main_arg9 (by decide)
    _ = W22 m ρ c (Proc.devRef .tc main_arg9) := StableHlo.after_of_forall_not_mem _ _ (List.forall_iff_forall_mem.mp (by
      simp only [hostOps14, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- The readout bias reaches the last host stretch as launched, for the same reason. -/
theorem W22_main_arg10 (c : Dev nD) :
    W22 (F := Ideal) m ρ c (Proc.devRef .tc main_arg10) = m ((c : Thread nD τ).loc main_arg10) := by
  refine Eq.trans (Eq.symm ?_) (W25_main_arg10 m ρ c)
  calc W25 m ρ c (Proc.devRef .tc main_arg10)
    _ = W24 m ρ c (Proc.devRef .tc main_arg10) := StableHlo.after_of_forall_not_mem _ _ (List.forall_iff_forall_mem.mp (by
      simp only [hostOps15, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = W23 m ρ c (Proc.devRef .tc main_arg10) := W24_of_ne m ρ c main_arg10 (by decide)
    _ = W22 m ρ c (Proc.devRef .tc main_arg10) := StableHlo.after_of_forall_not_mem _ _ (List.forall_iff_forall_mem.mp (by
      simp only [hostOps14, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- The last host stretch does not write the last layer's output. -/
theorem W23_main_call1_v72 (c : Dev nD) :
    W23 (F := Ideal) m ρ c (Proc.devRef .tc main_call1_v72) = W22 m ρ c (Proc.devRef .tc main_call1_v72) :=
  StableHlo.after_of_forall_not_mem _ _ (List.forall_iff_forall_mem.mp (by
      simp only [hostOps14, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-! ## The padded weights and bias -/

/-- The weights the last region reads: the launched weights padded on the right, then stored narrower. -/
theorem W23_main_call1_v74 (c : Dev nD) :
    (W23 (F := Ideal) m ρ c (Proc.devRef .tc main_call1_v74) : S512x1536.Idx → EReal) =
      truncf .bf16 (pad S512x1536 ![0, 0] ![0, 96] ![0, 0] (W22 (F := Ideal) m ρ c (Proc.devRef .tc main_arg9))
        (sitofp (F := Ideal) .f32 (constantI S_ 32 0#32)) pads_S512x1440_S512x1536_000_0960 h_S_) bitsLt_bf16_f32 := by
  show StableHlo.after hostOps14 _ (Proc.devRef .tc main_call1_v74) = _
  after_results; rfl

/-- The bias the last region reads: the launched bias padded at the end, then laid out as one row. -/
theorem W23_main_call1_v76 (c : Dev nD) :
    (W23 (F := Ideal) m ρ c (Proc.devRef .tc main_call1_v76) : S1x1536.Idx → EReal) =
      shapeCast S1x1536 (pad S1536 ![0] ![96] ![0] (W22 (F := Ideal) m ρ c (Proc.devRef .tc main_arg10))
        (sitofp (F := Ideal) .f32 (constantI S_ 32 0#32)) pads_S1440_S1536_0960 h_S_) shapeCasts_S1536_S1x1536 := by
  show StableHlo.after hostOps14 _ (Proc.devRef .tc main_call1_v76) = _
  after_results; rfl

/-- The value the host pads with is the integer zero converted: the real zero. -/
theorem padValue_eq :
    (sitofp (F := Ideal) .f32 (constantI S_ 32 0#32) : S_.Idx → EReal) (Shape.Idx.first h_S_) = 0 := by
  show (((((0#32 : BitVec 32).toInt : ℤ) : ℝ)) : EReal) = 0
  simp

/-- The padded weights entry by entry: a column below 1440 is the launched weights' column (the narrower format is the
    identity at the ideal values), a column from 1440 on is zero. -/
theorem W23_main_call1_v74_apply (c : Dev nD) (j : Fin 512) (q : Fin 1536) :
    W23 (F := Ideal) m ρ c (Proc.devRef .tc main_call1_v74) (ix2 j q) = padCols (argWd m c) j q := by
  refine (congrFun (W23_main_call1_v74 m ρ c) (ix2 j q)).trans ?_
  show pad S512x1536 ![0, 0] ![0, 96] ![0, 0] (W22 (F := Ideal) m ρ c (Proc.devRef .tc main_arg9))
      (sitofp (F := Ideal) .f32 (constantI S_ 32 0#32)) pads_S512x1440_S512x1536_000_0960 h_S_ (ix2 j q) = _
  unfold padCols
  by_cases h : q.val < 1440
  · rw [dif_pos h, pad_apply_of_inside _ _ _ _ _ _ _ (ix2 j q) (ix2 j (⟨q.val, h⟩ : Fin 1440)) (fun a =>
      match a with
      | ⟨0, _⟩ => by show j.val = 0 + j.val * (0 + 1); omega
      | ⟨1, _⟩ => by show q.val = 0 + q.val * (0 + 1); omega), W22_main_arg9]
  · rw [dif_neg h, pad_apply_of_not_inside _ _ _ _ _ _ _ (ix2 j q) (1 : Fin 2) (by
      show ¬(0 ≤ q.val ∧ (q.val - 0) % (0 + 1) = 0 ∧ (q.val - 0) / (0 + 1) < 1440); omega)]
    exact padValue_eq

/-- The padded bias entry by entry: the one row's entry `q` is the padded vector's entry `q` (equal row-major
    positions), which below 1440 is the launched bias's and from 1440 on is zero. -/
theorem W23_main_call1_v76_apply (c : Dev nD) (q : Fin 1536) :
    W23 (F := Ideal) m ρ c (Proc.devRef .tc main_call1_v76) (ix2 (0 : Fin 1) q) = padVec (argBd m c) q := by
  refine (congrFun (W23_main_call1_v76 m ρ c) (ix2 (0 : Fin 1) q)).trans ?_
  refine (shapeCast_apply _ _ (ix2 (0 : Fin 1) q) (ix1 q) (by
    rw [Shape.rowMajor_val_one, Shape.rowMajor_val_two]; show q.val = 0 * 1536 + q.val; omega)).trans ?_
  unfold padVec
  by_cases h : q.val < 1440
  · rw [dif_pos h, pad_apply_of_inside _ _ _ _ _ _ _ (ix1 q) (ix1 (⟨q.val, h⟩ : Fin 1440)) (fun a =>
      match a with
      | ⟨0, _⟩ => by show q.val = 0 + q.val * (0 + 1); omega), W22_main_arg10]
  · rw [dif_neg h, pad_apply_of_not_inside _ _ _ _ _ _ _ (ix1 q) (0 : Fin 1) (by
      show ¬(0 ≤ q.val ∧ (q.val - 0) % (0 + 1) = 0 ∧ (q.val - 0) / (0 + 1) < 1440); omega)]
    exact padValue_eq

/-! ## The padded readout and the result -/

/-- The padded readout is the readout of the last layer's output against the padded weights and bias: the last region's
    array at its exit is the readout of its three input arrays as the region is entered, and those are the last layer's
    output (kept by the host stretch), the padded weights and the padded bias. -/
theorem outPad_eq (c : Dev nD) :
    outPad m ρ c = readout (feat7 m ρ c) (padCols (argWd m c)) (padVec (argBd m c)) := by
  funext r q
  show W24 (F := Ideal) m ρ c (Proc.devRef .tc (Pipeline.arrRef spec14 3)) (ix2 r q) = _
  rw [W24_arr, arr14 (V23 m ρ) c r q]
  have e0 : (mat2 (V23 (F := Ideal) m ρ c (Pipeline.arrRef spec14 0)) : Mat 10240 512) = feat7 m ρ c := by
    funext a b
    exact congrFun (W23_main_call1_v72 m ρ c) (ix2 a b)
  have e1 : (mat2 (V23 (F := Ideal) m ρ c (Pipeline.arrRef spec14 1)) : Mat 512 1536) = padCols (argWd m c) := by
    funext a b
    exact W23_main_call1_v74_apply m ρ c a b
  have e2 : (fun q : Fin 1536 => V23 (F := Ideal) m ρ c (Pipeline.arrRef spec14 2) (ix2 (0 : Fin 1) q))
      = padVec (argBd m c) := by
    funext b
    exact W23_main_call1_v76_apply m ρ c b
  rw [e0, e1, e2]

/-- The program's result is the padded readout's first 10000 rows and first 1440 columns: the final host operation is
    the slice at offset zero on both axes. -/
theorem result_eq (c : Dev nD) (r : Fin 10000) (q : Fin 1440) :
    W25 (F := Ideal) m ρ c (Proc.devRef .tc main_v1) (ix2 r q) = outPad m ρ c ⟨r.val, by omega⟩ ⟨q.val, by omega⟩ := by
  have e : (W25 (F := Ideal) m ρ c (Proc.devRef .tc main_v1) : S10000x1440.Idx → EReal) =
      extractStridedSlice S10000x1440 ![0, 0] (W24 (F := Ideal) m ρ c (Proc.devRef .tc main_call1_v77))
        slices_S10240x1536_S10000x1440_0_0 := by
    show StableHlo.after hostOps15 _ (Proc.devRef .tc main_v1) = _
    after_results; rfl
  refine (congrFun e (ix2 r q)).trans ?_
  exact extractStridedSlice_apply _ _ _ (ix2 r q)
    (ix2 (⟨r.val, by omega⟩ : Fin 10240) (⟨q.val, by omega⟩ : Fin 1536)) (fun a => by fin_cases a <;> simp [ix2])

end Cert.KernelIdeal.Val

end
-- ==== Proof.KValue.lean ====
/-
  The kernel program's result as the dense network of the specification: the last boundary's result buffer is the
  padded readout cut to its first 10000 rows and 1440 columns, the readout reads layer 7, each layer reads the layer
  before it and the dense adjacency, and the adjacency is the edge list's under the index range.
-/
import proofs.«418437_j77618648973637_3_alg».proof.Proof.KDefs
import proofs.«418437_j77618648973637_3_alg».proof.Proof.KAdj
import proofs.«418437_j77618648973637_3_alg».proof.Proof.KLayer1
import proofs.«418437_j77618648973637_3_alg».proof.Proof.KLayer2
import proofs.«418437_j77618648973637_3_alg».proof.Proof.KLayer3
import proofs.«418437_j77618648973637_3_alg».proof.Proof.KLayer4
import proofs.«418437_j77618648973637_3_alg».proof.Proof.KLayer5
import proofs.«418437_j77618648973637_3_alg».proof.Proof.KLayer6
import proofs.«418437_j77618648973637_3_alg».proof.Proof.KLayer7
import proofs.«418437_j77618648973637_3_alg».proof.Proof.KOut

noncomputable section

namespace Cert.KernelIdeal.Val

open Idealize.ShloMosaic Idealize.ShloMosaic.TcCoe Idealize.SL.Sem Idealize.ShloMosaic.ValueIdx Cert.KernelIdeal Cert.KernelIdeal.Gen Cert.Spec

variable (m : (ℓ : Loc nD τ sig) → Buf (Elt Ideal) ℓ) (ρ : Dev nD → PrngReg)

/-- The result buffer at the run's last boundary, entry by entry: the dense network over the padded node set, with the
    edge list's adjacency, read at a real node and a real label. -/
theorem kernel_value (c : Dev nD)
    (hs : ∀ e : Fin 160000, 0 ≤ (m ((c : Thread nD τ).loc main_arg1) (ix1 e)).toInt ∧ (m ((c : Thread nD τ).loc main_arg1) (ix1 e)).toInt < 10000)
    (hd : ∀ e : Fin 160000, 0 ≤ (m ((c : Thread nD τ).loc main_arg2) (ix1 e)).toInt ∧ (m ((c : Thread nD τ).loc main_arg2) (ix1 e)).toInt < 10000)
    (r : Fin 10000) (q : Fin 1440) :
    W25 (F := Ideal) m ρ c (Proc.devRef .tc main_v1) (ix2 r q)
      = denseNet (n := 10240) (p := 1536)
          (adjacency (fun e => node (m ((c : Thread nD τ).loc main_arg1) (ix1 e))) (fun e => node (m ((c : Thread nD τ).loc main_arg2) (ix1 e)))
            (wK (m ((c : Thread nD τ).loc main_arg1)) (m ((c : Thread nD τ).loc main_arg2))))
          (padRows (argX m c)) (argW1 m c) (argV1 m c) (argB1 m c) (argWk m c) (argVk m c) (argBk m c)
          (padCols (argWd m c)) (padVec (argBd m c)) ⟨r.val, by omega⟩ ⟨q.val, by omega⟩ := by
  rw [result_eq m ρ c r q, outPad_eq m ρ c, feat7_eq m ρ c, feat6_eq m ρ c, feat5_eq m ρ c, feat4_eq m ρ c, feat3_eq m ρ c,
    feat2_eq m ρ c, feat1_eq m ρ c, feat0_eq m ρ c, adj_eq m ρ c hs hd]
  rfl

end Cert.KernelIdeal.Val

end
-- ==== Proof.RImports.lean ====
/-
  The reference's run and its operations read one at a time are the generated modules imported here; the modules that
  read the reference's value build on this one.
-/
import proofs.«418437_j77618648973637_3_alg».proof.Proof.Gen.ReferenceIdeal.Run
import proofs.«418437_j77618648973637_3_alg».proof.Proof.Gen.ReferenceIdeal.Read
import proofs.«418437_j77618648973637_3_alg».proof.Proof.Spec
-- ==== Proof.RefW.lean ====
/-
  The reference's edge weights, and its two data-dependent row operations read at an index.

  The weight of edge `e` is the reciprocal square root of a product of two gathered degrees. Each degree array is a maximum
  with one, so each of its entries is at least one; a gather returns some entry of its operand; so the product is
  nonnegative and its reciprocal square root is nonnegative, whatever the index words are.

  When the index word of each edge `e` is the node number `n e`, the row gather of a matrix `M` has row `n e` of `M` at
  row `e`, and the accumulating row scatter of `U` into `Z` adds to entry `(r, q)` of `Z` the sum of `U (e, q)` over the edges
  `e` with `n e = r`: update `(e, q')` lands at `(n e, q')`, so the sum over all updates landing on `(r, q)` collapses to
  that sum over edges.
-/
import proofs.«418437_j77618648973637_3_alg».proof.Proof.RImports
import Idealize.ShloMosaic.Lib.ValueIdx
import Idealize.ShloMosaic.Lib.IdealHost
import Idealize.ShloMosaic.PureOps.Ideal.Laws
import Mathlib.Data.EReal.Basic
import Mathlib.Data.EReal.Inv
import Mathlib.Analysis.Real.Sqrt
import Mathlib.Algebra.BigOperators.Group.Finset.Defs
import Mathlib.Algebra.BigOperators.Group.Finset.Basic
import Mathlib.Algebra.BigOperators.Group.Finset.Piecewise

noncomputable section

namespace Cert.ReferenceIdeal.Val

open Idealize.ShloMosaic Idealize.ShloMosaic.TcCoe Idealize.SL.Sem Idealize.ShloMosaic.ValueIdx
open Cert.ReferenceIdeal Cert.ReferenceIdeal.Gen Cert.ReferenceIdeal.Read Cert.Spec

/-! ## The reciprocal square root of a nonnegative extended real -/

/-- The reciprocal square root of a nonnegative extended real is nonnegative: it is `0` at `⊤`, `⊤` at `0`, and the
    inverse of a real square root elsewhere. -/
private theorem rsqrt_nonneg {x : EReal} (hx : 0 ≤ x) : 0 ≤ Ideal.rsqrt x := by
  induction x using EReal.rec with
  | bot => exact absurd hx (by simp)
  | top => rw [Ideal.rsqrt_top]
  | coe r =>
    have hr : 0 ≤ r := EReal.coe_nonneg.mp hx
    rw [Ideal.rsqrt_coe, if_neg (not_lt.mpr hr)]
    split
    · exact le_top
    · exact EReal.coe_nonneg.mpr (inv_nonneg.mpr (Real.sqrt_nonneg r))

/-- A product of two extended reals that are at least one is nonnegative. -/
private theorem mul_nonneg_of_one_le {a b : EReal} (ha : 1 ≤ a) (hb : 1 ≤ b) : 0 ≤ a * b :=
  mul_nonneg (le_trans zero_le_one ha) (le_trans zero_le_one hb)

/-! ## The edge weights -/

/-- The edge weights as the reference computes them. -/
def wR (src dst : IVec S160000 32) : Fin 160000 → EReal := fun e => val_main_v26 (F := Ideal) src dst (ix1 e)

/-- Every clamped out-degree is at least one: it is a maximum with one. -/
private theorem one_le_v5 (src : IVec S160000 32) (j : S10000.Idx) : 1 ≤ val_main_v5 (F := Ideal) src j := by
  rw [val_main_v5_apply, val_main_v4_apply, val_main_cst_1_apply]
  show 1 ≤ max (val_main_v3 (F := Ideal) src j) (Ideal.ofBits .f32 0x3F800000#32)
  rw [Ideal.ofBits_one_f32]
  exact le_max_right _ _

/-- Every clamped in-degree is at least one: it is a maximum with one. -/
private theorem one_le_v10 (dst : IVec S160000 32) (j : S10000.Idx) : 1 ≤ val_main_v10 (F := Ideal) dst j := by
  rw [val_main_v10_apply, val_main_v9_apply, val_main_cst_3_apply]
  show 1 ≤ max (val_main_v8 (F := Ideal) dst j) (Ideal.ofBits .f32 0x3F800000#32)
  rw [Ideal.ofBits_one_f32]
  exact le_max_right _ _

/-- An edge weight is the reciprocal square root of a product of two gathered degrees, each some entry of an array whose
    entries are all at least one; so it is nonnegative whatever the indices are. -/
theorem wR_nonneg (src dst : IVec S160000 32) (e : Fin 160000) : 0 ≤ wR src dst e := by
  unfold wR
  rw [val_main_v26_apply, val_main_v25_apply]
  rw [Ideal.hostUnary_rsqrt_def, Ideal.mulf_def]
  refine rsqrt_nonneg (mul_nonneg_of_one_le ?_ ?_)
  · unfold val_main_v17 Host.gather
    exact one_le_v5 src _
  · unfold val_main_v24 Host.gather
    exact one_le_v10 dst _

/-! ## Indices by coordinates -/

/-- Two rank-two indices agree exactly when their coordinates do. -/
private theorem ix2_inj {n0 n1 : Nat} (a a' : Fin n0) (b b' : Fin n1) : ix2 a b = ix2 a' b' ↔ a = a' ∧ b = b' := by
  constructor
  · intro h
    have h0 := congrFun h (0 : Fin 2)
    have h1 := congrFun h (1 : Fin 2)
    exact ⟨h0, h1⟩
  · rintro ⟨rfl, rfl⟩; rfl

/-! ## The row gather -/

/-- The row gather's dimension numbers. -/
abbrev rowGather : GatherDims S10000x512 S160000x1 S160000x512 := gather_S10000x512_S160000x1_S160000x512_1_0_n_n_0_1_1512

/-- Row `e` of the gathered array is row `n e` of `M`: the start index on the row axis is the index word of `e` read signed
    and clamped into the rows of `M`, which leaves a node number unchanged; the column is the offset coordinate. -/
theorem gather_rows (M : FVec Ideal S10000x512 .f32) (I : IVec S160000x1 32) (n : Fin 160000 → Fin 10000)
    (hI : ∀ e : Fin 160000, (I (ix2 e (0 : Fin 1))).toInt = ((n e).val : ℤ)) (e : Fin 160000) (q : Fin 512) :
    Host.gather gather_S10000x512_S160000x1_S160000x512_1_0_n_n_0_1_1512 M I (ix2 e q) = M (ix2 (n e) q) := by
  unfold Host.gather
  congr 1
  funext a
  refine Fin.ext ?_
  match a with
  | ⟨0, _⟩ =>
    show rowGather.start (ix2 e q) I 0 + rowGather.batchCoord (ix2 e q) 0 + rowGather.offCoord (ix2 e q) 0 = (n e).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowGather.startIndexMap from List.mem_singleton.mpr rfl)]
    have hsi : rowGather.siIdx (ix2 e q) ⟨List.idxOf (0 : Fin 2) rowGather.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, hI e, Int.toNat_natCast]
    show min (n e).val (10000 - 1) = (n e).val
    have := (n e).isLt
    omega
  | ⟨1, _⟩ =>
    show rowGather.start (ix2 e q) I 1 + rowGather.batchCoord (ix2 e q) 1 + rowGather.offCoord (ix2 e q) 1 = q.val
    rw [GatherDims.batchCoord_eq_zero _ _ _ List.not_mem_nil]
    have hs : rowGather.start (ix2 e q) I 1 = 0 := by
      unfold GatherDims.start
      rw [dif_neg (show (1 : Fin 2) ∉ rowGather.startIndexMap from by
        intro h; exact absurd (List.mem_singleton.mp h) (by decide))]
    rw [hs]
    simp only [Nat.add_zero, Nat.zero_add]
    unfold GatherDims.offCoord
    rw [dif_pos (show (1 : Fin 2) ∈ rowGather.sKept from (GatherDims.mem_sKept _ _).mpr
      ⟨fun h => absurd (List.mem_singleton.mp h) (by decide), List.not_mem_nil⟩)]
    rfl

/-! ## The row scatter -/

/-- The row scatter's dimension numbers. -/
abbrev rowScatter : ScatterDims S10000x512 S160000x1 S160000x512 := scatter_S10000x512_S160000x1_S160000x512_1_0_0_1

/-- Where one update lands: update `(e, q')` goes to row `n e`, column `q'`. -/
theorem scatter_lands (I : IVec S160000x1 32) (n : Fin 160000 → Fin 10000)
    (hI : ∀ e : Fin 160000, (I (ix2 e (0 : Fin 1))).toInt = ((n e).val : ℤ)) (e : Fin 160000) (q' : Fin 512) :
    rowScatter.resultIdx? (ix2 e q') I = some (ix2 (n e) q') := by
  have hs0 : rowScatter.start (ix2 e q') I 0 = ((n e).val : ℤ) := by
    unfold ScatterDims.start
    rw [dif_pos (show (0 : Fin 2) ∈ rowScatter.scatterDimsToOperandDims from List.mem_singleton.mpr rfl)]
    have hsi : rowScatter.siIdx (ix2 e q') ⟨List.idxOf (0 : Fin 2) rowScatter.scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, hI e]
  have hs1 : rowScatter.start (ix2 e q') I 1 = 0 := by
    unfold ScatterDims.start
    rw [dif_neg (show (1 : Fin 2) ∉ rowScatter.scatterDimsToOperandDims from by
      intro h; exact absurd (List.mem_singleton.mp h) (by decide))]
  have hk : rowScatter.sKept = [1] := rfl
  have hw0 : rowScatter.window (ix2 e q') 0 = 0 := by
    unfold ScatterDims.window
    rw [dif_neg (show (0 : Fin 2) ∉ rowScatter.sKept from by
      rw [hk]; intro h; exact absurd (List.mem_singleton.mp h) (by decide))]
  have hw1 : rowScatter.window (ix2 e q') 1 = q'.val := by
    unfold ScatterDims.window
    rw [dif_pos (show (1 : Fin 2) ∈ rowScatter.sKept from by rw [hk]; exact List.mem_singleton.mpr rfl)]
    rfl
  have hn := (n e).isLt
  have hq := q'.isLt
  have hall : ∀ a, 0 ≤ rowScatter.start (ix2 e q') I a + rowScatter.window (ix2 e q') a ∧
      rowScatter.start (ix2 e q') I a + rowScatter.window (ix2 e q') a < S10000x512.size a := by
    intro a
    match a with
    | ⟨0, _⟩ =>
      show 0 ≤ rowScatter.start (ix2 e q') I 0 + (rowScatter.window (ix2 e q') 0 : ℤ) ∧
        rowScatter.start (ix2 e q') I 0 + (rowScatter.window (ix2 e q') 0 : ℤ) < (10000 : ℕ)
      rw [hs0, hw0]; omega
    | ⟨1, _⟩ =>
      show 0 ≤ rowScatter.start (ix2 e q') I 1 + (rowScatter.window (ix2 e q') 1 : ℤ) ∧
        rowScatter.start (ix2 e q') I 1 + (rowScatter.window (ix2 e q') 1 : ℤ) < (512 : ℕ)
      rw [hs1, hw1]; omega
  unfold ScatterDims.resultIdx?
  rw [dif_pos hall]
  congr 1
  funext a
  refine Fin.ext ?_
  match a with
  | ⟨0, _⟩ =>
    show (rowScatter.start (ix2 e q') I 0 + (rowScatter.window (ix2 e q') 0 : ℤ)).toNat = (n e).val
    rw [hs0, hw0]; omega
  | ⟨1, _⟩ =>
    show (rowScatter.start (ix2 e q') I 1 + (rowScatter.window (ix2 e q') 1 : ℤ)).toNat = q'.val
    rw [hs1, hw1]; omega

/-- Entry `(r, q)` after the accumulating scatter is the entry of `Z` plus the sum of column `q` of `U` over the edges whose
    node is `r`: the sum over the updates landing on `(r, q)`, split by coordinates, keeps column `q` alone of each such
    edge's row. -/
theorem scatter_rows (Z : FVec Ideal S10000x512 .f32) (I : IVec S160000x1 32) (n : Fin 160000 → Fin 10000)
    (hI : ∀ e : Fin 160000, (I (ix2 e (0 : Fin 1))).toInt = ((n e).val : ℤ)) (U : FVec Ideal S160000x512 .f32)
    (r : Fin 10000) (q : Fin 512) :
    Host.scatterAdd scatter_S10000x512_S160000x1_S160000x512_1_0_0_1 Z I U (ix2 r q)
      = Z (ix2 r q) + ∑ e ∈ Finset.univ.filter (fun e : Fin 160000 => n e = r), U (ix2 e q) := by
  unfold Host.scatterAdd
  rw [Ideal.hostScatterAdd_def]
  unfold Ideal.hostScatterAdd
  refine congrArg (fun t => Z (ix2 r q) + t) ?_
  rw [Finset.sum_filter, Finset.sum_filter, sum_idx2]
  refine Finset.sum_congr rfl (fun a _ => ?_)
  simp only [scatter_lands I n hI, Option.some.injEq, ix2_inj]
  by_cases h : n a = r
  · simp only [h, true_and, Finset.sum_ite_eq', Finset.mem_univ, if_true]
  · simp only [h, false_and, if_false, Finset.sum_const_zero]

end Cert.ReferenceIdeal.Val

end
-- ==== Proof.RefLayer1.lean ====
/-
  The reference's first layer, read at a node and a feature.

  A layer of the reference is relu (S + H V + b). S is a scatter-add into zeros: row r of S sums, over the edges e that
  leave node r, edge e's weight times row (dst e) of the product H W, that row fetched by a gather. Under the range
  hypothesis on the two index lists the wrapped index of the gather is the index itself, and each index word names the
  node of its number. So the layer is the edge-list layer of the specification. The arithmetic shared by all seven
  layers is stated once, for any product array, any index columns holding the edges' nodes and any bias array; the
  first layer's own operations (two products over the 256 input features, the bias spread over the nodes) are read
  here, the later layers' in their own modules.
-/
import proofs.«418437_j77618648973637_3_alg».proof.Proof.RefW
import Idealize.ShloMosaic.Lib.ValueIdx
import Idealize.ShloMosaic.PureOps.Ideal.Laws

noncomputable section

namespace Cert.ReferenceIdeal.Val

open Idealize.ShloMosaic Idealize.ShloMosaic.TcCoe Idealize.SL.Sem Idealize.ShloMosaic.ValueIdx
open Cert.ReferenceIdeal Cert.ReferenceIdeal.Gen Cert.ReferenceIdeal.Read Cert.Spec

/-- Every entry of an edge's index list is a node number. -/
abbrev RangeH (x : IVec S160000 32) : Prop :=
  ∀ e : Fin 160000, 0 ≤ (x (ix1 e)).toInt ∧ (x (ix1 e)).toInt < 10000

/-- The node an edge leaves, read off the source list. -/
abbrev sOf (x1 : IVec S160000 32) : Fin 160000 → Fin 10000 := fun e => node (x1 (ix1 e))

/-- The node an edge enters, read off the destination list. -/
abbrev dOf (x2 : IVec S160000 32) : Fin 160000 → Fin 10000 := fun e => node (x2 (ix1 e))

/-- A word whose signed value lies in [0, 10000) names the node of that number. -/
theorem node_val (x : BitVec 32) (h0 : 0 ≤ x.toInt) (h1 : x.toInt < 10000) : ((node x).val : ℤ) = x.toInt := by
  show ((x.toInt.toNat % 10000 : ℕ) : ℤ) = x.toInt
  omega

/-- A word that is not negative is not below zero, so the select on "below zero" keeps it: a node number is never
    wrapped around. -/
theorem select_neg_wrap (x y : BitVec 32) (h : 0 ≤ x.toInt) :
    Scalar.select (IntOp.cmpi .slt x 0#32) y x = x := by
  have hlt : x.slt 0#32 = false := by
    rw [Bool.eq_false_iff]
    intro hc
    have h2 := BitVec.slt_iff_toInt_lt.mp hc
    rw [BitVec.toInt_zero] at h2
    omega
  have hc : IntOp.cmpi .slt x 0#32 = 0#1 := by
    show BitVec.ofBool (x.slt 0#32) = 0#1
    rw [hlt]; rfl
  rw [hc]
  exact select_zero y x

/-- The scatter's index column holds the source list: row e is the node edge e leaves. -/
theorem src_index (x1 : (⟨S160000, .i32⟩ : BufTy).Contents (Elt Ideal)) (hs : RangeH x1) (e : Fin 160000) :
    BitVec.toInt (val_main_v39 (F := Ideal) x1 (ix2 e (0 : Fin 1))) = ((sOf x1 e).val : ℤ) := by
  have hi : idx_main_v39 (ix2 e (0 : Fin 1)) = ix1 e := funext fun a => Fin.ext (by match a with | ⟨0, _⟩ => rfl)
  rw [val_main_v39_apply, hi]
  exact (node_val _ (hs e).1 (hs e).2).symm

/-- The gather's index column holds the destination list: row e is the node edge e enters (the wrapped index is the
    index, which is not negative). -/
theorem dst_index (x2 : (⟨S160000, .i32⟩ : BufTy).Contents (Elt Ideal)) (hd : RangeH x2) (e : Fin 160000) :
    BitVec.toInt (val_main_v34 (F := Ideal) x2 (ix2 e (0 : Fin 1))) = ((dOf x2 e).val : ℤ) := by
  have hi : idx_main_v34 (ix2 e (0 : Fin 1)) = ix1 e := funext fun a => Fin.ext (by match a with | ⟨0, _⟩ => rfl)
  have hv : val_main_v34 (F := Ideal) x2 (ix2 e (0 : Fin 1)) = x2 (ix1 e) := by
    rw [val_main_v34_apply, hi, val_main_v33_apply, val_main_v30_apply, val_main_v29_apply, val_main_c_7_apply]
    exact select_neg_wrap _ _ (hd e).1
  rw [hv]
  exact (node_val _ (hd e).1 (hd e).2).symm

/-- The weights spread over the features: entry (e, q) is edge e's weight. -/
theorem weight_bcast (x1 x2 : (⟨S160000, .i32⟩ : BufTy).Contents (Elt Ideal)) (e : Fin 160000) (q : Fin 512) :
    val_main_v36 (F := Ideal) x1 x2 (ix2 e q) = wR x1 x2 e := by
  rw [val_main_v36_apply, val_main_v28_apply]
  exact congrArg (val_main_v26 (F := Ideal) x1 x2) (funext fun a => Fin.ext (by match a with | ⟨0, _⟩ => rfl))

/-- The array the scatter adds into is zero everywhere. -/
theorem zeros_acc (i : S10000x512.Idx) : val_main_v38 (F := Ideal) i = (0 : EReal) := by
  rw [val_main_v38_apply, val_main_cst_9_apply, Ideal.ofBits_def, Ideal.ofBits_zero_f32]

/-- The array the relu compares with is zero everywhere. -/
theorem zeros_relu (i : S10000x512.Idx) : val_main_call0_v0 (F := Ideal) i = (0 : EReal) := by
  rw [val_main_call0_v0_apply, val_main_call0_cst_apply, Ideal.ofBits_def, Ideal.ofBits_zero_f32]

/-- One layer's arithmetic at node r and feature q, for any product array M = H W, any H V, any bias array and any two
    index columns that hold the edges' nodes: the scatter into zeros sums the updates of the edges leaving r, an update
    is the edge's weight times row (d e) of M, and the relu is the maximum with zero. -/
theorem layer_at (M HV B Z Zr : FVec Ideal S10000x512 .f32) (Is Id : IVec S160000x1 32)
    (Wt : FVec Ideal S160000x512 .f32) (s d : Fin 160000 → Fin 10000) (w : Fin 160000 → EReal) (b : Fin 512 → EReal)
    (hIs : ∀ e : Fin 160000, (Is (ix2 e (0 : Fin 1))).toInt = ((s e).val : ℤ))
    (hId : ∀ e : Fin 160000, (Id (ix2 e (0 : Fin 1))).toInt = ((d e).val : ℤ))
    (hWt : ∀ (e : Fin 160000) (q : Fin 512), Wt (ix2 e q) = w e)
    (hZ : ∀ i, Z i = (0 : EReal)) (hZr : ∀ i, Zr i = (0 : EReal))
    (hB : ∀ (r : Fin 10000) (q : Fin 512), B (ix2 r q) = b q) (r : Fin 10000) (q : Fin 512) :
    maximumf (addf (addf (Host.scatterAdd scatter_S10000x512_S160000x1_S160000x512_1_0_0_1 Z Is
        (mulf Wt (Host.gather gather_S10000x512_S160000x1_S160000x512_1_0_n_n_0_1_1512 M Id))) HV) B) Zr (ix2 r q)
      = max (((∑ e ∈ Finset.univ.filter (fun e : Fin 160000 => s e = r), w e * M (ix2 (d e) q)) + HV (ix2 r q)) + b q) 0 := by
  have hsum : (∑ e ∈ Finset.univ.filter (fun e : Fin 160000 => s e = r),
        mulf Wt (Host.gather gather_S10000x512_S160000x1_S160000x512_1_0_n_n_0_1_1512 M Id) (ix2 e q))
      = ∑ e ∈ Finset.univ.filter (fun e : Fin 160000 => s e = r), w e * M (ix2 (d e) q) :=
    Finset.sum_congr rfl fun e _ => by rw [mulf_apply, hWt, gather_rows M Id d hId]
  rw [maximumf_apply, addf_apply, addf_apply, scatter_rows Z Is s hIs, hZ, hZr, hB, zero_add, hsum]

/-- The first layer's product H W at a node and a feature. -/
theorem dot_w1 (x0 : (⟨S10000x256, .f32⟩ : BufTy).Contents (Elt Ideal)) (x3 : (⟨S256x512, .f32⟩ : BufTy).Contents (Elt Ideal)) (j : Fin 10000) (q : Fin 512) :
    val_main_v27 (F := Ideal) x0 x3 (ix2 j q) = mm (mat2 x0) (mat2 x3) j q := by
  rw [val_main_v27_apply]
  refine Finset.sum_congr rfl fun k _ => ?_
  have el : lidx_main_v27 (ix2 j q) k = ix2 j k :=
    funext fun a => Fin.ext (by match a with | ⟨0, _⟩ => rfl | ⟨1, _⟩ => rfl)
  have er : ridx_main_v27 (ix2 j q) k = ix2 k q :=
    funext fun a => Fin.ext (by match a with | ⟨0, _⟩ => rfl | ⟨1, _⟩ => rfl)
  rw [el, er]

/-- The first layer's product H V at a node and a feature. -/
theorem dot_v1 (x0 : (⟨S10000x256, .f32⟩ : BufTy).Contents (Elt Ideal)) (x4 : (⟨S256x512, .f32⟩ : BufTy).Contents (Elt Ideal)) (j : Fin 10000) (q : Fin 512) :
    val_main_v41 (F := Ideal) x0 x4 (ix2 j q) = mm (mat2 x0) (mat2 x4) j q := by
  rw [val_main_v41_apply]
  refine Finset.sum_congr rfl fun k _ => ?_
  have el : lidx_main_v41 (ix2 j q) k = ix2 j k :=
    funext fun a => Fin.ext (by match a with | ⟨0, _⟩ => rfl | ⟨1, _⟩ => rfl)
  have er : ridx_main_v41 (ix2 j q) k = ix2 k q :=
    funext fun a => Fin.ext (by match a with | ⟨0, _⟩ => rfl | ⟨1, _⟩ => rfl)
  rw [el, er]

/-- The first layer's bias spread over the nodes: entry (r, q) is b q. -/
theorem bias_l1 (x5 : (⟨S512, .f32⟩ : BufTy).Contents (Elt Ideal)) (r : Fin 10000) (q : Fin 512) : val_main_v44 (F := Ideal) x5 (ix2 r q) = vec1 x5 q := by
  rw [val_main_v44_apply, val_main_v43_apply]
  exact congrArg x5 (funext fun a => Fin.ext (by match a with | ⟨0, _⟩ => rfl))

/-- The first layer at a node and a feature. -/
theorem ref_feat1_at (x0 : (⟨S10000x256, .f32⟩ : BufTy).Contents (Elt Ideal)) (x1 x2 : (⟨S160000, .i32⟩ : BufTy).Contents (Elt Ideal)) (x3 x4 : (⟨S256x512, .f32⟩ : BufTy).Contents (Elt Ideal)) (x5 : (⟨S512, .f32⟩ : BufTy).Contents (Elt Ideal))
    (hs : RangeH x1) (hd : RangeH x2) (r : Fin 10000) (q : Fin 512) :
    val_main_v46 (F := Ideal) x0 x1 x2 x3 x4 x5 (ix2 r q)
      = edgeLayer (sOf x1) (dOf x2) (wR x1 x2) (mat2 x0) (mat2 x3) (mat2 x4) (vec1 x5) r q := by
  refine (layer_at _ _ _ _ _ _ _ _ (sOf x1) (dOf x2) (wR x1 x2) (vec1 x5) (src_index x1 hs) (dst_index x2 hd)
    (weight_bcast x1 x2) zeros_acc zeros_relu (bias_l1 x5) r q).trans ?_
  simp only [edgeLayer, edgeSum, dot_w1, dot_v1]

/-- The first layer's features are the edge-list layer of the inputs. -/
theorem ref_feat1 (x0 : (⟨S10000x256, .f32⟩ : BufTy).Contents (Elt Ideal)) (x1 x2 : (⟨S160000, .i32⟩ : BufTy).Contents (Elt Ideal)) (x3 x4 : (⟨S256x512, .f32⟩ : BufTy).Contents (Elt Ideal)) (x5 : (⟨S512, .f32⟩ : BufTy).Contents (Elt Ideal))
    (hs : RangeH x1) (hd : RangeH x2) :
    mat2 (val_main_v46 (F := Ideal) x0 x1 x2 x3 x4 x5)
      = edgeLayer (sOf x1) (dOf x2) (wR x1 x2) (mat2 x0) (mat2 x3) (mat2 x4) (vec1 x5) :=
  funext fun r => funext fun q => ref_feat1_at x0 x1 x2 x3 x4 x5 hs hd r q

end Cert.ReferenceIdeal.Val

end
-- ==== Proof.RefLayer2.lean ====
/-
  The reference's layer 2, read at a node and a feature.

  The previous layer's features enter as one matrix H. The layer's W, V and b are block 0 of the stacked
  weights: a slice of one block reshaped to a matrix reads the block entry by entry. Both products are sums over H's 512
  columns; the rest is the arithmetic common to all layers. The index columns, the spread weights and the two zero
  arrays are the first layer's operations printed again, so the first layer's facts about them apply as they stand.
-/
import proofs.«418437_j77618648973637_3_alg».proof.Proof.RefLayer1

noncomputable section

namespace Cert.ReferenceIdeal.Val

open Idealize.ShloMosaic Idealize.ShloMosaic.TcCoe Idealize.SL.Sem Idealize.ShloMosaic.ValueIdx
open Cert.ReferenceIdeal Cert.ReferenceIdeal.Gen Cert.ReferenceIdeal.Read Cert.Spec

variable (x0 : (⟨S10000x256, .f32⟩ : BufTy).Contents (Elt Ideal)) (x1 x2 : (⟨S160000, .i32⟩ : BufTy).Contents (Elt Ideal)) (x3 x4 : (⟨S256x512, .f32⟩ : BufTy).Contents (Elt Ideal)) (x5 : (⟨S512, .f32⟩ : BufTy).Contents (Elt Ideal)) (x6 x7 : (⟨S6x512x512, .f32⟩ : BufTy).Contents (Elt Ideal)) (x8 : (⟨S6x512, .f32⟩ : BufTy).Contents (Elt Ideal))

/-- The layer's matrix W: block 0 of the stacked weights, entry by entry. -/
theorem w_slice_l2 (k q : Fin 512) : val_main_v48 (F := Ideal) x6 (ix2 k q) = x6 (ix3 (0 : Fin 6) k q) := by
  rw [val_main_v48_apply, val_main_v47_apply]
  exact congrArg x6 (funext fun a => Fin.ext (by
    match a with
    | ⟨0, _⟩ => rfl
    | ⟨1, _⟩ => show (k.val * 512 + q.val) / 512 % 512 = k.val; omega
    | ⟨2, _⟩ => show (k.val * 512 + q.val) % 512 = q.val; omega))

/-- The layer's matrix V: block 0 of the stacked self weights, entry by entry. -/
theorem v_slice_l2 (k q : Fin 512) : val_main_v50 (F := Ideal) x7 (ix2 k q) = x7 (ix3 (0 : Fin 6) k q) := by
  rw [val_main_v50_apply, val_main_v49_apply]
  exact congrArg x7 (funext fun a => Fin.ext (by
    match a with
    | ⟨0, _⟩ => rfl
    | ⟨1, _⟩ => show (k.val * 512 + q.val) / 512 % 512 = k.val; omega
    | ⟨2, _⟩ => show (k.val * 512 + q.val) % 512 = q.val; omega))

/-- The layer's bias spread over the nodes: entry (r, q) is row 0 of the stacked biases at q. -/
theorem bias_l2 (r : Fin 10000) (q : Fin 512) :
    val_main_v70 (F := Ideal) x8 (ix2 r q) = x8 (ix2 (0 : Fin 6) q) := by
  rw [val_main_v70_apply, val_main_v69_apply, val_main_v52_apply, val_main_v51_apply]
  exact congrArg x8 (funext fun a => Fin.ext (by
    match a with
    | ⟨0, _⟩ => rfl
    | ⟨1, _⟩ => show q.val % 512 = q.val; omega))

/-- The contraction index of the product H W is the column of H and the row of W. -/
theorem lidx_w_l2 (j : Fin 10000) (q k : Fin 512) : lidx_main_v53 (ix2 j q) k = ix2 j k :=
  funext fun a => Fin.ext (by match a with | ⟨0, _⟩ => rfl | ⟨1, _⟩ => rfl)
theorem ridx_w_l2 (j : Fin 10000) (q k : Fin 512) : ridx_main_v53 (ix2 j q) k = ix2 k q :=
  funext fun a => Fin.ext (by match a with | ⟨0, _⟩ => rfl | ⟨1, _⟩ => rfl)
/-- The same for the product H V. -/
theorem lidx_v_l2 (j : Fin 10000) (q k : Fin 512) : lidx_main_v67 (ix2 j q) k = ix2 j k :=
  funext fun a => Fin.ext (by match a with | ⟨0, _⟩ => rfl | ⟨1, _⟩ => rfl)
theorem ridx_v_l2 (j : Fin 10000) (q k : Fin 512) : ridx_main_v67 (ix2 j q) k = ix2 k q :=
  funext fun a => Fin.ext (by match a with | ⟨0, _⟩ => rfl | ⟨1, _⟩ => rfl)

/-- The layer's product H W at a node and a feature, H the previous layer's features. -/
theorem dot_w_l2 (j : Fin 10000) (q : Fin 512) :
    val_main_v53 (F := Ideal) x0 x1 x2 x3 x4 x5 x6 (ix2 j q)
      = mm (mat2 (val_main_v46 (F := Ideal) x0 x1 x2 x3 x4 x5)) (fun k q => x6 (ix3 (0 : Fin 6) k q)) j q := by
  rw [val_main_v53_apply]
  simp only [mm]
  refine Finset.sum_congr rfl fun k _ => ?_
  rw [lidx_w_l2, ridx_w_l2, w_slice_l2]

/-- The layer's product H V at a node and a feature. -/
theorem dot_v_l2 (j : Fin 10000) (q : Fin 512) :
    val_main_v67 (F := Ideal) x0 x1 x2 x3 x4 x5 x7 (ix2 j q)
      = mm (mat2 (val_main_v46 (F := Ideal) x0 x1 x2 x3 x4 x5)) (fun k q => x7 (ix3 (0 : Fin 6) k q)) j q := by
  rw [val_main_v67_apply]
  simp only [mm]
  refine Finset.sum_congr rfl fun k _ => ?_
  rw [lidx_v_l2, ridx_v_l2, v_slice_l2]

/-- The layer at a node and a feature: the scatter into zeros sums the weighted rows of H W over the edges leaving
    the node, then H V and the bias are added and the relu taken. -/
theorem ref_feat2_at (hs : RangeH x1) (hd : RangeH x2) (r : Fin 10000) (q : Fin 512) :
    val_main_v72 (F := Ideal) x0 x1 x2 x3 x4 x5 x6 x7 x8 (ix2 r q)
      = edgeLayer (sOf x1) (dOf x2) (wR x1 x2) (mat2 (val_main_v46 (F := Ideal) x0 x1 x2 x3 x4 x5))
          (fun j q => x6 (ix3 (0 : Fin 6) j q)) (fun j q => x7 (ix3 (0 : Fin 6) j q)) (fun q => x8 (ix2 (0 : Fin 6) q)) r q := by
  refine (layer_at _ _ _ _ _ _ _ _ (sOf x1) (dOf x2) (wR x1 x2) (fun q => x8 (ix2 (0 : Fin 6) q))
    (src_index x1 hs) (dst_index x2 hd) (weight_bcast x1 x2) zeros_acc zeros_relu (bias_l2 x8) r q).trans ?_
  simp only [edgeLayer, edgeSum, dot_w_l2, dot_v_l2]

/-- The layer's features are the edge-list layer of the previous layer's. -/
theorem ref_feat2 (hs : RangeH x1) (hd : RangeH x2) :
    mat2 (val_main_v72 (F := Ideal) x0 x1 x2 x3 x4 x5 x6 x7 x8)
      = edgeLayer (sOf x1) (dOf x2) (wR x1 x2) (mat2 (val_main_v46 (F := Ideal) x0 x1 x2 x3 x4 x5))
          (fun j q => x6 (ix3 (0 : Fin 6) j q)) (fun j q => x7 (ix3 (0 : Fin 6) j q)) (fun q => x8 (ix2 (0 : Fin 6) q)) :=
  funext fun r => funext fun q => ref_feat2_at x0 x1 x2 x3 x4 x5 x6 x7 x8 hs hd r q

end Cert.ReferenceIdeal.Val

end
-- ==== Proof.RefLayer3.lean ====
/-
  The reference's layer 3, read at a node and a feature.

  The previous layer's features enter as one matrix H. The layer's W, V and b are block 1 of the stacked
  weights: a slice of one block reshaped to a matrix reads the block entry by entry. Both products are sums over H's 512
  columns; the rest is the arithmetic common to all layers. The index columns, the spread weights and the two zero
  arrays are the first layer's operations printed again, so the first layer's facts about them apply as they stand.
-/
import proofs.«418437_j77618648973637_3_alg».proof.Proof.RefLayer1

noncomputable section

namespace Cert.ReferenceIdeal.Val

open Idealize.ShloMosaic Idealize.ShloMosaic.TcCoe Idealize.SL.Sem Idealize.ShloMosaic.ValueIdx
open Cert.ReferenceIdeal Cert.ReferenceIdeal.Gen Cert.ReferenceIdeal.Read Cert.Spec

variable (x0 : (⟨S10000x256, .f32⟩ : BufTy).Contents (Elt Ideal)) (x1 x2 : (⟨S160000, .i32⟩ : BufTy).Contents (Elt Ideal)) (x3 x4 : (⟨S256x512, .f32⟩ : BufTy).Contents (Elt Ideal)) (x5 : (⟨S512, .f32⟩ : BufTy).Contents (Elt Ideal)) (x6 x7 : (⟨S6x512x512, .f32⟩ : BufTy).Contents (Elt Ideal)) (x8 : (⟨S6x512, .f32⟩ : BufTy).Contents (Elt Ideal))

/-- The layer's matrix W: block 1 of the stacked weights, entry by entry. -/
theorem w_slice_l3 (k q : Fin 512) : val_main_v74 (F := Ideal) x6 (ix2 k q) = x6 (ix3 (1 : Fin 6) k q) := by
  rw [val_main_v74_apply, val_main_v73_apply]
  exact congrArg x6 (funext fun a => Fin.ext (by
    match a with
    | ⟨0, _⟩ => rfl
    | ⟨1, _⟩ => show (k.val * 512 + q.val) / 512 % 512 = k.val; omega
    | ⟨2, _⟩ => show (k.val * 512 + q.val) % 512 = q.val; omega))

/-- The layer's matrix V: block 1 of the stacked self weights, entry by entry. -/
theorem v_slice_l3 (k q : Fin 512) : val_main_v76 (F := Ideal) x7 (ix2 k q) = x7 (ix3 (1 : Fin 6) k q) := by
  rw [val_main_v76_apply, val_main_v75_apply]
  exact congrArg x7 (funext fun a => Fin.ext (by
    match a with
    | ⟨0, _⟩ => rfl
    | ⟨1, _⟩ => show (k.val * 512 + q.val) / 512 % 512 = k.val; omega
    | ⟨2, _⟩ => show (k.val * 512 + q.val) % 512 = q.val; omega))

/-- The layer's bias spread over the nodes: entry (r, q) is row 1 of the stacked biases at q. -/
theorem bias_l3 (r : Fin 10000) (q : Fin 512) :
    val_main_v96 (F := Ideal) x8 (ix2 r q) = x8 (ix2 (1 : Fin 6) q) := by
  rw [val_main_v96_apply, val_main_v95_apply, val_main_v78_apply, val_main_v77_apply]
  exact congrArg x8 (funext fun a => Fin.ext (by
    match a with
    | ⟨0, _⟩ => rfl
    | ⟨1, _⟩ => show q.val % 512 = q.val; omega))

/-- The contraction index of the product H W is the column of H and the row of W. -/
theorem lidx_w_l3 (j : Fin 10000) (q k : Fin 512) : lidx_main_v79 (ix2 j q) k = ix2 j k :=
  funext fun a => Fin.ext (by match a with | ⟨0, _⟩ => rfl | ⟨1, _⟩ => rfl)
theorem ridx_w_l3 (j : Fin 10000) (q k : Fin 512) : ridx_main_v79 (ix2 j q) k = ix2 k q :=
  funext fun a => Fin.ext (by match a with | ⟨0, _⟩ => rfl | ⟨1, _⟩ => rfl)
/-- The same for the product H V. -/
theorem lidx_v_l3 (j : Fin 10000) (q k : Fin 512) : lidx_main_v93 (ix2 j q) k = ix2 j k :=
  funext fun a => Fin.ext (by match a with | ⟨0, _⟩ => rfl | ⟨1, _⟩ => rfl)
theorem ridx_v_l3 (j : Fin 10000) (q k : Fin 512) : ridx_main_v93 (ix2 j q) k = ix2 k q :=
  funext fun a => Fin.ext (by match a with | ⟨0, _⟩ => rfl | ⟨1, _⟩ => rfl)

/-- The layer's product H W at a node and a feature, H the previous layer's features. -/
theorem dot_w_l3 (j : Fin 10000) (q : Fin 512) :
    val_main_v79 (F := Ideal) x0 x1 x2 x3 x4 x5 x6 x7 x8 (ix2 j q)
      = mm (mat2 (val_main_v72 (F := Ideal) x0 x1 x2 x3 x4 x5 x6 x7 x8)) (fun k q => x6 (ix3 (1 : Fin 6) k q)) j q := by
  rw [val_main_v79_apply]
  simp only [mm]
  refine Finset.sum_congr rfl fun k _ => ?_
  rw [lidx_w_l3, ridx_w_l3, w_slice_l3]

/-- The layer's product H V at a node and a feature. -/
theorem dot_v_l3 (j : Fin 10000) (q : Fin 512) :
    val_main_v93 (F := Ideal) x0 x1 x2 x3 x4 x5 x6 x7 x8 (ix2 j q)
      = mm (mat2 (val_main_v72 (F := Ideal) x0 x1 x2 x3 x4 x5 x6 x7 x8)) (fun k q => x7 (ix3 (1 : Fin 6) k q)) j q := by
  rw [val_main_v93_apply]
  simp only [mm]
  refine Finset.sum_congr rfl fun k _ => ?_
  rw [lidx_v_l3, ridx_v_l3, v_slice_l3]

/-- The layer at a node and a feature: the scatter into zeros sums the weighted rows of H W over the edges leaving
    the node, then H V and the bias are added and the relu taken. -/
theorem ref_feat3_at (hs : RangeH x1) (hd : RangeH x2) (r : Fin 10000) (q : Fin 512) :
    val_main_v98 (F := Ideal) x0 x1 x2 x3 x4 x5 x6 x7 x8 (ix2 r q)
      = edgeLayer (sOf x1) (dOf x2) (wR x1 x2) (mat2 (val_main_v72 (F := Ideal) x0 x1 x2 x3 x4 x5 x6 x7 x8))
          (fun j q => x6 (ix3 (1 : Fin 6) j q)) (fun j q => x7 (ix3 (1 : Fin 6) j q)) (fun q => x8 (ix2 (1 : Fin 6) q)) r q := by
  refine (layer_at _ _ _ _ _ _ _ _ (sOf x1) (dOf x2) (wR x1 x2) (fun q => x8 (ix2 (1 : Fin 6) q))
    (src_index x1 hs) (dst_index x2 hd) (weight_bcast x1 x2) zeros_acc zeros_relu (bias_l3 x8) r q).trans ?_
  simp only [edgeLayer, edgeSum, dot_w_l3, dot_v_l3]

/-- The layer's features are the edge-list layer of the previous layer's. -/
theorem ref_feat3 (hs : RangeH x1) (hd : RangeH x2) :
    mat2 (val_main_v98 (F := Ideal) x0 x1 x2 x3 x4 x5 x6 x7 x8)
      = edgeLayer (sOf x1) (dOf x2) (wR x1 x2) (mat2 (val_main_v72 (F := Ideal) x0 x1 x2 x3 x4 x5 x6 x7 x8))
          (fun j q => x6 (ix3 (1 : Fin 6) j q)) (fun j q => x7 (ix3 (1 : Fin 6) j q)) (fun q => x8 (ix2 (1 : Fin 6) q)) :=
  funext fun r => funext fun q => ref_feat3_at x0 x1 x2 x3 x4 x5 x6 x7 x8 hs hd r q

end Cert.ReferenceIdeal.Val

end
-- ==== Proof.RefLayer4.lean ====
/-
  The reference's layer 4, read at a node and a feature.

  The previous layer's features enter as one matrix H. The layer's W, V and b are block 2 of the stacked
  weights: a slice of one block reshaped to a matrix reads the block entry by entry. Both products are sums over H's 512
  columns; the rest is the arithmetic common to all layers. The index columns, the spread weights and the two zero
  arrays are the first layer's operations printed again, so the first layer's facts about them apply as they stand.
-/
import proofs.«418437_j77618648973637_3_alg».proof.Proof.RefLayer1

noncomputable section

namespace Cert.ReferenceIdeal.Val

open Idealize.ShloMosaic Idealize.ShloMosaic.TcCoe Idealize.SL.Sem Idealize.ShloMosaic.ValueIdx
open Cert.ReferenceIdeal Cert.ReferenceIdeal.Gen Cert.ReferenceIdeal.Read Cert.Spec

variable (x0 : (⟨S10000x256, .f32⟩ : BufTy).Contents (Elt Ideal)) (x1 x2 : (⟨S160000, .i32⟩ : BufTy).Contents (Elt Ideal)) (x3 x4 : (⟨S256x512, .f32⟩ : BufTy).Contents (Elt Ideal)) (x5 : (⟨S512, .f32⟩ : BufTy).Contents (Elt Ideal)) (x6 x7 : (⟨S6x512x512, .f32⟩ : BufTy).Contents (Elt Ideal)) (x8 : (⟨S6x512, .f32⟩ : BufTy).Contents (Elt Ideal))

/-- The layer's matrix W: block 2 of the stacked weights, entry by entry. -/
theorem w_slice_l4 (k q : Fin 512) : val_main_v100 (F := Ideal) x6 (ix2 k q) = x6 (ix3 (2 : Fin 6) k q) := by
  rw [val_main_v100_apply, val_main_v99_apply]
  exact congrArg x6 (funext fun a => Fin.ext (by
    match a with
    | ⟨0, _⟩ => rfl
    | ⟨1, _⟩ => show (k.val * 512 + q.val) / 512 % 512 = k.val; omega
    | ⟨2, _⟩ => show (k.val * 512 + q.val) % 512 = q.val; omega))

/-- The layer's matrix V: block 2 of the stacked self weights, entry by entry. -/
theorem v_slice_l4 (k q : Fin 512) : val_main_v102 (F := Ideal) x7 (ix2 k q) = x7 (ix3 (2 : Fin 6) k q) := by
  rw [val_main_v102_apply, val_main_v101_apply]
  exact congrArg x7 (funext fun a => Fin.ext (by
    match a with
    | ⟨0, _⟩ => rfl
    | ⟨1, _⟩ => show (k.val * 512 + q.val) / 512 % 512 = k.val; omega
    | ⟨2, _⟩ => show (k.val * 512 + q.val) % 512 = q.val; omega))

/-- The layer's bias spread over the nodes: entry (r, q) is row 2 of the stacked biases at q. -/
theorem bias_l4 (r : Fin 10000) (q : Fin 512) :
    val_main_v122 (F := Ideal) x8 (ix2 r q) = x8 (ix2 (2 : Fin 6) q) := by
  rw [val_main_v122_apply, val_main_v121_apply, val_main_v104_apply, val_main_v103_apply]
  exact congrArg x8 (funext fun a => Fin.ext (by
    match a with
    | ⟨0, _⟩ => rfl
    | ⟨1, _⟩ => show q.val % 512 = q.val; omega))

/-- The contraction index of the product H W is the column of H and the row of W. -/
theorem lidx_w_l4 (j : Fin 10000) (q k : Fin 512) : lidx_main_v105 (ix2 j q) k = ix2 j k :=
  funext fun a => Fin.ext (by match a with | ⟨0, _⟩ => rfl | ⟨1, _⟩ => rfl)
theorem ridx_w_l4 (j : Fin 10000) (q k : Fin 512) : ridx_main_v105 (ix2 j q) k = ix2 k q :=
  funext fun a => Fin.ext (by match a with | ⟨0, _⟩ => rfl | ⟨1, _⟩ => rfl)
/-- The same for the product H V. -/
theorem lidx_v_l4 (j : Fin 10000) (q k : Fin 512) : lidx_main_v119 (ix2 j q) k = ix2 j k :=
  funext fun a => Fin.ext (by match a with | ⟨0, _⟩ => rfl | ⟨1, _⟩ => rfl)
theorem ridx_v_l4 (j : Fin 10000) (q k : Fin 512) : ridx_main_v119 (ix2 j q) k = ix2 k q :=
  funext fun a => Fin.ext (by match a with | ⟨0, _⟩ => rfl | ⟨1, _⟩ => rfl)

/-- The layer's product H W at a node and a feature, H the previous layer's features. -/
theorem dot_w_l4 (j : Fin 10000) (q : Fin 512) :
    val_main_v105 (F := Ideal) x0 x1 x2 x3 x4 x5 x6 x7 x8 (ix2 j q)
      = mm (mat2 (val_main_v98 (F := Ideal) x0 x1 x2 x3 x4 x5 x6 x7 x8)) (fun k q => x6 (ix3 (2 : Fin 6) k q)) j q := by
  rw [val_main_v105_apply]
  simp only [mm]
  refine Finset.sum_congr rfl fun k _ => ?_
  rw [lidx_w_l4, ridx_w_l4, w_slice_l4]

/-- The layer's product H V at a node and a feature. -/
theorem dot_v_l4 (j : Fin 10000) (q : Fin 512) :
    val_main_v119 (F := Ideal) x0 x1 x2 x3 x4 x5 x6 x7 x8 (ix2 j q)
      = mm (mat2 (val_main_v98 (F := Ideal) x0 x1 x2 x3 x4 x5 x6 x7 x8)) (fun k q => x7 (ix3 (2 : Fin 6) k q)) j q := by
  rw [val_main_v119_apply]
  simp only [mm]
  refine Finset.sum_congr rfl fun k _ => ?_
  rw [lidx_v_l4, ridx_v_l4, v_slice_l4]

/-- The layer at a node and a feature: the scatter into zeros sums the weighted rows of H W over the edges leaving
    the node, then H V and the bias are added and the relu taken. -/
theorem ref_feat4_at (hs : RangeH x1) (hd : RangeH x2) (r : Fin 10000) (q : Fin 512) :
    val_main_v124 (F := Ideal) x0 x1 x2 x3 x4 x5 x6 x7 x8 (ix2 r q)
      = edgeLayer (sOf x1) (dOf x2) (wR x1 x2) (mat2 (val_main_v98 (F := Ideal) x0 x1 x2 x3 x4 x5 x6 x7 x8))
          (fun j q => x6 (ix3 (2 : Fin 6) j q)) (fun j q => x7 (ix3 (2 : Fin 6) j q)) (fun q => x8 (ix2 (2 : Fin 6) q)) r q := by
  refine (layer_at _ _ _ _ _ _ _ _ (sOf x1) (dOf x2) (wR x1 x2) (fun q => x8 (ix2 (2 : Fin 6) q))
    (src_index x1 hs) (dst_index x2 hd) (weight_bcast x1 x2) zeros_acc zeros_relu (bias_l4 x8) r q).trans ?_
  simp only [edgeLayer, edgeSum, dot_w_l4, dot_v_l4]

/-- The layer's features are the edge-list layer of the previous layer's. -/
theorem ref_feat4 (hs : RangeH x1) (hd : RangeH x2) :
    mat2 (val_main_v124 (F := Ideal) x0 x1 x2 x3 x4 x5 x6 x7 x8)
      = edgeLayer (sOf x1) (dOf x2) (wR x1 x2) (mat2 (val_main_v98 (F := Ideal) x0 x1 x2 x3 x4 x5 x6 x7 x8))
          (fun j q => x6 (ix3 (2 : Fin 6) j q)) (fun j q => x7 (ix3 (2 : Fin 6) j q)) (fun q => x8 (ix2 (2 : Fin 6) q)) :=
  funext fun r => funext fun q => ref_feat4_at x0 x1 x2 x3 x4 x5 x6 x7 x8 hs hd r q

end Cert.ReferenceIdeal.Val

end
-- ==== Proof.RefLayer5.lean ====
/-
  The reference's layer 5, read at a node and a feature.

  The previous layer's features enter as one matrix H. The layer's W, V and b are block 3 of the stacked
  weights: a slice of one block reshaped to a matrix reads the block entry by entry. Both products are sums over H's 512
  columns; the rest is the arithmetic common to all layers. The index columns, the spread weights and the two zero
  arrays are the first layer's operations printed again, so the first layer's facts about them apply as they stand.
-/
import proofs.«418437_j77618648973637_3_alg».proof.Proof.RefLayer1

noncomputable section

namespace Cert.ReferenceIdeal.Val

open Idealize.ShloMosaic Idealize.ShloMosaic.TcCoe Idealize.SL.Sem Idealize.ShloMosaic.ValueIdx
open Cert.ReferenceIdeal Cert.ReferenceIdeal.Gen Cert.ReferenceIdeal.Read Cert.Spec

variable (x0 : (⟨S10000x256, .f32⟩ : BufTy).Contents (Elt Ideal)) (x1 x2 : (⟨S160000, .i32⟩ : BufTy).Contents (Elt Ideal)) (x3 x4 : (⟨S256x512, .f32⟩ : BufTy).Contents (Elt Ideal)) (x5 : (⟨S512, .f32⟩ : BufTy).Contents (Elt Ideal)) (x6 x7 : (⟨S6x512x512, .f32⟩ : BufTy).Contents (Elt Ideal)) (x8 : (⟨S6x512, .f32⟩ : BufTy).Contents (Elt Ideal))

/-- The layer's matrix W: block 3 of the stacked weights, entry by entry. -/
theorem w_slice_l5 (k q : Fin 512) : val_main_v126 (F := Ideal) x6 (ix2 k q) = x6 (ix3 (3 : Fin 6) k q) := by
  rw [val_main_v126_apply, val_main_v125_apply]
  exact congrArg x6 (funext fun a => Fin.ext (by
    match a with
    | ⟨0, _⟩ => rfl
    | ⟨1, _⟩ => show (k.val * 512 + q.val) / 512 % 512 = k.val; omega
    | ⟨2, _⟩ => show (k.val * 512 + q.val) % 512 = q.val; omega))

/-- The layer's matrix V: block 3 of the stacked self weights, entry by entry. -/
theorem v_slice_l5 (k q : Fin 512) : val_main_v128 (F := Ideal) x7 (ix2 k q) = x7 (ix3 (3 : Fin 6) k q) := by
  rw [val_main_v128_apply, val_main_v127_apply]
  exact congrArg x7 (funext fun a => Fin.ext (by
    match a with
    | ⟨0, _⟩ => rfl
    | ⟨1, _⟩ => show (k.val * 512 + q.val) / 512 % 512 = k.val; omega
    | ⟨2, _⟩ => show (k.val * 512 + q.val) % 512 = q.val; omega))

/-- The layer's bias spread over the nodes: entry (r, q) is row 3 of the stacked biases at q. -/
theorem bias_l5 (r : Fin 10000) (q : Fin 512) :
    val_main_v148 (F := Ideal) x8 (ix2 r q) = x8 (ix2 (3 : Fin 6) q) := by
  rw [val_main_v148_apply, val_main_v147_apply, val_main_v130_apply, val_main_v129_apply]
  exact congrArg x8 (funext fun a => Fin.ext (by
    match a with
    | ⟨0, _⟩ => rfl
    | ⟨1, _⟩ => show q.val % 512 = q.val; omega))

/-- The contraction index of the product H W is the column of H and the row of W. -/
theorem lidx_w_l5 (j : Fin 10000) (q k : Fin 512) : lidx_main_v131 (ix2 j q) k = ix2 j k :=
  funext fun a => Fin.ext (by match a with | ⟨0, _⟩ => rfl | ⟨1, _⟩ => rfl)
theorem ridx_w_l5 (j : Fin 10000) (q k : Fin 512) : ridx_main_v131 (ix2 j q) k = ix2 k q :=
  funext fun a => Fin.ext (by match a with | ⟨0, _⟩ => rfl | ⟨1, _⟩ => rfl)
/-- The same for the product H V. -/
theorem lidx_v_l5 (j : Fin 10000) (q k : Fin 512) : lidx_main_v145 (ix2 j q) k = ix2 j k :=
  funext fun a => Fin.ext (by match a with | ⟨0, _⟩ => rfl | ⟨1, _⟩ => rfl)
theorem ridx_v_l5 (j : Fin 10000) (q k : Fin 512) : ridx_main_v145 (ix2 j q) k = ix2 k q :=
  funext fun a => Fin.ext (by match a with | ⟨0, _⟩ => rfl | ⟨1, _⟩ => rfl)

/-- The layer's product H W at a node and a feature, H the previous layer's features. -/
theorem dot_w_l5 (j : Fin 10000) (q : Fin 512) :
    val_main_v131 (F := Ideal) x0 x1 x2 x3 x4 x5 x6 x7 x8 (ix2 j q)
      = mm (mat2 (val_main_v124 (F := Ideal) x0 x1 x2 x3 x4 x5 x6 x7 x8)) (fun k q => x6 (ix3 (3 : Fin 6) k q)) j q := by
  rw [val_main_v131_apply]
  simp only [mm]
  refine Finset.sum_congr rfl fun k _ => ?_
  rw [lidx_w_l5, ridx_w_l5, w_slice_l5]

/-- The layer's product H V at a node and a feature. -/
theorem dot_v_l5 (j : Fin 10000) (q : Fin 512) :
    val_main_v145 (F := Ideal) x0 x1 x2 x3 x4 x5 x6 x7 x8 (ix2 j q)
      = mm (mat2 (val_main_v124 (F := Ideal) x0 x1 x2 x3 x4 x5 x6 x7 x8)) (fun k q => x7 (ix3 (3 : Fin 6) k q)) j q := by
  rw [val_main_v145_apply]
  simp only [mm]
  refine Finset.sum_congr rfl fun k _ => ?_
  rw [lidx_v_l5, ridx_v_l5, v_slice_l5]

/-- The layer at a node and a feature: the scatter into zeros sums the weighted rows of H W over the edges leaving
    the node, then H V and the bias are added and the relu taken. -/
theorem ref_feat5_at (hs : RangeH x1) (hd : RangeH x2) (r : Fin 10000) (q : Fin 512) :
    val_main_v150 (F := Ideal) x0 x1 x2 x3 x4 x5 x6 x7 x8 (ix2 r q)
      = edgeLayer (sOf x1) (dOf x2) (wR x1 x2) (mat2 (val_main_v124 (F := Ideal) x0 x1 x2 x3 x4 x5 x6 x7 x8))
          (fun j q => x6 (ix3 (3 : Fin 6) j q)) (fun j q => x7 (ix3 (3 : Fin 6) j q)) (fun q => x8 (ix2 (3 : Fin 6) q)) r q := by
  refine (layer_at _ _ _ _ _ _ _ _ (sOf x1) (dOf x2) (wR x1 x2) (fun q => x8 (ix2 (3 : Fin 6) q))
    (src_index x1 hs) (dst_index x2 hd) (weight_bcast x1 x2) zeros_acc zeros_relu (bias_l5 x8) r q).trans ?_
  simp only [edgeLayer, edgeSum, dot_w_l5, dot_v_l5]

/-- The layer's features are the edge-list layer of the previous layer's. -/
theorem ref_feat5 (hs : RangeH x1) (hd : RangeH x2) :
    mat2 (val_main_v150 (F := Ideal) x0 x1 x2 x3 x4 x5 x6 x7 x8)
      = edgeLayer (sOf x1) (dOf x2) (wR x1 x2) (mat2 (val_main_v124 (F := Ideal) x0 x1 x2 x3 x4 x5 x6 x7 x8))
          (fun j q => x6 (ix3 (3 : Fin 6) j q)) (fun j q => x7 (ix3 (3 : Fin 6) j q)) (fun q => x8 (ix2 (3 : Fin 6) q)) :=
  funext fun r => funext fun q => ref_feat5_at x0 x1 x2 x3 x4 x5 x6 x7 x8 hs hd r q

end Cert.ReferenceIdeal.Val

end
-- ==== Proof.RefLayer6.lean ====
/-
  The reference's layer 6, read at a node and a feature.

  The previous layer's features enter as one matrix H. The layer's W, V and b are block 4 of the stacked
  weights: a slice of one block reshaped to a matrix reads the block entry by entry. Both products are sums over H's 512
  columns; the rest is the arithmetic common to all layers. The index columns, the spread weights and the two zero
  arrays are the first layer's operations printed again, so the first layer's facts about them apply as they stand.
-/
import proofs.«418437_j77618648973637_3_alg».proof.Proof.RefLayer1

noncomputable section

namespace Cert.ReferenceIdeal.Val

open Idealize.ShloMosaic Idealize.ShloMosaic.TcCoe Idealize.SL.Sem Idealize.ShloMosaic.ValueIdx
open Cert.ReferenceIdeal Cert.ReferenceIdeal.Gen Cert.ReferenceIdeal.Read Cert.Spec

variable (x0 : (⟨S10000x256, .f32⟩ : BufTy).Contents (Elt Ideal)) (x1 x2 : (⟨S160000, .i32⟩ : BufTy).Contents (Elt Ideal)) (x3 x4 : (⟨S256x512, .f32⟩ : BufTy).Contents (Elt Ideal)) (x5 : (⟨S512, .f32⟩ : BufTy).Contents (Elt Ideal)) (x6 x7 : (⟨S6x512x512, .f32⟩ : BufTy).Contents (Elt Ideal)) (x8 : (⟨S6x512, .f32⟩ : BufTy).Contents (Elt Ideal))

/-- The layer's matrix W: block 4 of the stacked weights, entry by entry. -/
theorem w_slice_l6 (k q : Fin 512) : val_main_v152 (F := Ideal) x6 (ix2 k q) = x6 (ix3 (4 : Fin 6) k q) := by
  rw [val_main_v152_apply, val_main_v151_apply]
  exact congrArg x6 (funext fun a => Fin.ext (by
    match a with
    | ⟨0, _⟩ => rfl
    | ⟨1, _⟩ => show (k.val * 512 + q.val) / 512 % 512 = k.val; omega
    | ⟨2, _⟩ => show (k.val * 512 + q.val) % 512 = q.val; omega))

/-- The layer's matrix V: block 4 of the stacked self weights, entry by entry. -/
theorem v_slice_l6 (k q : Fin 512) : val_main_v154 (F := Ideal) x7 (ix2 k q) = x7 (ix3 (4 : Fin 6) k q) := by
  rw [val_main_v154_apply, val_main_v153_apply]
  exact congrArg x7 (funext fun a => Fin.ext (by
    match a with
    | ⟨0, _⟩ => rfl
    | ⟨1, _⟩ => show (k.val * 512 + q.val) / 512 % 512 = k.val; omega
    | ⟨2, _⟩ => show (k.val * 512 + q.val) % 512 = q.val; omega))

/-- The layer's bias spread over the nodes: entry (r, q) is row 4 of the stacked biases at q. -/
theorem bias_l6 (r : Fin 10000) (q : Fin 512) :
    val_main_v174 (F := Ideal) x8 (ix2 r q) = x8 (ix2 (4 : Fin 6) q) := by
  rw [val_main_v174_apply, val_main_v173_apply, val_main_v156_apply, val_main_v155_apply]
  exact congrArg x8 (funext fun a => Fin.ext (by
    match a with
    | ⟨0, _⟩ => rfl
    | ⟨1, _⟩ => show q.val % 512 = q.val; omega))

/-- The contraction index of the product H W is the column of H and the row of W. -/
theorem lidx_w_l6 (j : Fin 10000) (q k : Fin 512) : lidx_main_v157 (ix2 j q) k = ix2 j k :=
  funext fun a => Fin.ext (by match a with | ⟨0, _⟩ => rfl | ⟨1, _⟩ => rfl)
theorem ridx_w_l6 (j : Fin 10000) (q k : Fin 512) : ridx_main_v157 (ix2 j q) k = ix2 k q :=
  funext fun a => Fin.ext (by match a with | ⟨0, _⟩ => rfl | ⟨1, _⟩ => rfl)
/-- The same for the product H V. -/
theorem lidx_v_l6 (j : Fin 10000) (q k : Fin 512) : lidx_main_v171 (ix2 j q) k = ix2 j k :=
  funext fun a => Fin.ext (by match a with | ⟨0, _⟩ => rfl | ⟨1, _⟩ => rfl)
theorem ridx_v_l6 (j : Fin 10000) (q k : Fin 512) : ridx_main_v171 (ix2 j q) k = ix2 k q :=
  funext fun a => Fin.ext (by match a with | ⟨0, _⟩ => rfl | ⟨1, _⟩ => rfl)

/-- The layer's product H W at a node and a feature, H the previous layer's features. -/
theorem dot_w_l6 (j : Fin 10000) (q : Fin 512) :
    val_main_v157 (F := Ideal) x0 x1 x2 x3 x4 x5 x6 x7 x8 (ix2 j q)
      = mm (mat2 (val_main_v150 (F := Ideal) x0 x1 x2 x3 x4 x5 x6 x7 x8)) (fun k q => x6 (ix3 (4 : Fin 6) k q)) j q := by
  rw [val_main_v157_apply]
  simp only [mm]
  refine Finset.sum_congr rfl fun k _ => ?_
  rw [lidx_w_l6, ridx_w_l6, w_slice_l6]

/-- The layer's product H V at a node and a feature. -/
theorem dot_v_l6 (j : Fin 10000) (q : Fin 512) :
    val_main_v171 (F := Ideal) x0 x1 x2 x3 x4 x5 x6 x7 x8 (ix2 j q)
      = mm (mat2 (val_main_v150 (F := Ideal) x0 x1 x2 x3 x4 x5 x6 x7 x8)) (fun k q => x7 (ix3 (4 : Fin 6) k q)) j q := by
  rw [val_main_v171_apply]
  simp only [mm]
  refine Finset.sum_congr rfl fun k _ => ?_
  rw [lidx_v_l6, ridx_v_l6, v_slice_l6]

/-- The layer at a node and a feature: the scatter into zeros sums the weighted rows of H W over the edges leaving
    the node, then H V and the bias are added and the relu taken. -/
theorem ref_feat6_at (hs : RangeH x1) (hd : RangeH x2) (r : Fin 10000) (q : Fin 512) :
    val_main_v176 (F := Ideal) x0 x1 x2 x3 x4 x5 x6 x7 x8 (ix2 r q)
      = edgeLayer (sOf x1) (dOf x2) (wR x1 x2) (mat2 (val_main_v150 (F := Ideal) x0 x1 x2 x3 x4 x5 x6 x7 x8))
          (fun j q => x6 (ix3 (4 : Fin 6) j q)) (fun j q => x7 (ix3 (4 : Fin 6) j q)) (fun q => x8 (ix2 (4 : Fin 6) q)) r q := by
  refine (layer_at _ _ _ _ _ _ _ _ (sOf x1) (dOf x2) (wR x1 x2) (fun q => x8 (ix2 (4 : Fin 6) q))
    (src_index x1 hs) (dst_index x2 hd) (weight_bcast x1 x2) zeros_acc zeros_relu (bias_l6 x8) r q).trans ?_
  simp only [edgeLayer, edgeSum, dot_w_l6, dot_v_l6]

/-- The layer's features are the edge-list layer of the previous layer's. -/
theorem ref_feat6 (hs : RangeH x1) (hd : RangeH x2) :
    mat2 (val_main_v176 (F := Ideal) x0 x1 x2 x3 x4 x5 x6 x7 x8)
      = edgeLayer (sOf x1) (dOf x2) (wR x1 x2) (mat2 (val_main_v150 (F := Ideal) x0 x1 x2 x3 x4 x5 x6 x7 x8))
          (fun j q => x6 (ix3 (4 : Fin 6) j q)) (fun j q => x7 (ix3 (4 : Fin 6) j q)) (fun q => x8 (ix2 (4 : Fin 6) q)) :=
  funext fun r => funext fun q => ref_feat6_at x0 x1 x2 x3 x4 x5 x6 x7 x8 hs hd r q

end Cert.ReferenceIdeal.Val

end
-- ==== Proof.RefLayer7.lean ====
/-
  The reference's layer 7, read at a node and a feature.

  The previous layer's features enter as one matrix H. The layer's W, V and b are block 5 of the stacked
  weights: a slice of one block reshaped to a matrix reads the block entry by entry. Both products are sums over H's 512
  columns; the rest is the arithmetic common to all layers. The index columns, the spread weights and the two zero
  arrays are the first layer's operations printed again, so the first layer's facts about them apply as they stand.
-/
import proofs.«418437_j77618648973637_3_alg».proof.Proof.RefLayer1

noncomputable section

namespace Cert.ReferenceIdeal.Val

open Idealize.ShloMosaic Idealize.ShloMosaic.TcCoe Idealize.SL.Sem Idealize.ShloMosaic.ValueIdx
open Cert.ReferenceIdeal Cert.ReferenceIdeal.Gen Cert.ReferenceIdeal.Read Cert.Spec

variable (x0 : (⟨S10000x256, .f32⟩ : BufTy).Contents (Elt Ideal)) (x1 x2 : (⟨S160000, .i32⟩ : BufTy).Contents (Elt Ideal)) (x3 x4 : (⟨S256x512, .f32⟩ : BufTy).Contents (Elt Ideal)) (x5 : (⟨S512, .f32⟩ : BufTy).Contents (Elt Ideal)) (x6 x7 : (⟨S6x512x512, .f32⟩ : BufTy).Contents (Elt Ideal)) (x8 : (⟨S6x512, .f32⟩ : BufTy).Contents (Elt Ideal))

/-- The layer's matrix W: block 5 of the stacked weights, entry by entry. -/
theorem w_slice_l7 (k q : Fin 512) : val_main_v178 (F := Ideal) x6 (ix2 k q) = x6 (ix3 (5 : Fin 6) k q) := by
  rw [val_main_v178_apply, val_main_v177_apply]
  exact congrArg x6 (funext fun a => Fin.ext (by
    match a with
    | ⟨0, _⟩ => rfl
    | ⟨1, _⟩ => show (k.val * 512 + q.val) / 512 % 512 = k.val; omega
    | ⟨2, _⟩ => show (k.val * 512 + q.val) % 512 = q.val; omega))

/-- The layer's matrix V: block 5 of the stacked self weights, entry by entry. -/
theorem v_slice_l7 (k q : Fin 512) : val_main_v180 (F := Ideal) x7 (ix2 k q) = x7 (ix3 (5 : Fin 6) k q) := by
  rw [val_main_v180_apply, val_main_v179_apply]
  exact congrArg x7 (funext fun a => Fin.ext (by
    match a with
    | ⟨0, _⟩ => rfl
    | ⟨1, _⟩ => show (k.val * 512 + q.val) / 512 % 512 = k.val; omega
    | ⟨2, _⟩ => show (k.val * 512 + q.val) % 512 = q.val; omega))

/-- The layer's bias spread over the nodes: entry (r, q) is row 5 of the stacked biases at q. -/
theorem bias_l7 (r : Fin 10000) (q : Fin 512) :
    val_main_v200 (F := Ideal) x8 (ix2 r q) = x8 (ix2 (5 : Fin 6) q) := by
  rw [val_main_v200_apply, val_main_v199_apply, val_main_v182_apply, val_main_v181_apply]
  exact congrArg x8 (funext fun a => Fin.ext (by
    match a with
    | ⟨0, _⟩ => rfl
    | ⟨1, _⟩ => show q.val % 512 = q.val; omega))

/-- The contraction index of the product H W is the column of H and the row of W. -/
theorem lidx_w_l7 (j : Fin 10000) (q k : Fin 512) : lidx_main_v183 (ix2 j q) k = ix2 j k :=
  funext fun a => Fin.ext (by match a with | ⟨0, _⟩ => rfl | ⟨1, _⟩ => rfl)
theorem ridx_w_l7 (j : Fin 10000) (q k : Fin 512) : ridx_main_v183 (ix2 j q) k = ix2 k q :=
  funext fun a => Fin.ext (by match a with | ⟨0, _⟩ => rfl | ⟨1, _⟩ => rfl)
/-- The same for the product H V. -/
theorem lidx_v_l7 (j : Fin 10000) (q k : Fin 512) : lidx_main_v197 (ix2 j q) k = ix2 j k :=
  funext fun a => Fin.ext (by match a with | ⟨0, _⟩ => rfl | ⟨1, _⟩ => rfl)
theorem ridx_v_l7 (j : Fin 10000) (q k : Fin 512) : ridx_main_v197 (ix2 j q) k = ix2 k q :=
  funext fun a => Fin.ext (by match a with | ⟨0, _⟩ => rfl | ⟨1, _⟩ => rfl)

/-- The layer's product H W at a node and a feature, H the previous layer's features. -/
theorem dot_w_l7 (j : Fin 10000) (q : Fin 512) :
    val_main_v183 (F := Ideal) x0 x1 x2 x3 x4 x5 x6 x7 x8 (ix2 j q)
      = mm (mat2 (val_main_v176 (F := Ideal) x0 x1 x2 x3 x4 x5 x6 x7 x8)) (fun k q => x6 (ix3 (5 : Fin 6) k q)) j q := by
  rw [val_main_v183_apply]
  simp only [mm]
  refine Finset.sum_congr rfl fun k _ => ?_
  rw [lidx_w_l7, ridx_w_l7, w_slice_l7]

/-- The layer's product H V at a node and a feature. -/
theorem dot_v_l7 (j : Fin 10000) (q : Fin 512) :
    val_main_v197 (F := Ideal) x0 x1 x2 x3 x4 x5 x6 x7 x8 (ix2 j q)
      = mm (mat2 (val_main_v176 (F := Ideal) x0 x1 x2 x3 x4 x5 x6 x7 x8)) (fun k q => x7 (ix3 (5 : Fin 6) k q)) j q := by
  rw [val_main_v197_apply]
  simp only [mm]
  refine Finset.sum_congr rfl fun k _ => ?_
  rw [lidx_v_l7, ridx_v_l7, v_slice_l7]

/-- The layer at a node and a feature: the scatter into zeros sums the weighted rows of H W over the edges leaving
    the node, then H V and the bias are added and the relu taken. -/
theorem ref_feat7_at (hs : RangeH x1) (hd : RangeH x2) (r : Fin 10000) (q : Fin 512) :
    val_main_v202 (F := Ideal) x0 x1 x2 x3 x4 x5 x6 x7 x8 (ix2 r q)
      = edgeLayer (sOf x1) (dOf x2) (wR x1 x2) (mat2 (val_main_v176 (F := Ideal) x0 x1 x2 x3 x4 x5 x6 x7 x8))
          (fun j q => x6 (ix3 (5 : Fin 6) j q)) (fun j q => x7 (ix3 (5 : Fin 6) j q)) (fun q => x8 (ix2 (5 : Fin 6) q)) r q := by
  refine (layer_at _ _ _ _ _ _ _ _ (sOf x1) (dOf x2) (wR x1 x2) (fun q => x8 (ix2 (5 : Fin 6) q))
    (src_index x1 hs) (dst_index x2 hd) (weight_bcast x1 x2) zeros_acc zeros_relu (bias_l7 x8) r q).trans ?_
  simp only [edgeLayer, edgeSum, dot_w_l7, dot_v_l7]

/-- The layer's features are the edge-list layer of the previous layer's. -/
theorem ref_feat7 (hs : RangeH x1) (hd : RangeH x2) :
    mat2 (val_main_v202 (F := Ideal) x0 x1 x2 x3 x4 x5 x6 x7 x8)
      = edgeLayer (sOf x1) (dOf x2) (wR x1 x2) (mat2 (val_main_v176 (F := Ideal) x0 x1 x2 x3 x4 x5 x6 x7 x8))
          (fun j q => x6 (ix3 (5 : Fin 6) j q)) (fun j q => x7 (ix3 (5 : Fin 6) j q)) (fun q => x8 (ix2 (5 : Fin 6) q)) :=
  funext fun r => funext fun q => ref_feat7_at x0 x1 x2 x3 x4 x5 x6 x7 x8 hs hd r q

end Cert.ReferenceIdeal.Val

end
-- ==== Proof.RefOut.lean ====
/-
  The reference's result: the readout of the seventh layer's features, H Wd + bd, and the seven layers chained.
-/
import proofs.«418437_j77618648973637_3_alg».proof.Proof.RefLayer2
import proofs.«418437_j77618648973637_3_alg».proof.Proof.RefLayer3
import proofs.«418437_j77618648973637_3_alg».proof.Proof.RefLayer4
import proofs.«418437_j77618648973637_3_alg».proof.Proof.RefLayer5
import proofs.«418437_j77618648973637_3_alg».proof.Proof.RefLayer6
import proofs.«418437_j77618648973637_3_alg».proof.Proof.RefLayer7

noncomputable section

namespace Cert.ReferenceIdeal.Val

open Idealize.ShloMosaic Idealize.ShloMosaic.TcCoe Idealize.SL.Sem Idealize.ShloMosaic.ValueIdx
open Cert.ReferenceIdeal Cert.ReferenceIdeal.Gen Cert.ReferenceIdeal.Read Cert.Spec

/-- The readout at a node and an output: the last layer's features times Wd plus bd. -/
theorem ref_readout (x0 : (⟨S10000x256, .f32⟩ : BufTy).Contents (Elt Ideal)) (x1 x2 : (⟨S160000, .i32⟩ : BufTy).Contents (Elt Ideal)) (x3 x4 : (⟨S256x512, .f32⟩ : BufTy).Contents (Elt Ideal)) (x5 : (⟨S512, .f32⟩ : BufTy).Contents (Elt Ideal)) (x6 x7 : (⟨S6x512x512, .f32⟩ : BufTy).Contents (Elt Ideal)) (x8 : (⟨S6x512, .f32⟩ : BufTy).Contents (Elt Ideal)) (x9 : (⟨S512x1440, .f32⟩ : BufTy).Contents (Elt Ideal)) (x10 : (⟨S1440, .f32⟩ : BufTy).Contents (Elt Ideal))
    (r : Fin 10000) (q : Fin 1440) :
    val_main_v206 (F := Ideal) x0 x1 x2 x3 x4 x5 x6 x7 x8 x9 x10 (ix2 r q)
      = readout (mat2 (val_main_v202 (F := Ideal) x0 x1 x2 x3 x4 x5 x6 x7 x8)) (mat2 x9) (vec1 x10) r q := by
  have el : ∀ k : Fin 512, lidx_main_v203 (ix2 r q) k = ix2 r k := fun k =>
    funext fun a => Fin.ext (by match a with | ⟨0, _⟩ => rfl | ⟨1, _⟩ => rfl)
  have er : ∀ k : Fin 512, ridx_main_v203 (ix2 r q) k = ix2 k q := fun k =>
    funext fun a => Fin.ext (by match a with | ⟨0, _⟩ => rfl | ⟨1, _⟩ => rfl)
  have eb : idx_main_v204 (idx_main_v205 (ix2 r q)) = ix1 q :=
    funext fun a => Fin.ext (by match a with | ⟨0, _⟩ => rfl)
  rw [val_main_v206_apply, val_main_v203_apply, val_main_v205_apply, val_main_v204_apply, eb, Ideal.addf_def]
  simp only [el, er]
  rfl

/-- The reference's result: seven edge-list layers and the readout. -/
theorem ref_value (x0 : (⟨S10000x256, .f32⟩ : BufTy).Contents (Elt Ideal)) (x1 x2 : (⟨S160000, .i32⟩ : BufTy).Contents (Elt Ideal)) (x3 x4 : (⟨S256x512, .f32⟩ : BufTy).Contents (Elt Ideal)) (x5 : (⟨S512, .f32⟩ : BufTy).Contents (Elt Ideal)) (x6 x7 : (⟨S6x512x512, .f32⟩ : BufTy).Contents (Elt Ideal)) (x8 : (⟨S6x512, .f32⟩ : BufTy).Contents (Elt Ideal)) (x9 : (⟨S512x1440, .f32⟩ : BufTy).Contents (Elt Ideal)) (x10 : (⟨S1440, .f32⟩ : BufTy).Contents (Elt Ideal))
    (hs : RangeH x1) (hd : RangeH x2) (r : Fin 10000) (q : Fin 1440) :
    val_main_v206 (F := Ideal) x0 x1 x2 x3 x4 x5 x6 x7 x8 x9 x10 (ix2 r q)
      = edgeNet (sOf x1) (dOf x2) (wR x1 x2) (mat2 x0) (mat2 x3) (mat2 x4) (vec1 x5)
          (fun l j q => x6 (ix3 l j q)) (fun l j q => x7 (ix3 l j q)) (fun l q => x8 (ix2 l q)) (mat2 x9) (vec1 x10) r q := by
  rw [ref_readout, ref_feat7 x0 x1 x2 x3 x4 x5 x6 x7 x8 hs hd, ref_feat6 x0 x1 x2 x3 x4 x5 x6 x7 x8 hs hd, ref_feat5 x0 x1 x2 x3 x4 x5 x6 x7 x8 hs hd, ref_feat4 x0 x1 x2 x3 x4 x5 x6 x7 x8 hs hd,
    ref_feat3 x0 x1 x2 x3 x4 x5 x6 x7 x8 hs hd, ref_feat2 x0 x1 x2 x3 x4 x5 x6 x7 x8 hs hd, ref_feat1 x0 x1 x2 x3 x4 x5 hs hd]
  rfl

end Cert.ReferenceIdeal.Val

end
-- ==== Proof.Algebra.lean ====
/-
  The dense network over the padded node set equals the network over the edge list, entry by entry on the true nodes
  and the true readout columns.

  Three facts carry it.  A product distributes over a finite sum of nonnegative extended reals, so the dense adjacency
  times a matrix, at a true row, regroups into the sum over the edges leaving that row.  A matrix product at a row
  depends only on that row of the left factor, so two feature matrices that agree on the true rows give layers that
  agree on the true rows, whatever the padded rows hold.  Zero-padded readout columns do not touch the true columns.
-/
import proofs.«418437_j77618648973637_3_alg».proof.Proof.Spec
import Mathlib.Data.EReal.Operations
import Mathlib.Algebra.BigOperators.Group.Finset.Basic
import Mathlib.Algebra.BigOperators.Group.Finset.Piecewise
import Mathlib.Algebra.BigOperators.Group.Finset.Sigma
import Mathlib.Algebra.Order.BigOperators.Group.Finset

noncomputable section

namespace Cert.Spec

/-- A finite sum of nonnegative extended reals times `c` is the sum of the products: right distributivity holds for
nonnegative summands, and a finite sum of nonnegatives is nonnegative. -/
theorem sum_mul_of_nonneg {ι : Type*} (S : Finset ι) (w : ι → EReal) (hw : ∀ e, 0 ≤ w e) (c : EReal) :
    (∑ e ∈ S, w e) * c = ∑ e ∈ S, w e * c := by
  classical
  induction S using Finset.induction_on with
  | empty => simp
  | insert a S ha ih =>
    rw [Finset.sum_insert ha, Finset.sum_insert ha,
      EReal.right_distrib_of_nonneg (hw a) (Finset.sum_nonneg (fun e _ => hw e)), ih]

/-- The dense adjacency times `M`, at a true row `r`: the sum over the edges `e` leaving `r` of `w e` times row `d e` of
`M`.  Distribute each entry of the adjacency over its edges, exchange the sum over columns with the sum over edges, and
note that the column `d e` is met exactly once. -/
theorem mm_adjacency {n N E : ℕ} (hnN : n ≤ N) (s d : Fin E → Fin n) (w : Fin E → EReal) (hw : ∀ e, 0 ≤ w e)
    (M : Mat N 512) (r : Fin n) (q : Fin 512) :
    mm (adjacency s d w) M (Fin.castLE hnN r) q
      = ∑ e ∈ Finset.univ.filter (fun e => s e = r), w e * M (Fin.castLE hnN (d e)) q := by
  classical
  unfold mm adjacency
  have h1 : ∀ j : Fin N,
      (∑ e ∈ Finset.univ.filter (fun e => (s e).val = (Fin.castLE hnN r).val ∧ (d e).val = j.val), w e) * M j q
        = ∑ e ∈ Finset.univ.filter (fun e => s e = r), if Fin.castLE hnN (d e) = j then w e * M j q else 0 := by
    intro j
    rw [sum_mul_of_nonneg _ w hw, Finset.sum_filter, Finset.sum_filter]
    refine Finset.sum_congr rfl (fun e _ => ?_)
    by_cases hs : s e = r
    · by_cases hd : Fin.castLE hnN (d e) = j
      · have hd' : (d e).val = j.val := by rw [← hd]; rfl
        simp [hs, hd, hd']
      · have hd' : ¬ (d e).val = j.val := fun h => hd (Fin.ext h)
        simp [hs, hd, hd']
    · have hs' : ¬ (s e).val = r.val := fun h => hs (Fin.ext h)
      simp [hs, hs']
  rw [Finset.sum_congr rfl (fun j _ => h1 j), Finset.sum_comm]
  refine Finset.sum_congr rfl (fun e _ => ?_)
  rw [Finset.sum_ite_eq]
  simp

/-- A matrix product at a row depends only on that row of the left factor. -/
theorem mm_row_congr {a a' k b : ℕ} (X : Mat a k) (X' : Mat a' k) (Y : Mat k b) (r : Fin a) (r' : Fin a')
    (h : ∀ j, X r j = X' r' j) (q : Fin b) : mm X Y r q = mm X' Y r' q := by
  unfold mm
  exact Finset.sum_congr rfl (fun j _ => by rw [h j])

/-- One layer: if the padded features agree with the true features on the true rows, the dense layer agrees with the
edge layer on the true rows. -/
theorem denseLayer_eq_edgeLayer {n N k E : ℕ} (hnN : n ≤ N) (s d : Fin E → Fin n) (w : Fin E → EReal)
    (hw : ∀ e, 0 ≤ w e) (Hp : Mat N k) (H : Mat n k) (hH : ∀ r j, Hp (Fin.castLE hnN r) j = H r j)
    (W V : Mat k 512) (b : Fin 512 → EReal) (r : Fin n) (q : Fin 512) :
    denseLayer (adjacency s d w) Hp W V b (Fin.castLE hnN r) q = edgeLayer s d w H W V b r q := by
  unfold denseLayer fused edgeLayer edgeSum
  rw [mm_adjacency hnN s d w hw (mm Hp W) r q, mm_row_congr Hp H V (Fin.castLE hnN r) r (hH r) q]
  have h2 : ∀ e, mm Hp W (Fin.castLE hnN (d e)) q = mm H W (d e) q :=
    fun e => mm_row_congr Hp H W (Fin.castLE hnN (d e)) (d e) (hH (d e)) q
  simp only [h2]

/-- Zero-padded rows agree with the matrix on its own rows. -/
theorem padRows_castLE {n N k : ℕ} (hnN : n ≤ N) (X : Mat n k) (r : Fin n) (j : Fin k) :
    padRows (N := N) X (Fin.castLE hnN r) j = X r j := by
  unfold padRows
  simp

/-- The readout with zero-padded columns and bias, at a true column, is the unpadded readout; and it depends only on
the row of the features. -/
theorem readout_pad {n N p P : ℕ} (hnN : n ≤ N) (hpP : p ≤ P) (Hp : Mat N 512) (H : Mat n 512)
    (hH : ∀ r j, Hp (Fin.castLE hnN r) j = H r j) (Wd : Mat 512 p) (bd : Fin p → EReal) (r : Fin n) (q : Fin p) :
    readout Hp (padCols (P := P) Wd) (padVec (P := P) bd) (Fin.castLE hnN r) (Fin.castLE hpP q)
      = readout H Wd bd r q := by
  unfold readout mm padCols padVec
  simp [hH]

/-- The dense network on the padded node set and padded readout width equals the edge network, at every true node and
true readout column. -/
theorem denseNet_eq_edgeNet {E : ℕ} (s d : Fin E → Fin 10000) (w : Fin E → EReal) (hw : ∀ e, 0 ≤ w e)
    (X : Mat 10000 256) (W1 V1 : Mat 256 512) (b1 : Fin 512 → EReal) (Wk Vk : Fin 6 → Mat 512 512) (bk : Fin 6 → Fin 512 → EReal)
    (Wd : Mat 512 1440) (bd : Fin 1440 → EReal) (r : Fin 10000) (q : Fin 1440) :
    denseNet (n := 10240) (p := 1536) (adjacency s d w) (padRows X) W1 V1 b1 Wk Vk bk (padCols Wd) (padVec bd)
        ⟨r.val, by omega⟩ ⟨q.val, by omega⟩
      = edgeNet s d w X W1 V1 b1 Wk Vk bk Wd bd r q := by
  have hn : (10000 : ℕ) ≤ 10240 := by omega
  have hp : (1440 : ℕ) ≤ 1536 := by omega
  unfold denseNet edgeNet
  refine readout_pad hn hp _ _ ?_ Wd bd r q
  refine denseLayer_eq_edgeLayer hn s d w hw _ _ ?_ _ _ _
  refine denseLayer_eq_edgeLayer hn s d w hw _ _ ?_ _ _ _
  refine denseLayer_eq_edgeLayer hn s d w hw _ _ ?_ _ _ _
  refine denseLayer_eq_edgeLayer hn s d w hw _ _ ?_ _ _ _
  refine denseLayer_eq_edgeLayer hn s d w hw _ _ ?_ _ _ _
  refine denseLayer_eq_edgeLayer hn s d w hw _ _ ?_ _ _ _
  refine denseLayer_eq_edgeLayer hn s d w hw _ _ ?_ _ _ _
  exact padRows_castLE hn X

end Cert.Spec

end
-- ==== Proof.PreDecode.lean ====
/-
  The index half of the precondition, read back.

  The precondition is a conjunction of eleven "all" statements; the last two say, of every edge, that its source word
  and its target word, read signed, lie in [0, 10000).  A conjunction of one-bit words is 1 exactly when each is; an
  "all" that is 1 had a 1 at every position; a signed comparison word that is 1 orders the signed values of its
  operands; a broadcast constant reads the constant everywhere.  A word whose signed value lies in [0, 10000) names the
  node of that number.
-/
import proofs.«418437_j77618648973637_3_alg».proof.Pre_finite_inputs
import proofs.«418437_j77618648973637_3_alg».proof.Proof.Spec
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs

/-- One "all" conjunct over the edges, read at edge `e`: the reduction by "and" of
    `(a ≥ 0) and (a < 10000)` being 1 puts the signed value of `a e` in [0, 10000). -/
theorem range_of_all [Facts] (a : IVec S160000 32)
    (hr : Host.reduce IntOp.andi
        (andi (cmpi .sge a (broadcastInDim S160000 ![] Facts.bcast_S_S160000 (constantI S_ 32 0#32)))
          (cmpi .slt a (broadcastInDim S160000 ![] Facts.bcast_S_S160000 (constantI S_ 32 10000#32))))
        (constantI S_ 1 1#1) Facts.reducesTo_S160000_S_d0 Facts.h_S_ ix0 = 1#1)
    (e : Fin 160000) : 0 ≤ (a (ix1 e)).toInt ∧ (a (ix1 e)).toInt < 10000 := by
  -- the scalar shape has one index, so every position of the reduced array holds a 1
  haveI : Subsingleton S_.Idx := ⟨fun a b => funext fun d => d.elim0⟩
  have h1 := Host.reduce_andi_all _ _ _ _ _ hr (ix1 e)
  -- the position's word is the "and" of the two comparison words
  obtain ⟨hge, hlt⟩ := IntOp.andi_eq_one.1 h1
  -- each comparison word orders the signed values; the broadcast constants read 0 and 10000
  have h0 : (0#32 : BitVec 32).toInt ≤ (a (ix1 e)).toInt := IntOp.cmpi_sge.1 hge
  have h2 : (a (ix1 e)).toInt < (10000#32 : BitVec 32).toInt := IntOp.cmpi_slt.1 hlt
  have c0 : (0#32 : BitVec 32).toInt = 0 := by decide
  have c1 : (10000#32 : BitVec 32).toInt = 10000 := by decide
  rw [c0] at h0
  rw [c1] at h2
  exact ⟨h0, h2⟩

/-- THE PRECONDITION'S INDEX HALF: every edge's source word and target word, read signed, lies in [0, 10000). -/
theorem src_range [Facts] (a0 : FVec Ideal S10000x256 .f32) (a1 a2 : IVec S160000 32) (a3 a4 : FVec Ideal S256x512 .f32)
    (a5 : FVec Ideal S512 .f32) (a6 a7 : FVec Ideal S6x512x512 .f32) (a8 : FVec Ideal S6x512 .f32)
    (a9 : FVec Ideal S512x1440 .f32) (a10 : FVec Ideal S1440 .f32)
    (h : fn (F := Ideal) a0 a1 a2 a3 a4 a5 a6 a7 a8 a9 a10 = (fun _ => 1#1)) :
    (∀ e : Fin 160000, 0 ≤ (a1 (ix1 e)).toInt ∧ (a1 (ix1 e)).toInt < 10000)
      ∧ (∀ e : Fin 160000, 0 ≤ (a2 (ix1 e)).toInt ∧ (a2 (ix1 e)).toInt < 10000) := by
  have e := congrFun h ix0
  dsimp only [fn, fn_part1, fn_part2, fn_part3] at e
  -- the outermost "and": everything before, and the "all" over the target words
  obtain ⟨e1, hdst⟩ := IntOp.andi_eq_one.1 e
  -- the next: everything before, and the "all" over the source words
  obtain ⟨-, hsrc⟩ := IntOp.andi_eq_one.1 e1
  exact ⟨range_of_all a1 hsrc, range_of_all a2 hdst⟩

/-- A word whose signed value lies in [0, 10000) names the node of that number. -/
theorem node_val {x : BitVec 32} (h : 0 ≤ x.toInt ∧ x.toInt < 10000) : ((Cert.Spec.node x).val : ℤ) = x.toInt := by
  obtain ⟨h0, h1⟩ := h
  show ((x.toInt.toNat % 10000 : ℕ) : ℤ) = x.toInt
  omega

end Cert.PreDecode

end
-- ==== Proof.lean ====
/-
  The kernel builds the weighted adjacency of the edge list as a dense matrix over the node set padded to 10240 and
  computes each graph-convolution layer as relu (Â (H W) + H V + b) by matrix products; the reference sums
  w e • (H W) (dst e) over the edges leaving each node.  At the extended reals the two agree, entry by entry, once every
  edge's endpoints are node numbers (0 ≤ src e, dst e < 10000): a product distributes over a sum of NONNEGATIVE terms
  whatever the other factor is, and every edge weight w e = rsqrt (deg_out (src e) · deg_in (dst e)) is nonnegative because
  the degrees are at least 1; the padded rows never reach a real node's row because the adjacency's columns past 10000
  are empty sums, and the padded readout columns are cut off.  No finiteness of the float inputs is used.

  The three frames are the generated ones (the reference's from its generated run).  The kernel's value is read off
  its run boundary by boundary (each region's array after the run is one index-by-index function of the arrays the
  region found; each host stretch is read operation by operation), the reference's off its generated run, and the
  two specifications meet in `Cert.Spec.denseNet_eq_edgeNet`.
-/
import proofs.«418437_j77618648973637_3_alg».proof.Defs
import proofs.«418437_j77618648973637_3_alg».proof.Proof.Gen.Kernel
import proofs.«418437_j77618648973637_3_alg».proof.Proof.Gen.Kernel.Skeleton
import proofs.«418437_j77618648973637_3_alg».proof.Proof.Gen.Kernel.Launch
import proofs.«418437_j77618648973637_3_alg».proof.Proof.Gen.Kernel.Points
import proofs.«418437_j77618648973637_3_alg».proof.Proof.Gen.Kernel.Frame
import proofs.«418437_j77618648973637_3_alg».proof.Proof.Gen.KernelIdeal
import proofs.«418437_j77618648973637_3_alg».proof.Proof.Gen.KernelIdeal.Skeleton
import proofs.«418437_j77618648973637_3_alg».proof.Proof.Gen.KernelIdeal.Launch
import proofs.«418437_j77618648973637_3_alg».proof.Proof.Gen.KernelIdeal.Points
import proofs.«418437_j77618648973637_3_alg».proof.Proof.Gen.KernelIdeal.Frame
import proofs.«418437_j77618648973637_3_alg».proof.Proof.Gen.ReferenceIdeal
import proofs.«418437_j77618648973637_3_alg».proof.Proof.Gen.Pre_finite_inputs
import proofs.«418437_j77618648973637_3_alg».proof.Proof.KRun
import proofs.«418437_j77618648973637_3_alg».proof.Proof.KValue
import proofs.«418437_j77618648973637_3_alg».proof.Proof.RImports
import proofs.«418437_j77618648973637_3_alg».proof.Proof.RefW
import proofs.«418437_j77618648973637_3_alg».proof.Proof.RefOut
import proofs.«418437_j77618648973637_3_alg».proof.Proof.Algebra
import proofs.«418437_j77618648973637_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The edge weights are the same operations of the two index arrays in both programs. -/
theorem weights_eq (src dst : IVec Cert.KernelIdeal.S160000 32) :
    Cert.KernelIdeal.Val.wK src dst = Cert.ReferenceIdeal.Val.wR src dst := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the same result: the kernel's run leaves the dense network's value in its result buffer,
    the reference's the edge-list network's, and under the index range the two networks agree at every node and label. -/
theorem algebraic : Cert.algebraic_KernelIdeal_ReferenceIdeal := by
  intro m ρ m' ρ' hpre hagree
  refine ⟨fun c => Cert.KernelIdeal.Gen.W25 (F := Ideal) m ρ c (Proc.devRef .tc Cert.KernelIdeal.main_v1),
    Cert.KernelIdeal.Gen.run_result (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10⟩ := hagree c
  have hr := Cert.PreDecode.src_range _ _ _ _ _ _ _ _ _ _ _ (hpre c)
  rw [Cert.ReferenceIdeal.Read.val_main_v206_eq, h0, h1, h2, h3, h4, h5, h6, h7, h8, h9, h10]
  funext i
  obtain ⟨r, q, rfl⟩ : ∃ (r : Fin 10000) (q : Fin 1440), i = ix2 r q := ⟨i 0, i 1, eq_ix2 i⟩
  rw [Cert.ReferenceIdeal.Val.ref_value _ _ _ _ _ _ _ _ _ _ _ hr.1 hr.2 r q]
  refine Eq.symm ((Cert.KernelIdeal.Val.kernel_value m ρ c hr.1 hr.2 r q).trans ?_)
  rw [weights_eq]
  exact Cert.Spec.denseNet_eq_edgeNet _ _ _ (Cert.ReferenceIdeal.Val.wR_nonneg _ _) _ _ _ _ _ _ _ _ _ r q

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
